-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_v79)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v79) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v162) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S128x1 : Shape := ⟨2, ![128, 1]⟩
abbrev S1 : Shape := ⟨1, ![1]⟩
abbrev S1x800000 : Shape := ⟨2, ![1, 800000]⟩
abbrev S800000 : Shape := ⟨1, ![800000]⟩
abbrev S_ : Shape := ⟨0, ![]⟩

class Facts : Prop where
  slices_S2x800000_S1x800000_0_0 : S2x800000.Slices ![0, 0] S1x800000
  shapeCasts_S1x800000_S800000 : S1x800000.ShapeCasts S800000
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_
  bcast_S_S800000 : S_.BroadcastsInDim S800000 (![] : Fin 0 → Fin S800000.rank)
  reducesTo_S800000_S_d0 : S800000.ReducesTo [0] S_

variable [Facts]

def fn_part5 {F : FTy → Type} [FloatOps F] (main_v1 : IVec S800000 32) (main_v85 : IVec S_ 1) : IVec S_ 1 :=
  let main_c_32 : IVec S_ 32 := constantI S_ 32 4294917296#32
  let main_v86 : IVec S800000 32 := broadcastInDim S800000 ![] bcast_S_S800000 main_c_32
  let main_v87 : IVec S800000 1 := cmpi .sge main_v1 main_v86
  let main_c_33 : IVec S_ 32 := constantI S_ 32 50000#32
  let main_v88 : IVec S800000 32 := broadcastInDim S800000 ![] bcast_S_S800000 main_c_33
  let main_v89 : IVec S800000 1 := cmpi .slt main_v1 main_v88
  let main_v90 : IVec S800000 1 := andi main_v87 main_v89
  let main_c_34 : IVec S_ 1 := constantI S_ 1 1#1
  let main_v91 : IVec S_ 1 := (fun x v => Host.reduce IntOp.andi x v reducesTo_S800000_S_d0 h_S_) main_v90 main_c_34
  let main_v92 : IVec S_ 1 := andi main_v85 main_v91
  main_v92

def fn_part4 {F : FTy → Type} [FloatOps F] (main_arg15 : FVec F S128 .f32) (main_arg16 : FVec F S128x1 .f32) (main_arg17 : FVec F S1 .f32) (main_v1 : IVec S800000 32) (main_v65 : IVec S_ 1) (main_v68 : IVec S128x128 1) : IVec S_ 1 :=
  let main_c_25 : IVec S_ 1 := constantI S_ 1 1#1
  let main_v69 : IVec S_ 1 := (fun x v => Host.reduce IntOp.andi x v reducesTo_S128x128_S_d0_1 h_S_) main_v68 main_c_25
  let main_v70 : IVec S_ 1 := andi main_v65 main_v69
  let main_v71 : FVec F S128 .f32 := Host.absf main_arg15
  let main_cst_26 : FVec F S_ .f32 := constant S_ .f32 0x7F800000#32
  let main_v72 : FVec F S128 .f32 := broadcastInDim S128 ![] bcast_S_S128 main_cst_26
  let main_v73 : IVec S128 1 := cmpf .olt main_v71 main_v72
  let main_c_27 : IVec S_ 1 := constantI S_ 1 1#1
  let main_v74 : IVec S_ 1 := (fun x v => Host.reduce IntOp.andi x v reducesTo_S128_S_d0 h_S_) main_v73 main_c_27
  let main_v75 : IVec S_ 1 := andi main_v70 main_v74
  let main_v76 : FVec F S128x1 .f32 := Host.absf main_arg16
  let main_cst_28 : FVec F S_ .f32 := constant S_ .f32 0x7F800000#32
  let main_v77 : FVec F S128x1 .f32 := broadcastInDim S128x1 ![] bcast_S_S128x1 main_cst_28
  let main_v78 : IVec S128x1 1 := cmpf .olt main_v76 main_v77
  let main_c_29 : IVec S_ 1 := constantI S_ 1 1#1
  let main_v79 : IVec S_ 1 := (fun x v => Host.reduce IntOp.andi x v reducesTo_S128x1_S_d0_1 h_S_) main_v78 main_c_29
  let main_v80 : IVec S_ 1 := andi main_v75 main_v79
  let main_v81 : FVec F S1 .f32 := Host.absf main_arg17
  let main_cst_30 : FVec F S_ .f32 := constant S_ .f32 0x7F800000#32
  let main_v82 : FVec F S1 .f32 := broadcastInDim S1 ![] bcast_S_S1 main_cst_30
  let main_v83 : IVec S1 1 := cmpf .olt main_v81 main_v82
  let main_c_31 : IVec S_ 1 := constantI S_ 1 1#1
  let main_v84 : IVec S_ 1 := (fun x v => Host.reduce IntOp.andi x v reducesTo_S1_S_d0 h_S_) main_v83 main_c_31
  let main_v85 : IVec S_ 1 := andi main_v80 main_v84
  fn_part5 (F := F) main_v1 main_v85

def fn_part3 {F : FTy → Type} [FloatOps F] (main_arg12 : FVec F S128x1 .f32) (main_arg13 : FVec F S1 .f32) (main_arg14 : FVec F S128x128 .f32) (main_arg15 : FVec F S128 .f32) (main_arg16 : FVec F S128x1 .f32) (main_arg17 : FVec F S1 .f32) (main_v1 : IVec S800000 32) (main_v50 : IVec S_ 1) (main_v51 : FVec F S128 .f32) : IVec S_ 1 :=
  let main_cst_18 : FVec F S_ .f32 := constant S_ .f32 0x7F800000#32
  let main_v52 : FVec F S128 .f32 := broadcastInDim S128 ![] bcast_S_S128 main_cst_18
  let main_v53 : IVec S128 1 := cmpf .olt main_v51 main_v52
  let main_c_19 : IVec S_ 1 := constantI S_ 1 1#1
  let main_v54 : IVec S_ 1 := (fun x v => Host.reduce IntOp.andi x v reducesTo_S128_S_d0 h_S_) main_v53 main_c_19
  let main_v55 : IVec S_ 1 := andi main_v50 main_v54
  let main_v56 : FVec F S128x1 .f32 := Host.absf main_arg12
  let main_cst_20 : FVec F S_ .f32 := constant S_ .f32 0x7F800000#32
  let main_v57 : FVec F S128x1 .f32 := broadcastInDim S128x1 ![] bcast_S_S128x1 main_cst_20
  let main_v58 : IVec S128x1 1 := cmpf .olt main_v56 main_v57
  let main_c_21 : IVec S_ 1 := constantI S_ 1 1#1
  let main_v59 : IVec S_ 1 := (fun x v => Host.reduce IntOp.andi x v reducesTo_S128x1_S_d0_1 h_S_) main_v58 main_c_21
  let main_v60 : IVec S_ 1 := andi main_v55 main_v59
  let main_v61 : FVec F S1 .f32 := Host.absf main_arg13
  let main_cst_22 : FVec F S_ .f32 := constant S_ .f32 0x7F800000#32
  let main_v62 : FVec F S1 .f32 := broadcastInDim S1 ![] bcast_S_S1 main_cst_22
  let main_v63 : IVec S1 1 := cmpf .olt main_v61 main_v62
  let main_c_23 : IVec S_ 1 := constantI S_ 1 1#1
  let main_v64 : IVec S_ 1 := (fun x v => Host.reduce IntOp.andi x v reducesTo_S1_S_d0 h_S_) main_v63 main_c_23
  let main_v65 : IVec S_ 1 := andi main_v60 main_v64
  let main_v66 : FVec F S128x128 .f32 := Host.absf main_arg14
  let main_cst_24 : FVec F S_ .f32 := constant S_ .f32 0x7F800000#32
  let main_v67 : FVec F S128x128 .f32 := broadcastInDim S128x128 ![] bcast_S_S128x128 main_cst_24
  let main_v68 : IVec S128x128 1 := cmpf .olt main_v66 main_v67
  fn_part4 (F := F) main_arg15 main_arg16 main_arg17 main_v1 main_v65 main_v68

def fn_part2 {F : FTy → Type} [FloatOps F] (main_arg8 : FVec F S128x64 .f32) (main_arg9 : FVec F S64 .f32) (main_arg10 : FVec F S128x128 .f32) (main_arg11 : FVec F S128 .f32) (main_arg12 : FVec F S128x1 .f32) (main_arg13 : FVec F S1 .f32) (main_arg14 : FVec F S128x128 .f32) (main_arg15 : FVec F S128 .f32) (main_arg16 : FVec F S128x1 .f32) (main_arg17 : FVec F S1 .f32) (main_v1 : IVec S800000 32) (main_v30 : IVec S_ 1) (main_v33 : IVec S128 1) (main_c_11 : IVec S_ 1) : IVec S_ 1 :=
  let main_v34 : IVec S_ 1 := (fun x v => Host.reduce IntOp.andi x v reducesTo_S128_S_d0 h_S_) main_v33 main_c_11
  let main_v35 : IVec S_ 1 := andi main_v30 main_v34
  let main_v36 : FVec F S128x64 .f32 := Host.absf main_arg8
  let main_cst_12 : FVec F S_ .f32 := constant S_ .f32 0x7F800000#32
  let main_v37 : FVec F S128x64 .f32 := broadcastInDim S128x64 ![] bcast_S_S128x64 main_cst_12
  let main_v38 : IVec S128x64 1 := cmpf .olt main_v36 main_v37
  let main_c_13 : IVec S_ 1 := constantI S_ 1 1#1
  let main_v39 : IVec S_ 1 := (fun x v => Host.reduce IntOp.andi x v reducesTo_S128x64_S_d0_1 h_S_) main_v38 main_c_13
  let main_v40 : IVec S_ 1 := andi main_v35 main_v39
  let main_v41 : FVec F S64 .f32 := Host.absf main_arg9
  let main_cst_14 : FVec F S_ .f32 := constant S_ .f32 0x7F800000#32
  let main_v42 : FVec F S64 .f32 := broadcastInDim S64 ![] bcast_S_S64 main_cst_14
  let main_v43 : IVec S64 1 := cmpf .olt main_v41 main_v42
  let main_c_15 : IVec S_ 1 := constantI S_ 1 1#1
  let main_v44 : IVec S_ 1 := (fun x v => Host.reduce IntOp.andi x v reducesTo_S64_S_d0 h_S_) main_v43 main_c_15
  let main_v45 : IVec S_ 1 := andi main_v40 main_v44
  let main_v46 : FVec F S128x128 .f32 := Host.absf main_arg10
  let main_cst_16 : FVec F S_ .f32 := constant S_ .f32 0x7F800000#32
  let main_v47 : FVec F S128x128 .f32 := broadcastInDim S128x128 ![] bcast_S_S128x128 main_cst_16
  let main_v48 : IVec S128x128 1 := cmpf .olt main_v46 main_v47
  let main_c_17 : IVec S_ 1 := constantI S_ 1 1#1
  let main_v49 : IVec S_ 1 := (fun x v => Host.reduce IntOp.andi x v reducesTo_S128x128_S_d0_1 h_S_) main_v48 main_c_17
  let main_v50 : IVec S_ 1 := andi main_v45 main_v49
  let main_v51 : FVec F S128 .f32 := Host.absf main_arg11
  fn_part3 (F := F) main_arg12 main_arg13 main_arg14 main_arg15 main_arg16 main_arg17 main_v1 main_v50 main_v51

def fn_part1 {F : FTy → Type} [FloatOps F] (main_arg5 : FVec F S128 .f32) (main_arg6 : FVec F S128x128 .f32) (main_arg7 : FVec F S128 .f32) (main_arg8 : FVec F S128x64 .f32) (main_arg9 : FVec F S64 .f32) (main_arg10 : FVec F S128x128 .f32) (main_arg11 : FVec F S128 .f32) (main_arg12 : FVec F S128x1 .f32) (main_arg13 : FVec F S1 .f32) (main_arg14 : FVec F S128x128 .f32) (main_arg15 : FVec F S128 .f32) (main_arg16 : FVec F S128x1 .f32) (main_arg17 : FVec F S1 .f32) (main_v1 : IVec S800000 32) (main_v15 : IVec S_ 1) (main_v16 : FVec F S128x128 .f32) (main_cst_4 : FVec F S_ .f32) : IVec S_ 1 :=
  let main_v17 : FVec F S128x128 .f32 := broadcastInDim S128x128 ![] bcast_S_S128x128 main_cst_4
  let main_v18 : IVec S128x128 1 := cmpf .olt main_v16 main_v17
  let main_c_5 : IVec S_ 1 := constantI S_ 1 1#1
  let main_v19 : IVec S_ 1 := (fun x v => Host.reduce IntOp.andi x v reducesTo_S128x128_S_d0_1 h_S_) main_v18 main_c_5
  let main_v20 : IVec S_ 1 := andi main_v15 main_v19
  let main_v21 : FVec F S128 .f32 := Host.absf main_arg5
  let main_cst_6 : FVec F S_ .f32 := constant S_ .f32 0x7F800000#32
  let main_v22 : FVec F S128 .f32 := broadcastInDim S128 ![] bcast_S_S128 main_cst_6
  let main_v23 : IVec S128 1 := cmpf .olt main_v21 main_v22
  let main_c_7 : IVec S_ 1 := constantI S_ 1 1#1
  let main_v24 : IVec S_ 1 := (fun x v => Host.reduce IntOp.andi x v reducesTo_S128_S_d0 h_S_) main_v23 main_c_7
  let main_v25 : IVec S_ 1 := andi main_v20 main_v24
  let main_v26 : FVec F S128x128 .f32 := Host.absf main_arg6
  let main_cst_8 : FVec F S_ .f32 := constant S_ .f32 0x7F800000#32
  let main_v27 : FVec F S128x128 .f32 := broadcastInDim S128x128 ![] bcast_S_S128x128 main_cst_8
  let main_v28 : IVec S128x128 1 := cmpf .olt main_v26 main_v27
  let main_c_9 : IVec S_ 1 := constantI S_ 1 1#1
  let main_v29 : IVec S_ 1 := (fun x v => Host.reduce IntOp.andi x v reducesTo_S128x128_S_d0_1 h_S_) main_v28 main_c_9
  let main_v30 : IVec S_ 1 := andi main_v25 main_v29
  let main_v31 : FVec F S128 .f32 := Host.absf main_arg7
  let main_cst_10 : FVec F S_ .f32 := constant S_ .f32 0x7F800000#32
  let main_v32 : FVec F S128 .f32 := broadcastInDim S128 ![] bcast_S_S128 main_cst_10
  let main_v33 : IVec S128 1 := cmpf .olt main_v31 main_v32
  let main_c_11 : IVec S_ 1 := constantI S_ 1 1#1
  fn_part2 (F := F) main_arg8 main_arg9 main_arg10 main_arg11 main_arg12 main_arg13 main_arg14 main_arg15 main_arg16 main_arg17 main_v1 main_v30 main_v33 main_c_11

def fn {F : FTy → Type} [FloatOps F] (main_arg0 : FVec F S50000x128 .f32) (main_arg1 : IVec S2x800000 32) (main_arg2 : FVec F S128x128 .f32) (main_arg3 : FVec F S128 .f32) (main_arg4 : FVec F S128x128 .f32) (main_arg5 : FVec F S128 .f32) (main_arg6 : FVec F S128x128 .f32) (main_arg7 : FVec F S128 .f32) (main_arg8 : FVec F S128x64 .f32) (main_arg9 : FVec F S64 .f32) (main_arg10 : FVec F S128x128 .f32) (main_arg11 : FVec F S128 .f32) (main_arg12 : FVec F S128x1 .f32) (main_arg13 : FVec F S1 .f32) (main_arg14 : FVec F S128x128 .f32) (main_arg15 : FVec F S128 .f32) (main_arg16 : FVec F S128x1 .f32) (main_arg17 : FVec F S1 .f32) : IVec S_ 1 :=
  let main_v0 : IVec S1x800000 32 := (extractStridedSlice S1x800000 ![0, 0] · slices_S2x800000_S1x800000_0_0) main_arg1
  let main_v1 : IVec S800000 32 := shapeCast S800000 main_v0 shapeCasts_S1x800000_S800000
  let main_v2 : FVec F S50000x128 .f32 := Host.absf main_arg0
  let main_cst : FVec F S_ .f32 := constant S_ .f32 0x7F800000#32
  let main_v3 : FVec F S50000x128 .f32 := broadcastInDim S50000x128 ![] bcast_S_S50000x128 main_cst
  let main_v4 : IVec S50000x128 1 := cmpf .olt main_v2 main_v3
  let main_c : IVec S_ 1 := constantI S_ 1 1#1
  let main_v5 : IVec S_ 1 := (fun x v => Host.reduce IntOp.andi x v reducesTo_S50000x128_S_d0_1 h_S_) main_v4 main_c
  let main_v6 : FVec F S128x128 .f32 := Host.absf main_arg2
  let main_cst_0 : FVec F S_ .f32 := constant S_ .f32 0x7F800000#32
  let main_v7 : FVec F S128x128 .f32 := broadcastInDim S128x128 ![] bcast_S_S128x128 main_cst_0
  let main_v8 : IVec S128x128 1 := cmpf .olt main_v6 main_v7
  let main_c_1 : IVec S_ 1 := constantI S_ 1 1#1
  let main_v9 : IVec S_ 1 := (fun x v => Host.reduce IntOp.andi x v reducesTo_S128x128_S_d0_1 h_S_) main_v8 main_c_1
  let main_v10 : IVec S_ 1 := andi main_v5 main_v9
  let main_v11 : FVec F S128 .f32 := Host.absf main_arg3
  let main_cst_2 : FVec F S_ .f32 := constant S_ .f32 0x7F800000#32
  let main_v12 : FVec F S128 .f32 := broadcastInDim S128 ![] bcast_S_S128 main_cst_2
  let main_v13 : IVec S128 1 := cmpf .olt main_v11 main_v12
  let main_c_3 : IVec S_ 1 := constantI S_ 1 1#1
  let main_v14 : IVec S_ 1 := (fun x v => Host.reduce IntOp.andi x v reducesTo_S128_S_d0 h_S_) main_v13 main_c_3
  let main_v15 : IVec S_ 1 := andi main_v10 main_v14
  let main_v16 : FVec F S128x128 .f32 := Host.absf main_arg4
  let main_cst_4 : FVec F S_ .f32 := constant S_ .f32 0x7F800000#32
  fn_part1 (F := F) main_arg5 main_arg6 main_arg7 main_arg8 main_arg9 main_arg10 main_arg11 main_arg12 main_arg13 main_arg14 main_arg15 main_arg16 main_arg17 main_v1 main_v15 main_v16 main_cst_4
-- ==== Kernel.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S128x1 : Shape := ⟨2, ![128, 1]⟩
abbrev S1 : Shape := ⟨1, ![1]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S50000 : Shape := ⟨1, ![50000]⟩
abbrev S2000x128 : Shape := ⟨2, ![2000, 128]⟩
abbrev S1x1 : Shape := ⟨2, ![1, 1]⟩
abbrev S50000x1 : Shape := ⟨2, ![50000, 1]⟩
abbrev S1x128 : Shape := ⟨2, ![1, 128]⟩
abbrev S2000x1 : Shape := ⟨2, ![2000, 1]⟩
abbrev S50000x64 : Shape := ⟨2, ![50000, 64]⟩
abbrev S2000x64 : Shape := ⟨2, ![2000, 64]⟩
abbrev S800000x64 : Shape := ⟨2, ![800000, 64]⟩
abbrev S1x64 : Shape := ⟨2, ![1, 64]⟩
abbrev S802816x128 : Shape := ⟨2, ![802816, 128]⟩
abbrev S802816 : Shape := ⟨1, ![802816]⟩
abbrev S4096x128 : Shape := ⟨2, ![4096, 128]⟩
abbrev S4096 : Shape := ⟨1, ![4096]⟩
abbrev S4096x1 : Shape := ⟨2, ![4096, 1]⟩

abbrev nBuf : Space → Nat
  | .hbm => 205
  | .vmem => 62
  | .smem => 0
  | _ => 0

abbrev hbmTy0_0 (i : Nat) : BufTy := match i % 128 with
  | 0 => ⟨S50000x128, .f32⟩
  | 1 => ⟨S2x800000, .i32⟩
  | 2 => ⟨S128x128, .f32⟩
  | 3 => ⟨S128, .f32⟩
  | 4 => ⟨S128x128, .f32⟩
  | 5 => ⟨S128, .f32⟩
  | 6 => ⟨S128x128, .f32⟩
  | 7 => ⟨S128, .f32⟩
  | 8 => ⟨S128x64, .f32⟩
  | 9 => ⟨S64, .f32⟩
  | 10 => ⟨S128x128, .f32⟩
  | 11 => ⟨S128, .f32⟩
  | 12 => ⟨S128x1, .f32⟩
  | 13 => ⟨S1, .f32⟩
  | 14 => ⟨S128x128, .f32⟩
  | 15 => ⟨S128, .f32⟩
  | 16 => ⟨S128x1, .f32⟩
  | 17 => ⟨S1, .f32⟩
  | 18 => ⟨S1x800000, .i32⟩
  | 19 => ⟨S800000, .i32⟩
  | 20 => ⟨S1x800000, .i32⟩
  | 21 => ⟨S800000, .i32⟩
  | 22 => ⟨S_, .i32⟩
  | 23 => ⟨S800000, .i32⟩
  | 24 => ⟨S800000, .i1⟩
  | 25 => ⟨S_, .i32⟩
  | 26 => ⟨S800000, .i32⟩
  | 27 => ⟨S800000, .i32⟩
  | 28 => ⟨S800000, .i32⟩
  | 29 => ⟨S800000x1, .i32⟩
  | 30 => ⟨S800000x128, .f32⟩
  | 31 => ⟨S_, .i32⟩
  | 32 => ⟨S800000, .i32⟩
  | 33 => ⟨S800000, .i1⟩
  | 34 => ⟨S_, .i32⟩
  | 35 => ⟨S800000, .i32⟩
  | 36 => ⟨S800000, .i32⟩
  | 37 => ⟨S800000, .i32⟩
  | 38 => ⟨S800000x1, .i32⟩
  | 39 => ⟨S800000x128, .f32⟩
  | 40 => ⟨S800000x128, .f32⟩
  | 41 => ⟨S_, .f32⟩
  | 42 => ⟨S800000x128, .f32⟩
  | 43 => ⟨S800000x128, .f32⟩
  | 44 => ⟨S_, .f32⟩
  | 45 => ⟨S800000, .f32⟩
  | 46 => ⟨S_, .f32⟩
  | 47 => ⟨S50000, .f32⟩
  | 48 => ⟨S800000x1, .i32⟩
  | 49 => ⟨S50000, .f32⟩
  | 50 => ⟨S50000x128, .f32⟩
  | 51 => ⟨S_, .i32⟩
  | 52 => ⟨S800000, .i32⟩
  | 53 => ⟨S800000, .i1⟩
  | 54 => ⟨S_, .i32⟩
  | 55 => ⟨S800000, .i32⟩
  | 56 => ⟨S800000, .i32⟩
  | 57 => ⟨S800000, .i32⟩
  | 58 => ⟨S800000x1, .i32⟩
  | 59 => ⟨S1, .i32⟩
  | 60 => ⟨S_, .i32⟩
  | 61 => ⟨S800000x1, .i32⟩
  | 62 => ⟨S800000x1, .i1⟩
  | 63 => ⟨S1x1, .i32⟩
  | 64 => ⟨S800000x1, .i32⟩
  | 65 => ⟨S800000x1, .i1⟩
  | 66 => ⟨S800000x1, .i1⟩
  | 67 => ⟨S_, .i1⟩
  | 68 => ⟨S800000, .i1⟩
  | 69 => ⟨S800000x128, .f32⟩
  | 70 => ⟨S800000x128, .i1⟩
  | 71 => ⟨S_, .f32⟩
  | 72 => ⟨S800000x128, .f32⟩
  | 73 => ⟨S800000x128, .f32⟩
  | 74 => ⟨S_, .f32⟩
  | 75 => ⟨S50000x128, .f32⟩
  | 76 => ⟨S800000x1, .i32⟩
  | 77 => ⟨S50000x128, .f32⟩
  | 78 => ⟨S50000x1, .f32⟩
  | 79 => ⟨S1x128, .f32⟩
  | 80 => ⟨S50000x128, .f32⟩
  | 81 => ⟨S50000x128, .f32⟩
  | 82 => ⟨S_, .i32⟩
  | 83 => ⟨S800000, .i32⟩
  | 84 => ⟨S800000, .i1⟩
  | 85 => ⟨S_, .i32⟩
  | 86 => ⟨S800000, .i32⟩
  | 87 => ⟨S800000, .i32⟩
  | 88 => ⟨S800000, .i32⟩
  | 89 => ⟨S800000x1, .i32⟩
  | 90 => ⟨S1, .i32⟩
  | 91 => ⟨S_, .i32⟩
  | 92 => ⟨S800000x1, .i32⟩
  | 93 => ⟨S800000x1, .i1⟩
  | 94 => ⟨S1x1, .i32⟩
  | 95 => ⟨S800000x1, .i32⟩
  | 96 => ⟨S800000x1, .i1⟩
  | 97 => ⟨S800000x1, .i1⟩
  | 98 => ⟨S_, .i1⟩
  | 99 => ⟨S800000, .i1⟩
  | 100 => ⟨S800000x128, .f32⟩
  | 101 => ⟨S800000x128, .i1⟩
  | 102 => ⟨S_, .f32⟩
  | 103 => ⟨S800000x128, .f32⟩
  | 104 => ⟨S800000x128, .f32⟩
  | 105 => ⟨S_, .f32⟩
  | 106 => ⟨S50000x128, .f32⟩
  | 107 => ⟨S800000x1, .i32⟩
  | 108 => ⟨S50000x128, .f32⟩
  | 109 => ⟨S50000x1, .f32⟩
  | 110 => ⟨S1x128, .f32⟩
  | 111 => ⟨S50000x128, .f32⟩
  | 112 => ⟨S50000x128, .f32⟩
  | 113 => ⟨S_, .i32⟩
  | 114 => ⟨S800000, .i32⟩
  | 115 => ⟨S800000, .i1⟩
  | 116 => ⟨S_, .i32⟩
  | 117 => ⟨S800000, .i32⟩
  | 118 => ⟨S800000, .i32⟩
  | 119 => ⟨S800000, .i32⟩
  | 120 => ⟨S800000x1, .i32⟩
  | 121 => ⟨S1, .i32⟩
  | 122 => ⟨S_, .i32⟩
  | 123 => ⟨S800000x1, .i32⟩
  | 124 => ⟨S800000x1, .i1⟩
  | 125 => ⟨S1x1, .i32⟩
  | 126 => ⟨S800000x1, .i32⟩
  | 127 => ⟨S800000x1, .i1⟩
  | _ => ⟨S50000x128, .f32⟩

abbrev hbmTy0_1 (i : Nat) : BufTy := match i % 128 with
  | 0 => ⟨S800000x1, .i1⟩
  | 1 => ⟨S_, .i1⟩
  | 2 => ⟨S800000, .i1⟩
  | 3 => ⟨S800000x128, .f32⟩
  | 4 => ⟨S800000x128, .i1⟩
  | 5 => ⟨S_, .f32⟩
  | 6 => ⟨S800000x128, .f32⟩
  | 7 => ⟨S800000x128, .f32⟩
  | 8 => ⟨S_, .f32⟩
  | 9 => ⟨S50000x128, .f32⟩
  | 10 => ⟨S800000x1, .i32⟩
  | 11 => ⟨S50000x128, .f32⟩
  | 12 => ⟨S50000x1, .f32⟩
  | 13 => ⟨S1x128, .f32⟩
  | 14 => ⟨S50000x128, .f32⟩
  | 15 => ⟨S50000x64, .f32⟩
  | 16 => ⟨S_, .i32⟩
  | 17 => ⟨S800000, .i32⟩
  | 18 => ⟨S800000, .i1⟩
  | 19 => ⟨S_, .i32⟩
  | 20 => ⟨S800000, .i32⟩
  | 21 => ⟨S800000, .i32⟩
  | 22 => ⟨S800000, .i32⟩
  | 23 => ⟨S800000x1, .i32⟩
  | 24 => ⟨S1, .i32⟩
  | 25 => ⟨S_, .i32⟩
  | 26 => ⟨S800000x1, .i32⟩
  | 27 => ⟨S800000x1, .i1⟩
  | 28 => ⟨S1x1, .i32⟩
  | 29 => ⟨S800000x1, .i32⟩
  | 30 => ⟨S800000x1, .i1⟩
  | 31 => ⟨S800000x1, .i1⟩
  | 32 => ⟨S_, .i1⟩
  | 33 => ⟨S800000, .i1⟩
  | 34 => ⟨S800000x64, .f32⟩
  | 35 => ⟨S800000x64, .i1⟩
  | 36 => ⟨S_, .f32⟩
  | 37 => ⟨S800000x64, .f32⟩
  | 38 => ⟨S800000x64, .f32⟩
  | 39 => ⟨S_, .f32⟩
  | 40 => ⟨S50000x64, .f32⟩
  | 41 => ⟨S800000x1, .i32⟩
  | 42 => ⟨S50000x64, .f32⟩
  | 43 => ⟨S50000x1, .f32⟩
  | 44 => ⟨S1x64, .f32⟩
  | 45 => ⟨S50000x64, .f32⟩
  | 46 => ⟨S_, .i32⟩
  | 47 => ⟨S800000, .i32⟩
  | 48 => ⟨S800000, .i1⟩
  | 49 => ⟨S_, .i32⟩
  | 50 => ⟨S800000, .i32⟩
  | 51 => ⟨S800000, .i32⟩
  | 52 => ⟨S800000, .i32⟩
  | 53 => ⟨S800000x1, .i32⟩
  | 54 => ⟨S800000x64, .f32⟩
  | 55 => ⟨S_, .i32⟩
  | 56 => ⟨S800000, .i32⟩
  | 57 => ⟨S800000, .i1⟩
  | 58 => ⟨S_, .i32⟩
  | 59 => ⟨S800000, .i32⟩
  | 60 => ⟨S800000, .i32⟩
  | 61 => ⟨S800000, .i32⟩
  | 62 => ⟨S800000x1, .i32⟩
  | 63 => ⟨S800000x64, .f32⟩
  | 64 => ⟨S800000x128, .f32⟩
  | 65 => ⟨S_, .i32⟩
  | 66 => ⟨S_, .f32⟩
  | 67 => ⟨S802816x128, .f32⟩
  | 68 => ⟨S_, .i32⟩
  | 69 => ⟨S_, .f32⟩
  | 70 => ⟨S802816x128, .f32⟩
  | 71 => ⟨S1x128, .f32⟩
  | 72 => ⟨S1x1, .f32⟩
  | 73 => ⟨S1x128, .f32⟩
  | 74 => ⟨S1x1, .f32⟩
  | 75 => ⟨S802816, .f32⟩
  | 76 => ⟨S800000, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | .local _ .vmem, ⟨0, _⟩ => ⟨S2000x128, .f32⟩
  | .local _ .vmem, ⟨1, _⟩ => ⟨S2000x128, .f32⟩
  | .local _ .vmem, ⟨2, _⟩ => ⟨S128x128, .f32⟩
  | .local _ .vmem, ⟨3, _⟩ => ⟨S2000x128, .f32⟩
  | .local _ .vmem, ⟨4, _⟩ => ⟨S2000x128, .f32⟩
  | .local _ .vmem, ⟨5, _⟩ => ⟨S2000x128, .f32⟩
  | .local _ .vmem, ⟨6, _⟩ => ⟨S2000x128, .f32⟩
  | .local _ .vmem, ⟨7, _⟩ => ⟨S2000x1, .f32⟩
  | .local _ .vmem, ⟨8, _⟩ => ⟨S2000x1, .f32⟩
  | .local _ .vmem, ⟨9, _⟩ => ⟨S1x128, .f32⟩
  | .local _ .vmem, ⟨10, _⟩ => ⟨S2000x128, .f32⟩
  | .local _ .vmem, ⟨11, _⟩ => ⟨S2000x128, .f32⟩
  | .local _ .vmem, ⟨12, _⟩ => ⟨S2000x128, .f32⟩
  | .local _ .vmem, ⟨13, _⟩ => ⟨S2000x128, .f32⟩
  | .local _ .vmem, ⟨14, _⟩ => ⟨S128x128, .f32⟩
  | .local _ .vmem, ⟨15, _⟩ => ⟨S2000x128, .f32⟩
  | .local _ .vmem, ⟨16, _⟩ => ⟨S2000x128, .f32⟩
  | .local _ .vmem, ⟨17, _⟩ => ⟨S2000x128, .f32⟩
  | .local _ .vmem, ⟨18, _⟩ => ⟨S2000x128, .f32⟩
  | .local _ .vmem, ⟨19, _⟩ => ⟨S2000x1, .f32⟩
  | .local _ .vmem, ⟨20, _⟩ => ⟨S2000x1, .f32⟩
  | .local _ .vmem, ⟨21, _⟩ => ⟨S1x128, .f32⟩
  | .local _ .vmem, ⟨22, _⟩ => ⟨S2000x128, .f32⟩
  | .local _ .vmem, ⟨23, _⟩ => ⟨S2000x128, .f32⟩
  | .local _ .vmem, ⟨24, _⟩ => ⟨S2000x128, .f32⟩
  | .local _ .vmem, ⟨25, _⟩ => ⟨S2000x128, .f32⟩
  | .local _ .vmem, ⟨26, _⟩ => ⟨S128x128, .f32⟩
  | .local _ .vmem, ⟨27, _⟩ => ⟨S2000x128, .f32⟩
  | .local _ .vmem, ⟨28, _⟩ => ⟨S2000x128, .f32⟩
  | .local _ .vmem, ⟨29, _⟩ => ⟨S2000x128, .f32⟩
  | .local _ .vmem, ⟨30, _⟩ => ⟨S2000x128, .f32⟩
  | .local _ .vmem, ⟨31, _⟩ => ⟨S2000x1, .f32⟩
  | .local _ .vmem, ⟨32, _⟩ => ⟨S2000x1, .f32⟩
  | .local _ .vmem, ⟨33, _⟩ => ⟨S1x128, .f32⟩
  | .local _ .vmem, ⟨34, _⟩ => ⟨S2000x128, .f32⟩
  | .local _ .vmem, ⟨35, _⟩ => ⟨S2000x128, .f32⟩
  | .local _ .vmem, ⟨36, _⟩ => ⟨S2000x128, .f32⟩
  | .local _ .vmem, ⟨37, _⟩ => ⟨S2000x128, .f32⟩
  | .local _ .vmem, ⟨38, _⟩ => ⟨S128x64, .f32⟩
  | .local _ .vmem, ⟨39, _⟩ => ⟨S2000x64, .f32⟩
  | .local _ .vmem, ⟨40, _⟩ => ⟨S2000x64, .f32⟩
  | .local _ .vmem, ⟨41, _⟩ => ⟨S2000x64, .f32⟩
  | .local _ .vmem, ⟨42, _⟩ => ⟨S2000x64, .f32⟩
  | .local _ .vmem, ⟨43, _⟩ => ⟨S2000x1, .f32⟩
  | .local _ .vmem, ⟨44, _⟩ => ⟨S2000x1, .f32⟩
  | .local _ .vmem, ⟨45, _⟩ => ⟨S1x64, .f32⟩
  | .local _ .vmem, ⟨46, _⟩ => ⟨S2000x64, .f32⟩
  | .local _ .vmem, ⟨47, _⟩ => ⟨S2000x64, .f32⟩
  | .local _ .vmem, ⟨48, _⟩ => ⟨S4096x128, .f32⟩
  | .local _ .vmem, ⟨49, _⟩ => ⟨S4096x128, .f32⟩
  | .local _ .vmem, ⟨50, _⟩ => ⟨S4096x128, .f32⟩
  | .local _ .vmem, ⟨51, _⟩ => ⟨S4096x128, .f32⟩
  | .local _ .vmem, ⟨52, _⟩ => ⟨S128x128, .f32⟩
  | .local _ .vmem, ⟨53, _⟩ => ⟨S1x128, .f32⟩
  | .local _ .vmem, ⟨54, _⟩ => ⟨S128x1, .f32⟩
  | .local _ .vmem, ⟨55, _⟩ => ⟨S1x1, .f32⟩
  | .local _ .vmem, ⟨56, _⟩ => ⟨S128x128, .f32⟩
  | .local _ .vmem, ⟨57, _⟩ => ⟨S1x128, .f32⟩
  | .local _ .vmem, ⟨58, _⟩ => ⟨S128x1, .f32⟩
  | .local _ .vmem, ⟨59, _⟩ => ⟨S1x1, .f32⟩
  | .local _ .vmem, ⟨60, _⟩ => ⟨S4096, .f32⟩
  | .local _ .vmem, ⟨61, _⟩ => ⟨S4096, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | _, _ => false

abbrev semScoped : Fin 0 → Bool
  | ⟨_, h⟩ => absurd h (Nat.not_lt_zero _)

abbrev dmaSemScoped : Fin 62 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | _ => false

abbrev sig : RefSig :=
  ofTc nBuf bufTy 0 62 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_c : Ref sig .tc := ⟨.hbm, 22, rfl⟩
abbrev main_v4 : Ref sig .tc := ⟨.hbm, 23, rfl⟩
abbrev main_v5 : Ref sig .tc := ⟨.hbm, 24, rfl⟩
abbrev main_c_0 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_c_1 : Ref sig .tc := ⟨.hbm, 31, rfl⟩
abbrev main_v11 : Ref sig .tc := ⟨.hbm, 32, rfl⟩
abbrev main_v12 : Ref sig .tc := ⟨.hbm, 33, rfl⟩
abbrev main_c_2 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_cst : Ref sig .tc := ⟨.hbm, 41, rfl⟩
abbrev main_v19 : Ref sig .tc := ⟨.hbm, 42, rfl⟩
abbrev main_v20 : Ref sig .tc := ⟨.hbm, 43, rfl⟩
abbrev main_cst_3 : Ref sig .tc := ⟨.hbm, 44, rfl⟩
abbrev main_v21 : Ref sig .tc := ⟨.hbm, 45, rfl⟩
abbrev main_cst_4 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_call0_c : Ref sig .tc := ⟨.hbm, 51, rfl⟩
abbrev main_call0_v0 : Ref sig .tc := ⟨.hbm, 52, rfl⟩
abbrev main_call0_v1 : Ref sig .tc := ⟨.hbm, 53, rfl⟩
abbrev main_call0_c_0 : Ref sig .tc := ⟨.hbm, 54, rfl⟩
abbrev main_call0_v2 : Ref sig .tc := ⟨.hbm, 55, rfl⟩
abbrev main_call0_v3 : Ref sig .tc := ⟨.hbm, 56, rfl⟩
abbrev main_call0_v4 : Ref sig .tc := ⟨.hbm, 57, rfl⟩
abbrev main_call0_v5 : Ref sig .tc := ⟨.hbm, 58, rfl⟩
abbrev main_call0_c_1 : Ref sig .tc := ⟨.hbm, 59, rfl⟩
abbrev main_call0_c_2 : Ref sig .tc := ⟨.hbm, 60, rfl⟩
abbrev main_call0_v6 : Ref sig .tc := ⟨.hbm, 61, rfl⟩
abbrev main_call0_v7 : Ref sig .tc := ⟨.hbm, 62, rfl⟩
abbrev main_call0_v8 : Ref sig .tc := ⟨.hbm, 63, rfl⟩
abbrev main_call0_v9 : Ref sig .tc := ⟨.hbm, 64, rfl⟩
abbrev main_call0_v10 : Ref sig .tc := ⟨.hbm, 65, rfl⟩
abbrev main_call0_v11 : Ref sig .tc := ⟨.hbm, 66, rfl⟩
abbrev main_call0_c_3 : Ref sig .tc := ⟨.hbm, 67, rfl⟩
abbrev main_call0_v12 : Ref sig .tc := ⟨.hbm, 68, rfl⟩
abbrev main_call0_v13 : Ref sig .tc := ⟨.hbm, 69, rfl⟩
abbrev main_call0_v14 : Ref sig .tc := ⟨.hbm, 70, rfl⟩
abbrev main_call0_cst : Ref sig .tc := ⟨.hbm, 71, rfl⟩
abbrev main_call0_v15 : Ref sig .tc := ⟨.hbm, 72, rfl⟩
abbrev main_v26 : Ref sig .tc := ⟨.hbm, 73, rfl⟩
abbrev main_cst_5 : Ref sig .tc := ⟨.hbm, 74, rfl⟩
abbrev main_v27 : Ref sig .tc := ⟨.hbm, 75, rfl⟩
abbrev main_v28 : Ref sig .tc := ⟨.hbm, 76, rfl⟩
abbrev main_v29 : Ref sig .tc := ⟨.hbm, 77, rfl⟩
abbrev main_v30 : Ref sig .tc := ⟨.hbm, 78, rfl⟩
abbrev main_v31 : Ref sig .tc := ⟨.hbm, 79, rfl⟩
abbrev main_v32 : Ref sig .tc := ⟨.hbm, 80, rfl⟩
abbrev main_v33 : Ref sig .tc := ⟨.hbm, 81, rfl⟩
abbrev main_call1_c : Ref sig .tc := ⟨.hbm, 82, rfl⟩
abbrev main_call1_v0 : Ref sig .tc := ⟨.hbm, 83, rfl⟩
abbrev main_call1_v1 : Ref sig .tc := ⟨.hbm, 84, rfl⟩
abbrev main_call1_c_0 : Ref sig .tc := ⟨.hbm, 85, rfl⟩
abbrev main_call1_v2 : Ref sig .tc := ⟨.hbm, 86, rfl⟩
abbrev main_call1_v3 : Ref sig .tc := ⟨.hbm, 87, rfl⟩
abbrev main_call1_v4 : Ref sig .tc := ⟨.hbm, 88, rfl⟩
abbrev main_call1_v5 : Ref sig .tc := ⟨.hbm, 89, rfl⟩
abbrev main_call1_c_1 : Ref sig .tc := ⟨.hbm, 90, rfl⟩
abbrev main_call1_c_2 : Ref sig .tc := ⟨.hbm, 91, rfl⟩
abbrev main_call1_v6 : Ref sig .tc := ⟨.hbm, 92, rfl⟩
abbrev main_call1_v7 : Ref sig .tc := ⟨.hbm, 93, rfl⟩
abbrev main_call1_v8 : Ref sig .tc := ⟨.hbm, 94, rfl⟩
abbrev main_call1_v9 : Ref sig .tc := ⟨.hbm, 95, rfl⟩
abbrev main_call1_v10 : Ref sig .tc := ⟨.hbm, 96, rfl⟩
abbrev main_call1_v11 : Ref sig .tc := ⟨.hbm, 97, rfl⟩
abbrev main_call1_c_3 : Ref sig .tc := ⟨.hbm, 98, rfl⟩
abbrev main_call1_v12 : Ref sig .tc := ⟨.hbm, 99, rfl⟩
abbrev main_call1_v13 : Ref sig .tc := ⟨.hbm, 100, rfl⟩
abbrev main_call1_v14 : Ref sig .tc := ⟨.hbm, 101, rfl⟩
abbrev main_call1_cst : Ref sig .tc := ⟨.hbm, 102, rfl⟩
abbrev main_call1_v15 : Ref sig .tc := ⟨.hbm, 103, rfl⟩
abbrev main_v34 : Ref sig .tc := ⟨.hbm, 104, rfl⟩
abbrev main_cst_6 : Ref sig .tc := ⟨.hbm, 105, rfl⟩
abbrev main_v35 : Ref sig .tc := ⟨.hbm, 106, rfl⟩
abbrev main_v36 : Ref sig .tc := ⟨.hbm, 107, rfl⟩
abbrev main_v37 : Ref sig .tc := ⟨.hbm, 108, rfl⟩
abbrev main_v38 : Ref sig .tc := ⟨.hbm, 109, rfl⟩
abbrev main_v39 : Ref sig .tc := ⟨.hbm, 110, rfl⟩
abbrev main_v40 : Ref sig .tc := ⟨.hbm, 111, rfl⟩
abbrev main_v41 : Ref sig .tc := ⟨.hbm, 112, rfl⟩
abbrev main_call2_c : Ref sig .tc := ⟨.hbm, 113, rfl⟩
abbrev main_call2_v0 : Ref sig .tc := ⟨.hbm, 114, rfl⟩
abbrev main_call2_v1 : Ref sig .tc := ⟨.hbm, 115, rfl⟩
abbrev main_call2_c_0 : Ref sig .tc := ⟨.hbm, 116, rfl⟩
abbrev main_call2_v2 : Ref sig .tc := ⟨.hbm, 117, rfl⟩
abbrev main_call2_v3 : Ref sig .tc := ⟨.hbm, 118, rfl⟩
abbrev main_call2_v4 : Ref sig .tc := ⟨.hbm, 119, rfl⟩
abbrev main_call2_v5 : Ref sig .tc := ⟨.hbm, 120, rfl⟩
abbrev main_call2_c_1 : Ref sig .tc := ⟨.hbm, 121, rfl⟩
abbrev main_call2_c_2 : Ref sig .tc := ⟨.hbm, 122, rfl⟩
abbrev main_call2_v6 : Ref sig .tc := ⟨.hbm, 123, rfl⟩
abbrev main_call2_v7 : Ref sig .tc := ⟨.hbm, 124, rfl⟩
abbrev main_call2_v8 : Ref sig .tc := ⟨.hbm, 125, rfl⟩
abbrev main_call2_v9 : Ref sig .tc := ⟨.hbm, 126, rfl⟩
abbrev main_call2_v10 : Ref sig .tc := ⟨.hbm, 127, rfl⟩
abbrev main_call2_v11 : Ref sig .tc := ⟨.hbm, 128, rfl⟩
abbrev main_call2_c_3 : Ref sig .tc := ⟨.hbm, 129, rfl⟩
abbrev main_call2_v12 : Ref sig .tc := ⟨.hbm, 130, rfl⟩
abbrev main_call2_v13 : Ref sig .tc := ⟨.hbm, 131, rfl⟩
abbrev main_call2_v14 : Ref sig .tc := ⟨.hbm, 132, rfl⟩
abbrev main_call2_cst : Ref sig .tc := ⟨.hbm, 133, rfl⟩
abbrev main_call2_v15 : Ref sig .tc := ⟨.hbm, 134, rfl⟩
abbrev main_v42 : Ref sig .tc := ⟨.hbm, 135, rfl⟩
abbrev main_cst_7 : Ref sig .tc := ⟨.hbm, 136, rfl⟩
abbrev main_v43 : Ref sig .tc := ⟨.hbm, 137, rfl⟩
abbrev main_v44 : Ref sig .tc := ⟨.hbm, 138, rfl⟩
abbrev main_v45 : Ref sig .tc := ⟨.hbm, 139, rfl⟩
abbrev main_v46 : Ref sig .tc := ⟨.hbm, 140, rfl⟩
abbrev main_v47 : Ref sig .tc := ⟨.hbm, 141, rfl⟩
abbrev main_v48 : Ref sig .tc := ⟨.hbm, 142, rfl⟩
abbrev main_v49 : Ref sig .tc := ⟨.hbm, 143, rfl⟩
abbrev main_call3_c : Ref sig .tc := ⟨.hbm, 144, rfl⟩
abbrev main_call3_v0 : Ref sig .tc := ⟨.hbm, 145, rfl⟩
abbrev main_call3_v1 : Ref sig .tc := ⟨.hbm, 146, rfl⟩
abbrev main_call3_c_0 : Ref sig .tc := ⟨.hbm, 147, rfl⟩
abbrev main_call3_v2 : Ref sig .tc := ⟨.hbm, 148, rfl⟩
abbrev main_call3_v3 : Ref sig .tc := ⟨.hbm, 149, rfl⟩
abbrev main_call3_v4 : Ref sig .tc := ⟨.hbm, 150, rfl⟩
abbrev main_call3_v5 : Ref sig .tc := ⟨.hbm, 151, rfl⟩
abbrev main_call3_c_1 : Ref sig .tc := ⟨.hbm, 152, rfl⟩
abbrev main_call3_c_2 : Ref sig .tc := ⟨.hbm, 153, rfl⟩
abbrev main_call3_v6 : Ref sig .tc := ⟨.hbm, 154, rfl⟩
abbrev main_call3_v7 : Ref sig .tc := ⟨.hbm, 155, rfl⟩
abbrev main_call3_v8 : Ref sig .tc := ⟨.hbm, 156, rfl⟩
abbrev main_call3_v9 : Ref sig .tc := ⟨.hbm, 157, rfl⟩
abbrev main_call3_v10 : Ref sig .tc := ⟨.hbm, 158, rfl⟩
abbrev main_call3_v11 : Ref sig .tc := ⟨.hbm, 159, rfl⟩
abbrev main_call3_c_3 : Ref sig .tc := ⟨.hbm, 160, rfl⟩
abbrev main_call3_v12 : Ref sig .tc := ⟨.hbm, 161, rfl⟩
abbrev main_call3_v13 : Ref sig .tc := ⟨.hbm, 162, rfl⟩
abbrev main_call3_v14 : Ref sig .tc := ⟨.hbm, 163, rfl⟩
abbrev main_call3_cst : Ref sig .tc := ⟨.hbm, 164, rfl⟩
abbrev main_call3_v15 : Ref sig .tc := ⟨.hbm, 165, rfl⟩
abbrev main_v50 : Ref sig .tc := ⟨.hbm, 166, rfl⟩
abbrev main_cst_8 : Ref sig .tc := ⟨.hbm, 167, rfl⟩
abbrev main_v51 : Ref sig .tc := ⟨.hbm, 168, rfl⟩
abbrev main_v52 : Ref sig .tc := ⟨.hbm, 169, rfl⟩
abbrev main_v53 : Ref sig .tc := ⟨.hbm, 170, rfl⟩
abbrev main_v54 : Ref sig .tc := ⟨.hbm, 171, rfl⟩
abbrev main_v55 : Ref sig .tc := ⟨.hbm, 172, rfl⟩
abbrev main_v56 : Ref sig .tc := ⟨.hbm, 173, rfl⟩
abbrev main_c_9 : Ref sig .tc := ⟨.hbm, 174, rfl⟩
abbrev main_v57 : Ref sig .tc := ⟨.hbm, 175, rfl⟩
abbrev main_v58 : Ref sig .tc := ⟨.hbm, 176, rfl⟩
abbrev main_c_10 : Ref sig .tc := ⟨.hbm, 177, rfl⟩
abbrev main_v59 : Ref sig .tc := ⟨.hbm, 178, rfl⟩
abbrev main_v60 : Ref sig .tc := ⟨.hbm, 179, rfl⟩
abbrev main_v61 : Ref sig .tc := ⟨.hbm, 180, rfl⟩
abbrev main_v62 : Ref sig .tc := ⟨.hbm, 181, rfl⟩
abbrev main_v63 : Ref sig .tc := ⟨.hbm, 182, rfl⟩
abbrev main_c_11 : Ref sig .tc := ⟨.hbm, 183, rfl⟩
abbrev main_v64 : Ref sig .tc := ⟨.hbm, 184, rfl⟩
abbrev main_v65 : Ref sig .tc := ⟨.hbm, 185, rfl⟩
abbrev main_c_12 : Ref sig .tc := ⟨.hbm, 186, rfl⟩
abbrev main_v66 : Ref sig .tc := ⟨.hbm, 187, rfl⟩
abbrev main_v67 : Ref sig .tc := ⟨.hbm, 188, rfl⟩
abbrev main_v68 : Ref sig .tc := ⟨.hbm, 189, rfl⟩
abbrev main_v69 : Ref sig .tc := ⟨.hbm, 190, rfl⟩
abbrev main_v70 : Ref sig .tc := ⟨.hbm, 191, rfl⟩
abbrev main_v71 : Ref sig .tc := ⟨.hbm, 192, rfl⟩
abbrev main_c_13 : Ref sig .tc := ⟨.hbm, 193, rfl⟩
abbrev main_call4_v0 : Ref sig .tc := ⟨.hbm, 194, rfl⟩
abbrev main_v72 : Ref sig .tc := ⟨.hbm, 195, rfl⟩
abbrev main_c_14 : Ref sig .tc := ⟨.hbm, 196, rfl⟩
abbrev main_call5_v0 : Ref sig .tc := ⟨.hbm, 197, rfl⟩
abbrev main_v73 : Ref sig .tc := ⟨.hbm, 198, rfl⟩
abbrev main_v74 : Ref sig .tc := ⟨.hbm, 199, rfl⟩
abbrev main_v75 : Ref sig .tc := ⟨.hbm, 200, rfl⟩
abbrev main_v76 : Ref sig .tc := ⟨.hbm, 201, rfl⟩
abbrev main_v77 : Ref sig .tc := ⟨.hbm, 202, rfl⟩
abbrev main_v78 : Ref sig .tc := ⟨.hbm, 203, rfl⟩
abbrev main_v79 : Ref sig .tc := ⟨.hbm, 204, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg2_1 : Ref sig .tc := ⟨.vmem, 16, rfl⟩
abbrev cc3_stg0_0 : Ref sig .tc := ⟨.vmem, 17, rfl⟩
abbrev cc3_stg0_1 : Ref sig .tc := ⟨.vmem, 18, rfl⟩
abbrev cc3_stg1_0 : Ref sig .tc := ⟨.vmem, 19, rfl⟩
abbrev cc3_stg1_1 : Ref sig .tc := ⟨.vmem, 20, rfl⟩
abbrev cc3_stg2_0 : Ref sig .tc := ⟨.vmem, 21, rfl⟩
abbrev cc3_stg3_0 : Ref sig .tc := ⟨.vmem, 22, rfl⟩
abbrev cc3_stg3_1 : Ref sig .tc := ⟨.vmem, 23, rfl⟩
abbrev cc4_stg0_0 : Ref sig .tc := ⟨.vmem, 24, rfl⟩
abbrev cc4_stg0_1 : Ref sig .tc := ⟨.vmem, 25, rfl⟩
abbrev cc4_stg1_0 : Ref sig .tc := ⟨.vmem, 26, rfl⟩
abbrev cc4_stg2_0 : Ref sig .tc := ⟨.vmem, 27, rfl⟩
abbrev cc4_stg2_1 : Ref sig .tc := ⟨.vmem, 28, rfl⟩
abbrev cc5_stg0_0 : Ref sig .tc := ⟨.vmem, 29, rfl⟩
abbrev cc5_stg0_1 : Ref sig .tc := ⟨.vmem, 30, rfl⟩
abbrev cc5_stg1_0 : Ref sig .tc := ⟨.vmem, 31, rfl⟩
abbrev cc5_stg1_1 : Ref sig .tc := ⟨.vmem, 32, rfl⟩
abbrev cc5_stg2_0 : Ref sig .tc := ⟨.vmem, 33, rfl⟩
abbrev cc5_stg3_0 : Ref sig .tc := ⟨.vmem, 34, rfl⟩
abbrev cc5_stg3_1 : Ref sig .tc := ⟨.vmem, 35, rfl⟩
abbrev cc6_stg0_0 : Ref sig .tc := ⟨.vmem, 36, rfl⟩
abbrev cc6_stg0_1 : Ref sig .tc := ⟨.vmem, 37, rfl⟩
abbrev cc6_stg1_0 : Ref sig .tc := ⟨.vmem, 38, rfl⟩
abbrev cc6_stg2_0 : Ref sig .tc := ⟨.vmem, 39, rfl⟩
abbrev cc6_stg2_1 : Ref sig .tc := ⟨.vmem, 40, rfl⟩
abbrev cc7_stg0_0 : Ref sig .tc := ⟨.vmem, 41, rfl⟩
abbrev cc7_stg0_1 : Ref sig .tc := ⟨.vmem, 42, rfl⟩
abbrev cc7_stg1_0 : Ref sig .tc := ⟨.vmem, 43, rfl⟩
abbrev cc7_stg1_1 : Ref sig .tc := ⟨.vmem, 44, rfl⟩
abbrev cc7_stg2_0 : Ref sig .tc := ⟨.vmem, 45, rfl⟩
abbrev cc7_stg3_0 : Ref sig .tc := ⟨.vmem, 46, rfl⟩
abbrev cc7_stg3_1 : Ref sig .tc := ⟨.vmem, 47, rfl⟩
abbrev cc8_stg0_0 : Ref sig .tc := ⟨.vmem, 48, rfl⟩
abbrev cc8_stg0_1 : Ref sig .tc := ⟨.vmem, 49, rfl⟩
abbrev cc8_stg1_0 : Ref sig .tc := ⟨.vmem, 50, rfl⟩
abbrev cc8_stg1_1 : Ref sig .tc := ⟨.vmem, 51, rfl⟩
abbrev cc8_stg2_0 : Ref sig .tc := ⟨.vmem, 52, rfl⟩
abbrev cc8_stg3_0 : Ref sig .tc := ⟨.vmem, 53, rfl⟩
abbrev cc8_stg4_0 : Ref sig .tc := ⟨.vmem, 54, rfl⟩
abbrev cc8_stg5_0 : Ref sig .tc := ⟨.vmem, 55, rfl⟩
abbrev cc8_stg6_0 : Ref sig .tc := ⟨.vmem, 56, rfl⟩
abbrev cc8_stg7_0 : Ref sig .tc := ⟨.vmem, 57, rfl⟩
abbrev cc8_stg8_0 : Ref sig .tc := ⟨.vmem, 58, rfl⟩
abbrev cc8_stg9_0 : Ref sig .tc := ⟨.vmem, 59, rfl⟩
abbrev cc8_stg10_0 : Ref sig .tc := ⟨.vmem, 60, rfl⟩
abbrev cc8_stg10_1 : Ref sig .tc := ⟨.vmem, 61, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem2_1 : DmaSem sig := 16
abbrev cc3_sem0_0 : DmaSem sig := 17
abbrev cc3_sem0_1 : DmaSem sig := 18
abbrev cc3_sem1_0 : DmaSem sig := 19
abbrev cc3_sem1_1 : DmaSem sig := 20
abbrev cc3_sem2_0 : DmaSem sig := 21
abbrev cc3_sem3_0 : DmaSem sig := 22
abbrev cc3_sem3_1 : DmaSem sig := 23
abbrev cc4_sem0_0 : DmaSem sig := 24
abbrev cc4_sem0_1 : DmaSem sig := 25
abbrev cc4_sem1_0 : DmaSem sig := 26
abbrev cc4_sem2_0 : DmaSem sig := 27
abbrev cc4_sem2_1 : DmaSem sig := 28
abbrev cc5_sem0_0 : DmaSem sig := 29
abbrev cc5_sem0_1 : DmaSem sig := 30
abbrev cc5_sem1_0 : DmaSem sig := 31
abbrev cc5_sem1_1 : DmaSem sig := 32
abbrev cc5_sem2_0 : DmaSem sig := 33
abbrev cc5_sem3_0 : DmaSem sig := 34
abbrev cc5_sem3_1 : DmaSem sig := 35
abbrev cc6_sem0_0 : DmaSem sig := 36
abbrev cc6_sem0_1 : DmaSem sig := 37
abbrev cc6_sem1_0 : DmaSem sig := 38
abbrev cc6_sem2_0 : DmaSem sig := 39
abbrev cc6_sem2_1 : DmaSem sig := 40
abbrev cc7_sem0_0 : DmaSem sig := 41
abbrev cc7_sem0_1 : DmaSem sig := 42
abbrev cc7_sem1_0 : DmaSem sig := 43
abbrev cc7_sem1_1 : DmaSem sig := 44
abbrev cc7_sem2_0 : DmaSem sig := 45
abbrev cc7_sem3_0 : DmaSem sig := 46
abbrev cc7_sem3_1 : DmaSem sig := 47
abbrev cc8_sem0_0 : DmaSem sig := 48
abbrev cc8_sem0_1 : DmaSem sig := 49
abbrev cc8_sem1_0 : DmaSem sig := 50
abbrev cc8_sem1_1 : DmaSem sig := 51
abbrev cc8_sem2_0 : DmaSem sig := 52
abbrev cc8_sem3_0 : DmaSem sig := 53
abbrev cc8_sem4_0 : DmaSem sig := 54
abbrev cc8_sem5_0 : DmaSem sig := 55
abbrev cc8_sem6_0 : DmaSem sig := 56
abbrev cc8_sem7_0 : DmaSem sig := 57
abbrev cc8_sem8_0 : DmaSem sig := 58
abbrev cc8_sem9_0 : DmaSem sig := 59
abbrev cc8_sem10_0 : DmaSem sig := 60
abbrev cc8_sem10_1 : DmaSem sig := 61

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S2000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S2000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S2000x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![25], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S2000x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![25], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S2000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S2000x1 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S1x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 2 → Memref sig .tc .vmem S2000x128 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev grid6 : Pipeline.Grid := ⟨1, ![25], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S2000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S128x64 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 2 → Memref sig .tc .vmem S2000x64 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev grid7 : Pipeline.Grid := ⟨1, ![25], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S2000x64 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S2000x1 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 1 → Memref sig .tc .vmem S1x64 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 2 → Memref sig .tc .vmem S2000x64 .f32 := fun | 0 => Memref.whole cc7_stg3_0 | 1 => Memref.whole cc7_stg3_1 | ⟨_ + 2, h⟩ => absurd h (Nat.not_lt.2 (Nat.le_add_left _ _))
abbrev sem7_3 : Fin 2 → DmaSem sig := fun | 0 => cc7_sem3_0 | 1 => cc7_sem3_1 | ⟨_ + 2, h⟩ => absurd h (Nat.not_lt.2 (Nat.le_add_left _ _))
abbrev reads7_3 : Fin grid7.rank → Bool := ![true]

abbrev grid8 : Pipeline.Grid := ⟨1, ![196], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_2 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_3 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_4 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_5 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_6 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_7 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_8 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_9 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_10 (i : grid8.Coords) : Fin 1 → Nat :=
  let arg0 : BitVec 32 := BitVec.ofNat 32 (i 0).val
  let c0_i32 : BitVec 32 := 0#32
  ![arg0.toNat]

abbrev stage8_0 : Fin 2 → Memref sig .tc .vmem S4096x128 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 2 → Memref sig .tc .vmem S4096x128 .f32 := fun | 0 => Memref.whole cc8_stg1_0 | 1 => Memref.whole cc8_stg1_1 | ⟨_ + 2, h⟩ => absurd h (Nat.not_lt.2 (Nat.le_add_left _ _))
abbrev sem8_1 : Fin 2 → DmaSem sig := fun | 0 => cc8_sem1_0 | 1 => cc8_sem1_1 | ⟨_ + 2, h⟩ => absurd h (Nat.not_lt.2 (Nat.le_add_left _ _))
abbrev reads8_1 : Fin grid8.rank → Bool := ![true]

abbrev stage8_2 : Fin 1 → Memref sig .tc .vmem S128x128 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false]

abbrev stage8_3 : Fin 1 → Memref sig .tc .vmem S1x128 .f32 := fun | 0 => Memref.whole cc8_stg3_0 | ⟨_ + 1, h⟩ => absurd h (Nat.not_lt.2 (Nat.le_add_left _ _))
abbrev sem8_3 : Fin 1 → DmaSem sig := fun | 0 => cc8_sem3_0 | ⟨_ + 1, h⟩ => absurd h (Nat.not_lt.2 (Nat.le_add_left _ _))
abbrev reads8_3 : Fin grid8.rank → Bool := ![false]

abbrev stage8_4 : Fin 1 → Memref sig .tc .vmem S128x1 .f32 := fun | 0 => Memref.whole cc8_stg4_0 | ⟨_ + 1, h⟩ => absurd h (Nat.not_lt.2 (Nat.le_add_left _ _))
abbrev sem8_4 : Fin 1 → DmaSem sig := fun | 0 => cc8_sem4_0 | ⟨_ + 1, h⟩ => absurd h (Nat.not_lt.2 (Nat.le_add_left _ _))
abbrev reads8_4 : Fin grid8.rank → Bool := ![false]

abbrev stage8_5 : Fin 1 → Memref sig .tc .vmem S1x1 .f32 := fun | 0 => Memref.whole cc8_stg5_0 | ⟨_ + 1, h⟩ => absurd h (Nat.not_lt.2 (Nat.le_add_left _ _))
abbrev sem8_5 : Fin 1 → DmaSem sig := fun | 0 => cc8_sem5_0 | ⟨_ + 1, h⟩ => absurd h (Nat.not_lt.2 (Nat.le_add_left _ _))
abbrev reads8_5 : Fin grid8.rank → Bool := ![false]

abbrev stage8_6 : Fin 1 → Memref sig .tc .vmem S128x128 .f32 := fun | 0 => Memref.whole cc8_stg6_0 | ⟨_ + 1, h⟩ => absurd h (Nat.not_lt.2 (Nat.le_add_left _ _))
abbrev sem8_6 : Fin 1 → DmaSem sig := fun | 0 => cc8_sem6_0 | ⟨_ + 1, h⟩ => absurd h (Nat.not_lt.2 (Nat.le_add_left _ _))
abbrev reads8_6 : Fin grid8.rank → Bool := ![false]

abbrev stage8_7 : Fin 1 → Memref sig .tc .vmem S1x128 .f32 := fun | 0 => Memref.whole cc8_stg7_0 | ⟨_ + 1, h⟩ => absurd h (Nat.not_lt.2 (Nat.le_add_left _ _))
abbrev sem8_7 : Fin 1 → DmaSem sig := fun | 0 => cc8_sem7_0 | ⟨_ + 1, h⟩ => absurd h (Nat.not_lt.2 (Nat.le_add_left _ _))
abbrev reads8_7 : Fin grid8.rank → Bool := ![false]

abbrev stage8_8 : Fin 1 → Memref sig .tc .vmem S128x1 .f32 := fun | 0 => Memref.whole cc8_stg8_0 | ⟨_ + 1, h⟩ => absurd h (Nat.not_lt.2 (Nat.le_add_left _ _))
abbrev sem8_8 : Fin 1 → DmaSem sig := fun | 0 => cc8_sem8_0 | ⟨_ + 1, h⟩ => absurd h (Nat.not_lt.2 (Nat.le_add_left _ _))
abbrev reads8_8 : Fin grid8.rank → Bool := ![false]

abbrev stage8_9 : Fin 1 → Memref sig .tc .vmem S1x1 .f32 := fun | 0 => Memref.whole cc8_stg9_0 | ⟨_ + 1, h⟩ => absurd h (Nat.not_lt.2 (Nat.le_add_left _ _))
abbrev sem8_9 : Fin 1 → DmaSem sig := fun | 0 => cc8_sem9_0 | ⟨_ + 1, h⟩ => absurd h (Nat.not_lt.2 (Nat.le_add_left _ _))
abbrev reads8_9 : Fin grid8.rank → Bool := ![false]

abbrev stage8_10 : Fin 2 → Memref sig .tc .vmem S4096 .f32 := fun | 0 => Memref.whole cc8_stg10_0 | 1 => Memref.whole cc8_stg10_1 | ⟨_ + 2, h⟩ => absurd h (Nat.not_lt.2 (Nat.le_add_left _ _))
abbrev sem8_10 : Fin 2 → DmaSem sig := fun | 0 => cc8_sem10_0 | 1 => cc8_sem10_1 | ⟨_ + 2, h⟩ => absurd h (Nat.not_lt.2 (Nat.le_add_left _ _))
abbrev reads8_10 : Fin grid8.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S800000x128 : S_.BroadcastsInDim S800000x128 (![] : Fin 0 → Fin S800000x128.rank)
  bcast_S_S50000 : S_.BroadcastsInDim S50000 (![] : Fin 0 → Fin S50000.rank)
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S_S800000x1 : S_.BroadcastsInDim S800000x1 (![] : Fin 0 → Fin S800000x1.rank)
  bcast_S1_S1x1_1 : S1.BroadcastsInDim S1x1 (![1] : Fin 1 → Fin S1x1.rank)
  bcast_S1x1_S800000x1_0_1 : S1x1.BroadcastsInDim S800000x1 (![0, 1] : Fin 2 → Fin S800000x1.rank)
  reducesTo_S800000x1_S800000_d1 : S800000x1.ReducesTo [1] S800000
  h_S_ : 0 < S_.numel
  bcast_S800000_S800000x128_0 : S800000.BroadcastsInDim S800000x128 (![0] : Fin 1 → Fin S800000x128.rank)
  bcast_S_S50000x128 : S_.BroadcastsInDim S50000x128 (![] : Fin 0 → Fin S50000x128.rank)
  shapeCasts_S50000_S50000x1 : S50000.ShapeCasts S50000x1
  shapeCasts_S128_S1x128 : S128.ShapeCasts S1x128
  shapeCasts_S2000x128_S2000x128 : S2000x128.ShapeCasts S2000x128
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x128 : S2000x1.Broadcasts S2000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  inb_S128x64_S128x64_0_0 : ∀ a, (![0, 0] : Fin 2 → Nat) a + S128x64.size a ≤ S128x64.size a
  h_S128x64 : 0 < S128x64.numel
  inb_S2000x64_S2000x64_0_0 : ∀ a, (![0, 0] : Fin 2 → Nat) a + S2000x64.size a ≤ S2000x64.size a
  h_S2000x64 : 0 < S2000x64.numel
  bcast_S800000_S800000x64_0 : S800000.BroadcastsInDim S800000x64 (![0] : Fin 1 → Fin S800000x64.rank)
  bcast_S_S800000x64 : S_.BroadcastsInDim S800000x64 (![] : Fin 0 → Fin S800000x64.rank)
  bcast_S_S50000x64 : S_.BroadcastsInDim S50000x64 (![] : Fin 0 → Fin S50000x64.rank)
  shapeCasts_S64_S1x64 : S64.ShapeCasts S1x64
  shapeCasts_S2000x64_S2000x64 : S2000x64.ShapeCasts S2000x64
  broadcasts_S2000x1_S2000x64 : S2000x1.Broadcasts S2000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  concatenates_S800000x64_S800000x64_S800000x128_d1 : Shape.Concatenates [S800000x64, S800000x64] S800000x128 1
  pads_S800000x128_S802816x128_028160_000 : S800000x128.Pads (![0, 0] : Fin 2 → Nat) ![2816, 0] ![0, 0] S802816x128
  shapeCasts_S1_S1x1 : S1.ShapeCasts S1x1
  inb_S4096x128_S4096x128_0_0 : ∀ a, (![0, 0] : Fin 2 → Nat) a + S4096x128.size a ≤ S4096x128.size a
  h_S4096x128 : 0 < S4096x128.numel
  shapeCasts_S4096x128_S4096x128 : S4096x128.ShapeCasts S4096x128
  reduces_S4096x128_S4096 : S4096x128.Reduces [1] S4096
  broadcasts_S1x128_S4096x128 : S1x128.Broadcasts S4096x128
  inb_S128x1_S128x1_0_0 : ∀ a, (![0, 0] : Fin 2 → Nat) a + S128x1.size a ≤ S128x1.size a
  h_S128x1 : 0 < S128x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S4096x1 : S1x1.Broadcasts S4096x1
  shapeCasts_S4096x1_S4096 : S4096x1.ShapeCasts S4096
  inb_S4096_S4096_0 : ∀ a, (![0] : Fin 1 → Nat) a + S4096.size a ≤ S4096.size a
  h_S4096 : 0 < S4096.numel
  slices_S802816_S800000_0 : S802816.Slices ![0] S800000
  gather_S50000x128_S800000x1_S800000x128_1_0_n_n_0_1_1128_wf : GatherDims.WF S50000x128 S800000x1 S800000x128 [1] [0] [] [0] [] 1 ![1, 128]
  scatter_S50000_S800000x1_S800000_n_0_0_1_wf : ScatterDims.WF S50000 S800000x1 S800000 [] [0] [0] 1
  dot_S2000x128_S128x128_S2000x128_1_0_0_1_n_n_wf : DotDims.WF S2000x128 S128x128 S2000x128 [1] [0] [0] [1] [] []
  scatter_S50000x128_S800000x1_S800000x128_1_0_0_1_wf : ScatterDims.WF S50000x128 S800000x1 S800000x128 [1] [0] [0] 1
  dot_S2000x128_S128x64_S2000x64_1_0_0_1_n_n_wf : DotDims.WF S2000x128 S128x64 S2000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  dot_S4096x128_S128x128_S4096x128_1_0_0_1_n_n_wf : DotDims.WF S4096x128 S128x128 S4096x128 [1] [0] [0] [1] [] []
  dot_S4096x128_S128x1_S4096x1_1_0_0_1_n_n_wf : DotDims.WF S4096x128 S128x1 S4096x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S50000x128.size a
  hwx0_2 : ∀ i : grid0.Coords, EltTy.bits .f32 = 32 ∨ (Rect.block (s := S50000x128) S2000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x1.size a ≤ S50000x1.size a
  hwx1_1 : ∀ i : grid1.Coords, EltTy.bits .f32 = 32 ∨ (Rect.block (s := S50000x1) S2000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x128.size a ≤ S50000x128.size a
  hwx1_3 : ∀ i : grid1.Coords, EltTy.bits .f32 = 32 ∨ (Rect.block (s := S50000x128) S2000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S50000x128.size a
  hwx2_0 : ∀ i : grid2.Coords, EltTy.bits .f32 = 32 ∨ (Rect.block (s := S50000x128) S2000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x128.size a ≤ S50000x128.size a
  hwx2_2 : ∀ i : grid2.Coords, EltTy.bits .f32 = 32 ∨ (Rect.block (s := S50000x128) S2000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x128.size a ≤ S50000x128.size a
  hwx3_0 : ∀ i : grid3.Coords, EltTy.bits .f32 = 32 ∨ (Rect.block (s := S50000x128) S2000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x1.size a ≤ S50000x1.size a
  hwx3_1 : ∀ i : grid3.Coords, EltTy.bits .f32 = 32 ∨ (Rect.block (s := S50000x1) S2000x1.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S2000x128.size a ≤ S50000x128.size a
  hwx3_3 : ∀ i : grid3.Coords, EltTy.bits .f32 = 32 ∨ (Rect.block (s := S50000x128) S2000x128.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x128.size a ≤ S50000x128.size a
  hwx4_0 : ∀ i : grid4.Coords, EltTy.bits .f32 = 32 ∨ (Rect.block (s := S50000x128) S2000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x128.size a ≤ S128x128.size a
  hwx4_1 : ∀ i : grid4.Coords, EltTy.bits .f32 = 32 ∨ (Rect.block (s := S128x128) S128x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S2000x128.size a ≤ S50000x128.size a
  hwx4_2 : ∀ i : grid4.Coords, EltTy.bits .f32 = 32 ∨ (Rect.block (s := S50000x128) S2000x128.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2000x128.size a ≤ S50000x128.size a
  hwx5_0 : ∀ i : grid5.Coords, EltTy.bits .f32 = 32 ∨ (Rect.block (s := S50000x128) S2000x128.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S2000x1.size a ≤ S50000x1.size a
  hwx5_1 : ∀ i : grid5.Coords, EltTy.bits .f32 = 32 ∨ (Rect.block (s := S50000x1) S2000x1.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x128.size a ≤ S1x128.size a
  hwx5_2 : ∀ i : grid5.Coords, EltTy.bits .f32 = 32 ∨ (Rect.block (s := S1x128) S1x128.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S2000x128.size a ≤ S50000x128.size a
  hwx5_3 : ∀ i : grid5.Coords, EltTy.bits .f32 = 32 ∨ (Rect.block (s := S50000x128) S2000x128.size (cc5_transform_3 i) (hinb5_3 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S2000x128.size a ≤ S50000x128.size a
  hwx6_0 : ∀ i : grid6.Coords, EltTy.bits .f32 = 32 ∨ (Rect.block (s := S50000x128) S2000x128.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S128x64.size a ≤ S128x64.size a
  hwx6_1 : ∀ i : grid6.Coords, EltTy.bits .f32 = 32 ∨ (Rect.block (s := S128x64) S128x64.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S2000x64.size a ≤ S50000x64.size a
  hwx6_2 : ∀ i : grid6.Coords, EltTy.bits .f32 = 32 ∨ (Rect.block (s := S50000x64) S2000x64.size (cc6_transform_2 i) (hinb6_2 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S2000x64.size a ≤ S50000x64.size a
  hwx7_0 : ∀ i : grid7.Coords, EltTy.bits .f32 = 32 ∨ (Rect.block (s := S50000x64) S2000x64.size (cc7_transform_0 i) (hinb7_0 i)).WholeWords (EltTy.packing .f32)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S2000x1.size a ≤ S50000x1.size a
  hwx7_1 : ∀ i : grid7.Coords, EltTy.bits .f32 = 32 ∨ (Rect.block (s := S50000x1) S2000x1.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S1x64.size a ≤ S1x64.size a
  hwx7_2 : ∀ i : grid7.Coords, EltTy.bits .f32 = 32 ∨ (Rect.block (s := S1x64) S1x64.size (cc7_transform_2 i) (hinb7_2 i)).WholeWords (EltTy.packing .f32)
  hstage7_3 : ∀ j, (stage7_3 j).IsWhole
  nbuf7_3 : grid7.bufCount reads7_3 false = 2
  hreads7_3 : ∀ i i' : grid7.Coords, (∀ a, reads7_3 a = true → i a = i' a) → cc7_transform_3 i = cc7_transform_3 i'
  hinb7_3 : ∀ (i : grid7.Coords) a, (cc7_transform_3 i a + 1) * S2000x64.size a ≤ S50000x64.size a
  hwx7_3 : ∀ i : grid7.Coords, EltTy.bits .f32 = 32 ∨ (Rect.block (s := S50000x64) S2000x64.size (cc7_transform_3 i) (hinb7_3 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S4096x128.size a ≤ S802816x128.size a
  hwx8_0 : ∀ i : grid8.Coords, EltTy.bits .f32 = 32 ∨ (Rect.block (s := S802816x128) S4096x128.size (cc8_transform_0 i) (hinb8_0 i)).WholeWords (EltTy.packing .f32)
  hstage8_1 : ∀ j, (stage8_1 j).IsWhole
  nbuf8_1 : grid8.bufCount reads8_1 false = 2
  hreads8_1 : ∀ i i' : grid8.Coords, (∀ a, reads8_1 a = true → i a = i' a) → cc8_transform_1 i = cc8_transform_1 i'
  hinb8_1 : ∀ (i : grid8.Coords) a, (cc8_transform_1 i a + 1) * S4096x128.size a ≤ S802816x128.size a
  hwx8_1 : ∀ i : grid8.Coords, EltTy.bits .f32 = 32 ∨ (Rect.block (s := S802816x128) S4096x128.size (cc8_transform_1 i) (hinb8_1 i)).WholeWords (EltTy.packing .f32)
  hstage8_2 : ∀ j, (stage8_2 j).IsWhole
  nbuf8_2 : grid8.bufCount reads8_2 true = 1
  hreads8_2 : ∀ i i' : grid8.Coords, (∀ a, reads8_2 a = true → i a = i' a) → cc8_transform_2 i = cc8_transform_2 i'
  hinb8_2 : ∀ (i : grid8.Coords) a, (cc8_transform_2 i a + 1) * S128x128.size a ≤ S128x128.size a
  hwx8_2 : ∀ i : grid8.Coords, EltTy.bits .f32 = 32 ∨ (Rect.block (s := S128x128) S128x128.size (cc8_transform_2 i) (hinb8_2 i)).WholeWords (EltTy.packing .f32)
  hstage8_3 : ∀ j, (stage8_3 j).IsWhole
  nbuf8_3 : grid8.bufCount reads8_3 true = 1
  hreads8_3 : ∀ i i' : grid8.Coords, (∀ a, reads8_3 a = true → i a = i' a) → cc8_transform_3 i = cc8_transform_3 i'
  hinb8_3 : ∀ (i : grid8.Coords) a, (cc8_transform_3 i a + 1) * S1x128.size a ≤ S1x128.size a
  hwx8_3 : ∀ i : grid8.Coords, EltTy.bits .f32 = 32 ∨ (Rect.block (s := S1x128) S1x128.size (cc8_transform_3 i) (hinb8_3 i)).WholeWords (EltTy.packing .f32)
  hstage8_4 : ∀ j, (stage8_4 j).IsWhole
  nbuf8_4 : grid8.bufCount reads8_4 true = 1
  hreads8_4 : ∀ i i' : grid8.Coords, (∀ a, reads8_4 a = true → i a = i' a) → cc8_transform_4 i = cc8_transform_4 i'
  hinb8_4 : ∀ (i : grid8.Coords) a, (cc8_transform_4 i a + 1) * S128x1.size a ≤ S128x1.size a
  hwx8_4 : ∀ i : grid8.Coords, EltTy.bits .f32 = 32 ∨ (Rect.block (s := S128x1) S128x1.size (cc8_transform_4 i) (hinb8_4 i)).WholeWords (EltTy.packing .f32)
  hstage8_5 : ∀ j, (stage8_5 j).IsWhole
  nbuf8_5 : grid8.bufCount reads8_5 true = 1
  hreads8_5 : ∀ i i' : grid8.Coords, (∀ a, reads8_5 a = true → i a = i' a) → cc8_transform_5 i = cc8_transform_5 i'
  hinb8_5 : ∀ (i : grid8.Coords) a, (cc8_transform_5 i a + 1) * S1x1.size a ≤ S1x1.size a
  hwx8_5 : ∀ i : grid8.Coords, EltTy.bits .f32 = 32 ∨ (Rect.block (s := S1x1) S1x1.size (cc8_transform_5 i) (hinb8_5 i)).WholeWords (EltTy.packing .f32)
  hstage8_6 : ∀ j, (stage8_6 j).IsWhole
  nbuf8_6 : grid8.bufCount reads8_6 true = 1
  hreads8_6 : ∀ i i' : grid8.Coords, (∀ a, reads8_6 a = true → i a = i' a) → cc8_transform_6 i = cc8_transform_6 i'
  hinb8_6 : ∀ (i : grid8.Coords) a, (cc8_transform_6 i a + 1) * S128x128.size a ≤ S128x128.size a
  hwx8_6 : ∀ i : grid8.Coords, EltTy.bits .f32 = 32 ∨ (Rect.block (s := S128x128) S128x128.size (cc8_transform_6 i) (hinb8_6 i)).WholeWords (EltTy.packing .f32)
  hstage8_7 : ∀ j, (stage8_7 j).IsWhole
  nbuf8_7 : grid8.bufCount reads8_7 true = 1
  hreads8_7 : ∀ i i' : grid8.Coords, (∀ a, reads8_7 a = true → i a = i' a) → cc8_transform_7 i = cc8_transform_7 i'
  hinb8_7 : ∀ (i : grid8.Coords) a, (cc8_transform_7 i a + 1) * S1x128.size a ≤ S1x128.size a
  hwx8_7 : ∀ i : grid8.Coords, EltTy.bits .f32 = 32 ∨ (Rect.block (s := S1x128) S1x128.size (cc8_transform_7 i) (hinb8_7 i)).WholeWords (EltTy.packing .f32)
  hstage8_8 : ∀ j, (stage8_8 j).IsWhole
  nbuf8_8 : grid8.bufCount reads8_8 true = 1
  hreads8_8 : ∀ i i' : grid8.Coords, (∀ a, reads8_8 a = true → i a = i' a) → cc8_transform_8 i = cc8_transform_8 i'
  hinb8_8 : ∀ (i : grid8.Coords) a, (cc8_transform_8 i a + 1) * S128x1.size a ≤ S128x1.size a
  hwx8_8 : ∀ i : grid8.Coords, EltTy.bits .f32 = 32 ∨ (Rect.block (s := S128x1) S128x1.size (cc8_transform_8 i) (hinb8_8 i)).WholeWords (EltTy.packing .f32)
  hstage8_9 : ∀ j, (stage8_9 j).IsWhole
  nbuf8_9 : grid8.bufCount reads8_9 true = 1
  hreads8_9 : ∀ i i' : grid8.Coords, (∀ a, reads8_9 a = true → i a = i' a) → cc8_transform_9 i = cc8_transform_9 i'
  hinb8_9 : ∀ (i : grid8.Coords) a, (cc8_transform_9 i a + 1) * S1x1.size a ≤ S1x1.size a
  hwx8_9 : ∀ i : grid8.Coords, EltTy.bits .f32 = 32 ∨ (Rect.block (s := S1x1) S1x1.size (cc8_transform_9 i) (hinb8_9 i)).WholeWords (EltTy.packing .f32)
  hstage8_10 : ∀ j, (stage8_10 j).IsWhole
  nbuf8_10 : grid8.bufCount reads8_10 false = 2
  hreads8_10 : ∀ i i' : grid8.Coords, (∀ a, reads8_10 a = true → i a = i' a) → cc8_transform_10 i = cc8_transform_10 i'
  hinb8_10 : ∀ (i : grid8.Coords) a, (cc8_transform_10 i a + 1) * S4096.size a ≤ S802816.size a
  hwx8_10 : ∀ i : grid8.Coords, EltTy.bits .f32 = 32 ∨ (Rect.block (s := S802816) S4096.size (cc8_transform_10 i) (hinb8_10 i)).WholeWords (EltTy.packing .f32)

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S2000x128_S128x64_S2000x64_1_0_0_1_n_n : DotDims S2000x128 S128x64 S2000x64 where
  lhsContracting := [1]
  rhsContracting := [0]
  lhsNonContracting := [0]
  rhsNonContracting := [1]
  lhsBatch := []
  rhsBatch := []
  wf := dot_S2000x128_S128x64_S2000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S4096x128_S128x128_S4096x128_1_0_0_1_n_n : DotDims S4096x128 S128x128 S4096x128 where
  lhsContracting := [1]
  rhsContracting := [0]
  lhsNonContracting := [0]
  rhsNonContracting := [1]
  lhsBatch := []
  rhsBatch := []
  wf := dot_S4096x128_S128x128_S4096x128_1_0_0_1_n_n_wf
def dot_S4096x128_S128x1_S4096x1_1_0_0_1_n_n : DotDims S4096x128 S128x1 S4096x1 where
  lhsContracting := [1]
  rhsContracting := [0]
  lhsNonContracting := [0]
  rhsNonContracting := [1]
  lhsBatch := []
  rhsBatch := []
  wf := dot_S4096x128_S128x1_S4096x1_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v25) S2000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v29) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v30) S2000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v31) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v32) S2000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v32) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v33) S2000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v37) S2000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v38) S2000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v39) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v40) S2000x128.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v40) S2000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg6) S128x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v41) S2000x128.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v45) S2000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v46) S2000x1.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v47) S1x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v48) S2000x128.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

abbrev win6_0 : Pipeline.Window sig grid6 :=
  Pipeline.Window.ofSpec (Memref.whole main_v48) S2000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_arg8) S128x64.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v49) S2000x64.size cc6_transform_2 reads6_2 true false 2 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

abbrev win7_0 : Pipeline.Window sig grid7 :=
  Pipeline.Window.ofSpec (Memref.whole main_v53) S2000x64.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v54) S2000x1.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_v55) S1x64.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v56) S2000x64.size cc7_transform_3 reads7_3 true false 2 stage7_3 sem7_3
    hrank7 hreads7_3 hinb7_3 nbuf7_3 (Memref.isWhole_whole _) hwx7_3 hstage7_3

abbrev win7 : Fin 4 → Pipeline.Window sig grid7 := fun | 0 => win7_0 | 1 => win7_1 | 2 => win7_2 | 3 => win7_3 | ⟨_ + 4, h⟩ => absurd h (Nat.not_lt.2 (Nat.le_add_left _ _))
abbrev spec7 : Fin 4 → Pipeline.WinSpec sig grid7.rank := fun w => (win7 w).toWinSpec

abbrev win8_0 : Pipeline.Window sig grid8 :=
  Pipeline.Window.ofSpec (Memref.whole main_v72) S4096x128.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v73) S4096x128.size cc8_transform_1 reads8_1 false false 2 stage8_1 sem8_1
    hrank8 hreads8_1 hinb8_1 nbuf8_1 (Memref.isWhole_whole _) hwx8_1 hstage8_1

abbrev win8_2 : Pipeline.Window sig grid8 :=
  Pipeline.Window.ofSpec (Memref.whole main_arg10) S128x128.size cc8_transform_2 reads8_2 false true 1 stage8_2 sem8_2
    hrank8 hreads8_2 hinb8_2 nbuf8_2 (Memref.isWhole_whole _) hwx8_2 hstage8_2

abbrev win8_3 : Pipeline.Window sig grid8 :=
  Pipeline.Window.ofSpec (Memref.whole main_v74) S1x128.size cc8_transform_3 reads8_3 false true 1 stage8_3 sem8_3
    hrank8 hreads8_3 hinb8_3 nbuf8_3 (Memref.isWhole_whole _) hwx8_3 hstage8_3

abbrev win8_4 : Pipeline.Window sig grid8 :=
  Pipeline.Window.ofSpec (Memref.whole main_arg12) S128x1.size cc8_transform_4 reads8_4 false true 1 stage8_4 sem8_4
    hrank8 hreads8_4 hinb8_4 nbuf8_4 (Memref.isWhole_whole _) hwx8_4 hstage8_4

abbrev win8_5 : Pipeline.Window sig grid8 :=
  Pipeline.Window.ofSpec (Memref.whole main_v75) S1x1.size cc8_transform_5 reads8_5 false true 1 stage8_5 sem8_5
    hrank8 hreads8_5 hinb8_5 nbuf8_5 (Memref.isWhole_whole _) hwx8_5 hstage8_5

abbrev win8_6 : Pipeline.Window sig grid8 :=
  Pipeline.Window.ofSpec (Memref.whole main_arg14) S128x128.size cc8_transform_6 reads8_6 false true 1 stage8_6 sem8_6
    hrank8 hreads8_6 hinb8_6 nbuf8_6 (Memref.isWhole_whole _) hwx8_6 hstage8_6

abbrev win8_7 : Pipeline.Window sig grid8 :=
  Pipeline.Window.ofSpec (Memref.whole main_v76) S1x128.size cc8_transform_7 reads8_7 false true 1 stage8_7 sem8_7
    hrank8 hreads8_7 hinb8_7 nbuf8_7 (Memref.isWhole_whole _) hwx8_7 hstage8_7

abbrev win8_8 : Pipeline.Window sig grid8 :=
  Pipeline.Window.ofSpec (Memref.whole main_arg16) S128x1.size cc8_transform_8 reads8_8 false true 1 stage8_8 sem8_8
    hrank8 hreads8_8 hinb8_8 nbuf8_8 (Memref.isWhole_whole _) hwx8_8 hstage8_8

abbrev win8_9 : Pipeline.Window sig grid8 :=
  Pipeline.Window.ofSpec (Memref.whole main_v77) S1x1.size cc8_transform_9 reads8_9 false true 1 stage8_9 sem8_9
    hrank8 hreads8_9 hinb8_9 nbuf8_9 (Memref.isWhole_whole _) hwx8_9 hstage8_9

abbrev win8_10 : Pipeline.Window sig grid8 :=
  Pipeline.Window.ofSpec (Memref.whole main_v78) S4096.size cc8_transform_10 reads8_10 true false 2 stage8_10 sem8_10
    hrank8 hreads8_10 hinb8_10 nbuf8_10 (Memref.isWhole_whole _) hwx8_10 hstage8_10

abbrev win8 : Fin 11 → Pipeline.Window sig grid8 := fun | 0 => win8_0 | 1 => win8_1 | 2 => win8_2 | 3 => win8_3 | 4 => win8_4 | 5 => win8_5 | 6 => win8_6 | 7 => win8_7 | 8 => win8_8 | 9 => win8_9 | 10 => win8_10 | ⟨_ + 11, h⟩ => absurd h (Nat.not_lt.2 (Nat.le_add_left _ _))
abbrev spec8 : Fin 11 → Pipeline.WinSpec sig grid8.rank := fun w => (win8 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S128x1 : Shape := ⟨2, ![128, 1]⟩
abbrev S1 : Shape := ⟨1, ![1]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S50000 : Shape := ⟨1, ![50000]⟩
abbrev S50000x1 : Shape := ⟨2, ![50000, 1]⟩
abbrev S1x128 : Shape := ⟨2, ![1, 128]⟩
abbrev S50000x64 : Shape := ⟨2, ![50000, 64]⟩
abbrev S800000x64 : Shape := ⟨2, ![800000, 64]⟩
abbrev S1x64 : Shape := ⟨2, ![1, 64]⟩
abbrev S1x1 : Shape := ⟨2, ![1, 1]⟩

abbrev nBuf : Space → Nat
  | .hbm => 237
  | .vmem => 0
  | .smem => 0
  | _ => 0

abbrev hbmTy0_0 (i : Nat) : BufTy := match i % 128 with
  | 0 => ⟨S50000x128, .f32⟩
  | 1 => ⟨S2x800000, .i32⟩
  | 2 => ⟨S128x128, .f32⟩
  | 3 => ⟨S128, .f32⟩
  | 4 => ⟨S128x128, .f32⟩
  | 5 => ⟨S128, .f32⟩
  | 6 => ⟨S128x128, .f32⟩
  | 7 => ⟨S128, .f32⟩
  | 8 => ⟨S128x64, .f32⟩
  | 9 => ⟨S64, .f32⟩
  | 10 => ⟨S128x128, .f32⟩
  | 11 => ⟨S128, .f32⟩
  | 12 => ⟨S128x1, .f32⟩
  | 13 => ⟨S1, .f32⟩
  | 14 => ⟨S128x128, .f32⟩
  | 15 => ⟨S128, .f32⟩
  | 16 => ⟨S128x1, .f32⟩
  | 17 => ⟨S1, .f32⟩
  | 18 => ⟨S1x800000, .i32⟩
  | 19 => ⟨S800000, .i32⟩
  | 20 => ⟨S1x800000, .i32⟩
  | 21 => ⟨S800000, .i32⟩
  | 22 => ⟨S_, .i32⟩
  | 23 => ⟨S800000, .i32⟩
  | 24 => ⟨S800000, .i1⟩
  | 25 => ⟨S_, .i32⟩
  | 26 => ⟨S800000, .i32⟩
  | 27 => ⟨S800000, .i32⟩
  | 28 => ⟨S800000, .i32⟩
  | 29 => ⟨S800000x1, .i32⟩
  | 30 => ⟨S800000x128, .f32⟩
  | 31 => ⟨S_, .i32⟩
  | 32 => ⟨S800000, .i32⟩
  | 33 => ⟨S800000, .i1⟩
  | 34 => ⟨S_, .i32⟩
  | 35 => ⟨S800000, .i32⟩
  | 36 => ⟨S800000, .i32⟩
  | 37 => ⟨S800000, .i32⟩
  | 38 => ⟨S800000x1, .i32⟩
  | 39 => ⟨S800000x128, .f32⟩
  | 40 => ⟨S800000x128, .f32⟩
  | 41 => ⟨S_, .f32⟩
  | 42 => ⟨S800000x128, .f32⟩
  | 43 => ⟨S800000x128, .f32⟩
  | 44 => ⟨S800000x128, .f32⟩
  | 45 => ⟨S_, .f32⟩
  | 46 => ⟨S800000, .f32⟩
  | 47 => ⟨S800000, .f32⟩
  | 48 => ⟨S800000, .f32⟩
  | 49 => ⟨S50000x128, .f32⟩
  | 50 => ⟨S_, .i32⟩
  | 51 => ⟨S800000, .i32⟩
  | 52 => ⟨S800000, .i1⟩
  | 53 => ⟨S_, .i32⟩
  | 54 => ⟨S800000, .i32⟩
  | 55 => ⟨S800000, .i32⟩
  | 56 => ⟨S800000, .i32⟩
  | 57 => ⟨S800000x1, .i32⟩
  | 58 => ⟨S800000x128, .f32⟩
  | 59 => ⟨S_, .f32⟩
  | 60 => ⟨S50000x128, .f32⟩
  | 61 => ⟨S800000x1, .i32⟩
  | 62 => ⟨S50000x128, .f32⟩
  | 63 => ⟨S_, .f32⟩
  | 64 => ⟨S800000, .f32⟩
  | 65 => ⟨S_, .f32⟩
  | 66 => ⟨S50000, .f32⟩
  | 67 => ⟨S800000x1, .i32⟩
  | 68 => ⟨S50000, .f32⟩
  | 69 => ⟨S_, .f32⟩
  | 70 => ⟨S50000, .f32⟩
  | 71 => ⟨S50000, .f32⟩
  | 72 => ⟨S50000x1, .f32⟩
  | 73 => ⟨S50000x128, .f32⟩
  | 74 => ⟨S50000x128, .f32⟩
  | 75 => ⟨S1x128, .f32⟩
  | 76 => ⟨S50000x128, .f32⟩
  | 77 => ⟨S50000x128, .f32⟩
  | 78 => ⟨S_, .f32⟩
  | 79 => ⟨S50000x128, .f32⟩
  | 80 => ⟨S50000x128, .f32⟩
  | 81 => ⟨S50000x128, .f32⟩
  | 82 => ⟨S_, .i32⟩
  | 83 => ⟨S800000, .i32⟩
  | 84 => ⟨S800000, .i1⟩
  | 85 => ⟨S_, .i32⟩
  | 86 => ⟨S800000, .i32⟩
  | 87 => ⟨S800000, .i32⟩
  | 88 => ⟨S800000, .i32⟩
  | 89 => ⟨S800000x1, .i32⟩
  | 90 => ⟨S800000x128, .f32⟩
  | 91 => ⟨S_, .f32⟩
  | 92 => ⟨S50000x128, .f32⟩
  | 93 => ⟨S800000x1, .i32⟩
  | 94 => ⟨S50000x128, .f32⟩
  | 95 => ⟨S_, .f32⟩
  | 96 => ⟨S800000, .f32⟩
  | 97 => ⟨S_, .f32⟩
  | 98 => ⟨S50000, .f32⟩
  | 99 => ⟨S800000x1, .i32⟩
  | 100 => ⟨S50000, .f32⟩
  | 101 => ⟨S_, .f32⟩
  | 102 => ⟨S50000, .f32⟩
  | 103 => ⟨S50000, .f32⟩
  | 104 => ⟨S50000x1, .f32⟩
  | 105 => ⟨S50000x128, .f32⟩
  | 106 => ⟨S50000x128, .f32⟩
  | 107 => ⟨S1x128, .f32⟩
  | 108 => ⟨S50000x128, .f32⟩
  | 109 => ⟨S50000x128, .f32⟩
  | 110 => ⟨S_, .f32⟩
  | 111 => ⟨S50000x128, .f32⟩
  | 112 => ⟨S50000x128, .f32⟩
  | 113 => ⟨S50000x128, .f32⟩
  | 114 => ⟨S_, .i32⟩
  | 115 => ⟨S800000, .i32⟩
  | 116 => ⟨S800000, .i1⟩
  | 117 => ⟨S_, .i32⟩
  | 118 => ⟨S800000, .i32⟩
  | 119 => ⟨S800000, .i32⟩
  | 120 => ⟨S800000, .i32⟩
  | 121 => ⟨S800000x1, .i32⟩
  | 122 => ⟨S800000x128, .f32⟩
  | 123 => ⟨S_, .f32⟩
  | 124 => ⟨S50000x128, .f32⟩
  | 125 => ⟨S800000x1, .i32⟩
  | 126 => ⟨S50000x128, .f32⟩
  | 127 => ⟨S_, .f32⟩
  | _ => ⟨S50000x128, .f32⟩

abbrev hbmTy0_1 (i : Nat) : BufTy := match i % 128 with
  | 0 => ⟨S800000, .f32⟩
  | 1 => ⟨S_, .f32⟩
  | 2 => ⟨S50000, .f32⟩
  | 3 => ⟨S800000x1, .i32⟩
  | 4 => ⟨S50000, .f32⟩
  | 5 => ⟨S_, .f32⟩
  | 6 => ⟨S50000, .f32⟩
  | 7 => ⟨S50000, .f32⟩
  | 8 => ⟨S50000x1, .f32⟩
  | 9 => ⟨S50000x128, .f32⟩
  | 10 => ⟨S50000x128, .f32⟩
  | 11 => ⟨S1x128, .f32⟩
  | 12 => ⟨S50000x128, .f32⟩
  | 13 => ⟨S50000x128, .f32⟩
  | 14 => ⟨S_, .f32⟩
  | 15 => ⟨S50000x128, .f32⟩
  | 16 => ⟨S50000x128, .f32⟩
  | 17 => ⟨S50000x64, .f32⟩
  | 18 => ⟨S_, .i32⟩
  | 19 => ⟨S800000, .i32⟩
  | 20 => ⟨S800000, .i1⟩
  | 21 => ⟨S_, .i32⟩
  | 22 => ⟨S800000, .i32⟩
  | 23 => ⟨S800000, .i32⟩
  | 24 => ⟨S800000, .i32⟩
  | 25 => ⟨S800000x1, .i32⟩
  | 26 => ⟨S800000x64, .f32⟩
  | 27 => ⟨S_, .f32⟩
  | 28 => ⟨S50000x64, .f32⟩
  | 29 => ⟨S800000x1, .i32⟩
  | 30 => ⟨S50000x64, .f32⟩
  | 31 => ⟨S_, .f32⟩
  | 32 => ⟨S800000, .f32⟩
  | 33 => ⟨S_, .f32⟩
  | 34 => ⟨S50000, .f32⟩
  | 35 => ⟨S800000x1, .i32⟩
  | 36 => ⟨S50000, .f32⟩
  | 37 => ⟨S_, .f32⟩
  | 38 => ⟨S50000, .f32⟩
  | 39 => ⟨S50000, .f32⟩
  | 40 => ⟨S50000x1, .f32⟩
  | 41 => ⟨S50000x64, .f32⟩
  | 42 => ⟨S50000x64, .f32⟩
  | 43 => ⟨S1x64, .f32⟩
  | 44 => ⟨S50000x64, .f32⟩
  | 45 => ⟨S50000x64, .f32⟩
  | 46 => ⟨S_, .i32⟩
  | 47 => ⟨S800000, .i32⟩
  | 48 => ⟨S800000, .i1⟩
  | 49 => ⟨S_, .i32⟩
  | 50 => ⟨S800000, .i32⟩
  | 51 => ⟨S800000, .i32⟩
  | 52 => ⟨S800000, .i32⟩
  | 53 => ⟨S800000x1, .i32⟩
  | 54 => ⟨S800000x64, .f32⟩
  | 55 => ⟨S_, .i32⟩
  | 56 => ⟨S800000, .i32⟩
  | 57 => ⟨S800000, .i1⟩
  | 58 => ⟨S_, .i32⟩
  | 59 => ⟨S800000, .i32⟩
  | 60 => ⟨S800000, .i32⟩
  | 61 => ⟨S800000, .i32⟩
  | 62 => ⟨S800000x1, .i32⟩
  | 63 => ⟨S800000x64, .f32⟩
  | 64 => ⟨S800000x128, .f32⟩
  | 65 => ⟨S800000x128, .f32⟩
  | 66 => ⟨S1x128, .f32⟩
  | 67 => ⟨S800000x128, .f32⟩
  | 68 => ⟨S800000x128, .f32⟩
  | 69 => ⟨S_, .f32⟩
  | 70 => ⟨S_, .f32⟩
  | 71 => ⟨S800000x128, .f32⟩
  | 72 => ⟨S800000x128, .i1⟩
  | 73 => ⟨S_, .f32⟩
  | 74 => ⟨S800000x128, .f32⟩
  | 75 => ⟨S800000x128, .f32⟩
  | 76 => ⟨S800000x128, .f32⟩
  | 77 => ⟨S800000x1, .f32⟩
  | 78 => ⟨S1x1, .f32⟩
  | 79 => ⟨S800000x1, .f32⟩
  | 80 => ⟨S800000x1, .f32⟩
  | 81 => ⟨S800000, .f32⟩
  | 82 => ⟨S800000x128, .f32⟩
  | 83 => ⟨S1x128, .f32⟩
  | 84 => ⟨S800000x128, .f32⟩
  | 85 => ⟨S800000x128, .f32⟩
  | 86 => ⟨S_, .f32⟩
  | 87 => ⟨S_, .f32⟩
  | 88 => ⟨S800000x128, .f32⟩
  | 89 => ⟨S800000x128, .i1⟩
  | 90 => ⟨S_, .f32⟩
  | 91 => ⟨S800000x128, .f32⟩
  | 92 => ⟨S800000x128, .f32⟩
  | 93 => ⟨S800000x128, .f32⟩
  | 94 => ⟨S800000x1, .f32⟩
  | 95 => ⟨S1x1, .f32⟩
  | 96 => ⟨S800000x1, .f32⟩
  | 97 => ⟨S800000x1, .f32⟩
  | 98 => ⟨S800000, .f32⟩
  | 99 => ⟨S800000, .f32⟩
  | 100 => ⟨S800000, .f32⟩
  | 101 => ⟨S800000, .f32⟩
  | 102 => ⟨S800000, .f32⟩
  | 103 => ⟨S_, .f32⟩
  | 104 => ⟨S800000, .f32⟩
  | 105 => ⟨S800000, .f32⟩
  | 106 => ⟨S_, .f32⟩
  | 107 => ⟨S800000, .f32⟩
  | 108 => ⟨S800000, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_c : Ref sig .tc := ⟨.hbm, 22, rfl⟩
abbrev main_v4 : Ref sig .tc := ⟨.hbm, 23, rfl⟩
abbrev main_v5 : Ref sig .tc := ⟨.hbm, 24, rfl⟩
abbrev main_c_0 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_c_1 : Ref sig .tc := ⟨.hbm, 31, rfl⟩
abbrev main_v11 : Ref sig .tc := ⟨.hbm, 32, rfl⟩
abbrev main_v12 : Ref sig .tc := ⟨.hbm, 33, rfl⟩
abbrev main_c_2 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_cst : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_cst_3 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_c_4 : Ref sig .tc := ⟨.hbm, 50, rfl⟩
abbrev main_v26 : Ref sig .tc := ⟨.hbm, 51, rfl⟩
abbrev main_v27 : Ref sig .tc := ⟨.hbm, 52, rfl⟩
abbrev main_c_5 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_cst_6 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_cst_7 : Ref sig .tc := ⟨.hbm, 63, rfl⟩
abbrev main_v36 : Ref sig .tc := ⟨.hbm, 64, rfl⟩
abbrev main_cst_8 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_cst_9 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_call0_cst : Ref sig .tc := ⟨.hbm, 78, rfl⟩
abbrev main_call0_v0 : Ref sig .tc := ⟨.hbm, 79, rfl⟩
abbrev main_v48 : Ref sig .tc := ⟨.hbm, 80, rfl⟩
abbrev main_v49 : Ref sig .tc := ⟨.hbm, 81, rfl⟩
abbrev main_c_10 : Ref sig .tc := ⟨.hbm, 82, rfl⟩
abbrev main_v50 : Ref sig .tc := ⟨.hbm, 83, rfl⟩
abbrev main_v51 : Ref sig .tc := ⟨.hbm, 84, rfl⟩
abbrev main_c_11 : Ref sig .tc := ⟨.hbm, 85, rfl⟩
abbrev main_v52 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev main_v56 : Ref sig .tc := ⟨.hbm, 90, rfl⟩
abbrev main_cst_12 : Ref sig .tc := ⟨.hbm, 91, rfl⟩
abbrev main_v57 : Ref sig .tc := ⟨.hbm, 92, rfl⟩
abbrev main_v58 : Ref sig .tc := ⟨.hbm, 93, rfl⟩
abbrev main_v59 : Ref sig .tc := ⟨.hbm, 94, rfl⟩
abbrev main_cst_13 : Ref sig .tc := ⟨.hbm, 95, rfl⟩
abbrev main_v60 : Ref sig .tc := ⟨.hbm, 96, rfl⟩
abbrev main_cst_14 : Ref sig .tc := ⟨.hbm, 97, rfl⟩
abbrev main_v61 : Ref sig .tc := ⟨.hbm, 98, rfl⟩
abbrev main_v62 : Ref sig .tc := ⟨.hbm, 99, rfl⟩
abbrev main_v63 : Ref sig .tc := ⟨.hbm, 100, rfl⟩
abbrev main_cst_15 : Ref sig .tc := ⟨.hbm, 101, rfl⟩
abbrev main_v64 : Ref sig .tc := ⟨.hbm, 102, rfl⟩
abbrev main_v65 : Ref sig .tc := ⟨.hbm, 103, rfl⟩
abbrev main_v66 : Ref sig .tc := ⟨.hbm, 104, rfl⟩
abbrev main_v67 : Ref sig .tc := ⟨.hbm, 105, rfl⟩
abbrev main_v68 : Ref sig .tc := ⟨.hbm, 106, rfl⟩
abbrev main_v69 : Ref sig .tc := ⟨.hbm, 107, rfl⟩
abbrev main_v70 : Ref sig .tc := ⟨.hbm, 108, rfl⟩
abbrev main_v71 : Ref sig .tc := ⟨.hbm, 109, rfl⟩
abbrev main_call1_cst : Ref sig .tc := ⟨.hbm, 110, rfl⟩
abbrev main_call1_v0 : Ref sig .tc := ⟨.hbm, 111, rfl⟩
abbrev main_v72 : Ref sig .tc := ⟨.hbm, 112, rfl⟩
abbrev main_v73 : Ref sig .tc := ⟨.hbm, 113, rfl⟩
abbrev main_c_16 : Ref sig .tc := ⟨.hbm, 114, rfl⟩
abbrev main_v74 : Ref sig .tc := ⟨.hbm, 115, rfl⟩
abbrev main_v75 : Ref sig .tc := ⟨.hbm, 116, rfl⟩
abbrev main_c_17 : Ref sig .tc := ⟨.hbm, 117, rfl⟩
abbrev main_v76 : Ref sig .tc := ⟨.hbm, 118, rfl⟩
abbrev main_v77 : Ref sig .tc := ⟨.hbm, 119, rfl⟩
abbrev main_v78 : Ref sig .tc := ⟨.hbm, 120, rfl⟩
abbrev main_v79 : Ref sig .tc := ⟨.hbm, 121, rfl⟩
abbrev main_v80 : Ref sig .tc := ⟨.hbm, 122, rfl⟩
abbrev main_cst_18 : Ref sig .tc := ⟨.hbm, 123, rfl⟩
abbrev main_v81 : Ref sig .tc := ⟨.hbm, 124, rfl⟩
abbrev main_v82 : Ref sig .tc := ⟨.hbm, 125, rfl⟩
abbrev main_v83 : Ref sig .tc := ⟨.hbm, 126, rfl⟩
abbrev main_cst_19 : Ref sig .tc := ⟨.hbm, 127, rfl⟩
abbrev main_v84 : Ref sig .tc := ⟨.hbm, 128, rfl⟩
abbrev main_cst_20 : Ref sig .tc := ⟨.hbm, 129, rfl⟩
abbrev main_v85 : Ref sig .tc := ⟨.hbm, 130, rfl⟩
abbrev main_v86 : Ref sig .tc := ⟨.hbm, 131, rfl⟩
abbrev main_v87 : Ref sig .tc := ⟨.hbm, 132, rfl⟩
abbrev main_cst_21 : Ref sig .tc := ⟨.hbm, 133, rfl⟩
abbrev main_v88 : Ref sig .tc := ⟨.hbm, 134, rfl⟩
abbrev main_v89 : Ref sig .tc := ⟨.hbm, 135, rfl⟩
abbrev main_v90 : Ref sig .tc := ⟨.hbm, 136, rfl⟩
abbrev main_v91 : Ref sig .tc := ⟨.hbm, 137, rfl⟩
abbrev main_v92 : Ref sig .tc := ⟨.hbm, 138, rfl⟩
abbrev main_v93 : Ref sig .tc := ⟨.hbm, 139, rfl⟩
abbrev main_v94 : Ref sig .tc := ⟨.hbm, 140, rfl⟩
abbrev main_v95 : Ref sig .tc := ⟨.hbm, 141, rfl⟩
abbrev main_call2_cst : Ref sig .tc := ⟨.hbm, 142, rfl⟩
abbrev main_call2_v0 : Ref sig .tc := ⟨.hbm, 143, rfl⟩
abbrev main_v96 : Ref sig .tc := ⟨.hbm, 144, rfl⟩
abbrev main_v97 : Ref sig .tc := ⟨.hbm, 145, rfl⟩
abbrev main_c_22 : Ref sig .tc := ⟨.hbm, 146, rfl⟩
abbrev main_v98 : Ref sig .tc := ⟨.hbm, 147, rfl⟩
abbrev main_v99 : Ref sig .tc := ⟨.hbm, 148, rfl⟩
abbrev main_c_23 : Ref sig .tc := ⟨.hbm, 149, rfl⟩
abbrev main_v100 : Ref sig .tc := ⟨.hbm, 150, rfl⟩
abbrev main_v101 : Ref sig .tc := ⟨.hbm, 151, rfl⟩
abbrev main_v102 : Ref sig .tc := ⟨.hbm, 152, rfl⟩
abbrev main_v103 : Ref sig .tc := ⟨.hbm, 153, rfl⟩
abbrev main_v104 : Ref sig .tc := ⟨.hbm, 154, rfl⟩
abbrev main_cst_24 : Ref sig .tc := ⟨.hbm, 155, rfl⟩
abbrev main_v105 : Ref sig .tc := ⟨.hbm, 156, rfl⟩
abbrev main_v106 : Ref sig .tc := ⟨.hbm, 157, rfl⟩
abbrev main_v107 : Ref sig .tc := ⟨.hbm, 158, rfl⟩
abbrev main_cst_25 : Ref sig .tc := ⟨.hbm, 159, rfl⟩
abbrev main_v108 : Ref sig .tc := ⟨.hbm, 160, rfl⟩
abbrev main_cst_26 : Ref sig .tc := ⟨.hbm, 161, rfl⟩
abbrev main_v109 : Ref sig .tc := ⟨.hbm, 162, rfl⟩
abbrev main_v110 : Ref sig .tc := ⟨.hbm, 163, rfl⟩
abbrev main_v111 : Ref sig .tc := ⟨.hbm, 164, rfl⟩
abbrev main_cst_27 : Ref sig .tc := ⟨.hbm, 165, rfl⟩
abbrev main_v112 : Ref sig .tc := ⟨.hbm, 166, rfl⟩
abbrev main_v113 : Ref sig .tc := ⟨.hbm, 167, rfl⟩
abbrev main_v114 : Ref sig .tc := ⟨.hbm, 168, rfl⟩
abbrev main_v115 : Ref sig .tc := ⟨.hbm, 169, rfl⟩
abbrev main_v116 : Ref sig .tc := ⟨.hbm, 170, rfl⟩
abbrev main_v117 : Ref sig .tc := ⟨.hbm, 171, rfl⟩
abbrev main_v118 : Ref sig .tc := ⟨.hbm, 172, rfl⟩
abbrev main_v119 : Ref sig .tc := ⟨.hbm, 173, rfl⟩
abbrev main_c_28 : Ref sig .tc := ⟨.hbm, 174, rfl⟩
abbrev main_v120 : Ref sig .tc := ⟨.hbm, 175, rfl⟩
abbrev main_v121 : Ref sig .tc := ⟨.hbm, 176, rfl⟩
abbrev main_c_29 : Ref sig .tc := ⟨.hbm, 177, rfl⟩
abbrev main_v122 : Ref sig .tc := ⟨.hbm, 178, rfl⟩
abbrev main_v123 : Ref sig .tc := ⟨.hbm, 179, rfl⟩
abbrev main_v124 : Ref sig .tc := ⟨.hbm, 180, rfl⟩
abbrev main_v125 : Ref sig .tc := ⟨.hbm, 181, rfl⟩
abbrev main_v126 : Ref sig .tc := ⟨.hbm, 182, rfl⟩
abbrev main_c_30 : Ref sig .tc := ⟨.hbm, 183, rfl⟩
abbrev main_v127 : Ref sig .tc := ⟨.hbm, 184, rfl⟩
abbrev main_v128 : Ref sig .tc := ⟨.hbm, 185, rfl⟩
abbrev main_c_31 : Ref sig .tc := ⟨.hbm, 186, rfl⟩
abbrev main_v129 : Ref sig .tc := ⟨.hbm, 187, rfl⟩
abbrev main_v130 : Ref sig .tc := ⟨.hbm, 188, rfl⟩
abbrev main_v131 : Ref sig .tc := ⟨.hbm, 189, rfl⟩
abbrev main_v132 : Ref sig .tc := ⟨.hbm, 190, rfl⟩
abbrev main_v133 : Ref sig .tc := ⟨.hbm, 191, rfl⟩
abbrev main_v134 : Ref sig .tc := ⟨.hbm, 192, rfl⟩
abbrev main_v135 : Ref sig .tc := ⟨.hbm, 193, rfl⟩
abbrev main_v136 : Ref sig .tc := ⟨.hbm, 194, rfl⟩
abbrev main_v137 : Ref sig .tc := ⟨.hbm, 195, rfl⟩
abbrev main_v138 : Ref sig .tc := ⟨.hbm, 196, rfl⟩
abbrev main_cst_32 : Ref sig .tc := ⟨.hbm, 197, rfl⟩
abbrev main_call3_cst : Ref sig .tc := ⟨.hbm, 198, rfl⟩
abbrev main_call3_v0 : Ref sig .tc := ⟨.hbm, 199, rfl⟩
abbrev main_call3_v1 : Ref sig .tc := ⟨.hbm, 200, rfl⟩
abbrev main_call3_v2 : Ref sig .tc := ⟨.hbm, 201, rfl⟩
abbrev main_call3_v3 : Ref sig .tc := ⟨.hbm, 202, rfl⟩
abbrev main_call3_v4 : Ref sig .tc := ⟨.hbm, 203, rfl⟩
abbrev main_v139 : Ref sig .tc := ⟨.hbm, 204, rfl⟩
abbrev main_v140 : Ref sig .tc := ⟨.hbm, 205, rfl⟩
abbrev main_v141 : Ref sig .tc := ⟨.hbm, 206, rfl⟩
abbrev main_v142 : Ref sig .tc := ⟨.hbm, 207, rfl⟩
abbrev main_v143 : Ref sig .tc := ⟨.hbm, 208, rfl⟩
abbrev main_v144 : Ref sig .tc := ⟨.hbm, 209, rfl⟩
abbrev main_v145 : Ref sig .tc := ⟨.hbm, 210, rfl⟩
abbrev main_v146 : Ref sig .tc := ⟨.hbm, 211, rfl⟩
abbrev main_v147 : Ref sig .tc := ⟨.hbm, 212, rfl⟩
abbrev main_v148 : Ref sig .tc := ⟨.hbm, 213, rfl⟩
abbrev main_cst_33 : Ref sig .tc := ⟨.hbm, 214, rfl⟩
abbrev main_call4_cst : Ref sig .tc := ⟨.hbm, 215, rfl⟩
abbrev main_call4_v0 : Ref sig .tc := ⟨.hbm, 216, rfl⟩
abbrev main_call4_v1 : Ref sig .tc := ⟨.hbm, 217, rfl⟩
abbrev main_call4_v2 : Ref sig .tc := ⟨.hbm, 218, rfl⟩
abbrev main_call4_v3 : Ref sig .tc := ⟨.hbm, 219, rfl⟩
abbrev main_call4_v4 : Ref sig .tc := ⟨.hbm, 220, rfl⟩
abbrev main_v149 : Ref sig .tc := ⟨.hbm, 221, rfl⟩
abbrev main_v150 : Ref sig .tc := ⟨.hbm, 222, rfl⟩
abbrev main_v151 : Ref sig .tc := ⟨.hbm, 223, rfl⟩
abbrev main_v152 : Ref sig .tc := ⟨.hbm, 224, rfl⟩
abbrev main_v153 : Ref sig .tc := ⟨.hbm, 225, rfl⟩
abbrev main_v154 : Ref sig .tc := ⟨.hbm, 226, rfl⟩
abbrev main_v155 : Ref sig .tc := ⟨.hbm, 227, rfl⟩
abbrev main_v156 : Ref sig .tc := ⟨.hbm, 228, rfl⟩
abbrev main_v157 : Ref sig .tc := ⟨.hbm, 229, rfl⟩
abbrev main_v158 : Ref sig .tc := ⟨.hbm, 230, rfl⟩
abbrev main_cst_34 : Ref sig .tc := ⟨.hbm, 231, rfl⟩
abbrev main_v159 : Ref sig .tc := ⟨.hbm, 232, rfl⟩
abbrev main_v160 : Ref sig .tc := ⟨.hbm, 233, rfl⟩
abbrev main_cst_35 : Ref sig .tc := ⟨.hbm, 234, rfl⟩
abbrev main_v161 : Ref sig .tc := ⟨.hbm, 235, rfl⟩
abbrev main_v162 : Ref sig .tc := ⟨.hbm, 236, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S800000x128 : S_.BroadcastsInDim S800000x128 (![] : Fin 0 → Fin S800000x128.rank)
  reducesTo_S800000x128_S800000_d1 : S800000x128.ReducesTo [1] S800000
  h_S_ : 0 < S_.numel
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S50000x64 : S_.BroadcastsInDim S50000x64 (![] : Fin 0 → Fin S50000x64.rank)
  bcast_S50000x1_S50000x64_0_1 : S50000x1.BroadcastsInDim S50000x64 (![0, 1] : Fin 2 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  concatenates_S800000x64_S800000x64_S800000x128_d1 : Shape.Concatenates [S800000x64, S800000x64] S800000x128 1
  bcast_S1x128_S800000x128_0_1 : S1x128.BroadcastsInDim S800000x128 (![0, 1] : Fin 2 → Fin S800000x128.rank)
  bcast_S1_S1x1_1 : S1.BroadcastsInDim S1x1 (![1] : Fin 1 → Fin S1x1.rank)
  bcast_S1x1_S800000x1_0_1 : S1x1.BroadcastsInDim S800000x1 (![0, 1] : Fin 2 → Fin S800000x1.rank)
  shapeCasts_S800000x1_S800000 : S800000x1.ShapeCasts S800000
  gather_S50000x128_S800000x1_S800000x128_1_0_n_n_0_1_1128_wf : GatherDims.WF S50000x128 S800000x1 S800000x128 [1] [0] [] [0] [] 1 ![1, 128]
  dot_S50000x128_S128x128_S50000x128_1_0_0_1_n_n_wf : DotDims.WF S50000x128 S128x128 S50000x128 [1] [0] [0] [1] [] []
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1
  dot_S50000x128_S128x64_S50000x64_1_0_0_1_n_n_wf : DotDims.WF S50000x128 S128x64 S50000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  dot_S800000x128_S128x128_S800000x128_1_0_0_1_n_n_wf : DotDims.WF S800000x128 S128x128 S800000x128 [1] [0] [0] [1] [] []
  dot_S800000x128_S128x1_S800000x1_1_0_0_1_n_n_wf : DotDims.WF S800000x128 S128x1 S800000x1 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S800000x128_S128x128_S800000x128_1_0_0_1_n_n : DotDims S800000x128 S128x128 S800000x128 where
  lhsContracting := [1]
  rhsContracting := [0]
  lhsNonContracting := [0]
  rhsNonContracting := [1]
  lhsBatch := []
  rhsBatch := []
  wf := dot_S800000x128_S128x128_S800000x128_1_0_0_1_n_n_wf
def dot_S800000x128_S128x1_S800000x1_1_0_0_1_n_n : DotDims S800000x128 S128x1 S800000x1 where
  lhsContracting := [1]
  rhsContracting := [0]
  lhsNonContracting := [0]
  rhsNonContracting := [1]
  lhsBatch := []
  rhsBatch := []
  wf := dot_S800000x128_S128x1_S800000x1_1_0_0_1_n_n_wf

class Facts : Prop extends Facts₀ where

variable [Facts]
-- ==== Proof.Stage.lean ====
/-
  The mathematics shared by the two programs, as whole-array functions.

  A graph network over 50000 nodes and 800000 directed edges (src → dst). One layer sends a node table x through a
  dense map x·W, gathers row src(e) of the result for every edge e, sums the gathered rows into row dst(e)
  (a scatter-add), divides row n by max(indegree(n), 1) and adds the bias. Four layers (a ReLU before each but the
  first; the last to width 64) give the node table hg. Every edge then gets the feature row [hg(src) | hg(dst)] and
  the difference row z(src) - z(dst) + ε; its score is the logistic function 1 / (1 + exp(-x)) of
  x = (-‖diff‖₂ - r) / t, with r and t two-layer perceptrons (leaky ReLU of slope 0.2) of the feature row.

  Each function below is written with the host operations the reference program applies, in its order, so that the
  reference's run reads back as these terms; the kernel program's regions and host stretches are proved equal to
  them in the other modules.
-/
import proofs.«418594_j34866544509319_1_alg».proof.Defs
import proofs.«418594_j34866544509319_1_alg».proof.Proof.Gen.ReferenceIdeal
import Idealize.ShloMosaic.PureOps.Ideal

noncomputable section

namespace Cert.Stage

open Idealize.ShloMosaic Cert.ReferenceIdeal Cert.ReferenceIdeal.Facts₀

/-- A float array at the ideal instance: extended reals over the shape's indices. -/
abbrev FA (s : Shape) : Type := FVec Ideal s .f32
/-- A 32-bit integer array. -/
abbrev IA (s : Shape) : Type := IVec s 32

/-- Every source index addresses a row of a 50000-row table, counting from the front (0 … 49999) or, as a negative
    index, from the back (-50000 … -1). -/
def InRange (s : IA S800000) : Prop := ∀ e : S800000.Idx, -50000 ≤ (s e).toInt ∧ (s e).toInt < 50000

/-- Row 0 of the edge list: the edges' source nodes. -/
def src (ei : IA S2x800000) : IA S800000 :=
  shapeCast S800000 (extractStridedSlice S1x800000 ![0, 0] ei slices_S2x800000_S1x800000_0_0) shapeCasts_S1x800000_S800000
/-- Row 1 of the edge list: the edges' destination nodes. -/
def dst (ei : IA S2x800000) : IA S800000 :=
  shapeCast S800000 (extractStridedSlice S1x800000 ![1, 0] ei slices_S2x800000_S1x800000_1_0) shapeCasts_S1x800000_S800000

/-- An index list as a column of start indices. -/
def col (i : IA S800000) : IA S800000x1 := broadcastInDim S800000x1 ![0] bcast_S800000_S800000x1_0 i
/-- Negative indices count from the back: i < 0 becomes i + 50000; then the column of start indices. -/
def wrap (i : IA S800000) : IA S800000x1 :=
  col (select (cmpi .slt i (broadcastInDim S800000 ![] bcast_S_S800000 (constantI S_ 32 0#32)))
        (addi i (broadcastInDim S800000 ![] bcast_S_S800000 (constantI S_ 32 50000#32))) i)

/-- z(src) - z(dst) + ε, one row per edge. -/
def diff (z : FA S50000x128) (s d : IA S800000) : FA S800000x128 :=
  addf (subf (Host.gather gather_S50000x128_S800000x1_S800000x128_1_0_n_n_0_1_1128 z (wrap s))
             (Host.gather gather_S50000x128_S800000x1_S800000x128_1_0_n_n_0_1_1128 z (wrap d)))
       (broadcastInDim S800000x128 ![] bcast_S_S800000x128 (constant S_ .f32 0x358637BD#32))

/-- The indegree of every node: ones summed into the destinations. -/
def degRaw (d : IA S800000) : FA S50000 :=
  Host.scatterAdd scatter_S50000_S800000x1_S800000_n_0_0_1
    (broadcastInDim S50000 ![] bcast_S_S50000 (constant S_ .f32 0x00000000#32)) (col d)
    (broadcastInDim S800000 ![] bcast_S_S800000 (constant S_ .f32 0x3F800000#32))
/-- max(·, 1) on a node vector. -/
def atLeastOne (g : FA S50000) : FA S50000 :=
  maximumf g (broadcastInDim S50000 ![] bcast_S_S50000 (constant S_ .f32 0x3F800000#32))

/-- max(x, 0) on a node table. -/
def relu (x : FA S50000x128) : FA S50000x128 :=
  maximumf x (broadcastInDim S50000x128 ![] bcast_S_S50000x128 (constant S_ .f32 0x00000000#32))

/-- The dense map x·W, width 128. -/
def mm128 (x : FA S50000x128) (w : FA S128x128) : FA S50000x128 :=
  Host.dotGeneral dot_S50000x128_S128x128_S50000x128_1_0_0_1_n_n none x w
/-- The dense map x·W, width 64. -/
def mm64 (x : FA S50000x128) (w : FA S128x64) : FA S50000x64 :=
  Host.dotGeneral dot_S50000x128_S128x64_S50000x64_1_0_0_1_n_n none x w

/-- Row src(e) of h summed into row dst(e), over all edges e; width 128. -/
def agg128 (h : FA S50000x128) (s d : IA S800000) : FA S50000x128 :=
  Host.scatterAdd scatter_S50000x128_S800000x1_S800000x128_1_0_0_1
    (broadcastInDim S50000x128 ![] bcast_S_S50000x128 (constant S_ .f32 0x00000000#32)) (col d)
    (Host.gather gather_S50000x128_S800000x1_S800000x128_1_0_n_n_0_1_1128 h (wrap s))
/-- The same at width 64. -/
def agg64 (h : FA S50000x64) (s d : IA S800000) : FA S50000x64 :=
  Host.scatterAdd scatter_S50000x64_S800000x1_S800000x64_1_0_0_1
    (broadcastInDim S50000x64 ![] bcast_S_S50000x64 (constant S_ .f32 0x00000000#32)) (col d)
    (Host.gather gather_S50000x64_S800000x1_S800000x64_1_0_n_n_0_1_164 h (wrap s))

/-- Row n divided by g(n), plus the bias row; width 128. -/
def norm128 (a : FA S50000x128) (g : FA S50000) (b : FA S128) : FA S50000x128 :=
  addf (Host.divf a (broadcastInDim S50000x128 ![0, 1] bcast_S50000x1_S50000x128_0_1
                      (broadcastInDim S50000x1 ![0] bcast_S50000_S50000x1_0 g)))
       (broadcastInDim S50000x128 ![0, 1] bcast_S1x128_S50000x128_0_1 (broadcastInDim S1x128 ![1] bcast_S128_S1x128_1 b))
/-- The same at width 64. -/
def norm64 (a : FA S50000x64) (g : FA S50000) (b : FA S64) : FA S50000x64 :=
  addf (Host.divf a (broadcastInDim S50000x64 ![0, 1] bcast_S50000x1_S50000x64_0_1
                      (broadcastInDim S50000x1 ![0] bcast_S50000_S50000x1_0 g)))
       (broadcastInDim S50000x64 ![0, 1] bcast_S1x64_S50000x64_0_1 (broadcastInDim S1x64 ![1] bcast_S64_S1x64_1 b))

/-- One layer at width 128: dense map, gather, scatter-add, divide by the clamped indegree, add the bias. -/
def layer128 (x : FA S50000x128) (w : FA S128x128) (b : FA S128) (s d : IA S800000) : FA S50000x128 :=
  norm128 (agg128 (mm128 x w) s d) (atLeastOne (degRaw d)) b
/-- The last layer, to width 64. -/
def layer64 (x : FA S50000x128) (w : FA S128x64) (b : FA S64) (s d : IA S800000) : FA S50000x64 :=
  norm64 (agg64 (mm64 x w) s d) (atLeastOne (degRaw d)) b

/-- The edge feature rows [hg(src) | hg(dst)]. -/
def feat (hg : FA S50000x64) (s d : IA S800000) : FA S800000x128 :=
  concatenate S800000x128 1
    [⟨S800000x64, Host.gather gather_S50000x64_S800000x1_S800000x64_1_0_n_n_0_1_164 hg (wrap s)⟩,
     ⟨S800000x64, Host.gather gather_S50000x64_S800000x1_S800000x64_1_0_n_n_0_1_164 hg (wrap d)⟩]
    concatenates_S800000x64_S800000x64_S800000x128_d1

/-- -‖row‖₂ of the difference rows. -/
def dist (df : FA S800000x128) : FA S800000 :=
  Host.negf (Host.sqrt (Host.reduceAdd (mulf df df) (constant S_ .f32 0x00000000#32) reducesTo_S800000x128_S800000_d1 h_S_))

/-- The leaky ReLU of slope 0.2: x where x ≥ 0, else 0.2·x. -/
def lrelu (x : FA S800000x128) : FA S800000x128 :=
  select (cmpf .oge x (broadcastInDim S800000x128 ![] bcast_S_S800000x128 (constant S_ .f32 0x00000000#32))) x
    (mulf (broadcastInDim S800000x128 ![] bcast_S_S800000x128 (id (constant S_ .f32 0x3E4CCCCD#32))) x)

/-- A two-layer perceptron of the feature rows, one number per edge. -/
def mlp (ft : FA S800000x128) (W1 : FA S128x128) (b1 : FA S128) (W2 : FA S128x1) (b2 : FA S1) : FA S800000 :=
  shapeCast S800000
    (addf (Host.dotGeneral dot_S800000x128_S128x1_S800000x1_1_0_0_1_n_n none
            (lrelu (addf (Host.dotGeneral dot_S800000x128_S128x128_S800000x128_1_0_0_1_n_n none ft W1)
                     (broadcastInDim S800000x128 ![0, 1] bcast_S1x128_S800000x128_0_1 (broadcastInDim S1x128 ![1] bcast_S128_S1x128_1 b1))))
            W2)
          (broadcastInDim S800000x1 ![0, 1] bcast_S1x1_S800000x1_0_1 (broadcastInDim S1x1 ![1] bcast_S1_S1x1_1 b2)))
    shapeCasts_S800000x1_S800000

/-- The logistic function 1 / (1 + exp(-x)). -/
def logistic (x : FA S800000) : FA S800000 :=
  Host.divf (broadcastInDim S800000 ![] bcast_S_S800000 (constant S_ .f32 0x3F800000#32))
    (addf (broadcastInDim S800000 ![] bcast_S_S800000 (constant S_ .f32 0x3F800000#32)) (Host.exp (Host.negf x)))

/-- The edge scores from the feature rows, the difference rows and the two perceptrons' parameters. -/
def edge (ft df : FA S800000x128) (rW1 : FA S128x128) (rb1 : FA S128) (rW2 : FA S128x1) (rb2 : FA S1)
    (tW1 : FA S128x128) (tb1 : FA S128) (tW2 : FA S128x1) (tb2 : FA S1) : FA S800000 :=
  logistic (Host.divf (subf (dist df) (mlp ft rW1 rb1 rW2 rb2)) (mlp ft tW1 tb1 tW2 tb2))

/-- The whole network: the edge scores as one function of the eighteen argument arrays. -/
def full (z : FA S50000x128) (ei : IA S2x800000) (W_in : FA S128x128) (b_in : FA S128) (W_h1 : FA S128x128) (b_h1 : FA S128)
    (W_h2 : FA S128x128) (b_h2 : FA S128) (W_out : FA S128x64) (b_out : FA S64)
    (rW1 : FA S128x128) (rb1 : FA S128) (rW2 : FA S128x1) (rb2 : FA S1)
    (tW1 : FA S128x128) (tb1 : FA S128) (tW2 : FA S128x1) (tb2 : FA S1) : FA S800000 :=
  edge (feat (layer64 (relu (layer128 (relu (layer128 (relu (layer128 z W_in b_in (src ei) (dst ei))) W_h1 b_h1 (src ei) (dst ei)))
                 W_h2 b_h2 (src ei) (dst ei))) W_out b_out (src ei) (dst ei)) (src ei) (dst ei))
       (diff z (src ei) (dst ei)) rW1 rb1 rW2 rb2 tW1 tb1 tW2 tb2

end Cert.Stage

end
-- ==== Proof.Keep.lean ====
/-
  What passes through the run untouched. No host operation and no region writes an argument array, so at every
  segment boundary an argument holds its launch contents; and the edge list's rows, the indegree and the difference
  rows are computed once before the first region and never written again, so every later boundary holds them as the
  first boundary does.
-/
import proofs.«418594_j34866544509319_1_alg».proof.Proof.Gen.KernelIdeal.Frame
import proofs.«418594_j34866544509319_1_alg».proof.Proof.Stage
import Idealize.ShloMosaic.Lib.StableHlo.Run
set_option maxRecDepth 16384

noncomputable section

namespace Cert.KernelIdeal.Keep

open Idealize.ShloMosaic Idealize.ShloMosaic.TcCoe Idealize.SL.Sem
open Cert.KernelIdeal Cert.KernelIdeal.Gen Cert.KernelIdeal.Facts₀

variable (m : (ℓ : Loc nD τ sig) → Buf (Elt Ideal) ℓ) (ρ : Dev nD → PrngReg) (c : Dev nD)

/-! ## One segment back

Between two neighbouring boundaries lies either a stretch of host operations or a region. A host operation writes
exactly one named array, its result; so an array that is the result of none of a stretch's operations holds after
the stretch what it held before it. A region writes only the arrays of its windows; so an array that is none of
them holds at the region's exit what it held at its entry. Every step below is one of these two facts, and the only
thing to check is that two array names differ. -/

/-- Across a host stretch: each operation's result array is compared by name with the array asked about, and none
    is it. What is left to show is the same equation one boundary earlier. -/
local macro "host_step " ops:ident : tactic => `(tactic|
  refine (StableHlo.after_of_forall_not_mem _ _ (List.forall_iff_forall_mem.mp (by
    simp only [$ops:ident, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes,
      StableHlo.binaryIndexed_writes, Finset.mem_singleton]
    repeat' apply And.intro
    all_goals exact StableHlo.devRef_ne_of_ne (by decide)))).trans ?_)

/-- Boundary 1 back to the launch. The first stretch cuts the edge list into its source and destination rows, turns
    negative indices into indices from the front, gathers the two node rows of every edge, forms the difference
    rows and sums ones into the destinations (the indegree). It reads the node table and the edge list and writes
    only those intermediate arrays, never an argument; before it the memory is the launch memory. -/
local macro "to_launch" : tactic => `(tactic| (host_step hostOps0; rfl))

/-- Boundary 2 back to 1: region 0, the first layer's dense map. Its windows are the node table, the first weight
    and the product; the array asked about is none of the three. -/
local macro "down2" : tactic => `(tactic| refine (W2_of_ne _ _ _ _ (by decide)).trans ?_)

/-- Boundary 5 back to 2: the first layer's aggregation. Region 1 divides the summed rows by the clamped indegree and
    adds the bias (windows: the sums, the indegree column, the bias row, the layer's node table). Before it come the
    zero table, the destination column, the scatter-add and the reshapes of the indegree and of the bias; and
    before those the gather of the product's rows at the sources, with its range test and mask. These stretches READ
    the edge rows, the indegree and the bias; what each operation writes is its own fresh result. -/
local macro "down5" : tactic => `(tactic|
  (refine (W5_of_ne _ _ _ _ (by decide)).trans ?_; host_step hostOps1_1; host_step hostOps1))

/-- Boundary 6 back to 5: region 2, the second layer's dense map (windows: the first layer's node table, the second
    weight, the product). -/
local macro "down6" : tactic => `(tactic| refine (W6_of_ne _ _ _ _ (by decide)).trans ?_)

/-- Boundary 9 back to 6: the second layer's aggregation, shaped as the first's: region 3 (sums, indegree column,
    bias row, node table), the scatter-add stretch, the gather stretch. -/
local macro "down9" : tactic => `(tactic|
  (refine (W9_of_ne _ _ _ _ (by decide)).trans ?_; host_step hostOps3_1; host_step hostOps3))

/-- Boundary 10 back to 9: region 4, the third layer's dense map (windows: the second layer's node table, the third
    weight, the product). -/
local macro "down10" : tactic => `(tactic| refine (W10_of_ne _ _ _ _ (by decide)).trans ?_)

/-- Boundary 13 back to 10: the third layer's aggregation: region 5, the scatter-add stretch, the gather stretch. -/
local macro "down13" : tactic => `(tactic|
  (refine (W13_of_ne _ _ _ _ (by decide)).trans ?_; host_step hostOps5_1; host_step hostOps5))

/-- Boundary 14 back to 13: region 6, the last layer's dense map, to width 64 (windows: the third layer's node
    table, the fourth weight, the product). -/
local macro "down14" : tactic => `(tactic| refine (W14_of_ne _ _ _ _ (by decide)).trans ?_)

/-- Boundary 17 back to 14: the last layer's aggregation at width 64: region 7, the scatter-add stretch, the gather
    stretch. -/
local macro "down17" : tactic => `(tactic|
  (refine (W17_of_ne _ _ _ _ (by decide)).trans ?_; host_step hostOps7_1; host_step hostOps7))

/-! The walks from a boundary all the way to the launch, each the next block on top of the one before. -/
local macro "from2" : tactic => `(tactic| (down2; to_launch))
local macro "from5" : tactic => `(tactic| (down5; from2))
local macro "from6" : tactic => `(tactic| (down6; from5))
local macro "from9" : tactic => `(tactic| (down9; from6))
local macro "from10" : tactic => `(tactic| (down10; from9))
local macro "from13" : tactic => `(tactic| (down13; from10))
local macro "from14" : tactic => `(tactic| (down14; from13))
local macro "from17" : tactic => `(tactic| (down17; from14))

/-! ## The arguments, at the boundaries where they are read

An argument is an operand of host operations (the edge list is sliced, the node table gathered, a bias reshaped)
and an input window of at most one region, which lies AFTER the boundary named here; it is never a result and never
an output window. So every region on the way back is passed as "none of its arrays". -/

/- The node table, the edge list and the first weight, after the first stretch. -/
theorem w1_arg0 : W1 (F := Ideal) m ρ c (Proc.devRef .tc main_arg0) = m ((c : Thread nD τ).loc main_arg0) := by
  to_launch
theorem w1_arg1 : W1 (F := Ideal) m ρ c (Proc.devRef .tc main_arg1) = m ((c : Thread nD τ).loc main_arg1) := by
  to_launch
theorem w1_arg2 : W1 (F := Ideal) m ρ c (Proc.devRef .tc main_arg2) = m ((c : Thread nD τ).loc main_arg2) := by
  to_launch
/- The first bias, past the first dense map. -/
theorem w2_arg3 : W2 (F := Ideal) m ρ c (Proc.devRef .tc main_arg3) = m ((c : Thread nD τ).loc main_arg3) := by
  from2
/- The second weight, past the first layer. -/
theorem w5_arg4 : W5 (F := Ideal) m ρ c (Proc.devRef .tc main_arg4) = m ((c : Thread nD τ).loc main_arg4) := by
  from5
/- The second bias, past the second dense map. -/
theorem w6_arg5 : W6 (F := Ideal) m ρ c (Proc.devRef .tc main_arg5) = m ((c : Thread nD τ).loc main_arg5) := by
  from6
/- The third weight, past the second layer. -/
theorem w9_arg6 : W9 (F := Ideal) m ρ c (Proc.devRef .tc main_arg6) = m ((c : Thread nD τ).loc main_arg6) := by
  from9
/- The third bias, past the third dense map. -/
theorem w10_arg7 : W10 (F := Ideal) m ρ c (Proc.devRef .tc main_arg7) = m ((c : Thread nD τ).loc main_arg7) := by
  from10
/- The fourth weight, past the third layer. -/
theorem w13_arg8 : W13 (F := Ideal) m ρ c (Proc.devRef .tc main_arg8) = m ((c : Thread nD τ).loc main_arg8) := by
  from13
/- The fourth bias, past the last dense map. -/
theorem w14_arg9 : W14 (F := Ideal) m ρ c (Proc.devRef .tc main_arg9) = m ((c : Thread nD τ).loc main_arg9) := by
  from14
/- The two perceptrons' eight parameters, past all four layers: no layer reads them at all. -/
theorem w17_arg10 : W17 (F := Ideal) m ρ c (Proc.devRef .tc main_arg10) = m ((c : Thread nD τ).loc main_arg10) := by
  from17
theorem w17_arg11 : W17 (F := Ideal) m ρ c (Proc.devRef .tc main_arg11) = m ((c : Thread nD τ).loc main_arg11) := by
  from17
theorem w17_arg12 : W17 (F := Ideal) m ρ c (Proc.devRef .tc main_arg12) = m ((c : Thread nD τ).loc main_arg12) := by
  from17
theorem w17_arg13 : W17 (F := Ideal) m ρ c (Proc.devRef .tc main_arg13) = m ((c : Thread nD τ).loc main_arg13) := by
  from17
theorem w17_arg14 : W17 (F := Ideal) m ρ c (Proc.devRef .tc main_arg14) = m ((c : Thread nD τ).loc main_arg14) := by
  from17
theorem w17_arg15 : W17 (F := Ideal) m ρ c (Proc.devRef .tc main_arg15) = m ((c : Thread nD τ).loc main_arg15) := by
  from17
theorem w17_arg16 : W17 (F := Ideal) m ρ c (Proc.devRef .tc main_arg16) = m ((c : Thread nD τ).loc main_arg16) := by
  from17
theorem w17_arg17 : W17 (F := Ideal) m ρ c (Proc.devRef .tc main_arg17) = m ((c : Thread nD τ).loc main_arg17) := by
  from17

/-! ## The edge list's rows, the indegree and the difference rows, at the boundaries where they are read

The source row, the destination row, the indegree and the difference rows are results of the first stretch only.
Later stretches read them (the gathers index by the source row, the scatter-adds by the destination row, every
normalisation reshapes the indegree) and no region has one of them among its windows. Each walk stops at boundary 1,
and a longer walk is the next block on top of the shorter one. -/

theorem w2_v1 : W2 (F := Ideal) m ρ c (Proc.devRef .tc main_v1) = W1 (F := Ideal) m ρ c (Proc.devRef .tc main_v1) := by
  down2; rfl
theorem w2_v3 : W2 (F := Ideal) m ρ c (Proc.devRef .tc main_v3) = W1 (F := Ideal) m ρ c (Proc.devRef .tc main_v3) := by
  down2; rfl
theorem w2_v24 : W2 (F := Ideal) m ρ c (Proc.devRef .tc main_v24) = W1 (F := Ideal) m ρ c (Proc.devRef .tc main_v24) := by
  down2; rfl
theorem w6_v1 : W6 (F := Ideal) m ρ c (Proc.devRef .tc main_v1) = W1 (F := Ideal) m ρ c (Proc.devRef .tc main_v1) := by
  down6; down5; exact w2_v1 m ρ c
theorem w6_v3 : W6 (F := Ideal) m ρ c (Proc.devRef .tc main_v3) = W1 (F := Ideal) m ρ c (Proc.devRef .tc main_v3) := by
  down6; down5; exact w2_v3 m ρ c
theorem w6_v24 : W6 (F := Ideal) m ρ c (Proc.devRef .tc main_v24) = W1 (F := Ideal) m ρ c (Proc.devRef .tc main_v24) := by
  down6; down5; exact w2_v24 m ρ c
theorem w10_v1 : W10 (F := Ideal) m ρ c (Proc.devRef .tc main_v1) = W1 (F := Ideal) m ρ c (Proc.devRef .tc main_v1) := by
  down10; down9; exact w6_v1 m ρ c
theorem w10_v3 : W10 (F := Ideal) m ρ c (Proc.devRef .tc main_v3) = W1 (F := Ideal) m ρ c (Proc.devRef .tc main_v3) := by
  down10; down9; exact w6_v3 m ρ c
theorem w10_v24 : W10 (F := Ideal) m ρ c (Proc.devRef .tc main_v24) = W1 (F := Ideal) m ρ c (Proc.devRef .tc main_v24) := by
  down10; down9; exact w6_v24 m ρ c
theorem w14_v1 : W14 (F := Ideal) m ρ c (Proc.devRef .tc main_v1) = W1 (F := Ideal) m ρ c (Proc.devRef .tc main_v1) := by
  down14; down13; exact w10_v1 m ρ c
theorem w14_v3 : W14 (F := Ideal) m ρ c (Proc.devRef .tc main_v3) = W1 (F := Ideal) m ρ c (Proc.devRef .tc main_v3) := by
  down14; down13; exact w10_v3 m ρ c
theorem w14_v24 : W14 (F := Ideal) m ρ c (Proc.devRef .tc main_v24) = W1 (F := Ideal) m ρ c (Proc.devRef .tc main_v24) := by
  down14; down13; exact w10_v24 m ρ c
theorem w17_v1 : W17 (F := Ideal) m ρ c (Proc.devRef .tc main_v1) = W1 (F := Ideal) m ρ c (Proc.devRef .tc main_v1) := by
  down17; exact w14_v1 m ρ c
theorem w17_v3 : W17 (F := Ideal) m ρ c (Proc.devRef .tc main_v3) = W1 (F := Ideal) m ρ c (Proc.devRef .tc main_v3) := by
  down17; exact w14_v3 m ρ c
/- The difference rows are read only after the last layer, so this walk crosses all four layers in one go. -/
theorem w17_v20 : W17 (F := Ideal) m ρ c (Proc.devRef .tc main_v20) = W1 (F := Ideal) m ρ c (Proc.devRef .tc main_v20) := by
  down17; down14; down13; down10; down9; down6; down5; down2; rfl

end Cert.KernelIdeal.Keep

end
-- ==== Proof.HostPre.lean ====
/-
  The host operations before the first region: the edge list's rows src and dst, the difference rows
  z(src) - z(dst) + ε, and the indegree (ones summed into the destinations). They are the operations the reference
  applies, so each result is the shared function of the argument arrays.
-/
import proofs.«418594_j34866544509319_1_alg».proof.Proof.Gen.KernelIdeal.Frame
import proofs.«418594_j34866544509319_1_alg».proof.Proof.Stage
import Idealize.ShloMosaic.Lib.StableHlo.Run
set_option maxRecDepth 16384

noncomputable section

namespace Cert.KernelIdeal.Host

open Idealize.ShloMosaic Idealize.ShloMosaic.TcCoe Idealize.SL.Sem
open Cert.KernelIdeal Cert.KernelIdeal.Gen Cert.KernelIdeal.Facts₀

open Idealize.ShloMosaic.StableHlo

-- the TensorCore's buffer contents before the stretch (any contents)
variable (W : Valuation τ sig (Elt Ideal))

/-- Row 0 of the edge list as a flat list: the slice of that row, then the reshape that drops the unit axis. -/
theorem pre_src : after hostOps0 W (Proc.devRef .tc main_v1) = Cert.Stage.src (W (Proc.devRef .tc main_arg1)) := by
  dsimp only [hostOps0]
  after_results
  rfl
/-- Row 1 of the edge list, in the same way. -/
theorem pre_dst : after hostOps0 W (Proc.devRef .tc main_v3) = Cert.Stage.dst (W (Proc.devRef .tc main_arg1)) := by
  dsimp only [hostOps0]
  after_results_simp
  rfl
/-- Each index list is wrapped (a negative index i becomes i + 50000) and made a column of start indices; the rows of z
    at the wrapped sources and at the wrapped destinations are gathered, subtracted entry by entry, and ε is added to
    every entry. The operations and their order are the reference's, so the composed term is the shared function. -/
theorem pre_diff : after hostOps0 W (Proc.devRef .tc main_v20)
    = Cert.Stage.diff (W (Proc.devRef .tc main_arg0)) (Cert.Stage.src (W (Proc.devRef .tc main_arg1))) (Cert.Stage.dst (W (Proc.devRef .tc main_arg1))) := by
  dsimp only [hostOps0]
  after_results_simp
  rfl
/-- A zero vector over the nodes receives a one at dst(e) for every edge e: the scatter-add of ones along the column of
    destinations (the destinations are used as they are, without the wrap). -/
theorem pre_deg : after hostOps0 W (Proc.devRef .tc main_v24) = Cert.Stage.degRaw (Cert.Stage.dst (W (Proc.devRef .tc main_arg1))) := by
  dsimp only [hostOps0]
  after_results_simp
  rfl

end Cert.KernelIdeal.Host

end
-- ==== Proof.TakeFill.lean ====
/-
  jnp.take in fill mode against a plain gather. The kernel program gathers the mapped rows with a bounds check: the
  index i is first moved to i + 50000 where i < 0; the row at the moved index is kept where 0 ≤ moved ≤ 49999 and
  replaced by a fill word elsewhere. If -50000 ≤ i < 50000 the moved index always lies in 0 … 49999 (32-bit signed
  arithmetic: no wrap-around at these sizes), the keep-mask is all ones and nothing is replaced.
-/
import proofs.«418594_j34866544509319_1_alg».proof.Proof.Gen.KernelIdeal
import proofs.«418594_j34866544509319_1_alg».proof.Proof.Stage
import Idealize.ShloMosaic.Lib.ReduceAll
import Idealize.ShloMosaic.Lib.StableHlo.Predicate

noncomputable section

namespace Cert.KernelIdeal.Host

open Idealize.ShloMosaic
open Cert.KernelIdeal Cert.KernelIdeal.Facts₀

/-- An integer within the signed 32-bit range is its own balanced remainder modulo 2³². -/
theorem bmod32 {n : Int} (h₁ : -2 ^ 31 ≤ n) (h₂ : n < 2 ^ 31) : n.bmod (2 ^ 32) = n :=
  Int.bmod_eq_of_le (by omega) (by omega)

/-- A left fold by "and" over one-bit words, started at 1 and meeting only 1s, is 1. -/
theorem foldl_andi_one {ι : Type} (f : ι → BitVec 1) :
    ∀ (l : List ι) (init : BitVec 1), init = 1#1 → (∀ n ∈ l, f n = 1#1) → l.foldl (fun r n => IntOp.andi r (f n)) init = 1#1
  | [], _, hi, _ => hi
  | a :: l, init, hi, hf =>
    foldl_andi_one f l _ (IntOp.andi_eq_one.2 ⟨hi, hf a (List.mem_cons_self ..)⟩) (fun n hn => hf n (List.mem_cons_of_mem _ hn))

/-- A reduction by "and" of an array of ones, from the initial word 1, is 1 at every result index. -/
theorem reduce_andi_one {s t u : Shape} {axes : List (Fin s.rank)} (x : s.Idx → BitVec 1) (init : u.Idx → BitVec 1)
    (h : s.ReducesTo axes t) (hu : 0 < u.numel) (j : t.Idx) (hinit : init (Shape.Idx.first hu) = 1#1)
    (hx : ∀ i, x i = 1#1) : Host.reduce IntOp.andi x init h hu j = 1#1 := by
  rw [Host.reduce_eq_foldl]
  exact foldl_andi_one x _ _ hinit (fun n _ => hx n)

/-- A word w with -50000 ≤ w < 50000 (signed), moved up by 50000 where negative, lies in 0 … 49999: the sum
    w + 50000 stays far inside the signed 32-bit range, so the 32-bit addition is the integer addition. -/
theorem moved_range (w : BitVec 32) (h1 : -50000 ≤ w.toInt) (h2 : w.toInt < 50000) :
    (0#32 : BitVec 32).toInt ≤ (Scalar.select (IntOp.cmpi .slt w 0#32) (IntOp.addi w 50000#32) w).toInt
    ∧ (Scalar.select (IntOp.cmpi .slt w 0#32) (IntOp.addi w 50000#32) w).toInt ≤ (49999#32 : BitVec 32).toInt := by
  have z0 : (0#32 : BitVec 32).toInt = 0 := by decide
  have z1 : (49999#32 : BitVec 32).toInt = 49999 := by decide
  have z2 : (50000#32 : BitVec 32).toInt = 50000 := by decide
  rw [z0, z1]
  unfold Scalar.select
  split
  · next hc =>
    have hneg : w.toInt < 0 := by have := IntOp.cmpi_slt.1 hc; rwa [z0] at this
    have hadd : (IntOp.addi w 50000#32).toInt = w.toInt + 50000 := by
      rw [IntOp.addi, BitVec.toInt_add, z2]; exact bmod32 (by omega) (by omega)
    omega
  · next hc =>
    have hnn : ¬ w.toInt < 0 := fun hlt => hc (IntOp.cmpi_slt.2 (by rw [z0]; exact hlt))
    omega

/-- A choice whose mask is the broadcast of an all-ones array keeps its first operand everywhere. -/
theorem select_bcast_ones {α : Type} {s t : Shape} (dims : Fin s.rank → Fin t.rank) (hb : s.BroadcastsInDim t dims)
    (R : IVec s 1) (a b : t.Idx → α) (hR : ∀ r, R r = 1#1) : select (broadcastInDim t dims hb R) a b = a := by
  funext j
  exact if_pos (hR _)

/-- The moved index column: i + 50000 where i < 0, else i. -/
def movedIdx (s : Cert.Stage.IA S800000) : Cert.Stage.IA S800000x1 :=
  broadcastInDim S800000x1 ![0] Facts₀.bcast_S800000_S800000x1_0
    (select (cmpi .slt s (broadcastInDim S800000 ![] Facts₀.bcast_S_S800000 (constantI S_ 32 0#32)))
      (addi s (broadcastInDim S800000 ![] Facts₀.bcast_S_S800000 (constantI S_ 32 50000#32))) s)

/-- With every source index in range the keep-mask is 1 on every row: at each entry of the moved index column both
    signed tests (0 ≤ moved, moved ≤ 49999) hold, so their conjunction over the column's one entry per row is 1. -/
theorem keep_all (s : Cert.Stage.IA S800000) (hs : Cert.Stage.InRange s) (r : S800000.Idx) :
    Host.reduce IntOp.andi
        (andi (cmpi .sge (movedIdx s) (broadcastInDim S800000x1 ![] Facts₀.bcast_S_S800000x1 (constantI S_ 32 0#32)))
              (cmpi .sle (movedIdx s) (broadcastInDim S800000x1 ![0, 1] Facts₀.bcast_S1x1_S800000x1_0_1
                                        (broadcastInDim S1x1 ![1] Facts₀.bcast_S1_S1x1_1 (constantI S1 32 49999#32)))))
        (constantI S_ 1 1#1) Facts₀.reducesTo_S800000x1_S800000_d1 Facts₀.h_S_ r = 1#1 := by
  refine reduce_andi_one _ _ _ _ _ rfl (fun i => ?_)
  -- entry i of the column is the moved word of the edge its row names; the two bounds are broadcast constants
  have hm := fun e => moved_range (s e) (hs e).1 (hs e).2
  exact IntOp.andi_eq_one.2 ⟨IntOp.cmpi_sge.2 (hm _).1, IntOp.cmpi_sle.2 (hm _).2⟩

/-- jnp.take in fill mode on a 50000×128 table, as the kernel program's host operations spell it: the index moved up by
    50000 where negative; a row kept where the moved index lies in 0 … 49999 and replaced by the fill word elsewhere. -/
def takeFill128 (h : Cert.Stage.FA S50000x128) (s : Cert.Stage.IA S800000) : Cert.Stage.FA S800000x128 :=
  select
    (broadcastInDim S800000x128 ![0] Facts₀.bcast_S800000_S800000x128_0
      (Host.reduce IntOp.andi
        (andi (cmpi .sge (movedIdx s) (broadcastInDim S800000x1 ![] Facts₀.bcast_S_S800000x1 (constantI S_ 32 0#32)))
              (cmpi .sle (movedIdx s) (broadcastInDim S800000x1 ![0, 1] Facts₀.bcast_S1x1_S800000x1_0_1
                                        (broadcastInDim S1x1 ![1] Facts₀.bcast_S1_S1x1_1 (constantI S1 32 49999#32)))))
        (constantI S_ 1 1#1) Facts₀.reducesTo_S800000x1_S800000_d1 Facts₀.h_S_))
    (Host.gather gather_S50000x128_S800000x1_S800000x128_1_0_n_n_0_1_1128 h (movedIdx s))
    (broadcastInDim S800000x128 ![] Facts₀.bcast_S_S800000x128 (constant (F := Ideal) S_ .f32 0x7FC00000#32))

/-- With every source index in range no row is replaced: the fill-mode take is the plain gather at the moved indices,
    which is the reference's gather. -/
theorem takeFill128_eq (h : Cert.Stage.FA S50000x128) (s : Cert.Stage.IA S800000) (hs : Cert.Stage.InRange s) :
    takeFill128 h s = Host.gather Cert.ReferenceIdeal.gather_S50000x128_S800000x1_S800000x128_1_0_n_n_0_1_1128 h (Cert.Stage.wrap s) := by
  -- the reference's index column and gather record are the kernel program's, spelled over the other program's facts
  have hw : Cert.Stage.wrap s = movedIdx s := rfl
  have hg : Cert.ReferenceIdeal.gather_S50000x128_S800000x1_S800000x128_1_0_n_n_0_1_1128 = gather_S50000x128_S800000x1_S800000x128_1_0_n_n_0_1_1128 := rfl
  rw [hw, hg]
  -- the keep-mask is the broadcast along the rows of an all-ones column: every gathered value is kept
  exact select_bcast_ones _ _ _ _ _ (keep_all s hs)

/-- jnp.take in fill mode on a 50000×64 table, as the kernel program's host operations spell it: the index moved up by
    50000 where negative; a row kept where the moved index lies in 0 … 49999 and replaced by the fill word elsewhere. -/
def takeFill64 (h : Cert.Stage.FA S50000x64) (s : Cert.Stage.IA S800000) : Cert.Stage.FA S800000x64 :=
  select
    (broadcastInDim S800000x64 ![0] Facts₀.bcast_S800000_S800000x64_0
      (Host.reduce IntOp.andi
        (andi (cmpi .sge (movedIdx s) (broadcastInDim S800000x1 ![] Facts₀.bcast_S_S800000x1 (constantI S_ 32 0#32)))
              (cmpi .sle (movedIdx s) (broadcastInDim S800000x1 ![0, 1] Facts₀.bcast_S1x1_S800000x1_0_1
                                        (broadcastInDim S1x1 ![1] Facts₀.bcast_S1_S1x1_1 (constantI S1 32 49999#32)))))
        (constantI S_ 1 1#1) Facts₀.reducesTo_S800000x1_S800000_d1 Facts₀.h_S_))
    (Host.gather gather_S50000x64_S800000x1_S800000x64_1_0_n_n_0_1_164 h (movedIdx s))
    (broadcastInDim S800000x64 ![] Facts₀.bcast_S_S800000x64 (constant (F := Ideal) S_ .f32 0x7FC00000#32))

/-- With every source index in range no row is replaced: the fill-mode take is the plain gather at the moved indices,
    which is the reference's gather. -/
theorem takeFill64_eq (h : Cert.Stage.FA S50000x64) (s : Cert.Stage.IA S800000) (hs : Cert.Stage.InRange s) :
    takeFill64 h s = Host.gather Cert.ReferenceIdeal.gather_S50000x64_S800000x1_S800000x64_1_0_n_n_0_1_164 h (Cert.Stage.wrap s) := by
  -- the reference's index column and gather record are the kernel program's, spelled over the other program's facts
  have hw : Cert.Stage.wrap s = movedIdx s := rfl
  have hg : Cert.ReferenceIdeal.gather_S50000x64_S800000x1_S800000x64_1_0_n_n_0_1_164 = gather_S50000x64_S800000x1_S800000x64_1_0_n_n_0_1_164 := rfl
  rw [hw, hg]
  -- the keep-mask is the broadcast along the rows of an all-ones column: every gathered value is kept
  exact select_bcast_ones _ _ _ _ _ (keep_all s hs)

end Cert.KernelIdeal.Host

end
-- ==== Proof.HostL1.lean ====
/-
  The host operations between layer 1's dense map and its normalization: jnp.take of the mapped table at the source
  indices — negative indices moved up by 50000, the rows gathered, and a row replaced by the fill value where the moved
  index falls outside 0 … 49999 —, the scatter-add into the destinations, and the reshapes of the indegree and the bias.
  When every source index is in range no row is replaced, and the summed messages are the reference's gather and
  scatter-add of the same table.
-/
import proofs.«418594_j34866544509319_1_alg».proof.Proof.Gen.KernelIdeal.Frame
import proofs.«418594_j34866544509319_1_alg».proof.Proof.Stage
import proofs.«418594_j34866544509319_1_alg».proof.Proof.TakeFill
import Idealize.ShloMosaic.Lib.StableHlo.Run
set_option maxRecDepth 16384

noncomputable section

namespace Cert.KernelIdeal.Host

open Idealize.ShloMosaic Idealize.ShloMosaic.TcCoe Idealize.SL.Sem
open Cert.KernelIdeal Cert.KernelIdeal.Gen Cert.KernelIdeal.Facts₀

open Idealize.ShloMosaic.StableHlo

-- the TensorCore's buffer contents before the stretch (any contents)
variable (W : Valuation τ sig (Elt Ideal))

/-- Cutting a stretch in two: the contents after the whole are the contents after its tail from those after its head. -/
theorem l1_cut (n : Nat) (ops : List (HloOp τ sig (Elt Ideal))) (V : Valuation τ sig (Elt Ideal)) :
    after ops V = after (ops.drop n) (after (ops.take n) V) := by
  rw [← StableHlo.after_append, List.take_append_drop]

/-! The take's first seventeen operations: the column of moved indices (main_call0_v5), the two range tests anded
    (main_call0_v11) and the reduction's initial 1 (main_call0_c_3); the table (main_v25) is not written. -/

theorem l1_moved : after ((hostOps1 (F := Ideal)).take 17) W (Proc.devRef .tc main_call0_v5)
    = movedIdx (W (Proc.devRef .tc main_v1)) := by
  simp only [hostOps1, List.take_succ_cons, List.take_zero]
  after_results_simp
  rfl
theorem l1_tests : after ((hostOps1 (F := Ideal)).take 17) W (Proc.devRef .tc main_call0_v11)
    = andi (cmpi .sge (movedIdx (W (Proc.devRef .tc main_v1))) (broadcastInDim S800000x1 ![] Facts₀.bcast_S_S800000x1 (constantI S_ 32 0#32)))
          (cmpi .sle (movedIdx (W (Proc.devRef .tc main_v1))) (broadcastInDim S800000x1 ![0, 1] Facts₀.bcast_S1x1_S800000x1_0_1
                          (broadcastInDim S1x1 ![1] Facts₀.bcast_S1_S1x1_1 (constantI S1 32 49999#32)))) := by
  simp only [hostOps1, List.take_succ_cons, List.take_zero]
  after_results_simp
  rfl
theorem l1_one : after ((hostOps1 (F := Ideal)).take 17) W (Proc.devRef .tc main_call0_c_3) = constantI S_ 1 1#1 := by
  simp only [hostOps1, List.take_succ_cons, List.take_zero]
  after_results_simp
  rfl
theorem l1_table : after ((hostOps1 (F := Ideal)).take 17) W (Proc.devRef .tc main_v25) = W (Proc.devRef .tc main_v25) := by
  simp only [hostOps1, List.take_succ_cons, List.take_zero]
  after_results_simp

/-! The eighteenth operation, over any contents: the reduce-and of the anded tests over the size-1 axis (main_call0_v12);
    it leaves the column and the table. The reduction enters only as a function of its two operands: both sides apply it to
    equal operands. -/
section
attribute [local irreducible] Host.reduce
theorem l1_red (V : Valuation τ sig (Elt Ideal)) :
    after (((hostOps1 (F := Ideal)).drop 17).take 1) V (Proc.devRef .tc main_call0_v12)
      = Host.reduce IntOp.andi (V (Proc.devRef .tc main_call0_v11) : IVec S800000x1 1) (V (Proc.devRef .tc main_call0_c_3) : IVec S_ 1)
          Facts₀.reducesTo_S800000x1_S800000_d1 Facts₀.h_S_ := by
  simp only [hostOps1, List.drop_succ_cons, List.drop_zero, List.take_succ_cons, List.take_zero]
  after_results_simp
  rfl
end
theorem l1_red_col (V : Valuation τ sig (Elt Ideal)) :
    after (((hostOps1 (F := Ideal)).drop 17).take 1) V (Proc.devRef .tc main_call0_v5) = V (Proc.devRef .tc main_call0_v5) := by
  simp only [hostOps1, List.drop_succ_cons, List.drop_zero, List.take_succ_cons, List.take_zero]
  after_results_simp
theorem l1_red_table (V : Valuation τ sig (Elt Ideal)) :
    after (((hostOps1 (F := Ideal)).drop 17).take 1) V (Proc.devRef .tc main_v25) = V (Proc.devRef .tc main_v25) := by
  simp only [hostOps1, List.drop_succ_cons, List.drop_zero, List.take_succ_cons, List.take_zero]
  after_results_simp

/-- The last five operations, over any contents: the rows gathered at the column, kept where the mask is 1 and replaced
    by the fill word elsewhere. -/
theorem l1_sel (V : Valuation τ sig (Elt Ideal)) :
    after (((hostOps1 (F := Ideal)).drop 17).drop 1) V (Proc.devRef .tc main_v26)
      = select (broadcastInDim S800000x128 ![0] Facts₀.bcast_S800000_S800000x128_0 (V (Proc.devRef .tc main_call0_v12)))
          (Host.gather gather_S50000x128_S800000x1_S800000x128_1_0_n_n_0_1_1128 (V (Proc.devRef .tc main_v25))
            (V (Proc.devRef .tc main_call0_v5)))
          (broadcastInDim S800000x128 ![] Facts₀.bcast_S_S800000x128 (constant (F := Ideal) S_ .f32 0x7FC00000#32)) := by
  simp only [hostOps1, List.drop_succ_cons, List.drop_zero]
  after_results_simp
  rfl

/-- The whole take, read back: jnp.take in fill mode of the table at the source indices. -/
theorem l1_read : after hostOps1 W (Proc.devRef .tc main_v26)
    = takeFill128 (W (Proc.devRef .tc main_v25)) (W (Proc.devRef .tc main_v1)) := by
  rw [l1_cut 17 hostOps1 W, l1_cut 1 (List.drop 17 hostOps1), l1_sel, l1_red, l1_red_col, l1_red_table,
    l1_tests, l1_one, l1_table, l1_moved]
  rfl
/-- The take leaves the destination indices, the indegree and the bias as they were. -/
theorem l1_dst : after hostOps1 W (Proc.devRef .tc main_v3) = W (Proc.devRef .tc main_v3) := by
  after_results_simp
theorem l1_indeg : after hostOps1 W (Proc.devRef .tc main_v24) = W (Proc.devRef .tc main_v24) := by
  after_results_simp
theorem l1_b : after hostOps1 W (Proc.devRef .tc main_arg3) = W (Proc.devRef .tc main_arg3) := by
  after_results_simp

/-- The second stretch, over any contents: the scatter-add of the taken rows into the zero table at the column of
    destinations, and the two reshapes. -/
theorem l1_scatter (V : Valuation τ sig (Elt Ideal)) :
    after hostOps1_1 V (Proc.devRef .tc main_v29)
      = Host.scatterAdd scatter_S50000x128_S800000x1_S800000x128_1_0_0_1
          (broadcastInDim S50000x128 ![] Facts₀.bcast_S_S50000x128 (constant (F := Ideal) S_ .f32 0x00000000#32))
          (broadcastInDim S800000x1 ![0] Facts₀.bcast_S800000_S800000x1_0 (V (Proc.devRef .tc main_v3)))
          (V (Proc.devRef .tc main_v26)) := by
  after_results
theorem l1_deg_col (V : Valuation τ sig (Elt Ideal)) :
    after hostOps1_1 V (Proc.devRef .tc main_v30)
      = shapeCast S50000x1 (V (Proc.devRef .tc main_v24)) Facts₀.shapeCasts_S50000_S50000x1 := by
  after_results; rfl
theorem l1_bias_row (V : Valuation τ sig (Elt Ideal)) :
    after hostOps1_1 V (Proc.devRef .tc main_v31)
      = shapeCast S1x128 (V (Proc.devRef .tc main_arg3)) Facts₀.shapeCasts_S128_S1x128 := by
  after_results; rfl

/-- The summed messages, when every source index addresses a row. -/
theorem l1_agg (hs : Cert.Stage.InRange (W (Proc.devRef .tc main_v1))) :
    after hostOps1_1 (after hostOps1 W) (Proc.devRef .tc main_v29)
      = Cert.Stage.agg128 (W (Proc.devRef .tc main_v25)) (W (Proc.devRef .tc main_v1)) (W (Proc.devRef .tc main_v3)) := by
  rw [l1_scatter, l1_read, takeFill128_eq _ _ hs, l1_dst]
  rfl
/-- The indegree as a column. -/
theorem l1_deg : after hostOps1_1 (after hostOps1 W) (Proc.devRef .tc main_v30)
    = shapeCast S50000x1 (W (Proc.devRef .tc main_v24)) Facts₀.shapeCasts_S50000_S50000x1 := by
  rw [l1_deg_col, l1_indeg]
/-- The bias as a row. -/
theorem l1_bias : after hostOps1_1 (after hostOps1 W) (Proc.devRef .tc main_v31)
    = shapeCast S1x128 (W (Proc.devRef .tc main_arg3)) Facts₀.shapeCasts_S128_S1x128 := by
  rw [l1_bias_row, l1_b]

end Cert.KernelIdeal.Host

end
-- ==== Proof.HostL2.lean ====
/-
  The host operations between layer 2's dense map and its normalization: jnp.take of the mapped table at the source
  indices — negative indices moved up by 50000, the rows gathered, and a row replaced by the fill value where the moved
  index falls outside 0 … 49999 —, the scatter-add into the destinations, and the reshapes of the indegree and the bias.
  When every source index is in range no row is replaced, and the summed messages are the reference's gather and
  scatter-add of the same table.
-/
import proofs.«418594_j34866544509319_1_alg».proof.Proof.Gen.KernelIdeal.Frame
import proofs.«418594_j34866544509319_1_alg».proof.Proof.Stage
import proofs.«418594_j34866544509319_1_alg».proof.Proof.TakeFill
import Idealize.ShloMosaic.Lib.StableHlo.Run
set_option maxRecDepth 16384

noncomputable section

namespace Cert.KernelIdeal.Host

open Idealize.ShloMosaic Idealize.ShloMosaic.TcCoe Idealize.SL.Sem
open Cert.KernelIdeal Cert.KernelIdeal.Gen Cert.KernelIdeal.Facts₀

open Idealize.ShloMosaic.StableHlo

-- the TensorCore's buffer contents before the stretch (any contents)
variable (W : Valuation τ sig (Elt Ideal))

/-- Cutting a stretch in two: the contents after the whole are the contents after its tail from those after its head. -/
theorem l2_cut (n : Nat) (ops : List (HloOp τ sig (Elt Ideal))) (V : Valuation τ sig (Elt Ideal)) :
    after ops V = after (ops.drop n) (after (ops.take n) V) := by
  rw [← StableHlo.after_append, List.take_append_drop]

/-! The take's first seventeen operations: the column of moved indices (main_call1_v5), the two range tests anded
    (main_call1_v11) and the reduction's initial 1 (main_call1_c_3); the table (main_v33) is not written. -/

theorem l2_moved : after ((hostOps3 (F := Ideal)).take 17) W (Proc.devRef .tc main_call1_v5)
    = movedIdx (W (Proc.devRef .tc main_v1)) := by
  simp only [hostOps3, List.take_succ_cons, List.take_zero]
  after_results_simp
  rfl
theorem l2_tests : after ((hostOps3 (F := Ideal)).take 17) W (Proc.devRef .tc main_call1_v11)
    = andi (cmpi .sge (movedIdx (W (Proc.devRef .tc main_v1))) (broadcastInDim S800000x1 ![] Facts₀.bcast_S_S800000x1 (constantI S_ 32 0#32)))
          (cmpi .sle (movedIdx (W (Proc.devRef .tc main_v1))) (broadcastInDim S800000x1 ![0, 1] Facts₀.bcast_S1x1_S800000x1_0_1
                          (broadcastInDim S1x1 ![1] Facts₀.bcast_S1_S1x1_1 (constantI S1 32 49999#32)))) := by
  simp only [hostOps3, List.take_succ_cons, List.take_zero]
  after_results_simp
  rfl
theorem l2_one : after ((hostOps3 (F := Ideal)).take 17) W (Proc.devRef .tc main_call1_c_3) = constantI S_ 1 1#1 := by
  simp only [hostOps3, List.take_succ_cons, List.take_zero]
  after_results_simp
  rfl
theorem l2_table : after ((hostOps3 (F := Ideal)).take 17) W (Proc.devRef .tc main_v33) = W (Proc.devRef .tc main_v33) := by
  simp only [hostOps3, List.take_succ_cons, List.take_zero]
  after_results_simp

/-! The eighteenth operation, over any contents: the reduce-and of the anded tests over the size-1 axis (main_call1_v12);
    it leaves the column and the table. The reduction enters only as a function of its two operands: both sides apply it to
    equal operands. -/
section
attribute [local irreducible] Host.reduce
theorem l2_red (V : Valuation τ sig (Elt Ideal)) :
    after (((hostOps3 (F := Ideal)).drop 17).take 1) V (Proc.devRef .tc main_call1_v12)
      = Host.reduce IntOp.andi (V (Proc.devRef .tc main_call1_v11) : IVec S800000x1 1) (V (Proc.devRef .tc main_call1_c_3) : IVec S_ 1)
          Facts₀.reducesTo_S800000x1_S800000_d1 Facts₀.h_S_ := by
  simp only [hostOps3, List.drop_succ_cons, List.drop_zero, List.take_succ_cons, List.take_zero]
  after_results_simp
  rfl
end
theorem l2_red_col (V : Valuation τ sig (Elt Ideal)) :
    after (((hostOps3 (F := Ideal)).drop 17).take 1) V (Proc.devRef .tc main_call1_v5) = V (Proc.devRef .tc main_call1_v5) := by
  simp only [hostOps3, List.drop_succ_cons, List.drop_zero, List.take_succ_cons, List.take_zero]
  after_results_simp
theorem l2_red_table (V : Valuation τ sig (Elt Ideal)) :
    after (((hostOps3 (F := Ideal)).drop 17).take 1) V (Proc.devRef .tc main_v33) = V (Proc.devRef .tc main_v33) := by
  simp only [hostOps3, List.drop_succ_cons, List.drop_zero, List.take_succ_cons, List.take_zero]
  after_results_simp

/-- The last five operations, over any contents: the rows gathered at the column, kept where the mask is 1 and replaced
    by the fill word elsewhere. -/
theorem l2_sel (V : Valuation τ sig (Elt Ideal)) :
    after (((hostOps3 (F := Ideal)).drop 17).drop 1) V (Proc.devRef .tc main_v34)
      = select (broadcastInDim S800000x128 ![0] Facts₀.bcast_S800000_S800000x128_0 (V (Proc.devRef .tc main_call1_v12)))
          (Host.gather gather_S50000x128_S800000x1_S800000x128_1_0_n_n_0_1_1128 (V (Proc.devRef .tc main_v33))
            (V (Proc.devRef .tc main_call1_v5)))
          (broadcastInDim S800000x128 ![] Facts₀.bcast_S_S800000x128 (constant (F := Ideal) S_ .f32 0x7FC00000#32)) := by
  simp only [hostOps3, List.drop_succ_cons, List.drop_zero]
  after_results_simp
  rfl

/-- The whole take, read back: jnp.take in fill mode of the table at the source indices. -/
theorem l2_read : after hostOps3 W (Proc.devRef .tc main_v34)
    = takeFill128 (W (Proc.devRef .tc main_v33)) (W (Proc.devRef .tc main_v1)) := by
  rw [l2_cut 17 hostOps3 W, l2_cut 1 (List.drop 17 hostOps3), l2_sel, l2_red, l2_red_col, l2_red_table,
    l2_tests, l2_one, l2_table, l2_moved]
  rfl
/-- The take leaves the destination indices, the indegree and the bias as they were. -/
theorem l2_dst : after hostOps3 W (Proc.devRef .tc main_v3) = W (Proc.devRef .tc main_v3) := by
  after_results_simp
theorem l2_indeg : after hostOps3 W (Proc.devRef .tc main_v24) = W (Proc.devRef .tc main_v24) := by
  after_results_simp
theorem l2_b : after hostOps3 W (Proc.devRef .tc main_arg5) = W (Proc.devRef .tc main_arg5) := by
  after_results_simp

/-- The second stretch, over any contents: the scatter-add of the taken rows into the zero table at the column of
    destinations, and the two reshapes. -/
theorem l2_scatter (V : Valuation τ sig (Elt Ideal)) :
    after hostOps3_1 V (Proc.devRef .tc main_v37)
      = Host.scatterAdd scatter_S50000x128_S800000x1_S800000x128_1_0_0_1
          (broadcastInDim S50000x128 ![] Facts₀.bcast_S_S50000x128 (constant (F := Ideal) S_ .f32 0x00000000#32))
          (broadcastInDim S800000x1 ![0] Facts₀.bcast_S800000_S800000x1_0 (V (Proc.devRef .tc main_v3)))
          (V (Proc.devRef .tc main_v34)) := by
  after_results
theorem l2_deg_col (V : Valuation τ sig (Elt Ideal)) :
    after hostOps3_1 V (Proc.devRef .tc main_v38)
      = shapeCast S50000x1 (V (Proc.devRef .tc main_v24)) Facts₀.shapeCasts_S50000_S50000x1 := by
  after_results; rfl
theorem l2_bias_row (V : Valuation τ sig (Elt Ideal)) :
    after hostOps3_1 V (Proc.devRef .tc main_v39)
      = shapeCast S1x128 (V (Proc.devRef .tc main_arg5)) Facts₀.shapeCasts_S128_S1x128 := by
  after_results; rfl

/-- The summed messages, when every source index addresses a row. -/
theorem l2_agg (hs : Cert.Stage.InRange (W (Proc.devRef .tc main_v1))) :
    after hostOps3_1 (after hostOps3 W) (Proc.devRef .tc main_v37)
      = Cert.Stage.agg128 (W (Proc.devRef .tc main_v33)) (W (Proc.devRef .tc main_v1)) (W (Proc.devRef .tc main_v3)) := by
  rw [l2_scatter, l2_read, takeFill128_eq _ _ hs, l2_dst]
  rfl
/-- The indegree as a column. -/
theorem l2_deg : after hostOps3_1 (after hostOps3 W) (Proc.devRef .tc main_v38)
    = shapeCast S50000x1 (W (Proc.devRef .tc main_v24)) Facts₀.shapeCasts_S50000_S50000x1 := by
  rw [l2_deg_col, l2_indeg]
/-- The bias as a row. -/
theorem l2_bias : after hostOps3_1 (after hostOps3 W) (Proc.devRef .tc main_v39)
    = shapeCast S1x128 (W (Proc.devRef .tc main_arg5)) Facts₀.shapeCasts_S128_S1x128 := by
  rw [l2_bias_row, l2_b]

end Cert.KernelIdeal.Host

end
-- ==== Proof.HostL3.lean ====
/-
  The host operations between layer 3's dense map and its normalization: jnp.take of the mapped table at the source
  indices — negative indices moved up by 50000, the rows gathered, and a row replaced by the fill value where the moved
  index falls outside 0 … 49999 —, the scatter-add into the destinations, and the reshapes of the indegree and the bias.
  When every source index is in range no row is replaced, and the summed messages are the reference's gather and
  scatter-add of the same table.
-/
import proofs.«418594_j34866544509319_1_alg».proof.Proof.Gen.KernelIdeal.Frame
import proofs.«418594_j34866544509319_1_alg».proof.Proof.Stage
import proofs.«418594_j34866544509319_1_alg».proof.Proof.TakeFill
import Idealize.ShloMosaic.Lib.StableHlo.Run
set_option maxRecDepth 16384

noncomputable section

namespace Cert.KernelIdeal.Host

open Idealize.ShloMosaic Idealize.ShloMosaic.TcCoe Idealize.SL.Sem
open Cert.KernelIdeal Cert.KernelIdeal.Gen Cert.KernelIdeal.Facts₀

open Idealize.ShloMosaic.StableHlo

-- the TensorCore's buffer contents before the stretch (any contents)
variable (W : Valuation τ sig (Elt Ideal))

/-- Cutting a stretch in two: the contents after the whole are the contents after its tail from those after its head. -/
theorem l3_cut (n : Nat) (ops : List (HloOp τ sig (Elt Ideal))) (V : Valuation τ sig (Elt Ideal)) :
    after ops V = after (ops.drop n) (after (ops.take n) V) := by
  rw [← StableHlo.after_append, List.take_append_drop]

/-! The take's first seventeen operations: the column of moved indices (main_call2_v5), the two range tests anded
    (main_call2_v11) and the reduction's initial 1 (main_call2_c_3); the table (main_v41) is not written. -/

theorem l3_moved : after ((hostOps5 (F := Ideal)).take 17) W (Proc.devRef .tc main_call2_v5)
    = movedIdx (W (Proc.devRef .tc main_v1)) := by
  simp only [hostOps5, List.take_succ_cons, List.take_zero]
  after_results_simp
  rfl
theorem l3_tests : after ((hostOps5 (F := Ideal)).take 17) W (Proc.devRef .tc main_call2_v11)
    = andi (cmpi .sge (movedIdx (W (Proc.devRef .tc main_v1))) (broadcastInDim S800000x1 ![] Facts₀.bcast_S_S800000x1 (constantI S_ 32 0#32)))
          (cmpi .sle (movedIdx (W (Proc.devRef .tc main_v1))) (broadcastInDim S800000x1 ![0, 1] Facts₀.bcast_S1x1_S800000x1_0_1
                          (broadcastInDim S1x1 ![1] Facts₀.bcast_S1_S1x1_1 (constantI S1 32 49999#32)))) := by
  simp only [hostOps5, List.take_succ_cons, List.take_zero]
  after_results_simp
  rfl
theorem l3_one : after ((hostOps5 (F := Ideal)).take 17) W (Proc.devRef .tc main_call2_c_3) = constantI S_ 1 1#1 := by
  simp only [hostOps5, List.take_succ_cons, List.take_zero]
  after_results_simp
  rfl
theorem l3_table : after ((hostOps5 (F := Ideal)).take 17) W (Proc.devRef .tc main_v41) = W (Proc.devRef .tc main_v41) := by
  simp only [hostOps5, List.take_succ_cons, List.take_zero]
  after_results_simp

/-! The eighteenth operation, over any contents: the reduce-and of the anded tests over the size-1 axis (main_call2_v12);
    it leaves the column and the table. The reduction enters only as a function of its two operands: both sides apply it to
    equal operands. -/
section
attribute [local irreducible] Host.reduce
theorem l3_red (V : Valuation τ sig (Elt Ideal)) :
    after (((hostOps5 (F := Ideal)).drop 17).take 1) V (Proc.devRef .tc main_call2_v12)
      = Host.reduce IntOp.andi (V (Proc.devRef .tc main_call2_v11) : IVec S800000x1 1) (V (Proc.devRef .tc main_call2_c_3) : IVec S_ 1)
          Facts₀.reducesTo_S800000x1_S800000_d1 Facts₀.h_S_ := by
  simp only [hostOps5, List.drop_succ_cons, List.drop_zero, List.take_succ_cons, List.take_zero]
  after_results_simp
  rfl
end
theorem l3_red_col (V : Valuation τ sig (Elt Ideal)) :
    after (((hostOps5 (F := Ideal)).drop 17).take 1) V (Proc.devRef .tc main_call2_v5) = V (Proc.devRef .tc main_call2_v5) := by
  simp only [hostOps5, List.drop_succ_cons, List.drop_zero, List.take_succ_cons, List.take_zero]
  after_results_simp
theorem l3_red_table (V : Valuation τ sig (Elt Ideal)) :
    after (((hostOps5 (F := Ideal)).drop 17).take 1) V (Proc.devRef .tc main_v41) = V (Proc.devRef .tc main_v41) := by
  simp only [hostOps5, List.drop_succ_cons, List.drop_zero, List.take_succ_cons, List.take_zero]
  after_results_simp

/-- The last five operations, over any contents: the rows gathered at the column, kept where the mask is 1 and replaced
    by the fill word elsewhere. -/
theorem l3_sel (V : Valuation τ sig (Elt Ideal)) :
    after (((hostOps5 (F := Ideal)).drop 17).drop 1) V (Proc.devRef .tc main_v42)
      = select (broadcastInDim S800000x128 ![0] Facts₀.bcast_S800000_S800000x128_0 (V (Proc.devRef .tc main_call2_v12)))
          (Host.gather gather_S50000x128_S800000x1_S800000x128_1_0_n_n_0_1_1128 (V (Proc.devRef .tc main_v41))
            (V (Proc.devRef .tc main_call2_v5)))
          (broadcastInDim S800000x128 ![] Facts₀.bcast_S_S800000x128 (constant (F := Ideal) S_ .f32 0x7FC00000#32)) := by
  simp only [hostOps5, List.drop_succ_cons, List.drop_zero]
  after_results_simp
  rfl

/-- The whole take, read back: jnp.take in fill mode of the table at the source indices. -/
theorem l3_read : after hostOps5 W (Proc.devRef .tc main_v42)
    = takeFill128 (W (Proc.devRef .tc main_v41)) (W (Proc.devRef .tc main_v1)) := by
  rw [l3_cut 17 hostOps5 W, l3_cut 1 (List.drop 17 hostOps5), l3_sel, l3_red, l3_red_col, l3_red_table,
    l3_tests, l3_one, l3_table, l3_moved]
  rfl
/-- The take leaves the destination indices, the indegree and the bias as they were. -/
theorem l3_dst : after hostOps5 W (Proc.devRef .tc main_v3) = W (Proc.devRef .tc main_v3) := by
  after_results_simp
theorem l3_indeg : after hostOps5 W (Proc.devRef .tc main_v24) = W (Proc.devRef .tc main_v24) := by
  after_results_simp
theorem l3_b : after hostOps5 W (Proc.devRef .tc main_arg7) = W (Proc.devRef .tc main_arg7) := by
  after_results_simp

/-- The second stretch, over any contents: the scatter-add of the taken rows into the zero table at the column of
    destinations, and the two reshapes. -/
theorem l3_scatter (V : Valuation τ sig (Elt Ideal)) :
    after hostOps5_1 V (Proc.devRef .tc main_v45)
      = Host.scatterAdd scatter_S50000x128_S800000x1_S800000x128_1_0_0_1
          (broadcastInDim S50000x128 ![] Facts₀.bcast_S_S50000x128 (constant (F := Ideal) S_ .f32 0x00000000#32))
          (broadcastInDim S800000x1 ![0] Facts₀.bcast_S800000_S800000x1_0 (V (Proc.devRef .tc main_v3)))
          (V (Proc.devRef .tc main_v42)) := by
  after_results
theorem l3_deg_col (V : Valuation τ sig (Elt Ideal)) :
    after hostOps5_1 V (Proc.devRef .tc main_v46)
      = shapeCast S50000x1 (V (Proc.devRef .tc main_v24)) Facts₀.shapeCasts_S50000_S50000x1 := by
  after_results; rfl
theorem l3_bias_row (V : Valuation τ sig (Elt Ideal)) :
    after hostOps5_1 V (Proc.devRef .tc main_v47)
      = shapeCast S1x128 (V (Proc.devRef .tc main_arg7)) Facts₀.shapeCasts_S128_S1x128 := by
  after_results; rfl

/-- The summed messages, when every source index addresses a row. -/
theorem l3_agg (hs : Cert.Stage.InRange (W (Proc.devRef .tc main_v1))) :
    after hostOps5_1 (after hostOps5 W) (Proc.devRef .tc main_v45)
      = Cert.Stage.agg128 (W (Proc.devRef .tc main_v41)) (W (Proc.devRef .tc main_v1)) (W (Proc.devRef .tc main_v3)) := by
  rw [l3_scatter, l3_read, takeFill128_eq _ _ hs, l3_dst]
  rfl
/-- The indegree as a column. -/
theorem l3_deg : after hostOps5_1 (after hostOps5 W) (Proc.devRef .tc main_v46)
    = shapeCast S50000x1 (W (Proc.devRef .tc main_v24)) Facts₀.shapeCasts_S50000_S50000x1 := by
  rw [l3_deg_col, l3_indeg]
/-- The bias as a row. -/
theorem l3_bias : after hostOps5_1 (after hostOps5 W) (Proc.devRef .tc main_v47)
    = shapeCast S1x128 (W (Proc.devRef .tc main_arg7)) Facts₀.shapeCasts_S128_S1x128 := by
  rw [l3_bias_row, l3_b]

end Cert.KernelIdeal.Host

end
-- ==== Proof.HostL4.lean ====
/-
  The host operations between layer 4's dense map and its normalization: jnp.take of the mapped table at the source
  indices — negative indices moved up by 50000, the rows gathered, and a row replaced by the fill value where the moved
  index falls outside 0 … 49999 —, the scatter-add into the destinations, and the reshapes of the indegree and the bias.
  When every source index is in range no row is replaced, and the summed messages are the reference's gather and
  scatter-add of the same table.
-/
import proofs.«418594_j34866544509319_1_alg».proof.Proof.Gen.KernelIdeal.Frame
import proofs.«418594_j34866544509319_1_alg».proof.Proof.Stage
import proofs.«418594_j34866544509319_1_alg».proof.Proof.TakeFill
import Idealize.ShloMosaic.Lib.StableHlo.Run
set_option maxRecDepth 16384

noncomputable section

namespace Cert.KernelIdeal.Host

open Idealize.ShloMosaic Idealize.ShloMosaic.TcCoe Idealize.SL.Sem
open Cert.KernelIdeal Cert.KernelIdeal.Gen Cert.KernelIdeal.Facts₀

open Idealize.ShloMosaic.StableHlo

-- the TensorCore's buffer contents before the stretch (any contents)
variable (W : Valuation τ sig (Elt Ideal))

/-- Cutting a stretch in two: the contents after the whole are the contents after its tail from those after its head. -/
theorem l4_cut (n : Nat) (ops : List (HloOp τ sig (Elt Ideal))) (V : Valuation τ sig (Elt Ideal)) :
    after ops V = after (ops.drop n) (after (ops.take n) V) := by
  rw [← StableHlo.after_append, List.take_append_drop]

/-! The take's first seventeen operations: the column of moved indices (main_call3_v5), the two range tests anded
    (main_call3_v11) and the reduction's initial 1 (main_call3_c_3); the table (main_v49) is not written. -/

theorem l4_moved : after ((hostOps7 (F := Ideal)).take 17) W (Proc.devRef .tc main_call3_v5)
    = movedIdx (W (Proc.devRef .tc main_v1)) := by
  simp only [hostOps7, List.take_succ_cons, List.take_zero]
  after_results_simp
  rfl
theorem l4_tests : after ((hostOps7 (F := Ideal)).take 17) W (Proc.devRef .tc main_call3_v11)
    = andi (cmpi .sge (movedIdx (W (Proc.devRef .tc main_v1))) (broadcastInDim S800000x1 ![] Facts₀.bcast_S_S800000x1 (constantI S_ 32 0#32)))
          (cmpi .sle (movedIdx (W (Proc.devRef .tc main_v1))) (broadcastInDim S800000x1 ![0, 1] Facts₀.bcast_S1x1_S800000x1_0_1
                          (broadcastInDim S1x1 ![1] Facts₀.bcast_S1_S1x1_1 (constantI S1 32 49999#32)))) := by
  simp only [hostOps7, List.take_succ_cons, List.take_zero]
  after_results_simp
  rfl
theorem l4_one : after ((hostOps7 (F := Ideal)).take 17) W (Proc.devRef .tc main_call3_c_3) = constantI S_ 1 1#1 := by
  simp only [hostOps7, List.take_succ_cons, List.take_zero]
  after_results_simp
  rfl
theorem l4_table : after ((hostOps7 (F := Ideal)).take 17) W (Proc.devRef .tc main_v49) = W (Proc.devRef .tc main_v49) := by
  simp only [hostOps7, List.take_succ_cons, List.take_zero]
  after_results_simp

/-! The eighteenth operation, over any contents: the reduce-and of the anded tests over the size-1 axis (main_call3_v12);
    it leaves the column and the table. The reduction enters only as a function of its two operands: both sides apply it to
    equal operands. -/
section
attribute [local irreducible] Host.reduce
theorem l4_red (V : Valuation τ sig (Elt Ideal)) :
    after (((hostOps7 (F := Ideal)).drop 17).take 1) V (Proc.devRef .tc main_call3_v12)
      = Host.reduce IntOp.andi (V (Proc.devRef .tc main_call3_v11) : IVec S800000x1 1) (V (Proc.devRef .tc main_call3_c_3) : IVec S_ 1)
          Facts₀.reducesTo_S800000x1_S800000_d1 Facts₀.h_S_ := by
  simp only [hostOps7, List.drop_succ_cons, List.drop_zero, List.take_succ_cons, List.take_zero]
  after_results_simp
  rfl
end
theorem l4_red_col (V : Valuation τ sig (Elt Ideal)) :
    after (((hostOps7 (F := Ideal)).drop 17).take 1) V (Proc.devRef .tc main_call3_v5) = V (Proc.devRef .tc main_call3_v5) := by
  simp only [hostOps7, List.drop_succ_cons, List.drop_zero, List.take_succ_cons, List.take_zero]
  after_results_simp
theorem l4_red_table (V : Valuation τ sig (Elt Ideal)) :
    after (((hostOps7 (F := Ideal)).drop 17).take 1) V (Proc.devRef .tc main_v49) = V (Proc.devRef .tc main_v49) := by
  simp only [hostOps7, List.drop_succ_cons, List.drop_zero, List.take_succ_cons, List.take_zero]
  after_results_simp

/-- The last five operations, over any contents: the rows gathered at the column, kept where the mask is 1 and replaced
    by the fill word elsewhere. -/
theorem l4_sel (V : Valuation τ sig (Elt Ideal)) :
    after (((hostOps7 (F := Ideal)).drop 17).drop 1) V (Proc.devRef .tc main_v50)
      = select (broadcastInDim S800000x64 ![0] Facts₀.bcast_S800000_S800000x64_0 (V (Proc.devRef .tc main_call3_v12)))
          (Host.gather gather_S50000x64_S800000x1_S800000x64_1_0_n_n_0_1_164 (V (Proc.devRef .tc main_v49))
            (V (Proc.devRef .tc main_call3_v5)))
          (broadcastInDim S800000x64 ![] Facts₀.bcast_S_S800000x64 (constant (F := Ideal) S_ .f32 0x7FC00000#32)) := by
  simp only [hostOps7, List.drop_succ_cons, List.drop_zero]
  after_results_simp
  rfl

/-- The whole take, read back: jnp.take in fill mode of the table at the source indices. -/
theorem l4_read : after hostOps7 W (Proc.devRef .tc main_v50)
    = takeFill64 (W (Proc.devRef .tc main_v49)) (W (Proc.devRef .tc main_v1)) := by
  rw [l4_cut 17 hostOps7 W, l4_cut 1 (List.drop 17 hostOps7), l4_sel, l4_red, l4_red_col, l4_red_table,
    l4_tests, l4_one, l4_table, l4_moved]
  rfl
/-- The take leaves the destination indices, the indegree and the bias as they were. -/
theorem l4_dst : after hostOps7 W (Proc.devRef .tc main_v3) = W (Proc.devRef .tc main_v3) := by
  after_results_simp
theorem l4_indeg : after hostOps7 W (Proc.devRef .tc main_v24) = W (Proc.devRef .tc main_v24) := by
  after_results_simp
theorem l4_b : after hostOps7 W (Proc.devRef .tc main_arg9) = W (Proc.devRef .tc main_arg9) := by
  after_results_simp

/-- The second stretch, over any contents: the scatter-add of the taken rows into the zero table at the column of
    destinations, and the two reshapes. -/
theorem l4_scatter (V : Valuation τ sig (Elt Ideal)) :
    after hostOps7_1 V (Proc.devRef .tc main_v53)
      = Host.scatterAdd scatter_S50000x64_S800000x1_S800000x64_1_0_0_1
          (broadcastInDim S50000x64 ![] Facts₀.bcast_S_S50000x64 (constant (F := Ideal) S_ .f32 0x00000000#32))
          (broadcastInDim S800000x1 ![0] Facts₀.bcast_S800000_S800000x1_0 (V (Proc.devRef .tc main_v3)))
          (V (Proc.devRef .tc main_v50)) := by
  after_results
theorem l4_deg_col (V : Valuation τ sig (Elt Ideal)) :
    after hostOps7_1 V (Proc.devRef .tc main_v54)
      = shapeCast S50000x1 (V (Proc.devRef .tc main_v24)) Facts₀.shapeCasts_S50000_S50000x1 := by
  after_results; rfl
theorem l4_bias_row (V : Valuation τ sig (Elt Ideal)) :
    after hostOps7_1 V (Proc.devRef .tc main_v55)
      = shapeCast S1x64 (V (Proc.devRef .tc main_arg9)) Facts₀.shapeCasts_S64_S1x64 := by
  after_results; rfl

/-- The summed messages, when every source index addresses a row. -/
theorem l4_agg (hs : Cert.Stage.InRange (W (Proc.devRef .tc main_v1))) :
    after hostOps7_1 (after hostOps7 W) (Proc.devRef .tc main_v53)
      = Cert.Stage.agg64 (W (Proc.devRef .tc main_v49)) (W (Proc.devRef .tc main_v1)) (W (Proc.devRef .tc main_v3)) := by
  rw [l4_scatter, l4_read, takeFill64_eq _ _ hs, l4_dst]
  rfl
/-- The indegree as a column. -/
theorem l4_deg : after hostOps7_1 (after hostOps7 W) (Proc.devRef .tc main_v54)
    = shapeCast S50000x1 (W (Proc.devRef .tc main_v24)) Facts₀.shapeCasts_S50000_S50000x1 := by
  rw [l4_deg_col, l4_indeg]
/-- The bias as a row. -/
theorem l4_bias : after hostOps7_1 (after hostOps7 W) (Proc.devRef .tc main_v55)
    = shapeCast S1x64 (W (Proc.devRef .tc main_arg9)) Facts₀.shapeCasts_S64_S1x64 := by
  rw [l4_bias_row, l4_b]

end Cert.KernelIdeal.Host

end
-- ==== Proof.HostEdge.lean ====
/-
  The host operations around the edge region: before it, the feature rows [hg(src) | hg(dst)] and the difference rows
  are padded with 2816 zero rows to 802816 = 196·4096 rows and the four bias vectors are reshaped; after it, the first
  800000 scores are kept.
-/
import proofs.«418594_j34866544509319_1_alg».proof.Proof.Gen.KernelIdeal.Frame
import proofs.«418594_j34866544509319_1_alg».proof.Proof.Stage
import Idealize.ShloMosaic.Lib.StableHlo.Run
set_option maxRecDepth 16384

noncomputable section

namespace Cert.KernelIdeal.Host

open Idealize.ShloMosaic Idealize.ShloMosaic.TcCoe Idealize.SL.Sem
open Cert.KernelIdeal Cert.KernelIdeal.Gen Cert.KernelIdeal.Facts₀

open Idealize.ShloMosaic.StableHlo

-- the TensorCore's buffer contents before the stretch (any contents)
variable (W : Valuation τ sig (Elt Ideal))

/-- The contents after the five stretches before the edge region. -/
abbrev beforeEdge : Valuation τ sig (Elt Ideal) :=
  after hostOps8_4 (after hostOps8_3 (after hostOps8_2 (after hostOps8_1 (after hostOps8 W))))

/-- Zero rows appended: the padding both inputs of the edge region get. -/
abbrev padRows (x : Cert.Stage.FA S800000x128) : Cert.Stage.FA S802816x128 :=
  pad S802816x128 ![0, 0] ![2816, 0] ![0, 0] x (sitofp (F := Ideal) .f32 (constantI S_ 32 0#32)) Facts₀.pads_S800000x128_S802816x128_028160_000 Facts₀.h_S_

/-- The rows of hg at the wrapped sources and at the wrapped destinations, set side by side along axis 1, then the zero
    rows appended; the zero is the integer 0 converted to a float. Only the first two stretches write this array. -/
theorem e_feat : beforeEdge W (Proc.devRef .tc main_v72)
    = padRows (Cert.Stage.feat (W (Proc.devRef .tc main_v56)) (W (Proc.devRef .tc main_v1)) (W (Proc.devRef .tc main_v3))) := by
  dsimp only [beforeEdge, hostOps8, hostOps8_1, hostOps8_2, hostOps8_3, hostOps8_4]
  after_results_simp
  rfl
/-- The difference rows are written by none of the first three stretches; the fourth appends the same zero rows. -/
theorem e_diff : beforeEdge W (Proc.devRef .tc main_v73) = padRows (W (Proc.devRef .tc main_v20)) := by
  dsimp only [beforeEdge, hostOps8, hostOps8_1, hostOps8_2, hostOps8_3, hostOps8_4]
  after_results_simp
  rfl
/-- The last stretch reshapes each of the four bias vectors to a one-row table; no stretch writes an argument array,
    so each is read as it was before the five stretches. -/
theorem e_rb1 : beforeEdge W (Proc.devRef .tc main_v74) = shapeCast S1x128 (W (Proc.devRef .tc main_arg11)) Facts₀.shapeCasts_S128_S1x128 := by
  dsimp only [beforeEdge, hostOps8, hostOps8_1, hostOps8_2, hostOps8_3, hostOps8_4]
  after_results_simp
  rfl
theorem e_rb2 : beforeEdge W (Proc.devRef .tc main_v75) = shapeCast S1x1 (W (Proc.devRef .tc main_arg13)) Facts₀.shapeCasts_S1_S1x1 := by
  dsimp only [beforeEdge, hostOps8, hostOps8_1, hostOps8_2, hostOps8_3, hostOps8_4]
  after_results_simp
  rfl
theorem e_tb1 : beforeEdge W (Proc.devRef .tc main_v76) = shapeCast S1x128 (W (Proc.devRef .tc main_arg15)) Facts₀.shapeCasts_S128_S1x128 := by
  dsimp only [beforeEdge, hostOps8, hostOps8_1, hostOps8_2, hostOps8_3, hostOps8_4]
  after_results_simp
  rfl
theorem e_tb2 : beforeEdge W (Proc.devRef .tc main_v77) = shapeCast S1x1 (W (Proc.devRef .tc main_arg17)) Facts₀.shapeCasts_S1_S1x1 := by
  dsimp only [beforeEdge, hostOps8, hostOps8_1, hostOps8_2, hostOps8_3, hostOps8_4]
  after_results_simp
  rfl
/-- The weights pass through the five stretches. -/
theorem e_keep (b : Ref sig .tc) (hb : b = main_arg10 ∨ b = main_arg12 ∨ b = main_arg14 ∨ b = main_arg16) :
    beforeEdge W (Proc.devRef .tc b) = W (Proc.devRef .tc b) := by
  rcases hb with rfl | rfl | rfl | rfl <;>
    (dsimp only [beforeEdge, hostOps8, hostOps8_1, hostOps8_2, hostOps8_3, hostOps8_4]
     after_results_simp)
/-- After the edge region the first 800000 scores are kept. -/
theorem e_out : after hostOps9 W (Proc.devRef .tc main_v79)
    = extractStridedSlice S800000 ![0] (W (Proc.devRef .tc main_v78)) Facts₀.slices_S802816_S800000_0 := by
  dsimp only [hostOps9]
  after_results

end Cert.KernelIdeal.Host

end
-- ==== Proof.RegMM0.lean ====
/-
  Region 0: the first layer's dense map. Each of the 25 grid points multiplies a block of 2000 rows of z by the whole
  128×128 weight (both rounded to bf16 on the chip, the identity on extended reals) into a zero accumulator and
  writes the block back; the blocks tile the 50000 rows, so the output array is z·W, entry (n, j) the sum over k of
  z(n, k)·W(k, j) — the host's dot_general of the same two arrays.
-/
import proofs.«418594_j34866544509319_1_alg».proof.Proof.Gen.KernelIdeal.Frame
import proofs.«418594_j34866544509319_1_alg».proof.Proof.Stage
import Idealize.ShloMosaic.Lib.Pipeline.Value
import Idealize.ShloMosaic.Lib.ValueIdx
import Idealize.ShloMosaic.PureOps.Ideal.Laws

set_option maxRecDepth 16384

noncomputable section

namespace Cert.KernelIdeal.Region

open Idealize.ShloMosaic Idealize.ShloMosaic.TcCoe Idealize.SL.Sem
open Cert.KernelIdeal Cert.KernelIdeal.Gen Cert.KernelIdeal.Facts₀
open Idealize.ShloMosaic.ValueIdx
open scoped BigOperators

-- the TensorCore's buffer contents when the region is entered (any contents: the region's result is a function of them)
variable (V : (c : Dev nD) → (b : Ref sig .tc) → Buf (Elt Ideal) ((c : Thread nD τ).loc b))

namespace Dense0

/-! ## The two contractions' operand indices, axis by axis

  Both products contract the left operand's axis 1 with the right operand's axis 0 and keep the left operand's axis 0
  and the right operand's axis 1, in that order: at output index (r, j) and contraction position k the left operand is
  read at (r, k) and the right one at (k, j). -/

/-- The block product's left operand keeps the output's row. -/
theorem lhs_blockDot_0 (i : S2000x128.Idx) (q : dot_S2000x128_S128x128_S2000x128_1_0_0_1_n_n.contr.Idx) :
    (dot_S2000x128_S128x128_S2000x128_1_0_0_1_n_n.lhsIdx i q 0).val = (i 0).val := by
  unfold DotDims.lhsIdx
  rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
  rfl
/-- The block product's left operand is read at the contraction position on its axis 1. -/
theorem lhs_blockDot_1 (i : S2000x128.Idx) (q : dot_S2000x128_S128x128_S2000x128_1_0_0_1_n_n.contr.Idx) :
    (dot_S2000x128_S128x128_S2000x128_1_0_0_1_n_n.lhsIdx i q 1).val = (q ⟨0, by decide⟩).val :=
  dot_S2000x128_S128x128_S2000x128_1_0_0_1_n_n.lhsIdx_val_of_single rfl i q
/-- The block product's right operand is read at the contraction position on its axis 0. -/
theorem rhs_blockDot_0 (i : S2000x128.Idx) (q : dot_S2000x128_S128x128_S2000x128_1_0_0_1_n_n.contr.Idx) :
    (dot_S2000x128_S128x128_S2000x128_1_0_0_1_n_n.rhsIdx i q 0).val = (q ⟨0, by decide⟩).val :=
  dot_S2000x128_S128x128_S2000x128_1_0_0_1_n_n.rhsIdx_val_of_single rfl i q
/-- The block product's right operand keeps the output's column. -/
theorem rhs_blockDot_1 (i : S2000x128.Idx) (q : dot_S2000x128_S128x128_S2000x128_1_0_0_1_n_n.contr.Idx) :
    (dot_S2000x128_S128x128_S2000x128_1_0_0_1_n_n.rhsIdx i q 1).val = (i 1).val := by
  unfold DotDims.rhsIdx
  rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
  rfl

/-- The whole-array product's left operand keeps the output's row. -/
theorem lhs_arrayDot_0 (i : Cert.ReferenceIdeal.S50000x128.Idx) (q : Cert.ReferenceIdeal.dot_S50000x128_S128x128_S50000x128_1_0_0_1_n_n.contr.Idx) :
    (Cert.ReferenceIdeal.dot_S50000x128_S128x128_S50000x128_1_0_0_1_n_n.lhsIdx i q 0).val = (i 0).val := by
  unfold DotDims.lhsIdx
  rw [dif_neg (show ¬(0 : Fin Cert.ReferenceIdeal.S50000x128.rank) ∈ Cert.ReferenceIdeal.dot_S50000x128_S128x128_S50000x128_1_0_0_1_n_n.lhsBatch by decide), dif_pos (show (0 : Fin Cert.ReferenceIdeal.S50000x128.rank) ∈ Cert.ReferenceIdeal.dot_S50000x128_S128x128_S50000x128_1_0_0_1_n_n.lhsNonContracting by decide)]
  rfl
/-- The whole-array product's left operand is read at the contraction position on its axis 1. -/
theorem lhs_arrayDot_1 (i : Cert.ReferenceIdeal.S50000x128.Idx) (q : Cert.ReferenceIdeal.dot_S50000x128_S128x128_S50000x128_1_0_0_1_n_n.contr.Idx) :
    (Cert.ReferenceIdeal.dot_S50000x128_S128x128_S50000x128_1_0_0_1_n_n.lhsIdx i q 1).val = (q ⟨0, by decide⟩).val :=
  Cert.ReferenceIdeal.dot_S50000x128_S128x128_S50000x128_1_0_0_1_n_n.lhsIdx_val_of_single rfl i q
/-- The whole-array product's right operand is read at the contraction position on its axis 0. -/
theorem rhs_arrayDot_0 (i : Cert.ReferenceIdeal.S50000x128.Idx) (q : Cert.ReferenceIdeal.dot_S50000x128_S128x128_S50000x128_1_0_0_1_n_n.contr.Idx) :
    (Cert.ReferenceIdeal.dot_S50000x128_S128x128_S50000x128_1_0_0_1_n_n.rhsIdx i q 0).val = (q ⟨0, by decide⟩).val :=
  Cert.ReferenceIdeal.dot_S50000x128_S128x128_S50000x128_1_0_0_1_n_n.rhsIdx_val_of_single rfl i q
/-- The whole-array product's right operand keeps the output's column. -/
theorem rhs_arrayDot_1 (i : Cert.ReferenceIdeal.S50000x128.Idx) (q : Cert.ReferenceIdeal.dot_S50000x128_S128x128_S50000x128_1_0_0_1_n_n.contr.Idx) :
    (Cert.ReferenceIdeal.dot_S50000x128_S128x128_S50000x128_1_0_0_1_n_n.rhsIdx i q 1).val = (i 1).val := by
  unfold DotDims.rhsIdx
  rw [dif_neg (show ¬(1 : Fin Cert.ReferenceIdeal.S128x128.rank) ∈ Cert.ReferenceIdeal.dot_S50000x128_S128x128_S50000x128_1_0_0_1_n_n.rhsBatch by decide), dif_pos (show (1 : Fin Cert.ReferenceIdeal.S128x128.rank) ∈ Cert.ReferenceIdeal.dot_S50000x128_S128x128_S50000x128_1_0_0_1_n_n.rhsNonContracting by decide)]
  rfl

/-! ## Both products at an index: Σₖ left(r, k) · right(k, j) -/

/-- What the body computes from a block of 2000 rows and the weight, at row p and column q of the block: the two
    roundings to bf16 are the identity on extended reals and the accumulator is zero, so it is the plain sum of
    products over the 128 contraction positions. -/
theorem blockProduct_apply (x0 : Vec Ideal S2000x128 .f32) (x1 : Vec Ideal S128x128 .f32) (p : Fin 2000) (q : Fin 128) :
    k0_pay1 (F := Ideal) x0 x1 (ix2 p q) = ∑ k : Fin 128, x0 (ix2 p k) * x1 (ix2 k q) := by
  unfold k0_pay1
  refine (Ideal.matmul_constant_zero_apply dot_S2000x128_S128x128_S2000x128_1_0_0_1_n_n none _ _ (ix2 p q)).trans ?_
  rw [← Equiv.sum_comp (contrEquiv1 dot_S2000x128_S128x128_S2000x128_1_0_0_1_n_n 128 rfl rfl).symm]
  refine Finset.sum_congr rfl fun k _ => ?_
  have hk := contrEquiv1_symm_val dot_S2000x128_S128x128_S2000x128_1_0_0_1_n_n 128 rfl rfl k
  have el : dot_S2000x128_S128x128_S2000x128_1_0_0_1_n_n.lhsIdx (ix2 p q) ((contrEquiv1 dot_S2000x128_S128x128_S2000x128_1_0_0_1_n_n 128 rfl rfl).symm k) = ix2 p k := funext fun a => Fin.ext (by
    match a with
    | ⟨0, _⟩ => exact lhs_blockDot_0 _ _
    | ⟨1, _⟩ => exact (lhs_blockDot_1 _ _).trans hk)
  have er : dot_S2000x128_S128x128_S2000x128_1_0_0_1_n_n.rhsIdx (ix2 p q) ((contrEquiv1 dot_S2000x128_S128x128_S2000x128_1_0_0_1_n_n 128 rfl rfl).symm k) = ix2 k q := funext fun a => Fin.ext (by
    match a with
    | ⟨0, _⟩ => exact (rhs_blockDot_0 _ _).trans hk
    | ⟨1, _⟩ => exact rhs_blockDot_1 _ _)
  rw [el, er]
  rfl

/-- The host's dense map at row n and column q: the same sum of products. -/
theorem arrayProduct_apply (x : Cert.Stage.FA Cert.ReferenceIdeal.S50000x128) (w : Cert.Stage.FA Cert.ReferenceIdeal.S128x128) (n : Fin 50000) (q : Fin 128) :
    Cert.Stage.mm128 x w (ix2 n q) = ∑ k : Fin 128, x (ix2 n k) * w (ix2 k q) := by
  unfold Cert.Stage.mm128
  simp only [Host.dotGeneral]
  rw [Ideal.dotGeneral_apply, ← Equiv.sum_comp (contrEquiv1 Cert.ReferenceIdeal.dot_S50000x128_S128x128_S50000x128_1_0_0_1_n_n 128 rfl rfl).symm]
  refine Finset.sum_congr rfl fun k _ => ?_
  have hk := contrEquiv1_symm_val Cert.ReferenceIdeal.dot_S50000x128_S128x128_S50000x128_1_0_0_1_n_n 128 rfl rfl k
  have el : Cert.ReferenceIdeal.dot_S50000x128_S128x128_S50000x128_1_0_0_1_n_n.lhsIdx (ix2 n q) ((contrEquiv1 Cert.ReferenceIdeal.dot_S50000x128_S128x128_S50000x128_1_0_0_1_n_n 128 rfl rfl).symm k) = ix2 n k := funext fun a => Fin.ext (by
    match a with
    | ⟨0, _⟩ => exact lhs_arrayDot_0 _ _
    | ⟨1, _⟩ => exact (lhs_arrayDot_1 _ _).trans hk)
  have er : Cert.ReferenceIdeal.dot_S50000x128_S128x128_S50000x128_1_0_0_1_n_n.rhsIdx (ix2 n q) ((contrEquiv1 Cert.ReferenceIdeal.dot_S50000x128_S128x128_S50000x128_1_0_0_1_n_n 128 rfl rfl).symm k) = ix2 k q := funext fun a => Fin.ext (by
    match a with
    | ⟨0, _⟩ => exact (rhs_arrayDot_0 _ _).trans hk
    | ⟨1, _⟩ => exact rhs_arrayDot_1 _ _)
  rw [el, er]

/-- The same at any index of the output array, by its two coordinates. -/
theorem arrayProduct_at (x : Cert.Stage.FA Cert.ReferenceIdeal.S50000x128) (w : Cert.Stage.FA Cert.ReferenceIdeal.S128x128) (i : Cert.ReferenceIdeal.S50000x128.Idx) :
    Cert.Stage.mm128 x w i = ∑ k : Fin 128, x (ix2 (i 0) k) * w (ix2 k (i 1)) := by
  obtain ⟨n, q, rfl⟩ : ∃ (n : Fin 50000) (q : Fin 128), i = ix2 n q := ⟨i 0, i 1, eq_ix2 i⟩
  exact arrayProduct_apply x w n q

/-! ## From the blocks to the array -/

theorem origin2 : (![0, 0] : Fin 2 → Nat) = fun _ => 0 := funext fun a => by
  match a with
  | ⟨0, _⟩ => rfl
  | ⟨1, _⟩ => rfl

/-- The printed index maps over the 25 grid points: the block of z moves down with the output's block of rows and spans
    all 128 columns, the weight is always its one whole block, and the output's block row stays below 25. -/
theorem blockMaps : ∀ t : Fin cfg0.N,
    win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (1 : Fin 2) = 0
    ∧ win0_2.index t (0 : Fin 2) ≤ 24 :=
  (by decide +kernel : ∀ t : Fin grid0.N, _)

/-- Every one of the 25 blocks of rows is some grid point's output block. -/
theorem rowBlock_onto : ∀ b : Fin 25, ∃ t : Fin cfg0.N, win0_2.index t = ![b.val, 0] :=
  (by decide +kernel : ∀ b : Fin 25, ∃ t : Fin grid0.N, win0_2.index t = ![b.val, 0])

/-- What grid point t writes back is its block of rows of z·W: row p of the block is row 2000·(block row) + p of the
    arrays, whose entry at column q sums z(row, k)·W(k, q) over k. -/
theorem writeBack_eq (c : Dev nD) (t : Fin cfg0.N) :
    (dat0 (F := Ideal) V c).flushed 2 t
      = ((cfg0.win 2).blk t).view.read (Elt Ideal) (Cert.Stage.mm128 (V c main_arg0) (V c main_arg2)) := by
  show (cfg0.win 2).cut (grid0.coords t) ((dat0 (F := Ideal) V c).after 2 t) = _
  rw [after0_2]
  unfold out0_2
  rw [View.canon_unit_zero origin2]
  simp only [View.ld_unit_zero (S := S2000x128) origin2, View.ld_unit_zero (S := S128x128) origin2]
  obtain ⟨e0, e1, e2, e3, e4, e5⟩ := blockMaps t
  funext j
  obtain ⟨p, q, rfl⟩ : ∃ (p : Fin 2000) (q : Fin 128), j = ix2 p q := ⟨j 0, j 1, eq_ix2 j⟩
  show k0_pay1 (F := Ideal) (iblk0 V c 0 t) (iblk0 V c 1 t) (ix2 p q)
    = Cert.Stage.mm128 (V c main_arg0) (V c main_arg2) (((cfg0.win 2).blk t).view.emb (ix2 p q))
  refine (blockProduct_apply (iblk0 V c 0 t) (iblk0 V c 1 t) p q).trans ?_
  refine Eq.trans ?_ (arrayProduct_at (V c main_arg0) (V c main_arg2) (((cfg0.win 2).blk t).view.emb (ix2 p q))).symm
  refine Finset.sum_congr rfl fun k _ => ?_
  have h0 : ((cfg0.win 0).blk t).view.emb (ix2 p k) = ix2 ((((cfg0.win 2).blk t).view.emb (ix2 p q)) 0) k := by
    funext a; apply Fin.ext
    match a with
    | ⟨0, _⟩ => show win0_0.index t (0 : Fin 2) * 2000 + 1 * p.val = win0_2.index t (0 : Fin 2) * 2000 + 1 * p.val; omega
    | ⟨1, _⟩ => show win0_0.index t (1 : Fin 2) * 128 + 1 * k.val = k.val; omega
  have h1 : ((cfg0.win 1).blk t).view.emb (ix2 k q) = ix2 k ((((cfg0.win 2).blk t).view.emb (ix2 p q)) 1) := by
    funext a; apply Fin.ext
    match a with
    | ⟨0, _⟩ => show win0_1.index t (0 : Fin 2) * 128 + 1 * k.val = k.val; omega
    | ⟨1, _⟩ => show win0_1.index t (1 : Fin 2) * 128 + 1 * q.val = win0_2.index t (1 : Fin 2) * 128 + 1 * q.val; omega
  -- each block's entry is its array's entry at the embedded index
  have a0 : iblk0 V c 0 t (ix2 p k) = V c main_arg0 (ix2 ((((cfg0.win 2).blk t).view.emb (ix2 p q)) 0) k) :=
    congrArg (V c main_arg0) h0
  have a1 : iblk0 V c 1 t (ix2 k q) = V c main_arg2 (ix2 k ((((cfg0.win 2).blk t).view.emb (ix2 p q)) 1)) :=
    congrArg (V c main_arg2) h1
  rw [a0, a1]

/-- An index of the output array is in point t's block iff each coordinate is in the block's range on its axis. -/
theorem mem_rowBlock (t : Fin cfg0.N) (i : S50000x128.Idx) :
    i ∈ ((cfg0.win 2).blk t).view.set ↔ ∀ a : Fin 2, win0_2.index t a * S2000x128.size a ≤ (i a).val ∧ (i a).val < win0_2.index t a * S2000x128.size a + S2000x128.size a := by
  show i ∈ ((View.whole main_v25).slice (win0_2.rect t)).set ↔ _
  rw [View.set_slice_whole, Rect.mem_set_unit]
  exact Iff.rfl

/-- The 25 blocks of 2000 rows cover the 50000 rows: row r lies in block r / 2000, and every block spans all columns. -/
theorem rows_covered (i : S50000x128.Idx) :
    ∃ t : Fin cfg0.N, (cfg0.win 2).flush t = true ∧ i ∈ ((cfg0.win 2).blk t).view.set := by
  have hi0 : (i 0).val < 50000 := (i 0).isLt
  have hi1 : (i 1).val < 128 := (i 1).isLt
  obtain ⟨t, ht⟩ := rowBlock_onto ⟨(i 0).val / 2000, by omega⟩
  have q0 : win0_2.index t (0 : Fin 2) = (i 0).val / 2000 := congrFun ht 0
  have q1 : win0_2.index t (1 : Fin 2) = 0 := congrFun ht 1
  refine ⟨t, flush0_2 t, ?_⟩
  rw [mem_rowBlock]
  intro a
  match a with
  | ⟨0, _⟩ => show win0_2.index t (0 : Fin 2) * 2000 ≤ (i 0).val ∧ (i 0).val < win0_2.index t (0 : Fin 2) * 2000 + 2000; omega
  | ⟨1, _⟩ => show win0_2.index t (1 : Fin 2) * 128 ≤ (i 1).val ∧ (i 1).val < win0_2.index t (1 : Fin 2) * 128 + 128; omega

end Dense0

/-- After region 0 its output array is the dense map of its two input arrays. -/
theorem out0 (c : Dev nD) :
    (dat0 (F := Ideal) V c).arrAt 2 cfg0.N = Cert.Stage.mm128 (V c main_arg0) (V c main_arg2) :=
  (dat0 (F := Ideal) V c).arrAt_eq_of_cover 2 (Cert.Stage.mm128 (V c main_arg0) (V c main_arg2))
    (fun t _ => Dense0.writeBack_eq V c t) Dense0.rows_covered

end Cert.KernelIdeal.Region

end
-- ==== Proof.RegMM2.lean ====
/-
  Region 2: a later layer's dense map. Each of the 25 grid points takes max(·, 0) of a block of 2000 rows of the
  previous layer's table, multiplies it by the whole 128×128 weight (both rounded to bf16 on the chip, the identity on
  extended reals) into a zero accumulator and writes the block back; the blocks tile the 50000 rows, so the output
  array is relu(x)·W — the host's dot_general of relu(x) and W.
-/
import proofs.«418594_j34866544509319_1_alg».proof.Proof.Gen.KernelIdeal.Frame
import proofs.«418594_j34866544509319_1_alg».proof.Proof.Stage
import Idealize.ShloMosaic.Lib.Pipeline.Value
import Idealize.ShloMosaic.Lib.StackMember

set_option maxRecDepth 16384

noncomputable section

namespace Cert.KernelIdeal.Region.MM2

open Idealize.ShloMosaic Idealize.ShloMosaic.TcCoe Idealize.SL.Sem
open Idealize.ShloMosaic.ValueIdx Idealize.ShloMosaic.StackMember
open Cert.KernelIdeal Cert.KernelIdeal.Gen Cert.KernelIdeal.Facts₀

/-! ## One entry of the product, on the block and on the whole table -/

/-- The block product's dimension numbers are the plain rows × columns ones: contract the left operand's axis 1 with
    the right operand's axis 0. -/
theorem dimsBlock : dot_S2000x128_S128x128_S2000x128_1_0_0_1_n_n = DotDims.plain 2000 128 128 := rfl

/-- So are the whole table's. -/
theorem dimsTable : Cert.ReferenceIdeal.dot_S50000x128_S128x128_S50000x128_1_0_0_1_n_n = DotDims.plain 50000 128 128 := rfl

/-- Entry (p, q) of what a grid point computes from its row block x0 and the weight x1: Σₖ max(x0(p, k), 0) · x1(k, q).
    The cast to the same shape and the two roundings to bf16 are the identity on extended reals; the product into a zero
    accumulator is the plain product, read at an entry as the sum over the contracted coordinate. -/
theorem block_entry (x0 : Vec Ideal S2000x128 .f32) (x1 : Vec Ideal S128x128 .f32) (p : Fin 2000) (q : Fin 128) :
    (k2_pay1 (F := Ideal) x0 x1) (ix2 p q)
      = ∑ k : Fin 128, max (x0 (ix2 p k)) (Ideal.ofBits .f32 0x00000000#32) * x1 (ix2 k q) := by
  unfold k2_pay1
  simp only [shapeCast_self]
  rw [dimsBlock]
  refine (congrFun (matmul_zero_eq_dotGeneral (DotDims.plain 2000 128 128) none _ _) (ix2 p q)).trans ?_
  refine (dotGeneral_plain_apply none _ _ p q).trans ?_
  rfl

/-- Entry (n, q) of relu(X)·W for a whole table X: Σₖ max(X(n, k), 0) · W(k, q), with the same zero word. -/
theorem table_entry (X : Cert.Stage.FA Cert.ReferenceIdeal.S50000x128) (W : Cert.Stage.FA Cert.ReferenceIdeal.S128x128)
    (n : Fin 50000) (q : Fin 128) :
    Cert.Stage.mm128 (Cert.Stage.relu X) W (ix2 n q)
      = ∑ k : Fin 128, max (X (ix2 n k)) (Ideal.ofBits .f32 0x00000000#32) * W (ix2 k q) := by
  unfold Cert.Stage.mm128 Cert.Stage.relu
  rw [dimsTable]
  refine (dotGeneral_plain_apply none _ _ n q).trans ?_
  rfl

/-- A row block that holds rows r … r + 1999 of X, with the whole weight, gives rows r … r + 1999 of relu(X)·W:
    entry y of the block's product is entry i of the table's whenever i is y moved down by r rows. -/
theorem block_is_rows (X : Cert.Stage.FA Cert.ReferenceIdeal.S50000x128) (W : Cert.Stage.FA Cert.ReferenceIdeal.S128x128)
    (x0 : Vec Ideal S2000x128 .f32) (x1 : Vec Ideal S128x128 .f32) (r : Nat)
    (h0 : ∀ (p : Fin 2000) (k : Fin 128) (n : Fin 50000), n.val = r + p.val → x0 (ix2 p k) = X (ix2 n k))
    (h1 : ∀ (k q : Fin 128), x1 (ix2 k q) = W (ix2 k q))
    (y : S2000x128.Idx) (i : S50000x128.Idx) (hi0 : (i 0).val = r + (y 0).val) (hi1 : (i 1).val = (y 1).val) :
    (k2_pay1 (F := Ideal) x0 x1) y = Cert.Stage.mm128 (Cert.Stage.relu X) W i := by
  obtain ⟨p, q, rfl⟩ : ∃ (p : Fin 2000) (q : Fin 128), y = ix2 p q := ⟨y 0, y 1, eq_ix2 y⟩
  obtain ⟨n, q', rfl⟩ : ∃ (n : Fin 50000) (q' : Fin 128), i = ix2 n q' := ⟨i 0, i 1, eq_ix2 i⟩
  obtain rfl : q' = q := Fin.ext hi1
  rw [block_entry, table_entry]
  refine Finset.sum_congr rfl fun k _ => ?_
  rw [h0 p k n hi0, h1 k q']

/-! ## From the blocks to the array -/

-- the TensorCore's buffer contents when the region is entered (any contents: the region's result is a function of them)
variable (V : (c : Dev nD) → (b : Ref sig .tc) → Buf (Elt Ideal) ((c : Thread nD τ).loc b))

theorem zeros : (![0, 0] : Fin 2 → Nat) = fun _ => 0 := funext fun a => by fin_cases a <;> rfl

/-- The index maps over the grid: point t takes row block t of the table and of the output (column block 0), and
    block (0, 0) of the weight, which is all of it. -/
theorem block_indices : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- WHAT POINT t WRITES BACK is rows 2000·t … 2000·t + 1999 of relu(x)·W, x and W the region's two input arrays as it
    finds them. -/
theorem written_block (c : Dev nD) (t : Fin cfg2.N) :
    (dat2 (F := Ideal) V c).flushed 2 t
      = ((cfg2.win 2).blk t).view.read (Elt Ideal) (Cert.Stage.mm128 (Cert.Stage.relu (V c main_v32)) (V c main_arg4)) := by
  show (cfg2.win 2).cut (grid2.coords t) ((dat2 V c).after 2 t) = _
  rw [after2_2]
  unfold out2_2
  rw [View.canon_unit_zero zeros]
  simp only [View.ld_unit_zero (S := S2000x128) zeros, View.ld_unit_zero (S := S128x128) zeros]
  obtain ⟨e00, e01, e10, e11, e20, e21⟩ := block_indices t
  funext j
  show (k2_pay1 (F := Ideal) (iblk2 V c 0 t) (iblk2 V c 1 t)) ((cfg2.win 2).xinj (grid2.coords t) j)
    = Cert.Stage.mm128 (Cert.Stage.relu (V c main_v32)) (V c main_arg4) (((cfg2.win 2).blk t).view.emb j)
  refine block_is_rows (V c main_v32) (V c main_arg4) _ _ (2000 * t.val) ?_ ?_ _ _ ?_ ?_
  · -- the table's block at point t is rows 2000·t … of the table
    intro p k n hn
    show V c main_v32 (((cfg2.win 0).blk t).view.emb (ix2 p k)) = V c main_v32 (ix2 n k)
    refine congrArg _ (funext fun a => Fin.ext ?_)
    match a with
    | ⟨0, _⟩ => show win2_0.index t (0 : Fin 2) * 2000 + 1 * p.val = n.val; omega
    | ⟨1, _⟩ => show win2_0.index t (1 : Fin 2) * 128 + 1 * k.val = k.val; omega
  · -- the weight's block is the weight
    intro k q
    show V c main_arg4 (((cfg2.win 1).blk t).view.emb (ix2 k q)) = V c main_arg4 (ix2 k q)
    refine congrArg _ (funext fun a => Fin.ext ?_)
    match a with
    | ⟨0, _⟩ => show win2_1.index t (0 : Fin 2) * 128 + 1 * k.val = k.val; omega
    | ⟨1, _⟩ => show win2_1.index t (1 : Fin 2) * 128 + 1 * q.val = q.val; omega
  · show win2_2.index t (0 : Fin 2) * 2000 + 1 * (j 0).val = 2000 * t.val + (j 0).val; omega
  · show win2_2.index t (1 : Fin 2) * 128 + 1 * (j 1).val = (j 1).val; omega

/-- An index of the output array is in point t's block iff each coordinate is in the block's range on its axis. -/
theorem mem_rows (t : Fin cfg2.N) (i : S50000x128.Idx) :
    i ∈ ((cfg2.win 2).blk t).view.set ↔ ∀ a : Fin 2, win2_2.index t a * S2000x128.size a ≤ (i a).val
      ∧ (i a).val < win2_2.index t a * S2000x128.size a + S2000x128.size a := by
  show i ∈ ((View.whole main_v33).slice (win2_2.rect t)).set ↔ _
  rw [View.set_slice_whole, Rect.mem_set_unit]
  exact Iff.rfl

/-- Row n of the output lies in the block of point n / 2000: the 25 blocks of 2000 rows tile the 50000 rows. -/
theorem rows_covered (i : S50000x128.Idx) :
    ∃ t : Fin cfg2.N, (cfg2.win 2).flush t = true ∧ i ∈ ((cfg2.win 2).blk t).view.set := by
  have hi0 : (i 0).val < 50000 := (i 0).isLt
  have hi1 : (i 1).val < 128 := (i 1).isLt
  have hN : cfg2.N = 25 := N_2
  refine ⟨⟨(i 0).val / 2000, by rw [hN]; omega⟩, flush2_2 _, ?_⟩
  rw [mem_rows]
  obtain ⟨-, -, -, -, e20, e21⟩ := block_indices ⟨(i 0).val / 2000, by rw [hN]; omega⟩
  intro a
  match a with
  | ⟨0, _⟩ =>
    show win2_2.index ⟨(i 0).val / 2000, _⟩ (0 : Fin 2) * 2000 ≤ (i 0).val
      ∧ (i 0).val < win2_2.index ⟨(i 0).val / 2000, _⟩ (0 : Fin 2) * 2000 + 2000
    rw [e20]; show (i 0).val / 2000 * 2000 ≤ (i 0).val ∧ (i 0).val < (i 0).val / 2000 * 2000 + 2000; omega
  | ⟨1, _⟩ =>
    show win2_2.index ⟨(i 0).val / 2000, _⟩ (1 : Fin 2) * 128 ≤ (i 1).val
      ∧ (i 1).val < win2_2.index ⟨(i 0).val / 2000, _⟩ (1 : Fin 2) * 128 + 128
    rw [e21]; omega

end Cert.KernelIdeal.Region.MM2

namespace Cert.KernelIdeal.Region

open Idealize.ShloMosaic Idealize.ShloMosaic.TcCoe Idealize.SL.Sem
open Cert.KernelIdeal Cert.KernelIdeal.Gen Cert.KernelIdeal.Facts₀

-- the TensorCore's buffer contents when the region is entered (any contents: the region's result is a function of them)
variable (V : (c : Dev nD) → (b : Ref sig .tc) → Buf (Elt Ideal) ((c : Thread nD τ).loc b))

/-- After region 2 its output array is the dense map of the ReLU of its first input array and its second. -/
theorem out2 (c : Dev nD) :
    (dat2 (F := Ideal) V c).arrAt 2 cfg2.N = Cert.Stage.mm128 (Cert.Stage.relu (V c main_v32)) (V c main_arg4) :=
  (dat2 (F := Ideal) V c).arrAt_eq_of_cover 2 _ (fun t _ => MM2.written_block V c t) MM2.rows_covered

end Cert.KernelIdeal.Region

end
-- ==== Proof.RegMM4.lean ====
/-
  Region 4: a later layer's dense map. Each of the 25 grid points takes max(·, 0) of a block of 2000 rows of the
  previous layer's table, multiplies it by the whole 128×128 weight (both rounded to bf16 on the chip, the identity on
  extended reals) into a zero accumulator and writes the block back; the blocks tile the 50000 rows, so the output
  array is relu(x)·W — the host's dot_general of relu(x) and W.
-/
import proofs.«418594_j34866544509319_1_alg».proof.Proof.Gen.KernelIdeal.Frame
import proofs.«418594_j34866544509319_1_alg».proof.Proof.Stage
import Idealize.ShloMosaic.Lib.Pipeline.Value
import Idealize.ShloMosaic.Lib.StackMember

set_option maxRecDepth 16384

noncomputable section

namespace Cert.KernelIdeal.Region.MM4

open Idealize.ShloMosaic Idealize.ShloMosaic.TcCoe Idealize.SL.Sem
open Idealize.ShloMosaic.ValueIdx Idealize.ShloMosaic.StackMember
open Cert.KernelIdeal Cert.KernelIdeal.Gen Cert.KernelIdeal.Facts₀

/-! ## One entry of the product, on the block and on the whole table -/

/-- The block product's dimension numbers are the plain rows × columns ones: contract the left operand's axis 1 with
    the right operand's axis 0. -/
theorem dimsBlock : dot_S2000x128_S128x128_S2000x128_1_0_0_1_n_n = DotDims.plain 2000 128 128 := rfl

/-- So are the whole table's. -/
theorem dimsTable : Cert.ReferenceIdeal.dot_S50000x128_S128x128_S50000x128_1_0_0_1_n_n = DotDims.plain 50000 128 128 := rfl

/-- Entry (p, q) of what a grid point computes from its row block x0 and the weight x1: Σₖ max(x0(p, k), 0) · x1(k, q).
    The cast to the same shape and the two roundings to bf16 are the identity on extended reals; the product into a zero
    accumulator is the plain product, read at an entry as the sum over the contracted coordinate. -/
theorem block_entry (x0 : Vec Ideal S2000x128 .f32) (x1 : Vec Ideal S128x128 .f32) (p : Fin 2000) (q : Fin 128) :
    (k4_pay1 (F := Ideal) x0 x1) (ix2 p q)
      = ∑ k : Fin 128, max (x0 (ix2 p k)) (Ideal.ofBits .f32 0x00000000#32) * x1 (ix2 k q) := by
  unfold k4_pay1
  simp only [shapeCast_self]
  rw [dimsBlock]
  refine (congrFun (matmul_zero_eq_dotGeneral (DotDims.plain 2000 128 128) none _ _) (ix2 p q)).trans ?_
  refine (dotGeneral_plain_apply none _ _ p q).trans ?_
  rfl

/-- Entry (n, q) of relu(X)·W for a whole table X: Σₖ max(X(n, k), 0) · W(k, q), with the same zero word. -/
theorem table_entry (X : Cert.Stage.FA Cert.ReferenceIdeal.S50000x128) (W : Cert.Stage.FA Cert.ReferenceIdeal.S128x128)
    (n : Fin 50000) (q : Fin 128) :
    Cert.Stage.mm128 (Cert.Stage.relu X) W (ix2 n q)
      = ∑ k : Fin 128, max (X (ix2 n k)) (Ideal.ofBits .f32 0x00000000#32) * W (ix2 k q) := by
  unfold Cert.Stage.mm128 Cert.Stage.relu
  rw [dimsTable]
  refine (dotGeneral_plain_apply none _ _ n q).trans ?_
  rfl

/-- A row block that holds rows r … r + 1999 of X, with the whole weight, gives rows r … r + 1999 of relu(X)·W:
    entry y of the block's product is entry i of the table's whenever i is y moved down by r rows. -/
theorem block_is_rows (X : Cert.Stage.FA Cert.ReferenceIdeal.S50000x128) (W : Cert.Stage.FA Cert.ReferenceIdeal.S128x128)
    (x0 : Vec Ideal S2000x128 .f32) (x1 : Vec Ideal S128x128 .f32) (r : Nat)
    (h0 : ∀ (p : Fin 2000) (k : Fin 128) (n : Fin 50000), n.val = r + p.val → x0 (ix2 p k) = X (ix2 n k))
    (h1 : ∀ (k q : Fin 128), x1 (ix2 k q) = W (ix2 k q))
    (y : S2000x128.Idx) (i : S50000x128.Idx) (hi0 : (i 0).val = r + (y 0).val) (hi1 : (i 1).val = (y 1).val) :
    (k4_pay1 (F := Ideal) x0 x1) y = Cert.Stage.mm128 (Cert.Stage.relu X) W i := by
  obtain ⟨p, q, rfl⟩ : ∃ (p : Fin 2000) (q : Fin 128), y = ix2 p q := ⟨y 0, y 1, eq_ix2 y⟩
  obtain ⟨n, q', rfl⟩ : ∃ (n : Fin 50000) (q' : Fin 128), i = ix2 n q' := ⟨i 0, i 1, eq_ix2 i⟩
  obtain rfl : q' = q := Fin.ext hi1
  rw [block_entry, table_entry]
  refine Finset.sum_congr rfl fun k _ => ?_
  rw [h0 p k n hi0, h1 k q']

/-! ## From the blocks to the array -/

-- the TensorCore's buffer contents when the region is entered (any contents: the region's result is a function of them)
variable (V : (c : Dev nD) → (b : Ref sig .tc) → Buf (Elt Ideal) ((c : Thread nD τ).loc b))

theorem zeros : (![0, 0] : Fin 2 → Nat) = fun _ => 0 := funext fun a => by fin_cases a <;> rfl

/-- The index maps over the grid: point t takes row block t of the table and of the output (column block 0), and
    block (0, 0) of the weight, which is all of it. -/
theorem block_indices : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

/-- WHAT POINT t WRITES BACK is rows 2000·t … 2000·t + 1999 of relu(x)·W, x and W the region's two input arrays as it
    finds them. -/
theorem written_block (c : Dev nD) (t : Fin cfg4.N) :
    (dat4 (F := Ideal) V c).flushed 2 t
      = ((cfg4.win 2).blk t).view.read (Elt Ideal) (Cert.Stage.mm128 (Cert.Stage.relu (V c main_v40)) (V c main_arg6)) := by
  show (cfg4.win 2).cut (grid4.coords t) ((dat4 V c).after 2 t) = _
  rw [after4_2]
  unfold out4_2
  rw [View.canon_unit_zero zeros]
  simp only [View.ld_unit_zero (S := S2000x128) zeros, View.ld_unit_zero (S := S128x128) zeros]
  obtain ⟨e00, e01, e10, e11, e20, e21⟩ := block_indices t
  funext j
  show (k4_pay1 (F := Ideal) (iblk4 V c 0 t) (iblk4 V c 1 t)) ((cfg4.win 2).xinj (grid4.coords t) j)
    = Cert.Stage.mm128 (Cert.Stage.relu (V c main_v40)) (V c main_arg6) (((cfg4.win 2).blk t).view.emb j)
  refine block_is_rows (V c main_v40) (V c main_arg6) _ _ (2000 * t.val) ?_ ?_ _ _ ?_ ?_
  · -- the table's block at point t is rows 2000·t … of the table
    intro p k n hn
    show V c main_v40 (((cfg4.win 0).blk t).view.emb (ix2 p k)) = V c main_v40 (ix2 n k)
    refine congrArg _ (funext fun a => Fin.ext ?_)
    match a with
    | ⟨0, _⟩ => show win4_0.index t (0 : Fin 2) * 2000 + 1 * p.val = n.val; omega
    | ⟨1, _⟩ => show win4_0.index t (1 : Fin 2) * 128 + 1 * k.val = k.val; omega
  · -- the weight's block is the weight
    intro k q
    show V c main_arg6 (((cfg4.win 1).blk t).view.emb (ix2 k q)) = V c main_arg6 (ix2 k q)
    refine congrArg _ (funext fun a => Fin.ext ?_)
    match a with
    | ⟨0, _⟩ => show win4_1.index t (0 : Fin 2) * 128 + 1 * k.val = k.val; omega
    | ⟨1, _⟩ => show win4_1.index t (1 : Fin 2) * 128 + 1 * q.val = q.val; omega
  · show win4_2.index t (0 : Fin 2) * 2000 + 1 * (j 0).val = 2000 * t.val + (j 0).val; omega
  · show win4_2.index t (1 : Fin 2) * 128 + 1 * (j 1).val = (j 1).val; omega

/-- An index of the output array is in point t's block iff each coordinate is in the block's range on its axis. -/
theorem mem_rows (t : Fin cfg4.N) (i : S50000x128.Idx) :
    i ∈ ((cfg4.win 2).blk t).view.set ↔ ∀ a : Fin 2, win4_2.index t a * S2000x128.size a ≤ (i a).val
      ∧ (i a).val < win4_2.index t a * S2000x128.size a + S2000x128.size a := by
  show i ∈ ((View.whole main_v41).slice (win4_2.rect t)).set ↔ _
  rw [View.set_slice_whole, Rect.mem_set_unit]
  exact Iff.rfl

/-- Row n of the output lies in the block of point n / 2000: the 25 blocks of 2000 rows tile the 50000 rows. -/
theorem rows_covered (i : S50000x128.Idx) :
    ∃ t : Fin cfg4.N, (cfg4.win 2).flush t = true ∧ i ∈ ((cfg4.win 2).blk t).view.set := by
  have hi0 : (i 0).val < 50000 := (i 0).isLt
  have hi1 : (i 1).val < 128 := (i 1).isLt
  have hN : cfg4.N = 25 := N_4
  refine ⟨⟨(i 0).val / 2000, by rw [hN]; omega⟩, flush4_2 _, ?_⟩
  rw [mem_rows]
  obtain ⟨-, -, -, -, e20, e21⟩ := block_indices ⟨(i 0).val / 2000, by rw [hN]; omega⟩
  intro a
  match a with
  | ⟨0, _⟩ =>
    show win4_2.index ⟨(i 0).val / 2000, _⟩ (0 : Fin 2) * 2000 ≤ (i 0).val
      ∧ (i 0).val < win4_2.index ⟨(i 0).val / 2000, _⟩ (0 : Fin 2) * 2000 + 2000
    rw [e20]; show (i 0).val / 2000 * 2000 ≤ (i 0).val ∧ (i 0).val < (i 0).val / 2000 * 2000 + 2000; omega
  | ⟨1, _⟩ =>
    show win4_2.index ⟨(i 0).val / 2000, _⟩ (1 : Fin 2) * 128 ≤ (i 1).val
      ∧ (i 1).val < win4_2.index ⟨(i 0).val / 2000, _⟩ (1 : Fin 2) * 128 + 128
    rw [e21]; omega

end Cert.KernelIdeal.Region.MM4

namespace Cert.KernelIdeal.Region

open Idealize.ShloMosaic Idealize.ShloMosaic.TcCoe Idealize.SL.Sem
open Cert.KernelIdeal Cert.KernelIdeal.Gen Cert.KernelIdeal.Facts₀

-- the TensorCore's buffer contents when the region is entered (any contents: the region's result is a function of them)
variable (V : (c : Dev nD) → (b : Ref sig .tc) → Buf (Elt Ideal) ((c : Thread nD τ).loc b))

/-- After region 4 its output array is the dense map of the ReLU of its first input array and its second. -/
theorem out4 (c : Dev nD) :
    (dat4 (F := Ideal) V c).arrAt 2 cfg4.N = Cert.Stage.mm128 (Cert.Stage.relu (V c main_v40)) (V c main_arg6) :=
  (dat4 (F := Ideal) V c).arrAt_eq_of_cover 2 _ (fun t _ => MM4.written_block V c t) MM4.rows_covered

end Cert.KernelIdeal.Region

end
-- ==== Proof.RegMM6.lean ====
/-
  Region 6: a later layer's dense map. Each of the 25 grid points takes max(·, 0) of a block of 2000 rows of the
  previous layer's table, multiplies it by the whole 128×64 weight (both rounded to bf16 on the chip, the identity on
  extended reals) into a zero accumulator and writes the block back; the blocks tile the 50000 rows, so the output
  array is relu(x)·W — the host's dot_general of relu(x) and W.
-/
import proofs.«418594_j34866544509319_1_alg».proof.Proof.Gen.KernelIdeal.Frame
import proofs.«418594_j34866544509319_1_alg».proof.Proof.Stage
import Idealize.ShloMosaic.Lib.Pipeline.Value
import Idealize.ShloMosaic.Lib.StackMember

set_option maxRecDepth 16384

noncomputable section

namespace Cert.KernelIdeal.Region.MM6

open Idealize.ShloMosaic Idealize.ShloMosaic.TcCoe Idealize.SL.Sem
open Idealize.ShloMosaic.ValueIdx Idealize.ShloMosaic.StackMember
open Cert.KernelIdeal Cert.KernelIdeal.Gen Cert.KernelIdeal.Facts₀

/-! ## One entry of the product, on the block and on the whole table -/

/-- The block product's dimension numbers are the plain rows × columns ones, 2000×128 by 128×64: contract the left
    operand's axis 1 with the right operand's axis 0. -/
theorem dimsBlock : dot_S2000x128_S128x64_S2000x64_1_0_0_1_n_n = DotDims.plain 2000 128 64 := rfl

/-- So are the whole table's, 50000×128 by 128×64. -/
theorem dimsTable : Cert.ReferenceIdeal.dot_S50000x128_S128x64_S50000x64_1_0_0_1_n_n = DotDims.plain 50000 128 64 := rfl

/-- Entry (p, q), q one of the 64 output columns, of what a grid point computes from its row block x0 and the weight x1:
    Σₖ max(x0(p, k), 0) · x1(k, q) over the 128 contracted columns. The cast to the same shape and the two roundings to
    bf16 are the identity on extended reals; the product into a zero accumulator is the plain product, read at an entry
    as the sum over the contracted coordinate. -/
theorem block_entry (x0 : Vec Ideal S2000x128 .f32) (x1 : Vec Ideal S128x64 .f32) (p : Fin 2000) (q : Fin 64) :
    (k6_pay1 (F := Ideal) x0 x1) (ix2 p q)
      = ∑ k : Fin 128, max (x0 (ix2 p k)) (Ideal.ofBits .f32 0x00000000#32) * x1 (ix2 k q) := by
  unfold k6_pay1
  simp only [shapeCast_self]
  rw [dimsBlock]
  refine (congrFun (matmul_zero_eq_dotGeneral (DotDims.plain 2000 128 64) none _ _) (ix2 p q)).trans ?_
  refine (dotGeneral_plain_apply none _ _ p q).trans ?_
  rfl

/-- Entry (n, q) of relu(X)·W for a whole table X and a 128×64 weight W: Σₖ max(X(n, k), 0) · W(k, q), with the same
    zero word. -/
theorem table_entry (X : Cert.Stage.FA Cert.ReferenceIdeal.S50000x128) (W : Cert.Stage.FA Cert.ReferenceIdeal.S128x64)
    (n : Fin 50000) (q : Fin 64) :
    Cert.Stage.mm64 (Cert.Stage.relu X) W (ix2 n q)
      = ∑ k : Fin 128, max (X (ix2 n k)) (Ideal.ofBits .f32 0x00000000#32) * W (ix2 k q) := by
  unfold Cert.Stage.mm64 Cert.Stage.relu
  rw [dimsTable]
  refine (dotGeneral_plain_apply none _ _ n q).trans ?_
  rfl

/-- A row block that holds rows r … r + 1999 of X, with the whole weight, gives rows r … r + 1999 of relu(X)·W:
    entry y of the block's product is entry i of the table's whenever i is y moved down by r rows. -/
theorem block_is_rows (X : Cert.Stage.FA Cert.ReferenceIdeal.S50000x128) (W : Cert.Stage.FA Cert.ReferenceIdeal.S128x64)
    (x0 : Vec Ideal S2000x128 .f32) (x1 : Vec Ideal S128x64 .f32) (r : Nat)
    (h0 : ∀ (p : Fin 2000) (k : Fin 128) (n : Fin 50000), n.val = r + p.val → x0 (ix2 p k) = X (ix2 n k))
    (h1 : ∀ (k : Fin 128) (q : Fin 64), x1 (ix2 k q) = W (ix2 k q))
    (y : S2000x64.Idx) (i : S50000x64.Idx) (hi0 : (i 0).val = r + (y 0).val) (hi1 : (i 1).val = (y 1).val) :
    (k6_pay1 (F := Ideal) x0 x1) y = Cert.Stage.mm64 (Cert.Stage.relu X) W i := by
  obtain ⟨p, q, rfl⟩ : ∃ (p : Fin 2000) (q : Fin 64), y = ix2 p q := ⟨y 0, y 1, eq_ix2 y⟩
  obtain ⟨n, q', rfl⟩ : ∃ (n : Fin 50000) (q' : Fin 64), i = ix2 n q' := ⟨i 0, i 1, eq_ix2 i⟩
  obtain rfl : q' = q := Fin.ext hi1
  rw [block_entry, table_entry]
  refine Finset.sum_congr rfl fun k _ => ?_
  rw [h0 p k n hi0, h1 k q']

/-! ## From the blocks to the array -/

-- the TensorCore's buffer contents when the region is entered (any contents: the region's result is a function of them)
variable (V : (c : Dev nD) → (b : Ref sig .tc) → Buf (Elt Ideal) ((c : Thread nD τ).loc b))

theorem zeros : (![0, 0] : Fin 2 → Nat) = fun _ => 0 := funext fun a => by fin_cases a <;> rfl

/-- The index maps over the grid: point t takes row block t of the table and of the output (column block 0), and
    block (0, 0) of the weight, which is all of it. -/
theorem block_indices : ∀ t : Fin cfg6.N, win6_0.index t (0 : Fin 2) = t.val ∧ win6_0.index t (1 : Fin 2) = 0
    ∧ win6_1.index t (0 : Fin 2) = 0 ∧ win6_1.index t (1 : Fin 2) = 0
    ∧ win6_2.index t (0 : Fin 2) = t.val ∧ win6_2.index t (1 : Fin 2) = 0 :=
  (by decide +kernel : ∀ t : Fin grid6.N, _)

/-- WHAT POINT t WRITES BACK is rows 2000·t … 2000·t + 1999 of relu(x)·W, x and W the region's two input arrays as it
    finds them. -/
theorem written_block (c : Dev nD) (t : Fin cfg6.N) :
    (dat6 (F := Ideal) V c).flushed 2 t
      = ((cfg6.win 2).blk t).view.read (Elt Ideal) (Cert.Stage.mm64 (Cert.Stage.relu (V c main_v48)) (V c main_arg8)) := by
  show (cfg6.win 2).cut (grid6.coords t) ((dat6 V c).after 2 t) = _
  rw [after6_2]
  unfold out6_2
  rw [View.canon_unit_zero zeros]
  simp only [View.ld_unit_zero (S := S2000x128) zeros, View.ld_unit_zero (S := S128x64) zeros]
  obtain ⟨e00, e01, e10, e11, e20, e21⟩ := block_indices t
  funext j
  show (k6_pay1 (F := Ideal) (iblk6 V c 0 t) (iblk6 V c 1 t)) ((cfg6.win 2).xinj (grid6.coords t) j)
    = Cert.Stage.mm64 (Cert.Stage.relu (V c main_v48)) (V c main_arg8) (((cfg6.win 2).blk t).view.emb j)
  refine block_is_rows (V c main_v48) (V c main_arg8) _ _ (2000 * t.val) ?_ ?_ _ _ ?_ ?_
  · -- the table's block at point t is rows 2000·t … of the table, all 128 columns
    intro p k n hn
    show V c main_v48 (((cfg6.win 0).blk t).view.emb (ix2 p k)) = V c main_v48 (ix2 n k)
    refine congrArg _ (funext fun a => Fin.ext ?_)
    match a with
    | ⟨0, _⟩ => show win6_0.index t (0 : Fin 2) * 2000 + 1 * p.val = n.val; omega
    | ⟨1, _⟩ => show win6_0.index t (1 : Fin 2) * 128 + 1 * k.val = k.val; omega
  · -- the weight's block is the weight: 128 rows, 64 columns
    intro k q
    show V c main_arg8 (((cfg6.win 1).blk t).view.emb (ix2 k q)) = V c main_arg8 (ix2 k q)
    refine congrArg _ (funext fun a => Fin.ext ?_)
    match a with
    | ⟨0, _⟩ => show win6_1.index t (0 : Fin 2) * 128 + 1 * k.val = k.val; omega
    | ⟨1, _⟩ => show win6_1.index t (1 : Fin 2) * 64 + 1 * q.val = q.val; omega
  · show win6_2.index t (0 : Fin 2) * 2000 + 1 * (j 0).val = 2000 * t.val + (j 0).val; omega
  · show win6_2.index t (1 : Fin 2) * 64 + 1 * (j 1).val = (j 1).val; omega

/-- An index of the output array is in point t's block iff each coordinate is in the block's range on its axis. -/
theorem mem_rows (t : Fin cfg6.N) (i : S50000x64.Idx) :
    i ∈ ((cfg6.win 2).blk t).view.set ↔ ∀ a : Fin 2, win6_2.index t a * S2000x64.size a ≤ (i a).val
      ∧ (i a).val < win6_2.index t a * S2000x64.size a + S2000x64.size a := by
  show i ∈ ((View.whole main_v49).slice (win6_2.rect t)).set ↔ _
  rw [View.set_slice_whole, Rect.mem_set_unit]
  exact Iff.rfl

/-- Row n of the output lies in the block of point n / 2000: the 25 blocks of 2000 rows tile the 50000 rows, each
    all 64 columns wide. -/
theorem rows_covered (i : S50000x64.Idx) :
    ∃ t : Fin cfg6.N, (cfg6.win 2).flush t = true ∧ i ∈ ((cfg6.win 2).blk t).view.set := by
  have hi0 : (i 0).val < 50000 := (i 0).isLt
  have hi1 : (i 1).val < 64 := (i 1).isLt
  have hN : cfg6.N = 25 := N_6
  refine ⟨⟨(i 0).val / 2000, by rw [hN]; omega⟩, flush6_2 _, ?_⟩
  rw [mem_rows]
  obtain ⟨-, -, -, -, e20, e21⟩ := block_indices ⟨(i 0).val / 2000, by rw [hN]; omega⟩
  intro a
  match a with
  | ⟨0, _⟩ =>
    show win6_2.index ⟨(i 0).val / 2000, _⟩ (0 : Fin 2) * 2000 ≤ (i 0).val
      ∧ (i 0).val < win6_2.index ⟨(i 0).val / 2000, _⟩ (0 : Fin 2) * 2000 + 2000
    rw [e20]; show (i 0).val / 2000 * 2000 ≤ (i 0).val ∧ (i 0).val < (i 0).val / 2000 * 2000 + 2000; omega
  | ⟨1, _⟩ =>
    show win6_2.index ⟨(i 0).val / 2000, _⟩ (1 : Fin 2) * 64 ≤ (i 1).val
      ∧ (i 1).val < win6_2.index ⟨(i 0).val / 2000, _⟩ (1 : Fin 2) * 64 + 64
    rw [e21]; omega

end Cert.KernelIdeal.Region.MM6

namespace Cert.KernelIdeal.Region

open Idealize.ShloMosaic Idealize.ShloMosaic.TcCoe Idealize.SL.Sem
open Cert.KernelIdeal Cert.KernelIdeal.Gen Cert.KernelIdeal.Facts₀

-- the TensorCore's buffer contents when the region is entered (any contents: the region's result is a function of them)
variable (V : (c : Dev nD) → (b : Ref sig .tc) → Buf (Elt Ideal) ((c : Thread nD τ).loc b))

/-- After region 6 its output array is the dense map of the ReLU of its first input array and its second. -/
theorem out6 (c : Dev nD) :
    (dat6 (F := Ideal) V c).arrAt 2 cfg6.N = Cert.Stage.mm64 (Cert.Stage.relu (V c main_v48)) (V c main_arg8) :=
  (dat6 (F := Ideal) V c).arrAt_eq_of_cover 2 _ (fun t _ => MM6.written_block V c t) MM6.rows_covered

end Cert.KernelIdeal.Region

end
-- ==== Proof.RegNorm1.lean ====
/-
  Region 1: divide by the indegree and add the bias. Each of the 25 grid points takes a block of 2000 rows of the
  summed messages, the same rows of the indegree column (50000×1) and the bias row (1×128), and writes
  a(n, j) / max(g(n), 1) + b(j); the blocks tile the 50000 rows. The indegree column and the bias row are reshapes of
  a node vector g and a bias vector b, so the output array is the host's a / broadcast(max(g, 1)) + broadcast(b).
-/
import proofs.«418594_j34866544509319_1_alg».proof.Proof.Gen.KernelIdeal.Frame
import proofs.«418594_j34866544509319_1_alg».proof.Proof.Stage
import Idealize.ShloMosaic.Lib.Pipeline.Value
import Idealize.ShloMosaic.Lib.ValueIdx
import Idealize.ShloMosaic.Lib.ValueLayout
import Idealize.ShloMosaic.Lib.IdealHost

set_option maxRecDepth 16384

noncomputable section

namespace Cert.KernelIdeal.Region

open Idealize.ShloMosaic Idealize.ShloMosaic.TcCoe Idealize.SL.Sem Idealize.ShloMosaic.ValueIdx
open Cert.KernelIdeal Cert.KernelIdeal.Gen Cert.KernelIdeal.Facts₀

-- the TensorCore's buffer contents when the region is entered (any contents: the region's result is a function of them)
variable (V : (c : Dev nD) → (b : Ref sig .tc) → Buf (Elt Ideal) ((c : Thread nD τ).loc b))

/-! ## One entry of the block the body stores, and one entry of the host's table -/

/-- A column [a, 1] broadcast along the second axis to [a, b] reads, at (p, c), the column's entry p: the operand's
    second axis is a unit axis, its first is kept (and if a = 1 the one row is row 0 = p). -/
theorem norm1_column_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- Entry (p, q) of what the body stores, from its three loaded blocks x0 (messages), x1 (indegree column), x2 (bias
    row): x0(p, q) / max(x1(p, 0), 1) + x2(0, q). The two same-shape casts are identities, the column is broadcast
    along the lanes and the row along the sublanes, the rest is pointwise; the 1 stays the word it is printed as. -/
theorem norm1_pay_apply (x0 : Vec Ideal S2000x128 .f32) (x1 : Vec Ideal S2000x1 .f32) (x2 : Vec Ideal S1x128 .f32)
    (p : Fin 2000) (q : Fin 128) :
    k1_pay1 x0 x1 x2 (ix2 p q)
      = Ideal.div (x0 (ix2 p q)) (max (x1 (ix2 p (0 : Fin 1))) (Ideal.ofBits .f32 0x3F800000#32)) + x2 (ix2 (0 : Fin 1) q) := by
  unfold k1_pay1
  simp only [shapeCast_self]
  rw [addf_apply, divf_apply, norm1_column_apply, broadcastTo_1b_ab_apply, maximumf_apply, broadcast_apply]
  rfl

/-- Entry (n, q) of the host's table: a(n, q) / max(g(n), 1) + b(q). Each operand of the host's divide and add is two
    broadcasts, [50000] → [50000, 1] → [50000, 128] for the clamped indegree and [128] → [1, 128] → [50000, 128] for the
    bias, each read at the coordinate it keeps; the host's quotient is the same function of two extended reals as the
    body's, and the clamp's 1 is the same word. -/
theorem norm1_host_apply (A : Cert.Stage.FA S50000x128) (g : Cert.Stage.FA S50000) (b : Cert.Stage.FA S128)
    (n : Fin 50000) (q : Fin 128) :
    Cert.Stage.norm128 A (Cert.Stage.atLeastOne g) b (ix2 n q)
      = Ideal.div (A (ix2 n q)) (max (g (ix1 n)) (Ideal.ofBits .f32 0x3F800000#32)) + b (ix1 q) := by
  unfold Cert.Stage.norm128 Cert.Stage.atLeastOne
  rw [addf_apply, hostDivf_apply]
  rw [broadcastInDim_apply _ _ _ (ix2 n q) (ix2 n (0 : Fin 1)) (fun a => match a with | ⟨0, _⟩ => rfl | ⟨1, _⟩ => rfl)]
  rw [broadcastInDim_apply _ _ _ (ix2 n (0 : Fin 1)) (ix1 n) (fun a => match a with | ⟨0, _⟩ => rfl)]
  rw [broadcastInDim_apply _ _ _ (ix2 n q) (ix2 (0 : Fin 1) q) (fun a => match a with | ⟨0, _⟩ => rfl | ⟨1, _⟩ => rfl)]
  rw [broadcastInDim_apply _ _ _ (ix2 (0 : Fin 1) q) (ix1 q) (fun a => match a with | ⟨0, _⟩ => rfl)]
  rfl

/-! ## From the 25 blocks to the array -/

theorem norm1_hz : (![0, 0] : Fin 2 → Nat) = fun _ => 0 := funext fun a => by fin_cases a <;> rfl

/-- The block indices at grid point t, decided over the 25 points: the messages, the indegree column and the output
    move together, block t along the rows and block 0 along the columns; the bias row stays at block (0, 0). -/
theorem norm1_idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- What grid point t writes back is block t of the host's table. Entry (p, q) of the stored block is
    x0(p, q) / max(x1(p, 0), 1) + x2(0, q) of the three input blocks; the output block's entry (p, q) is the array's
    entry (2000 t + p, q), the messages' block reads the same entry of its array, the column's block entry (p, 0) is
    entry 2000 t + p of g (the reshape [50000] → [50000, 1] keeps the row-major position), and the row's entry (0, q)
    is entry q of b (the reshape [128] → [1, 128] likewise). -/
theorem norm1_flushed_eq (c : Dev nD) (g : Cert.Stage.FA S50000) (b : Cert.Stage.FA S128)
    (hg : V c main_v30 = shapeCast S50000x1 g Facts₀.shapeCasts_S50000_S50000x1)
    (hb : V c main_v31 = shapeCast S1x128 b Facts₀.shapeCasts_S128_S1x128) (t : Fin cfg1.N) :
    (dat1 (F := Ideal) V c).flushed 3 t
      = ((cfg1.win 3).blk t).view.read (Elt Ideal) (Cert.Stage.norm128 (V c main_v29) (Cert.Stage.atLeastOne g) b) := by
  show (cfg1.win 3).cut (grid1.coords t) ((dat1 V c).after 3 t) = _
  rw [after1_3]
  unfold out1_3
  rw [View.canon_unit_zero norm1_hz]
  simp only [View.ld_unit_zero (S := S2000x128) norm1_hz, View.ld_unit_zero (S := S2000x1) norm1_hz,
    View.ld_unit_zero (S := S1x128) norm1_hz]
  funext j
  obtain ⟨p, q, rfl⟩ : ∃ (p : Fin 2000) (q : Fin 128), j = ix2 p q := ⟨j 0, j 1, eq_ix2 j⟩
  show k1_pay1 (iblk1 V c 0 t) (iblk1 V c 1 t) (iblk1 V c 2 t) (ix2 p q)
    = Cert.Stage.norm128 (V c main_v29) (Cert.Stage.atLeastOne g) b (((cfg1.win 3).blk t).view.emb (ix2 p q))
  refine (norm1_pay_apply _ _ _ p q).trans ?_
  obtain ⟨e00, e01, e10, e11, e20, e21, e30, e31⟩ := norm1_idx_facts t
  have hN : cfg1.N = 25 := N_1
  have ht : t.val < 25 := hN ▸ t.isLt
  -- the output block's entry (p, q) is the array's entry (2000 t + p, q)
  have hemb : ((cfg1.win 3).blk t).view.emb (ix2 p q) = ix2 (⟨t.val * 2000 + p.val, by omega⟩ : Fin 50000) q := by
    funext a; apply Fin.ext
    match a with
    | ⟨0, _⟩ => show win1_3.index t (0 : Fin 2) * 2000 + 1 * p.val = t.val * 2000 + p.val; omega
    | ⟨1, _⟩ => show win1_3.index t (1 : Fin 2) * 128 + 1 * q.val = q.val; omega
  -- the messages' block reads the same entry of its array
  have h0 : iblk1 V c 0 t (ix2 p q) = V c main_v29 (ix2 (⟨t.val * 2000 + p.val, by omega⟩ : Fin 50000) q) := by
    show V c main_v29 (((cfg1.win 0).blk t).view.emb (ix2 p q)) = _
    refine congrArg (V c main_v29) ?_
    funext a; apply Fin.ext
    match a with
    | ⟨0, _⟩ => show win1_0.index t (0 : Fin 2) * 2000 + 1 * p.val = t.val * 2000 + p.val; omega
    | ⟨1, _⟩ => show win1_0.index t (1 : Fin 2) * 128 + 1 * q.val = q.val; omega
  -- the column's block entry (p, 0) is entry 2000 t + p of g: row-major position (2000 t + p) · 1 + 0
  have h1 : iblk1 V c 1 t (ix2 p (0 : Fin 1)) = g (ix1 (⟨t.val * 2000 + p.val, by omega⟩ : Fin 50000)) := by
    show V c main_v30 (((cfg1.win 1).blk t).view.emb (ix2 p (0 : Fin 1))) = _
    rw [hg]
    refine shapeCast_apply _ _ _ _ ?_
    rw [Shape.rowMajor_val_two, Shape.rowMajor_val_one]
    show t.val * 2000 + p.val
      = (win1_1.index t (0 : Fin 2) * 2000 + 1 * p.val) * 1 + (win1_1.index t (1 : Fin 2) * 1 + 1 * 0)
    omega
  -- the row's block entry (0, q) is entry q of b: row-major position 0 · 128 + q
  have h2 : iblk1 V c 2 t (ix2 (0 : Fin 1) q) = b (ix1 q) := by
    show V c main_v31 (((cfg1.win 2).blk t).view.emb (ix2 (0 : Fin 1) q)) = _
    rw [hb]
    refine shapeCast_apply _ _ _ _ ?_
    rw [Shape.rowMajor_val_two, Shape.rowMajor_val_one]
    show q.val = (win1_2.index t (0 : Fin 2) * 1 + 1 * 0) * 128 + (win1_2.index t (1 : Fin 2) * 128 + 1 * q.val)
    omega
  rw [hemb, norm1_host_apply, h0, h1, h2]

/-- An index of the output array lies in point t's block iff each coordinate lies in the block's range on its axis. -/
theorem norm1_mem_blk (t : Fin cfg1.N) (i : S50000x128.Idx) :
    i ∈ ((cfg1.win 3).blk t).view.set ↔ ∀ a : Fin 2, win1_3.index t a * S2000x128.size a ≤ (i a).val
      ∧ (i a).val < win1_3.index t a * S2000x128.size a + S2000x128.size a := by
  show i ∈ ((View.whole main_v32).slice (win1_3.rect t)).set ↔ _
  rw [View.set_slice_whole, Rect.mem_set_unit]
  exact Iff.rfl

/-- Row r of the output lies in the block of point r / 2000, and every column in its one column block: the 25 blocks
    tile the 50000 rows. -/
theorem norm1_cover (i : S50000x128.Idx) :
    ∃ t : Fin cfg1.N, (cfg1.win 3).flush t = true ∧ i ∈ ((cfg1.win 3).blk t).view.set := by
  have hN : cfg1.N = 25 := N_1
  have hi0 : (i 0).val < 50000 := (i 0).isLt
  have hi1 : (i 1).val < 128 := (i 1).isLt
  have ht : (i 0).val / 2000 < cfg1.N := by rw [hN]; omega
  obtain ⟨-, -, -, -, -, -, e30, e31⟩ := norm1_idx_facts ⟨(i 0).val / 2000, ht⟩
  refine ⟨⟨(i 0).val / 2000, ht⟩, flush1_3 _, ?_⟩
  rw [norm1_mem_blk]
  intro a
  match a with
  | ⟨0, _⟩ =>
    show win1_3.index ⟨(i 0).val / 2000, ht⟩ (0 : Fin 2) * 2000 ≤ (i 0).val
      ∧ (i 0).val < win1_3.index ⟨(i 0).val / 2000, ht⟩ (0 : Fin 2) * 2000 + 2000
    rw [e30]
    show (i 0).val / 2000 * 2000 ≤ (i 0).val ∧ (i 0).val < (i 0).val / 2000 * 2000 + 2000
    omega
  | ⟨1, _⟩ =>
    show win1_3.index ⟨(i 0).val / 2000, ht⟩ (1 : Fin 2) * 128 ≤ (i 1).val
      ∧ (i 1).val < win1_3.index ⟨(i 0).val / 2000, ht⟩ (1 : Fin 2) * 128 + 128
    rw [e31]
    omega

/-- After region 1 its output array is the normalized, biased table, when its second and third input arrays are the
    reshapes of an indegree vector `g` and a bias vector `b`. -/
theorem out1 (c : Dev nD) (g : Cert.Stage.FA S50000) (b : Cert.Stage.FA S128)
    (hg : V c main_v30 = shapeCast S50000x1 g Facts₀.shapeCasts_S50000_S50000x1)
    (hb : V c main_v31 = shapeCast S1x128 b Facts₀.shapeCasts_S128_S1x128) :
    (dat1 (F := Ideal) V c).arrAt 3 cfg1.N = Cert.Stage.norm128 (V c main_v29) (Cert.Stage.atLeastOne g) b :=
  (dat1 (F := Ideal) V c).arrAt_eq_of_cover 3 _ (fun t _ => norm1_flushed_eq V c g b hg hb t) norm1_cover

end Cert.KernelIdeal.Region

end
-- ==== Proof.RegNorm3.lean ====
/-
  Region 3: divide by the indegree and add the bias. Each of the 25 grid points takes a block of 2000 rows of the
  summed messages, the same rows of the indegree column (50000×1) and the bias row (1×128), and writes
  a(n, j) / max(g(n), 1) + b(j); the blocks tile the 50000 rows. The indegree column and the bias row are reshapes of
  a node vector g and a bias vector b, so the output array is the host's a / broadcast(max(g, 1)) + broadcast(b).
-/
import proofs.«418594_j34866544509319_1_alg».proof.Proof.Gen.KernelIdeal.Frame
import proofs.«418594_j34866544509319_1_alg».proof.Proof.Stage
import Idealize.ShloMosaic.Lib.Pipeline.Value
import Idealize.ShloMosaic.Lib.ValueIdx
import Idealize.ShloMosaic.Lib.ValueLayout
import Idealize.ShloMosaic.Lib.IdealHost

set_option maxRecDepth 16384

noncomputable section

namespace Cert.KernelIdeal.Region

open Idealize.ShloMosaic Idealize.ShloMosaic.TcCoe Idealize.SL.Sem Idealize.ShloMosaic.ValueIdx
open Cert.KernelIdeal Cert.KernelIdeal.Gen Cert.KernelIdeal.Facts₀

-- the TensorCore's buffer contents when the region is entered (any contents: the region's result is a function of them)
variable (V : (c : Dev nD) → (b : Ref sig .tc) → Buf (Elt Ideal) ((c : Thread nD τ).loc b))

/-! ## One entry of the block the body stores, and one entry of the host's table -/

/-- A column [a, 1] broadcast along the second axis to [a, b] reads, at (p, c), the column's entry p: the operand's
    second axis is a unit axis, its first is kept (and if a = 1 the one row is row 0 = p). -/
theorem norm3_column_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- Entry (p, q) of what the body stores, from its three loaded blocks x0 (messages), x1 (indegree column), x2 (bias
    row): x0(p, q) / max(x1(p, 0), 1) + x2(0, q). The two same-shape casts are identities, the column is broadcast
    along the lanes and the row along the sublanes, the rest is pointwise; the 1 stays the word it is printed as. -/
theorem norm3_pay_apply (x0 : Vec Ideal S2000x128 .f32) (x1 : Vec Ideal S2000x1 .f32) (x2 : Vec Ideal S1x128 .f32)
    (p : Fin 2000) (q : Fin 128) :
    k3_pay1 x0 x1 x2 (ix2 p q)
      = Ideal.div (x0 (ix2 p q)) (max (x1 (ix2 p (0 : Fin 1))) (Ideal.ofBits .f32 0x3F800000#32)) + x2 (ix2 (0 : Fin 1) q) := by
  unfold k3_pay1
  simp only [shapeCast_self]
  rw [addf_apply, divf_apply, norm3_column_apply, broadcastTo_1b_ab_apply, maximumf_apply, broadcast_apply]
  rfl

/-- Entry (n, q) of the host's table: a(n, q) / max(g(n), 1) + b(q). Each operand of the host's divide and add is two
    broadcasts, [50000] → [50000, 1] → [50000, 128] for the clamped indegree and [128] → [1, 128] → [50000, 128] for the
    bias, each read at the coordinate it keeps; the host's quotient is the same function of two extended reals as the
    body's, and the clamp's 1 is the same word. -/
theorem norm3_host_apply (A : Cert.Stage.FA S50000x128) (g : Cert.Stage.FA S50000) (b : Cert.Stage.FA S128)
    (n : Fin 50000) (q : Fin 128) :
    Cert.Stage.norm128 A (Cert.Stage.atLeastOne g) b (ix2 n q)
      = Ideal.div (A (ix2 n q)) (max (g (ix1 n)) (Ideal.ofBits .f32 0x3F800000#32)) + b (ix1 q) := by
  unfold Cert.Stage.norm128 Cert.Stage.atLeastOne
  rw [addf_apply, hostDivf_apply]
  rw [broadcastInDim_apply _ _ _ (ix2 n q) (ix2 n (0 : Fin 1)) (fun a => match a with | ⟨0, _⟩ => rfl | ⟨1, _⟩ => rfl)]
  rw [broadcastInDim_apply _ _ _ (ix2 n (0 : Fin 1)) (ix1 n) (fun a => match a with | ⟨0, _⟩ => rfl)]
  rw [broadcastInDim_apply _ _ _ (ix2 n q) (ix2 (0 : Fin 1) q) (fun a => match a with | ⟨0, _⟩ => rfl | ⟨1, _⟩ => rfl)]
  rw [broadcastInDim_apply _ _ _ (ix2 (0 : Fin 1) q) (ix1 q) (fun a => match a with | ⟨0, _⟩ => rfl)]
  rfl

/-! ## From the 25 blocks to the array -/

theorem norm3_hz : (![0, 0] : Fin 2 → Nat) = fun _ => 0 := funext fun a => by fin_cases a <;> rfl

/-- The block indices at grid point t, decided over the 25 points: the messages, the indegree column and the output
    move together, block t along the rows and block 0 along the columns; the bias row stays at block (0, 0). -/
theorem norm3_idx_facts : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

/-- What grid point t writes back is block t of the host's table. Entry (p, q) of the stored block is
    x0(p, q) / max(x1(p, 0), 1) + x2(0, q) of the three input blocks; the output block's entry (p, q) is the array's
    entry (2000 t + p, q), the messages' block reads the same entry of its array, the column's block entry (p, 0) is
    entry 2000 t + p of g (the reshape [50000] → [50000, 1] keeps the row-major position), and the row's entry (0, q)
    is entry q of b (the reshape [128] → [1, 128] likewise). -/
theorem norm3_flushed_eq (c : Dev nD) (g : Cert.Stage.FA S50000) (b : Cert.Stage.FA S128)
    (hg : V c main_v38 = shapeCast S50000x1 g Facts₀.shapeCasts_S50000_S50000x1)
    (hb : V c main_v39 = shapeCast S1x128 b Facts₀.shapeCasts_S128_S1x128) (t : Fin cfg3.N) :
    (dat3 (F := Ideal) V c).flushed 3 t
      = ((cfg3.win 3).blk t).view.read (Elt Ideal) (Cert.Stage.norm128 (V c main_v37) (Cert.Stage.atLeastOne g) b) := by
  show (cfg3.win 3).cut (grid3.coords t) ((dat3 V c).after 3 t) = _
  rw [after3_3]
  unfold out3_3
  rw [View.canon_unit_zero norm3_hz]
  simp only [View.ld_unit_zero (S := S2000x128) norm3_hz, View.ld_unit_zero (S := S2000x1) norm3_hz,
    View.ld_unit_zero (S := S1x128) norm3_hz]
  funext j
  obtain ⟨p, q, rfl⟩ : ∃ (p : Fin 2000) (q : Fin 128), j = ix2 p q := ⟨j 0, j 1, eq_ix2 j⟩
  show k3_pay1 (iblk3 V c 0 t) (iblk3 V c 1 t) (iblk3 V c 2 t) (ix2 p q)
    = Cert.Stage.norm128 (V c main_v37) (Cert.Stage.atLeastOne g) b (((cfg3.win 3).blk t).view.emb (ix2 p q))
  refine (norm3_pay_apply _ _ _ p q).trans ?_
  obtain ⟨e00, e01, e10, e11, e20, e21, e30, e31⟩ := norm3_idx_facts t
  have hN : cfg3.N = 25 := N_3
  have ht : t.val < 25 := hN ▸ t.isLt
  -- the output block's entry (p, q) is the array's entry (2000 t + p, q)
  have hemb : ((cfg3.win 3).blk t).view.emb (ix2 p q) = ix2 (⟨t.val * 2000 + p.val, by omega⟩ : Fin 50000) q := by
    funext a; apply Fin.ext
    match a with
    | ⟨0, _⟩ => show win3_3.index t (0 : Fin 2) * 2000 + 1 * p.val = t.val * 2000 + p.val; omega
    | ⟨1, _⟩ => show win3_3.index t (1 : Fin 2) * 128 + 1 * q.val = q.val; omega
  -- the messages' block reads the same entry of its array
  have h0 : iblk3 V c 0 t (ix2 p q) = V c main_v37 (ix2 (⟨t.val * 2000 + p.val, by omega⟩ : Fin 50000) q) := by
    show V c main_v37 (((cfg3.win 0).blk t).view.emb (ix2 p q)) = _
    refine congrArg (V c main_v37) ?_
    funext a; apply Fin.ext
    match a with
    | ⟨0, _⟩ => show win3_0.index t (0 : Fin 2) * 2000 + 1 * p.val = t.val * 2000 + p.val; omega
    | ⟨1, _⟩ => show win3_0.index t (1 : Fin 2) * 128 + 1 * q.val = q.val; omega
  -- the column's block entry (p, 0) is entry 2000 t + p of g: row-major position (2000 t + p) · 1 + 0
  have h1 : iblk3 V c 1 t (ix2 p (0 : Fin 1)) = g (ix1 (⟨t.val * 2000 + p.val, by omega⟩ : Fin 50000)) := by
    show V c main_v38 (((cfg3.win 1).blk t).view.emb (ix2 p (0 : Fin 1))) = _
    rw [hg]
    refine shapeCast_apply _ _ _ _ ?_
    rw [Shape.rowMajor_val_two, Shape.rowMajor_val_one]
    show t.val * 2000 + p.val
      = (win3_1.index t (0 : Fin 2) * 2000 + 1 * p.val) * 1 + (win3_1.index t (1 : Fin 2) * 1 + 1 * 0)
    omega
  -- the row's block entry (0, q) is entry q of b: row-major position 0 · 128 + q
  have h2 : iblk3 V c 2 t (ix2 (0 : Fin 1) q) = b (ix1 q) := by
    show V c main_v39 (((cfg3.win 2).blk t).view.emb (ix2 (0 : Fin 1) q)) = _
    rw [hb]
    refine shapeCast_apply _ _ _ _ ?_
    rw [Shape.rowMajor_val_two, Shape.rowMajor_val_one]
    show q.val = (win3_2.index t (0 : Fin 2) * 1 + 1 * 0) * 128 + (win3_2.index t (1 : Fin 2) * 128 + 1 * q.val)
    omega
  rw [hemb, norm3_host_apply, h0, h1, h2]

/-- An index of the output array lies in point t's block iff each coordinate lies in the block's range on its axis. -/
theorem norm3_mem_blk (t : Fin cfg3.N) (i : S50000x128.Idx) :
    i ∈ ((cfg3.win 3).blk t).view.set ↔ ∀ a : Fin 2, win3_3.index t a * S2000x128.size a ≤ (i a).val
      ∧ (i a).val < win3_3.index t a * S2000x128.size a + S2000x128.size a := by
  show i ∈ ((View.whole main_v40).slice (win3_3.rect t)).set ↔ _
  rw [View.set_slice_whole, Rect.mem_set_unit]
  exact Iff.rfl

/-- Row r of the output lies in the block of point r / 2000, and every column in its one column block: the 25 blocks
    tile the 50000 rows. -/
theorem norm3_cover (i : S50000x128.Idx) :
    ∃ t : Fin cfg3.N, (cfg3.win 3).flush t = true ∧ i ∈ ((cfg3.win 3).blk t).view.set := by
  have hN : cfg3.N = 25 := N_3
  have hi0 : (i 0).val < 50000 := (i 0).isLt
  have hi1 : (i 1).val < 128 := (i 1).isLt
  have ht : (i 0).val / 2000 < cfg3.N := by rw [hN]; omega
  obtain ⟨-, -, -, -, -, -, e30, e31⟩ := norm3_idx_facts ⟨(i 0).val / 2000, ht⟩
  refine ⟨⟨(i 0).val / 2000, ht⟩, flush3_3 _, ?_⟩
  rw [norm3_mem_blk]
  intro a
  match a with
  | ⟨0, _⟩ =>
    show win3_3.index ⟨(i 0).val / 2000, ht⟩ (0 : Fin 2) * 2000 ≤ (i 0).val
      ∧ (i 0).val < win3_3.index ⟨(i 0).val / 2000, ht⟩ (0 : Fin 2) * 2000 + 2000
    rw [e30]
    show (i 0).val / 2000 * 2000 ≤ (i 0).val ∧ (i 0).val < (i 0).val / 2000 * 2000 + 2000
    omega
  | ⟨1, _⟩ =>
    show win3_3.index ⟨(i 0).val / 2000, ht⟩ (1 : Fin 2) * 128 ≤ (i 1).val
      ∧ (i 1).val < win3_3.index ⟨(i 0).val / 2000, ht⟩ (1 : Fin 2) * 128 + 128
    rw [e31]
    omega

/-- After region 3 its output array is the normalized, biased table, when its second and third input arrays are the
    reshapes of an indegree vector `g` and a bias vector `b`. -/
theorem out3 (c : Dev nD) (g : Cert.Stage.FA S50000) (b : Cert.Stage.FA S128)
    (hg : V c main_v38 = shapeCast S50000x1 g Facts₀.shapeCasts_S50000_S50000x1)
    (hb : V c main_v39 = shapeCast S1x128 b Facts₀.shapeCasts_S128_S1x128) :
    (dat3 (F := Ideal) V c).arrAt 3 cfg3.N = Cert.Stage.norm128 (V c main_v37) (Cert.Stage.atLeastOne g) b :=
  (dat3 (F := Ideal) V c).arrAt_eq_of_cover 3 _ (fun t _ => norm3_flushed_eq V c g b hg hb t) norm3_cover

end Cert.KernelIdeal.Region

end
-- ==== Proof.RegNorm5.lean ====
/-
  Region 5: divide by the indegree and add the bias. Each of the 25 grid points takes a block of 2000 rows of the
  summed messages, the same rows of the indegree column (50000×1) and the bias row (1×128), and writes
  a(n, j) / max(g(n), 1) + b(j); the blocks tile the 50000 rows. The indegree column and the bias row are reshapes of
  a node vector g and a bias vector b, so the output array is the host's a / broadcast(max(g, 1)) + broadcast(b).
-/
import proofs.«418594_j34866544509319_1_alg».proof.Proof.Gen.KernelIdeal.Frame
import proofs.«418594_j34866544509319_1_alg».proof.Proof.Stage
import Idealize.ShloMosaic.Lib.Pipeline.Value
import Idealize.ShloMosaic.Lib.ValueIdx
import Idealize.ShloMosaic.Lib.ValueLayout
import Idealize.ShloMosaic.Lib.IdealHost

set_option maxRecDepth 16384

noncomputable section

namespace Cert.KernelIdeal.Region

open Idealize.ShloMosaic Idealize.ShloMosaic.TcCoe Idealize.SL.Sem Idealize.ShloMosaic.ValueIdx
open Cert.KernelIdeal Cert.KernelIdeal.Gen Cert.KernelIdeal.Facts₀

-- the TensorCore's buffer contents when the region is entered (any contents: the region's result is a function of them)
variable (V : (c : Dev nD) → (b : Ref sig .tc) → Buf (Elt Ideal) ((c : Thread nD τ).loc b))

/-! ## One entry of the block the body stores, and one entry of the host's table -/

/-- A column [a, 1] broadcast along the second axis to [a, b] reads, at (p, c), the column's entry p: the operand's
    second axis is a unit axis, its first is kept (and if a = 1 the one row is row 0 = p). -/
theorem norm5_column_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- Entry (p, q) of what the body stores, from its three loaded blocks x0 (messages), x1 (indegree column), x2 (bias
    row): x0(p, q) / max(x1(p, 0), 1) + x2(0, q). The two same-shape casts are identities, the column is broadcast
    along the lanes and the row along the sublanes, the rest is pointwise; the 1 stays the word it is printed as. -/
theorem norm5_pay_apply (x0 : Vec Ideal S2000x128 .f32) (x1 : Vec Ideal S2000x1 .f32) (x2 : Vec Ideal S1x128 .f32)
    (p : Fin 2000) (q : Fin 128) :
    k5_pay1 x0 x1 x2 (ix2 p q)
      = Ideal.div (x0 (ix2 p q)) (max (x1 (ix2 p (0 : Fin 1))) (Ideal.ofBits .f32 0x3F800000#32)) + x2 (ix2 (0 : Fin 1) q) := by
  unfold k5_pay1
  simp only [shapeCast_self]
  rw [addf_apply, divf_apply, norm5_column_apply, broadcastTo_1b_ab_apply, maximumf_apply, broadcast_apply]
  rfl

/-- Entry (n, q) of the host's table: a(n, q) / max(g(n), 1) + b(q). Each operand of the host's divide and add is two
    broadcasts, [50000] → [50000, 1] → [50000, 128] for the clamped indegree and [128] → [1, 128] → [50000, 128] for the
    bias, each read at the coordinate it keeps; the host's quotient is the same function of two extended reals as the
    body's, and the clamp's 1 is the same word. -/
theorem norm5_host_apply (A : Cert.Stage.FA S50000x128) (g : Cert.Stage.FA S50000) (b : Cert.Stage.FA S128)
    (n : Fin 50000) (q : Fin 128) :
    Cert.Stage.norm128 A (Cert.Stage.atLeastOne g) b (ix2 n q)
      = Ideal.div (A (ix2 n q)) (max (g (ix1 n)) (Ideal.ofBits .f32 0x3F800000#32)) + b (ix1 q) := by
  unfold Cert.Stage.norm128 Cert.Stage.atLeastOne
  rw [addf_apply, hostDivf_apply]
  rw [broadcastInDim_apply _ _ _ (ix2 n q) (ix2 n (0 : Fin 1)) (fun a => match a with | ⟨0, _⟩ => rfl | ⟨1, _⟩ => rfl)]
  rw [broadcastInDim_apply _ _ _ (ix2 n (0 : Fin 1)) (ix1 n) (fun a => match a with | ⟨0, _⟩ => rfl)]
  rw [broadcastInDim_apply _ _ _ (ix2 n q) (ix2 (0 : Fin 1) q) (fun a => match a with | ⟨0, _⟩ => rfl | ⟨1, _⟩ => rfl)]
  rw [broadcastInDim_apply _ _ _ (ix2 (0 : Fin 1) q) (ix1 q) (fun a => match a with | ⟨0, _⟩ => rfl)]
  rfl

/-! ## From the 25 blocks to the array -/

theorem norm5_hz : (![0, 0] : Fin 2 → Nat) = fun _ => 0 := funext fun a => by fin_cases a <;> rfl

/-- The block indices at grid point t, decided over the 25 points: the messages, the indegree column and the output
    move together, block t along the rows and block 0 along the columns; the bias row stays at block (0, 0). -/
theorem norm5_idx_facts : ∀ t : Fin cfg5.N, win5_0.index t (0 : Fin 2) = t.val ∧ win5_0.index t (1 : Fin 2) = 0
    ∧ win5_1.index t (0 : Fin 2) = t.val ∧ win5_1.index t (1 : Fin 2) = 0
    ∧ win5_2.index t (0 : Fin 2) = 0 ∧ win5_2.index t (1 : Fin 2) = 0
    ∧ win5_3.index t (0 : Fin 2) = t.val ∧ win5_3.index t (1 : Fin 2) = 0 :=
  (by decide +kernel : ∀ t : Fin grid5.N, _)

/-- What grid point t writes back is block t of the host's table. Entry (p, q) of the stored block is
    x0(p, q) / max(x1(p, 0), 1) + x2(0, q) of the three input blocks; the output block's entry (p, q) is the array's
    entry (2000 t + p, q), the messages' block reads the same entry of its array, the column's block entry (p, 0) is
    entry 2000 t + p of g (the reshape [50000] → [50000, 1] keeps the row-major position), and the row's entry (0, q)
    is entry q of b (the reshape [128] → [1, 128] likewise). -/
theorem norm5_flushed_eq (c : Dev nD) (g : Cert.Stage.FA S50000) (b : Cert.Stage.FA S128)
    (hg : V c main_v46 = shapeCast S50000x1 g Facts₀.shapeCasts_S50000_S50000x1)
    (hb : V c main_v47 = shapeCast S1x128 b Facts₀.shapeCasts_S128_S1x128) (t : Fin cfg5.N) :
    (dat5 (F := Ideal) V c).flushed 3 t
      = ((cfg5.win 3).blk t).view.read (Elt Ideal) (Cert.Stage.norm128 (V c main_v45) (Cert.Stage.atLeastOne g) b) := by
  show (cfg5.win 3).cut (grid5.coords t) ((dat5 V c).after 3 t) = _
  rw [after5_3]
  unfold out5_3
  rw [View.canon_unit_zero norm5_hz]
  simp only [View.ld_unit_zero (S := S2000x128) norm5_hz, View.ld_unit_zero (S := S2000x1) norm5_hz,
    View.ld_unit_zero (S := S1x128) norm5_hz]
  funext j
  obtain ⟨p, q, rfl⟩ : ∃ (p : Fin 2000) (q : Fin 128), j = ix2 p q := ⟨j 0, j 1, eq_ix2 j⟩
  show k5_pay1 (iblk5 V c 0 t) (iblk5 V c 1 t) (iblk5 V c 2 t) (ix2 p q)
    = Cert.Stage.norm128 (V c main_v45) (Cert.Stage.atLeastOne g) b (((cfg5.win 3).blk t).view.emb (ix2 p q))
  refine (norm5_pay_apply _ _ _ p q).trans ?_
  obtain ⟨e00, e01, e10, e11, e20, e21, e30, e31⟩ := norm5_idx_facts t
  have hN : cfg5.N = 25 := N_5
  have ht : t.val < 25 := hN ▸ t.isLt
  -- the output block's entry (p, q) is the array's entry (2000 t + p, q)
  have hemb : ((cfg5.win 3).blk t).view.emb (ix2 p q) = ix2 (⟨t.val * 2000 + p.val, by omega⟩ : Fin 50000) q := by
    funext a; apply Fin.ext
    match a with
    | ⟨0, _⟩ => show win5_3.index t (0 : Fin 2) * 2000 + 1 * p.val = t.val * 2000 + p.val; omega
    | ⟨1, _⟩ => show win5_3.index t (1 : Fin 2) * 128 + 1 * q.val = q.val; omega
  -- the messages' block reads the same entry of its array
  have h0 : iblk5 V c 0 t (ix2 p q) = V c main_v45 (ix2 (⟨t.val * 2000 + p.val, by omega⟩ : Fin 50000) q) := by
    show V c main_v45 (((cfg5.win 0).blk t).view.emb (ix2 p q)) = _
    refine congrArg (V c main_v45) ?_
    funext a; apply Fin.ext
    match a with
    | ⟨0, _⟩ => show win5_0.index t (0 : Fin 2) * 2000 + 1 * p.val = t.val * 2000 + p.val; omega
    | ⟨1, _⟩ => show win5_0.index t (1 : Fin 2) * 128 + 1 * q.val = q.val; omega
  -- the column's block entry (p, 0) is entry 2000 t + p of g: row-major position (2000 t + p) · 1 + 0
  have h1 : iblk5 V c 1 t (ix2 p (0 : Fin 1)) = g (ix1 (⟨t.val * 2000 + p.val, by omega⟩ : Fin 50000)) := by
    show V c main_v46 (((cfg5.win 1).blk t).view.emb (ix2 p (0 : Fin 1))) = _
    rw [hg]
    refine shapeCast_apply _ _ _ _ ?_
    rw [Shape.rowMajor_val_two, Shape.rowMajor_val_one]
    show t.val * 2000 + p.val
      = (win5_1.index t (0 : Fin 2) * 2000 + 1 * p.val) * 1 + (win5_1.index t (1 : Fin 2) * 1 + 1 * 0)
    omega
  -- the row's block entry (0, q) is entry q of b: row-major position 0 · 128 + q
  have h2 : iblk5 V c 2 t (ix2 (0 : Fin 1) q) = b (ix1 q) := by
    show V c main_v47 (((cfg5.win 2).blk t).view.emb (ix2 (0 : Fin 1) q)) = _
    rw [hb]
    refine shapeCast_apply _ _ _ _ ?_
    rw [Shape.rowMajor_val_two, Shape.rowMajor_val_one]
    show q.val = (win5_2.index t (0 : Fin 2) * 1 + 1 * 0) * 128 + (win5_2.index t (1 : Fin 2) * 128 + 1 * q.val)
    omega
  rw [hemb, norm5_host_apply, h0, h1, h2]

/-- An index of the output array lies in point t's block iff each coordinate lies in the block's range on its axis. -/
theorem norm5_mem_blk (t : Fin cfg5.N) (i : S50000x128.Idx) :
    i ∈ ((cfg5.win 3).blk t).view.set ↔ ∀ a : Fin 2, win5_3.index t a * S2000x128.size a ≤ (i a).val
      ∧ (i a).val < win5_3.index t a * S2000x128.size a + S2000x128.size a := by
  show i ∈ ((View.whole main_v48).slice (win5_3.rect t)).set ↔ _
  rw [View.set_slice_whole, Rect.mem_set_unit]
  exact Iff.rfl

/-- Row r of the output lies in the block of point r / 2000, and every column in its one column block: the 25 blocks
    tile the 50000 rows. -/
theorem norm5_cover (i : S50000x128.Idx) :
    ∃ t : Fin cfg5.N, (cfg5.win 3).flush t = true ∧ i ∈ ((cfg5.win 3).blk t).view.set := by
  have hN : cfg5.N = 25 := N_5
  have hi0 : (i 0).val < 50000 := (i 0).isLt
  have hi1 : (i 1).val < 128 := (i 1).isLt
  have ht : (i 0).val / 2000 < cfg5.N := by rw [hN]; omega
  obtain ⟨-, -, -, -, -, -, e30, e31⟩ := norm5_idx_facts ⟨(i 0).val / 2000, ht⟩
  refine ⟨⟨(i 0).val / 2000, ht⟩, flush5_3 _, ?_⟩
  rw [norm5_mem_blk]
  intro a
  match a with
  | ⟨0, _⟩ =>
    show win5_3.index ⟨(i 0).val / 2000, ht⟩ (0 : Fin 2) * 2000 ≤ (i 0).val
      ∧ (i 0).val < win5_3.index ⟨(i 0).val / 2000, ht⟩ (0 : Fin 2) * 2000 + 2000
    rw [e30]
    show (i 0).val / 2000 * 2000 ≤ (i 0).val ∧ (i 0).val < (i 0).val / 2000 * 2000 + 2000
    omega
  | ⟨1, _⟩ =>
    show win5_3.index ⟨(i 0).val / 2000, ht⟩ (1 : Fin 2) * 128 ≤ (i 1).val
      ∧ (i 1).val < win5_3.index ⟨(i 0).val / 2000, ht⟩ (1 : Fin 2) * 128 + 128
    rw [e31]
    omega

/-- After region 5 its output array is the normalized, biased table, when its second and third input arrays are the
    reshapes of an indegree vector `g` and a bias vector `b`. -/
theorem out5 (c : Dev nD) (g : Cert.Stage.FA S50000) (b : Cert.Stage.FA S128)
    (hg : V c main_v46 = shapeCast S50000x1 g Facts₀.shapeCasts_S50000_S50000x1)
    (hb : V c main_v47 = shapeCast S1x128 b Facts₀.shapeCasts_S128_S1x128) :
    (dat5 (F := Ideal) V c).arrAt 3 cfg5.N = Cert.Stage.norm128 (V c main_v45) (Cert.Stage.atLeastOne g) b :=
  (dat5 (F := Ideal) V c).arrAt_eq_of_cover 3 _ (fun t _ => norm5_flushed_eq V c g b hg hb t) norm5_cover

end Cert.KernelIdeal.Region

end
-- ==== Proof.RegNorm7.lean ====
/-
  Region 7: divide by the indegree and add the bias. Each of the 25 grid points takes a block of 2000 rows of the
  summed messages, the same rows of the indegree column (50000×1) and the bias row (1×64), and writes
  a(n, j) / max(g(n), 1) + b(j); the blocks tile the 50000 rows. The indegree column and the bias row are reshapes of
  a node vector g and a bias vector b, so the output array is the host's a / broadcast(max(g, 1)) + broadcast(b).
-/
import proofs.«418594_j34866544509319_1_alg».proof.Proof.Gen.KernelIdeal.Frame
import proofs.«418594_j34866544509319_1_alg».proof.Proof.Stage
import Idealize.ShloMosaic.Lib.Pipeline.Value
import Idealize.ShloMosaic.Lib.ValueIdx
import Idealize.ShloMosaic.Lib.ValueLayout
import Idealize.ShloMosaic.Lib.IdealHost

set_option maxRecDepth 16384

noncomputable section

namespace Cert.KernelIdeal.Region

open Idealize.ShloMosaic Idealize.ShloMosaic.TcCoe Idealize.SL.Sem Idealize.ShloMosaic.ValueIdx
open Cert.KernelIdeal Cert.KernelIdeal.Gen Cert.KernelIdeal.Facts₀

-- the TensorCore's buffer contents when the region is entered (any contents: the region's result is a function of them)
variable (V : (c : Dev nD) → (b : Ref sig .tc) → Buf (Elt Ideal) ((c : Thread nD τ).loc b))

/-! ## One entry of the block the body stores, and one entry of the host's table -/

/-- A column [a, 1] broadcast along the second axis to [a, b] reads, at (p, c), the column's entry p: the operand's
    second axis is a unit axis, its first is kept (and if a = 1 the one row is row 0 = p). -/
theorem norm7_column_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- Entry (p, q) of what the body stores, from its three loaded blocks x0 (messages), x1 (indegree column), x2 (bias
    row): x0(p, q) / max(x1(p, 0), 1) + x2(0, q). The two same-shape casts are identities, the column is broadcast
    along the lanes and the row along the sublanes, the rest is pointwise; the 1 stays the word it is printed as. -/
theorem norm7_pay_apply (x0 : Vec Ideal S2000x64 .f32) (x1 : Vec Ideal S2000x1 .f32) (x2 : Vec Ideal S1x64 .f32)
    (p : Fin 2000) (q : Fin 64) :
    k7_pay1 x0 x1 x2 (ix2 p q)
      = Ideal.div (x0 (ix2 p q)) (max (x1 (ix2 p (0 : Fin 1))) (Ideal.ofBits .f32 0x3F800000#32)) + x2 (ix2 (0 : Fin 1) q) := by
  unfold k7_pay1
  simp only [shapeCast_self]
  rw [addf_apply, divf_apply, norm7_column_apply, broadcastTo_1b_ab_apply, maximumf_apply, broadcast_apply]
  rfl

/-- Entry (n, q) of the host's table: a(n, q) / max(g(n), 1) + b(q). Each operand of the host's divide and add is two
    broadcasts, [50000] → [50000, 1] → [50000, 64] for the clamped indegree and [64] → [1, 64] → [50000, 64] for the
    bias, each read at the coordinate it keeps; the host's quotient is the same function of two extended reals as the
    body's, and the clamp's 1 is the same word. -/
theorem norm7_host_apply (A : Cert.Stage.FA S50000x64) (g : Cert.Stage.FA S50000) (b : Cert.Stage.FA S64)
    (n : Fin 50000) (q : Fin 64) :
    Cert.Stage.norm64 A (Cert.Stage.atLeastOne g) b (ix2 n q)
      = Ideal.div (A (ix2 n q)) (max (g (ix1 n)) (Ideal.ofBits .f32 0x3F800000#32)) + b (ix1 q) := by
  unfold Cert.Stage.norm64 Cert.Stage.atLeastOne
  rw [addf_apply, hostDivf_apply]
  rw [broadcastInDim_apply _ _ _ (ix2 n q) (ix2 n (0 : Fin 1)) (fun a => match a with | ⟨0, _⟩ => rfl | ⟨1, _⟩ => rfl)]
  rw [broadcastInDim_apply _ _ _ (ix2 n (0 : Fin 1)) (ix1 n) (fun a => match a with | ⟨0, _⟩ => rfl)]
  rw [broadcastInDim_apply _ _ _ (ix2 n q) (ix2 (0 : Fin 1) q) (fun a => match a with | ⟨0, _⟩ => rfl | ⟨1, _⟩ => rfl)]
  rw [broadcastInDim_apply _ _ _ (ix2 (0 : Fin 1) q) (ix1 q) (fun a => match a with | ⟨0, _⟩ => rfl)]
  rfl

/-! ## From the 25 blocks to the array -/

theorem norm7_hz : (![0, 0] : Fin 2 → Nat) = fun _ => 0 := funext fun a => by fin_cases a <;> rfl

/-- The block indices at grid point t, decided over the 25 points: the messages, the indegree column and the output
    move together, block t along the rows and block 0 along the columns; the bias row stays at block (0, 0). -/
theorem norm7_idx_facts : ∀ t : Fin cfg7.N, win7_0.index t (0 : Fin 2) = t.val ∧ win7_0.index t (1 : Fin 2) = 0
    ∧ win7_1.index t (0 : Fin 2) = t.val ∧ win7_1.index t (1 : Fin 2) = 0
    ∧ win7_2.index t (0 : Fin 2) = 0 ∧ win7_2.index t (1 : Fin 2) = 0
    ∧ win7_3.index t (0 : Fin 2) = t.val ∧ win7_3.index t (1 : Fin 2) = 0 :=
  (by decide +kernel : ∀ t : Fin grid7.N, _)

/-- What grid point t writes back is block t of the host's table. Entry (p, q) of the stored block is
    x0(p, q) / max(x1(p, 0), 1) + x2(0, q) of the three input blocks; the output block's entry (p, q) is the array's
    entry (2000 t + p, q), the messages' block reads the same entry of its array, the column's block entry (p, 0) is
    entry 2000 t + p of g (the reshape [50000] → [50000, 1] keeps the row-major position), and the row's entry (0, q)
    is entry q of b (the reshape [64] → [1, 64] likewise). -/
theorem norm7_flushed_eq (c : Dev nD) (g : Cert.Stage.FA S50000) (b : Cert.Stage.FA S64)
    (hg : V c main_v54 = shapeCast S50000x1 g Facts₀.shapeCasts_S50000_S50000x1)
    (hb : V c main_v55 = shapeCast S1x64 b Facts₀.shapeCasts_S64_S1x64) (t : Fin cfg7.N) :
    (dat7 (F := Ideal) V c).flushed 3 t
      = ((cfg7.win 3).blk t).view.read (Elt Ideal) (Cert.Stage.norm64 (V c main_v53) (Cert.Stage.atLeastOne g) b) := by
  show (cfg7.win 3).cut (grid7.coords t) ((dat7 V c).after 3 t) = _
  rw [after7_3]
  unfold out7_3
  rw [View.canon_unit_zero norm7_hz]
  simp only [View.ld_unit_zero (S := S2000x64) norm7_hz, View.ld_unit_zero (S := S2000x1) norm7_hz,
    View.ld_unit_zero (S := S1x64) norm7_hz]
  funext j
  obtain ⟨p, q, rfl⟩ : ∃ (p : Fin 2000) (q : Fin 64), j = ix2 p q := ⟨j 0, j 1, eq_ix2 j⟩
  show k7_pay1 (iblk7 V c 0 t) (iblk7 V c 1 t) (iblk7 V c 2 t) (ix2 p q)
    = Cert.Stage.norm64 (V c main_v53) (Cert.Stage.atLeastOne g) b (((cfg7.win 3).blk t).view.emb (ix2 p q))
  refine (norm7_pay_apply _ _ _ p q).trans ?_
  obtain ⟨e00, e01, e10, e11, e20, e21, e30, e31⟩ := norm7_idx_facts t
  have hN : cfg7.N = 25 := N_7
  have ht : t.val < 25 := hN ▸ t.isLt
  -- the output block's entry (p, q) is the array's entry (2000 t + p, q)
  have hemb : ((cfg7.win 3).blk t).view.emb (ix2 p q) = ix2 (⟨t.val * 2000 + p.val, by omega⟩ : Fin 50000) q := by
    funext a; apply Fin.ext
    match a with
    | ⟨0, _⟩ => show win7_3.index t (0 : Fin 2) * 2000 + 1 * p.val = t.val * 2000 + p.val; omega
    | ⟨1, _⟩ => show win7_3.index t (1 : Fin 2) * 64 + 1 * q.val = q.val; omega
  -- the messages' block reads the same entry of its array
  have h0 : iblk7 V c 0 t (ix2 p q) = V c main_v53 (ix2 (⟨t.val * 2000 + p.val, by omega⟩ : Fin 50000) q) := by
    show V c main_v53 (((cfg7.win 0).blk t).view.emb (ix2 p q)) = _
    refine congrArg (V c main_v53) ?_
    funext a; apply Fin.ext
    match a with
    | ⟨0, _⟩ => show win7_0.index t (0 : Fin 2) * 2000 + 1 * p.val = t.val * 2000 + p.val; omega
    | ⟨1, _⟩ => show win7_0.index t (1 : Fin 2) * 64 + 1 * q.val = q.val; omega
  -- the column's block entry (p, 0) is entry 2000 t + p of g: row-major position (2000 t + p) · 1 + 0
  have h1 : iblk7 V c 1 t (ix2 p (0 : Fin 1)) = g (ix1 (⟨t.val * 2000 + p.val, by omega⟩ : Fin 50000)) := by
    show V c main_v54 (((cfg7.win 1).blk t).view.emb (ix2 p (0 : Fin 1))) = _
    rw [hg]
    refine shapeCast_apply _ _ _ _ ?_
    rw [Shape.rowMajor_val_two, Shape.rowMajor_val_one]
    show t.val * 2000 + p.val
      = (win7_1.index t (0 : Fin 2) * 2000 + 1 * p.val) * 1 + (win7_1.index t (1 : Fin 2) * 1 + 1 * 0)
    omega
  -- the row's block entry (0, q) is entry q of b: row-major position 0 · 64 + q
  have h2 : iblk7 V c 2 t (ix2 (0 : Fin 1) q) = b (ix1 q) := by
    show V c main_v55 (((cfg7.win 2).blk t).view.emb (ix2 (0 : Fin 1) q)) = _
    rw [hb]
    refine shapeCast_apply _ _ _ _ ?_
    rw [Shape.rowMajor_val_two, Shape.rowMajor_val_one]
    show q.val = (win7_2.index t (0 : Fin 2) * 1 + 1 * 0) * 64 + (win7_2.index t (1 : Fin 2) * 64 + 1 * q.val)
    omega
  rw [hemb, norm7_host_apply, h0, h1, h2]

/-- An index of the output array lies in point t's block iff each coordinate lies in the block's range on its axis. -/
theorem norm7_mem_blk (t : Fin cfg7.N) (i : S50000x64.Idx) :
    i ∈ ((cfg7.win 3).blk t).view.set ↔ ∀ a : Fin 2, win7_3.index t a * S2000x64.size a ≤ (i a).val
      ∧ (i a).val < win7_3.index t a * S2000x64.size a + S2000x64.size a := by
  show i ∈ ((View.whole main_v56).slice (win7_3.rect t)).set ↔ _
  rw [View.set_slice_whole, Rect.mem_set_unit]
  exact Iff.rfl

/-- Row r of the output lies in the block of point r / 2000, and every column in its one column block: the 25 blocks
    tile the 50000 rows. -/
theorem norm7_cover (i : S50000x64.Idx) :
    ∃ t : Fin cfg7.N, (cfg7.win 3).flush t = true ∧ i ∈ ((cfg7.win 3).blk t).view.set := by
  have hN : cfg7.N = 25 := N_7
  have hi0 : (i 0).val < 50000 := (i 0).isLt
  have hi1 : (i 1).val < 64 := (i 1).isLt
  have ht : (i 0).val / 2000 < cfg7.N := by rw [hN]; omega
  obtain ⟨-, -, -, -, -, -, e30, e31⟩ := norm7_idx_facts ⟨(i 0).val / 2000, ht⟩
  refine ⟨⟨(i 0).val / 2000, ht⟩, flush7_3 _, ?_⟩
  rw [norm7_mem_blk]
  intro a
  match a with
  | ⟨0, _⟩ =>
    show win7_3.index ⟨(i 0).val / 2000, ht⟩ (0 : Fin 2) * 2000 ≤ (i 0).val
      ∧ (i 0).val < win7_3.index ⟨(i 0).val / 2000, ht⟩ (0 : Fin 2) * 2000 + 2000
    rw [e30]
    show (i 0).val / 2000 * 2000 ≤ (i 0).val ∧ (i 0).val < (i 0).val / 2000 * 2000 + 2000
    omega
  | ⟨1, _⟩ =>
    show win7_3.index ⟨(i 0).val / 2000, ht⟩ (1 : Fin 2) * 64 ≤ (i 1).val
      ∧ (i 1).val < win7_3.index ⟨(i 0).val / 2000, ht⟩ (1 : Fin 2) * 64 + 64
    rw [e31]
    omega

/-- After region 7 its output array is the normalized, biased table, when its second and third input arrays are the
    reshapes of an indegree vector `g` and a bias vector `b`. -/
theorem out7 (c : Dev nD) (g : Cert.Stage.FA S50000) (b : Cert.Stage.FA S64)
    (hg : V c main_v54 = shapeCast S50000x1 g Facts₀.shapeCasts_S50000_S50000x1)
    (hb : V c main_v55 = shapeCast S1x64 b Facts₀.shapeCasts_S64_S1x64) :
    (dat7 (F := Ideal) V c).arrAt 3 cfg7.N = Cert.Stage.norm64 (V c main_v53) (Cert.Stage.atLeastOne g) b :=
  (dat7 (F := Ideal) V c).arrAt_eq_of_cover 3 _ (fun t _ => norm7_flushed_eq V c g b hg hb t) norm7_cover

end Cert.KernelIdeal.Region

end
-- ==== Proof.EdgeSpec.lean ====
/-
  One edge's score as a formula on extended reals, free of array shapes: from the edge's feature row f and difference
  row d (128 numbers each) and the two perceptrons' parameters,
      score = 1 / (1 + exp(-x)),   x = (-sqrt(Σₖ d(k)²) - r) / t,
      r, t = Σⱼ lrelu(Σₖ f(k)·W1(k, j) + b1(j))·W2(j) + b2,   lrelu(y) = y if y > 0 else 0.2·y.
  Both programs' edge decoders are read against this formula: the kernel's block payload at a row of the block, and
  the reference's host expression at an edge.
-/
import Idealize.ShloMosaic.PureOps.Ideal
import Idealize.ShloMosaic.PureOps.Ideal.Laws

noncomputable section

namespace Cert.EdgeSpec

open Idealize.ShloMosaic

/-- The leaky ReLU's slope, the f32 nearest 0.2 (the same literal in both programs: never evaluated). -/
def slope : EReal := Ideal.ofBits .f32 0x3E4CCCCD#32
/-- The f32 literal 1.0 as both programs write it. -/
def one : EReal := Ideal.ofBits .f32 0x3F800000#32

/-- y if y > 0, else slope·y. (At y = 0 both branches give 0, so "≥" in place of ">" is the same function.) -/
def lrelu (y : EReal) : EReal := if 0 < y then y else slope * y

/-- A two-layer perceptron of one feature row. -/
def mlpRow (f : Fin 128 → EReal) (W1 : Fin 128 → Fin 128 → EReal) (b1 : Fin 128 → EReal) (W2 : Fin 128 → EReal) (b2 : EReal) : EReal :=
  (∑ j : Fin 128, lrelu ((∑ k : Fin 128, f k * W1 k j) + b1 j) * W2 j) + b2

/-- Minus the Euclidean norm of one difference row. -/
def distRow (d : Fin 128 → EReal) : EReal := -(Ideal.sqrt (∑ k : Fin 128, d k * d k))

/-- One edge's score. -/
def scoreRow (f d : Fin 128 → EReal)
    (rW1 : Fin 128 → Fin 128 → EReal) (rb1 : Fin 128 → EReal) (rW2 : Fin 128 → EReal) (rb2 : EReal)
    (tW1 : Fin 128 → Fin 128 → EReal) (tb1 : Fin 128 → EReal) (tW2 : Fin 128 → EReal) (tb2 : EReal) : EReal :=
  Ideal.div one (one + Ideal.exp (-(Ideal.div (distRow d - mlpRow f rW1 rb1 rW2 rb2) (mlpRow f tW1 tb1 tW2 tb2))))

end Cert.EdgeSpec

end
-- ==== Proof.EdgePayload.lean ====
/-
  The edge kernel's body at one row of its block: from a block of 4096 feature rows and 4096 difference rows and the
  whole parameter arrays (biases as 1×128 and 1×1 rows), the body's stored vector at row q is the row formula of that
  row's features and differences (matmuls into zero accumulators and the bf16 roundings read on extended reals, the
  lane sum of squares, sqrt, the leaky ReLU as a select on y > 0, exp, the two divisions).
-/
import proofs.«418594_j34866544509319_1_alg».proof.Proof.Gen.KernelIdeal.Frame
import proofs.«418594_j34866544509319_1_alg».proof.Proof.Stage
import proofs.«418594_j34866544509319_1_alg».proof.Proof.EdgeSpec
import Idealize.ShloMosaic.Lib.ValueIdx
import Idealize.ShloMosaic.Lib.ValueLayout
import Idealize.ShloMosaic.PureOps.Ideal.Laws
set_option maxRecDepth 16384

noncomputable section

namespace Cert.KernelIdeal.Region

open Idealize.ShloMosaic Idealize.ShloMosaic.TcCoe Idealize.SL.Sem
open Cert.KernelIdeal Cert.KernelIdeal.Gen Cert.KernelIdeal.Facts₀

open Idealize.ShloMosaic.ValueIdx

namespace EdgePayload

/-! ## Whole-buffer accesses, the column read as a vector, the lane sum, the leaky ReLU -/

/-- The zero offsets of an access to a whole two-axis buffer. -/
theorem zeros2 : (![0, 0] : Fin 2 → Nat) = fun _ => 0 := funext fun a => by fin_cases a <;> rfl
/-- The zero offset of an access to a whole vector. -/
theorem zeros1 : (![0] : Fin 1 → Nat) = fun _ => 0 := funext fun a => by fin_cases a <;> rfl

/-- A 4096×1 column read as a vector: entry q is the column's entry (q, 0), the same row-major position. -/
theorem squeezeCol_apply (v : S4096x1.Idx → EReal) (h : S4096x1.ShapeCasts S4096) (q : Fin 4096) :
    shapeCast S4096 v h (ix1 q) = v (ix2 q (0 : Fin 1)) :=
  shapeCast_apply v h _ _ (by
    rw [Shape.rowMajor_val_two, Shape.rowMajor_val_one]
    show q.val * 1 + 0 = q.val
    omega)

/-- Row q with lane k put back on the summed axis is the index (q, k). -/
theorem lift_lane (h : S4096x128.Reduces [1] S4096) (q : Fin 4096) (k : Fin (S4096x128.size 1)) :
    h.lift (ix1 q) k = ix2 q (⟨k.val, k.isLt⟩ : Fin 128) := by
  funext c; apply Fin.ext
  fin_cases c <;> rfl

/-- The sum over the lane axis from the zero word, at row q: the sum of that row's 128 entries. -/
theorem laneSum_apply (v : FVec Ideal S4096x128 .f32) (h : S4096x128.Reduces [1] S4096) (hφ : FKind.Formats .f32)
    (hacc : (0x00000000#32 : BitVec 32) = 0x00000000#32) (q : Fin 4096) :
    multiReduction (F := Ideal) .add [1] S4096 v 0x00000000#32 h hφ hacc (ix1 q)
      = ∑ k : Fin 128, v (ix2 q k) := by
  refine (Ideal.multiReduction_add_single v 0x00000000#32 h hφ hacc (ix1 q)).trans ?_
  exact Finset.sum_congr rfl fun k _ => congrArg v (lift_lane h q k)

/-- The select on y > 0 between y and 0.2·y is the leaky ReLU: the zero word is 0, and the slope's word is the
    formula's own. -/
theorem lrelu_select (y : EReal) :
    Scalar.select (FloatOps.cmpf (F := Ideal) (φ := .f32) .ogt y (Ideal.ofBits .f32 0x00000000#32)) y
        (Ideal.ofBits .f32 0x3E4CCCCD#32 * y) = Cert.EdgeSpec.lrelu y := by
  rw [Ideal.cmpf_def, Ideal.ofBits_zero_f32]
  unfold Cert.EdgeSpec.lrelu Cert.EdgeSpec.slope Ideal.cmp Scalar.select
  by_cases h : (0 : EReal) < y
  · simp [h]
  · simp [h]

/-- 0 − y = −y, the 0 written as the zero word. -/
theorem zsub (y : EReal) : (Ideal.ofBits .f32 0x00000000#32 : EReal) - y = -y := by
  rw [Ideal.ofBits_zero_f32, zero_sub]

/-! ## The two matrix products into zero accumulators -/

/-! ### The first layer's product, 4096×128 by 128×128: the operands' indices at result index (r, c) and contraction position k are (r, k) and (k, c) -/

/-- The left operand's row is the result's row. -/
theorem lhs_hid_0 (i : S4096x128.Idx) (c : dot_S4096x128_S128x128_S4096x128_1_0_0_1_n_n.contr.Idx) :
    (dot_S4096x128_S128x128_S4096x128_1_0_0_1_n_n.lhsIdx i c 0).val = (i 0).val := by
  unfold DotDims.lhsIdx
  rw [dif_neg (show ¬(0 : Fin S4096x128.rank) ∈ dot_S4096x128_S128x128_S4096x128_1_0_0_1_n_n.lhsBatch by decide),
    dif_pos (show (0 : Fin S4096x128.rank) ∈ dot_S4096x128_S128x128_S4096x128_1_0_0_1_n_n.lhsNonContracting by decide)]
  rfl
/-- The left operand's column is the contraction position. -/
theorem lhs_hid_1 (i : S4096x128.Idx) (c : dot_S4096x128_S128x128_S4096x128_1_0_0_1_n_n.contr.Idx) :
    (dot_S4096x128_S128x128_S4096x128_1_0_0_1_n_n.lhsIdx i c 1).val = (c ⟨0, by decide⟩).val :=
  dot_S4096x128_S128x128_S4096x128_1_0_0_1_n_n.lhsIdx_val_of_single rfl i c
/-- The right operand's row is the contraction position. -/
theorem rhs_hid_0 (i : S4096x128.Idx) (c : dot_S4096x128_S128x128_S4096x128_1_0_0_1_n_n.contr.Idx) :
    (dot_S4096x128_S128x128_S4096x128_1_0_0_1_n_n.rhsIdx i c 0).val = (c ⟨0, by decide⟩).val :=
  dot_S4096x128_S128x128_S4096x128_1_0_0_1_n_n.rhsIdx_val_of_single rfl i c
/-- The right operand's column is the result's column. -/
theorem rhs_hid_1 (i : S4096x128.Idx) (c : dot_S4096x128_S128x128_S4096x128_1_0_0_1_n_n.contr.Idx) :
    (dot_S4096x128_S128x128_S4096x128_1_0_0_1_n_n.rhsIdx i c 1).val = (i 1).val := by
  unfold DotDims.rhsIdx
  rw [dif_neg (show ¬(1 : Fin S128x128.rank) ∈ dot_S4096x128_S128x128_S4096x128_1_0_0_1_n_n.rhsBatch by decide),
    dif_pos (show (1 : Fin S128x128.rank) ∈ dot_S4096x128_S128x128_S4096x128_1_0_0_1_n_n.rhsNonContracting by decide)]
  rfl

/-- Into a zero accumulator the first layer's product at (q, j) is Σₖ A(q, k)·B(k, j). -/
theorem hidden_apply (A : FVec Ideal S4096x128 .bf16) (B : FVec Ideal S128x128 .bf16) (q : Fin 4096) (j : Fin 128) :
    matmul (F := Ideal) dot_S4096x128_S128x128_S4096x128_1_0_0_1_n_n none A B (constant S4096x128 .f32 0x00000000#32) (ix2 q j)
      = ∑ k : Fin 128, A (ix2 q k) * B (ix2 k j) := by
  refine (Ideal.matmul_constant_zero_apply dot_S4096x128_S128x128_S4096x128_1_0_0_1_n_n none A B (ix2 q j)).trans ?_
  rw [← Equiv.sum_comp (contrEquiv1 dot_S4096x128_S128x128_S4096x128_1_0_0_1_n_n 128 rfl rfl).symm]
  refine Finset.sum_congr rfl fun k _ => ?_
  have hk := contrEquiv1_symm_val dot_S4096x128_S128x128_S4096x128_1_0_0_1_n_n 128 rfl rfl k
  have el : dot_S4096x128_S128x128_S4096x128_1_0_0_1_n_n.lhsIdx (ix2 q j) ((contrEquiv1 dot_S4096x128_S128x128_S4096x128_1_0_0_1_n_n 128 rfl rfl).symm k) = ix2 q k :=
    funext fun a => Fin.ext (by
      match a with
      | ⟨0, _⟩ => exact lhs_hid_0 _ _
      | ⟨1, _⟩ => exact (lhs_hid_1 _ _).trans hk)
  have er : dot_S4096x128_S128x128_S4096x128_1_0_0_1_n_n.rhsIdx (ix2 q j) ((contrEquiv1 dot_S4096x128_S128x128_S4096x128_1_0_0_1_n_n 128 rfl rfl).symm k) = ix2 k j :=
    funext fun a => Fin.ext (by
      match a with
      | ⟨0, _⟩ => exact (rhs_hid_0 _ _).trans hk
      | ⟨1, _⟩ => exact rhs_hid_1 _ _)
  rw [el, er]

/-! ### The second layer's product, 4096×128 by 128×1: the operands' indices at result index (r, c) and contraction position k are (r, k) and (k, c) -/

/-- The left operand's row is the result's row. -/
theorem lhs_outp_0 (i : S4096x1.Idx) (c : dot_S4096x128_S128x1_S4096x1_1_0_0_1_n_n.contr.Idx) :
    (dot_S4096x128_S128x1_S4096x1_1_0_0_1_n_n.lhsIdx i c 0).val = (i 0).val := by
  unfold DotDims.lhsIdx
  rw [dif_neg (show ¬(0 : Fin S4096x128.rank) ∈ dot_S4096x128_S128x1_S4096x1_1_0_0_1_n_n.lhsBatch by decide),
    dif_pos (show (0 : Fin S4096x128.rank) ∈ dot_S4096x128_S128x1_S4096x1_1_0_0_1_n_n.lhsNonContracting by decide)]
  rfl
/-- The left operand's column is the contraction position. -/
theorem lhs_outp_1 (i : S4096x1.Idx) (c : dot_S4096x128_S128x1_S4096x1_1_0_0_1_n_n.contr.Idx) :
    (dot_S4096x128_S128x1_S4096x1_1_0_0_1_n_n.lhsIdx i c 1).val = (c ⟨0, by decide⟩).val :=
  dot_S4096x128_S128x1_S4096x1_1_0_0_1_n_n.lhsIdx_val_of_single rfl i c
/-- The right operand's row is the contraction position. -/
theorem rhs_outp_0 (i : S4096x1.Idx) (c : dot_S4096x128_S128x1_S4096x1_1_0_0_1_n_n.contr.Idx) :
    (dot_S4096x128_S128x1_S4096x1_1_0_0_1_n_n.rhsIdx i c 0).val = (c ⟨0, by decide⟩).val :=
  dot_S4096x128_S128x1_S4096x1_1_0_0_1_n_n.rhsIdx_val_of_single rfl i c
/-- The right operand's column is the result's column. -/
theorem rhs_outp_1 (i : S4096x1.Idx) (c : dot_S4096x128_S128x1_S4096x1_1_0_0_1_n_n.contr.Idx) :
    (dot_S4096x128_S128x1_S4096x1_1_0_0_1_n_n.rhsIdx i c 1).val = (i 1).val := by
  unfold DotDims.rhsIdx
  rw [dif_neg (show ¬(1 : Fin S128x1.rank) ∈ dot_S4096x128_S128x1_S4096x1_1_0_0_1_n_n.rhsBatch by decide),
    dif_pos (show (1 : Fin S128x1.rank) ∈ dot_S4096x128_S128x1_S4096x1_1_0_0_1_n_n.rhsNonContracting by decide)]
  rfl

/-- Into a zero accumulator the second layer's product at (q, j) is Σₖ A(q, k)·B(k, j); its one column is j = 0. -/
theorem output_apply (A : FVec Ideal S4096x128 .bf16) (B : FVec Ideal S128x1 .bf16) (q : Fin 4096) (j : Fin 1) :
    matmul (F := Ideal) dot_S4096x128_S128x1_S4096x1_1_0_0_1_n_n none A B (constant S4096x1 .f32 0x00000000#32) (ix2 q j)
      = ∑ k : Fin 128, A (ix2 q k) * B (ix2 k j) := by
  refine (Ideal.matmul_constant_zero_apply dot_S4096x128_S128x1_S4096x1_1_0_0_1_n_n none A B (ix2 q j)).trans ?_
  rw [← Equiv.sum_comp (contrEquiv1 dot_S4096x128_S128x1_S4096x1_1_0_0_1_n_n 128 rfl rfl).symm]
  refine Finset.sum_congr rfl fun k _ => ?_
  have hk := contrEquiv1_symm_val dot_S4096x128_S128x1_S4096x1_1_0_0_1_n_n 128 rfl rfl k
  have el : dot_S4096x128_S128x1_S4096x1_1_0_0_1_n_n.lhsIdx (ix2 q j) ((contrEquiv1 dot_S4096x128_S128x1_S4096x1_1_0_0_1_n_n 128 rfl rfl).symm k) = ix2 q k :=
    funext fun a => Fin.ext (by
      match a with
      | ⟨0, _⟩ => exact lhs_outp_0 _ _
      | ⟨1, _⟩ => exact (lhs_outp_1 _ _).trans hk)
  have er : dot_S4096x128_S128x1_S4096x1_1_0_0_1_n_n.rhsIdx (ix2 q j) ((contrEquiv1 dot_S4096x128_S128x1_S4096x1_1_0_0_1_n_n 128 rfl rfl).symm k) = ix2 k j :=
    funext fun a => Fin.ext (by
      match a with
      | ⟨0, _⟩ => exact (rhs_outp_0 _ _).trans hk
      | ⟨1, _⟩ => exact rhs_outp_1 _ _)
  rw [el, er]

/-! ## The payloads at a row -/

/-- The feature block rounded to bf16 is, on extended reals, the block itself. -/
theorem pay3_apply (x0 : Vec Ideal S4096x128 .f32) (i : S4096x128.Idx) : k8_pay3 (F := Ideal) x0 i = x0 i := by
  unfold k8_pay3
  refine (truncf_apply (φ := .f32) (ψ := .bf16) _ _ i).trans ?_
  exact congrFun (shapeCast_self x0 _) i

/-- The t perceptron's bias row is read as it is. -/
theorem pay6_apply (b : Vec Ideal S1x128 .f32) (i : S1x128.Idx) : k8_pay6 (F := Ideal) b i = b i := by
  unfold k8_pay6
  exact congrFun (shapeCast_self b _) i

/-- A perceptron's pre-activation at (q, j): Σₖ f(q, k)·W1(k, j) + b1(j), the bias row repeated down the rows and the
    roundings of the two operands the identity. -/
theorem pre_apply (x0 : Vec Ideal S4096x128 .f32) (W1 : Vec Ideal S128x128 .f32) (brow : FVec Ideal S1x128 .f32)
    (hb : S1x128.Broadcasts S4096x128) (hlt : FTy.bits .bf16 < FTy.bits .f32) (q : Fin 4096) (j : Fin 128) :
    addf (matmul (F := Ideal) dot_S4096x128_S128x128_S4096x128_1_0_0_1_n_n none (k8_pay3 x0) (truncf .bf16 W1 hlt) (constant S4096x128 .f32 0x00000000#32))
        (broadcastTo S4096x128 brow hb) (ix2 q j)
      = (∑ k : Fin 128, x0 (ix2 q k) * W1 (ix2 k j)) + brow (ix2 (0 : Fin 1) j) := by
  refine (addf_apply _ _ _).trans ?_
  refine congrArg₂ (· + ·) ?_ (broadcastTo_1b_ab_apply _ hb q j)
  refine (hidden_apply _ _ q j).trans (Finset.sum_congr rfl fun k _ => ?_)
  exact congrArg (· * W1 (ix2 k j)) (pay3_apply x0 (ix2 q k))

/-- From the pre-activations to a perceptron's value at row q: Σⱼ lrelu(pre(q, j))·W2(j) + b2 — the leaky ReLU entry by
    entry, the product with the 128×1 second layer, the 1×1 bias repeated down the column, the column read as a vector. -/
theorem head_apply (pre : FVec Ideal S4096x128 .f32) (W2 : Vec Ideal S128x1 .f32) (b2 : Vec Ideal S1x1 .f32)
    (hc1 : S1x1.ShapeCasts S1x1) (hb : S1x1.Broadcasts S4096x1) (hc2 : S4096x1.ShapeCasts S4096)
    (hlt : FTy.bits .bf16 < FTy.bits .f32) (q : Fin 4096) :
    shapeCast S4096
        (addf (matmul (F := Ideal) dot_S4096x128_S128x1_S4096x1_1_0_0_1_n_n none
                (truncf .bf16 (select (cmpf .ogt pre (broadcast S4096x128 (Scalar.ofBits (F := Ideal) .f32 0x00000000#32))) pre
                    (mulf (broadcast S4096x128 (Scalar.ofBits (F := Ideal) .f32 0x3E4CCCCD#32)) pre)) hlt)
                (truncf .bf16 W2 hlt) (constant S4096x1 .f32 0x00000000#32))
              (broadcastTo S4096x1 (shapeCast S1x1 b2 hc1) hb)) hc2 (ix1 q)
      = (∑ j : Fin 128, Cert.EdgeSpec.lrelu (pre (ix2 q j)) * W2 (ix2 j (0 : Fin 1))) + b2 (ix2 (0 : Fin 1) (0 : Fin 1)) := by
  refine (squeezeCol_apply _ hc2 q).trans ?_
  refine (addf_apply _ _ _).trans ?_
  refine congrArg₂ (· + ·) ?_ ?_
  · refine (output_apply _ _ q 0).trans (Finset.sum_congr rfl fun j _ => ?_)
    exact congrArg (· * W2 (ix2 j (0 : Fin 1))) (lrelu_select (pre (ix2 q j)))
  · refine (broadcastTo_1b_ab_apply _ hb q 0).trans ?_
    exact congrFun (shapeCast_self b2 hc1) _

/-- Minus the norm of difference row q: 0 − sqrt(Σₖ d(q, k)²). -/
theorem pay2_apply (x1 : Vec Ideal S4096x128 .f32) (q : Fin 4096) :
    k8_pay2 (F := Ideal) x1 (ix1 q) = Cert.EdgeSpec.distRow (fun k => x1 (ix2 q k)) := by
  unfold k8_pay2 Cert.EdgeSpec.distRow
  refine (subf_apply _ _ _).trans ?_
  refine (zsub _).trans (congrArg Neg.neg ?_)
  refine congrArg Ideal.sqrt ?_
  refine (laneSum_apply _ _ _ _ q).trans (Finset.sum_congr rfl fun k _ => ?_)
  refine (mulf_apply _ _ _).trans ?_
  have e : ∀ hc : S4096x128.ShapeCasts S4096x128, shapeCast S4096x128 x1 hc (ix2 q k) = x1 (ix2 q k) :=
    fun hc => congrFun (shapeCast_self x1 hc) _
  exact congrArg₂ (· * ·) (e _) (e _)

/-- The t perceptron's first product at (q, j): Σₖ f(q, k)·W1(k, j). -/
theorem pay5_apply (x0 : Vec Ideal S4096x128 .f32) (W1 : Vec Ideal S128x128 .f32) (q : Fin 4096) (j : Fin 128) :
    k8_pay5 (F := Ideal) x0 W1 (ix2 q j) = ∑ k : Fin 128, x0 (ix2 q k) * W1 (ix2 k j) := by
  unfold k8_pay5
  refine (hidden_apply _ _ q j).trans (Finset.sum_congr rfl fun k _ => ?_)
  exact congrArg (· * W1 (ix2 k j)) (pay3_apply x0 (ix2 q k))

/-- The r perceptron at row q is the row formula's perceptron of feature row q. -/
theorem pay4_apply (x0 : Vec Ideal S4096x128 .f32) (W1 : Vec Ideal S128x128 .f32) (b1 : Vec Ideal S1x128 .f32)
    (W2 : Vec Ideal S128x1 .f32) (b2 : Vec Ideal S1x1 .f32) (q : Fin 4096) :
    k8_pay4 (F := Ideal) x0 W1 b1 W2 b2 (ix1 q)
      = Cert.EdgeSpec.mlpRow (fun k => x0 (ix2 q k)) (fun k j => W1 (ix2 k j)) (fun j => b1 (ix2 (0 : Fin 1) j))
          (fun j => W2 (ix2 j (0 : Fin 1))) (b2 (ix2 (0 : Fin 1) (0 : Fin 1))) := by
  unfold k8_pay4 Cert.EdgeSpec.mlpRow
  refine (head_apply _ W2 b2 _ _ _ _ q).trans ?_
  refine congrArg (· + b2 (ix2 (0 : Fin 1) (0 : Fin 1))) (Finset.sum_congr rfl fun j _ => ?_)
  refine congrArg (fun y => Cert.EdgeSpec.lrelu y * W2 (ix2 j (0 : Fin 1))) ?_
  refine (pre_apply x0 W1 _ _ _ q j).trans ?_
  exact congrArg ((∑ k : Fin 128, x0 (ix2 q k) * W1 (ix2 k j)) + ·) (congrFun (shapeCast_self b1 _) _)

/-- The stored vector at row q, from the distance d, the r value, the t perceptron's first product h and bias row, and
    its second layer: 1 / (1 + exp(−((d(q) − r(q)) / t(q)))), t(q) = Σⱼ lrelu(h(q, j) + b1(j))·W2(j) + b2. -/
theorem pay1_apply (d r : FVec Ideal S4096 .f32) (h : FVec Ideal S4096x128 .f32) (brow : FVec Ideal S1x128 .f32)
    (W2 : Vec Ideal S128x1 .f32) (b2 : Vec Ideal S1x1 .f32) (q : Fin 4096) :
    k8_pay1 (F := Ideal) d r h brow W2 b2 (ix1 q)
      = Ideal.div Cert.EdgeSpec.one (Cert.EdgeSpec.one + Ideal.exp (-(Ideal.div (d (ix1 q) - r (ix1 q))
          ((∑ j : Fin 128, Cert.EdgeSpec.lrelu (h (ix2 q j) + brow (ix2 (0 : Fin 1) j)) * W2 (ix2 j (0 : Fin 1)))
            + b2 (ix2 (0 : Fin 1) (0 : Fin 1)))))) := by
  unfold k8_pay1 Cert.EdgeSpec.one
  refine (divf_apply _ _ _).trans ?_
  refine congrArg₂ Ideal.div rfl ?_
  refine (addf_apply _ _ _).trans ?_
  refine congrArg₂ (· + ·) rfl ?_
  refine congrArg Ideal.exp ?_
  refine (subf_apply _ _ _).trans ?_
  refine (zsub _).trans (congrArg Neg.neg ?_)
  refine (divf_apply _ _ _).trans ?_
  refine congrArg₂ Ideal.div (subf_apply _ _ _) ?_
  refine (head_apply _ W2 b2 _ _ _ _ q).trans ?_
  refine congrArg (· + b2 (ix2 (0 : Fin 1) (0 : Fin 1))) (Finset.sum_congr rfl fun j _ => ?_)
  refine congrArg (fun y => Cert.EdgeSpec.lrelu y * W2 (ix2 j (0 : Fin 1))) ?_
  exact (addf_apply _ _ _).trans (congrArg (h (ix2 q j) + ·) (broadcastTo_1b_ab_apply _ _ q j))

end EdgePayload

open EdgePayload

/-! ## The block at a row -/

/-- What the body leaves in the output block, at row `q` of the block. -/
theorem out8_apply (x0 x1 : Vec Ideal S4096x128 .f32) (x2 : Vec Ideal S128x128 .f32) (x3 : Vec Ideal S1x128 .f32)
    (x4 : Vec Ideal S128x1 .f32) (x5 : Vec Ideal S1x1 .f32) (x6 : Vec Ideal S128x128 .f32) (x7 : Vec Ideal S1x128 .f32)
    (x8 : Vec Ideal S128x1 .f32) (x9 : Vec Ideal S1x1 .f32) (q : Fin 4096) :
    out8_10 (F := Ideal) x0 x1 x2 x3 x4 x5 x6 x7 x8 x9 (ix1 q)
      = Cert.EdgeSpec.scoreRow (fun k => x0 (ix2 q k)) (fun k => x1 (ix2 q k))
          (fun k j => x2 (ix2 k j)) (fun j => x3 (ix2 (0 : Fin 1) j)) (fun j => x4 (ix2 j (0 : Fin 1))) (x5 (ix2 (0 : Fin 1) (0 : Fin 1)))
          (fun k j => x6 (ix2 k j)) (fun j => x7 (ix2 (0 : Fin 1) j)) (fun j => x8 (ix2 j (0 : Fin 1))) (x9 (ix2 (0 : Fin 1) (0 : Fin 1))) := by
  -- the one store covers the whole output vector, and every input block is read whole
  unfold out8_10
  rw [View.canon_unit_zero zeros1]
  simp only [View.ld_unit_zero (S := S4096x128) zeros2, View.ld_unit_zero (S := S128x128) zeros2,
    View.ld_unit_zero (S := S1x128) zeros2, View.ld_unit_zero (S := S128x1) zeros2, View.ld_unit_zero (S := S1x1) zeros2]
  refine (pay1_apply _ _ _ _ x8 x9 q).trans ?_
  unfold Cert.EdgeSpec.scoreRow
  refine congrArg (fun y => Ideal.div Cert.EdgeSpec.one (Cert.EdgeSpec.one + Ideal.exp (-y))) ?_
  -- numerator: the distance less the r perceptron; denominator: the t perceptron
  refine congrArg₂ Ideal.div (congrArg₂ (· - ·) (pay2_apply x1 q) (pay4_apply x0 x2 x3 x4 x5 q)) ?_
  unfold Cert.EdgeSpec.mlpRow
  refine congrArg (· + x9 (ix2 (0 : Fin 1) (0 : Fin 1))) (Finset.sum_congr rfl fun j _ => ?_)
  refine congrArg (fun y => Cert.EdgeSpec.lrelu y * x8 (ix2 j (0 : Fin 1))) ?_
  exact congrArg₂ (· + ·) (pay5_apply x0 x6 q j) (pay6_apply x7 (ix2 (0 : Fin 1) j))

end Cert.KernelIdeal.Region

end
-- ==== Proof.EdgeRef.lean ====
/-
  The reference's edge decoder read at one edge: the host expression (two dot_generals, broadcasts of the biases, the
  leaky ReLU as a select on x ≥ 0, the row sum of squares, sqrt, negate, divide, the logistic function written out) at
  edge e is the row formula of the edge's feature row and difference row.
-/
import proofs.«418594_j34866544509319_1_alg».proof.Proof.Stage
import proofs.«418594_j34866544509319_1_alg».proof.Proof.EdgeSpec
import Idealize.ShloMosaic.Lib.ValueIdx
import Idealize.ShloMosaic.Lib.Pipeline.Value
import Idealize.ShloMosaic.PureOps.Ideal.Laws

noncomputable section

namespace Cert.EdgeRef

open Idealize.ShloMosaic Idealize.ShloMosaic.ValueIdx Cert.ReferenceIdeal Cert.Stage

/-! ## The pointwise host operations at an index -/

section Pointwise
variable {s : Shape}

/-- The host's negation at an index negates the element. -/
theorem hostNegf_apply (x : FA s) (i : s.Idx) : Host.negf x i = -(x i) := rfl
/-- The host's square root at an index is the extended reals' root of the element. -/
theorem hostSqrt_apply (x : FA s) (i : s.Idx) : Host.sqrt x i = Ideal.sqrt (x i) := rfl
/-- The host's exponential at an index is the extended reals' exponential of the element. -/
theorem hostExp_apply (x : FA s) (i : s.Idx) : Host.exp x i = Ideal.exp (x i) := rfl
/-- The host's quotient at an index is the extended reals' division of the elements. -/
theorem hostDivf_apply (x y : FA s) (i : s.Idx) : Host.divf x y i = Ideal.div (x i) (y i) := rfl
/-- A scalar constant broadcast to every index reads the extended real its word encodes. -/
theorem splat_apply (b : BitVec 32) (h : S_.BroadcastsInDim s (![] : Fin 0 → Fin s.rank)) (i : s.Idx) :
    broadcastInDim s (![] : Fin 0 → Fin s.rank) h (constant (F := Ideal) S_ .f32 b) i = Ideal.ofBits .f32 b := rfl

end Pointwise

/-! ## The leaky ReLU: the test y ≥ 0 and the test y > 0 give one function -/

/-- On extended reals (y if 0 ≤ y else s·y) is (y if 0 < y else s·y): the two differ only in the branch taken at
    y = 0, where both branches are 0. -/
theorem select_ge_eq_lrelu (y : EReal) :
    Scalar.select (Ideal.cmp .oge y 0) y (Cert.EdgeSpec.slope * y) = Cert.EdgeSpec.lrelu y := by
  unfold Cert.EdgeSpec.lrelu
  rcases lt_trichotomy 0 y with h | h | h
  · have hc : Ideal.cmp .oge y 0 = 1#1 := by simp [Ideal.cmp, h.le]
    rw [if_pos h, hc, select_one]
  · subst h
    have hc : Ideal.cmp .oge (0 : EReal) 0 = 1#1 := by simp [Ideal.cmp]
    rw [if_neg (lt_irrefl _), mul_zero, hc, select_one]
  · have hc : Ideal.cmp .oge y 0 = 0#1 := by simp [Ideal.cmp, not_le.mpr h]
    rw [if_neg (not_lt.mpr h.le), hc, select_zero]

/-- The reference's leaky ReLU at an index is the formula's leaky ReLU of the element. -/
theorem lrelu_apply (x : FA S800000x128) (i : S800000x128.Idx) :
    Cert.Stage.lrelu x i = Cert.EdgeSpec.lrelu (x i) := by
  show Scalar.select (Ideal.cmp .oge (x i) (Ideal.ofBits .f32 0x00000000#32)) (x i)
      (Ideal.ofBits .f32 0x3E4CCCCD#32 * x i) = _
  rw [Ideal.ofBits_zero_f32]
  exact select_ge_eq_lrelu (x i)

/-! ## The bias rows and the reshape at an index -/

/-- A 128-vector broadcast through 1×128 to every edge's row reads, at (e, j), the vector at j. -/
theorem bias128_apply (b : FA S128) (h1 : S128.BroadcastsInDim S1x128 (![1] : Fin 1 → Fin S1x128.rank))
    (h2 : S1x128.BroadcastsInDim S800000x128 (![0, 1] : Fin 2 → Fin S800000x128.rank)) (e : Fin 800000) (j : Fin 128) :
    broadcastInDim S800000x128 (![0, 1] : Fin 2 → Fin S800000x128.rank) h2
        (broadcastInDim S1x128 (![1] : Fin 1 → Fin S1x128.rank) h1 b) (ix2 e j) = b (ix1 j) := by
  refine (broadcastInDim_apply _ h2 _ (ix2 e j) (ix2 (0 : Fin 1) j) fun a => ?_).trans
    (broadcastInDim_apply _ h1 b (ix2 (0 : Fin 1) j) (ix1 j) fun a => ?_)
  · match a with
    | ⟨0, _⟩ => rfl
    | ⟨1, _⟩ => rfl
  · match a with
    | ⟨0, _⟩ => rfl

/-- A one-element vector broadcast through 1×1 to the edges' column reads, at (e, 0), its one element. -/
theorem bias1_apply (b : FA S1) (h1 : S1.BroadcastsInDim S1x1 (![1] : Fin 1 → Fin S1x1.rank))
    (h2 : S1x1.BroadcastsInDim S800000x1 (![0, 1] : Fin 2 → Fin S800000x1.rank)) (e : Fin 800000) :
    broadcastInDim S800000x1 (![0, 1] : Fin 2 → Fin S800000x1.rank) h2
        (broadcastInDim S1x1 (![1] : Fin 1 → Fin S1x1.rank) h1 b) (ix2 e (0 : Fin 1)) = b (ix1 (0 : Fin 1)) := by
  refine (broadcastInDim_apply _ h2 _ (ix2 e (0 : Fin 1)) (ix2 (0 : Fin 1) (0 : Fin 1)) fun a => ?_).trans
    (broadcastInDim_apply _ h1 b (ix2 (0 : Fin 1) (0 : Fin 1)) (ix1 (0 : Fin 1)) fun a => ?_)
  · match a with
    | ⟨0, _⟩ => rfl
    | ⟨1, _⟩ => rfl
  · match a with
    | ⟨0, _⟩ => rfl

/-- The edges' column reshaped to a vector reads, at e, the column at (e, 0): the same row-major position. -/
theorem column_apply (x : FA S800000x1) (h : S800000x1.ShapeCasts S800000) (e : Fin 800000) :
    shapeCast S800000 x h (ix1 e) = x (ix2 e (0 : Fin 1)) :=
  shapeCast_apply x h (ix1 e) (ix2 e (0 : Fin 1)) (by
    rw [Shape.rowMajor_val_two, Shape.rowMajor_val_one]
    show e.val * 1 + 0 = e.val
    omega)

/-! ## The row sum of squares -/

/-- Minus the root of the difference row's squares summed from the zero word. -/
theorem dist_apply (df : FA S800000x128) (e : Fin 800000) :
    Cert.Stage.dist df (ix1 e) = Cert.EdgeSpec.distRow (fun k => df (ix2 e k)) := by
  unfold Cert.Stage.dist Cert.EdgeSpec.distRow
  rw [hostNegf_apply, hostSqrt_apply]
  refine congrArg (fun t => -(Ideal.sqrt t)) ?_
  show Ideal.hostReduceAdd Facts₀.reducesTo_S800000x128_S800000_d1 (mulf df df) (Ideal.ofBits .f32 0x00000000#32) (ix1 e) = _
  rw [Ideal.hostReduceAdd_single Facts₀.reducesTo_S800000x128_S800000_d1 (by decide), Ideal.ofBits_zero_f32, zero_add]
  refine Finset.sum_congr rfl fun k _ => ?_
  rw [mulf_apply]
  exact congrArg (fun i => df i * df i) (funext fun a => Fin.ext (by
    match a with
    | ⟨0, _⟩ => rfl
    | ⟨1, _⟩ => rfl))

/-! ## The two dot_generals at an index: the operand indices by axis, then the sum over the contracted axis -/

/-- The first layer's left operand index keeps the result's row … -/
theorem lhs_hidden_0 (i : S800000x128.Idx) (q : dot_S800000x128_S128x128_S800000x128_1_0_0_1_n_n.contr.Idx) :
    (dot_S800000x128_S128x128_S800000x128_1_0_0_1_n_n.lhsIdx i q 0).val = (i 0).val := by
  unfold DotDims.lhsIdx
  rw [dif_neg (show ¬(0 : Fin S800000x128.rank) ∈ dot_S800000x128_S128x128_S800000x128_1_0_0_1_n_n.lhsBatch by decide),
    dif_pos (show (0 : Fin S800000x128.rank) ∈ dot_S800000x128_S128x128_S800000x128_1_0_0_1_n_n.lhsNonContracting by decide)]
  rfl
/-- … and takes its column from the contraction position. -/
theorem lhs_hidden_1 (i : S800000x128.Idx) (q : dot_S800000x128_S128x128_S800000x128_1_0_0_1_n_n.contr.Idx) :
    (dot_S800000x128_S128x128_S800000x128_1_0_0_1_n_n.lhsIdx i q 1).val = (q ⟨0, by decide⟩).val :=
  dot_S800000x128_S128x128_S800000x128_1_0_0_1_n_n.lhsIdx_val_of_single rfl i q
/-- The right operand index takes its row from the contraction position … -/
theorem rhs_hidden_0 (i : S800000x128.Idx) (q : dot_S800000x128_S128x128_S800000x128_1_0_0_1_n_n.contr.Idx) :
    (dot_S800000x128_S128x128_S800000x128_1_0_0_1_n_n.rhsIdx i q 0).val = (q ⟨0, by decide⟩).val :=
  dot_S800000x128_S128x128_S800000x128_1_0_0_1_n_n.rhsIdx_val_of_single rfl i q
/-- … and keeps the result's column. -/
theorem rhs_hidden_1 (i : S800000x128.Idx) (q : dot_S800000x128_S128x128_S800000x128_1_0_0_1_n_n.contr.Idx) :
    (dot_S800000x128_S128x128_S800000x128_1_0_0_1_n_n.rhsIdx i q 1).val = (i 1).val := by
  unfold DotDims.rhsIdx
  rw [dif_neg (show ¬(1 : Fin S128x128.rank) ∈ dot_S800000x128_S128x128_S800000x128_1_0_0_1_n_n.rhsBatch by decide),
    dif_pos (show (1 : Fin S128x128.rank) ∈ dot_S800000x128_S128x128_S800000x128_1_0_0_1_n_n.rhsNonContracting by decide)]
  rfl

/-- The first layer's product at (e, j): the feature row e against column j of the weights. -/
theorem hidden_apply (ft : FA S800000x128) (W1 : FA S128x128) (e : Fin 800000) (j : Fin 128) :
    Host.dotGeneral dot_S800000x128_S128x128_S800000x128_1_0_0_1_n_n none ft W1 (ix2 e j)
      = ∑ k : Fin 128, ft (ix2 e k) * W1 (ix2 k j) := by
  simp only [Host.dotGeneral]
  rw [Ideal.dotGeneral_apply,
    ← Equiv.sum_comp (contrEquiv1 dot_S800000x128_S128x128_S800000x128_1_0_0_1_n_n 128 rfl rfl).symm]
  refine Finset.sum_congr rfl fun k _ => ?_
  have hk := contrEquiv1_symm_val dot_S800000x128_S128x128_S800000x128_1_0_0_1_n_n 128 rfl rfl k
  have el : dot_S800000x128_S128x128_S800000x128_1_0_0_1_n_n.lhsIdx (ix2 e j)
      ((contrEquiv1 dot_S800000x128_S128x128_S800000x128_1_0_0_1_n_n 128 rfl rfl).symm k) = ix2 e k :=
    funext fun a => Fin.ext (by
      match a with
      | ⟨0, _⟩ => exact lhs_hidden_0 _ _
      | ⟨1, _⟩ => exact (lhs_hidden_1 _ _).trans hk)
  have er : dot_S800000x128_S128x128_S800000x128_1_0_0_1_n_n.rhsIdx (ix2 e j)
      ((contrEquiv1 dot_S800000x128_S128x128_S800000x128_1_0_0_1_n_n 128 rfl rfl).symm k) = ix2 k j :=
    funext fun a => Fin.ext (by
      match a with
      | ⟨0, _⟩ => exact (rhs_hidden_0 _ _).trans hk
      | ⟨1, _⟩ => exact rhs_hidden_1 _ _)
  rw [el, er]

/-- The second layer's left operand index keeps the result's row … -/
theorem lhs_out_0 (i : S800000x1.Idx) (q : dot_S800000x128_S128x1_S800000x1_1_0_0_1_n_n.contr.Idx) :
    (dot_S800000x128_S128x1_S800000x1_1_0_0_1_n_n.lhsIdx i q 0).val = (i 0).val := by
  unfold DotDims.lhsIdx
  rw [dif_neg (show ¬(0 : Fin S800000x128.rank) ∈ dot_S800000x128_S128x1_S800000x1_1_0_0_1_n_n.lhsBatch by decide),
    dif_pos (show (0 : Fin S800000x128.rank) ∈ dot_S800000x128_S128x1_S800000x1_1_0_0_1_n_n.lhsNonContracting by decide)]
  rfl
/-- … and takes its column from the contraction position. -/
theorem lhs_out_1 (i : S800000x1.Idx) (q : dot_S800000x128_S128x1_S800000x1_1_0_0_1_n_n.contr.Idx) :
    (dot_S800000x128_S128x1_S800000x1_1_0_0_1_n_n.lhsIdx i q 1).val = (q ⟨0, by decide⟩).val :=
  dot_S800000x128_S128x1_S800000x1_1_0_0_1_n_n.lhsIdx_val_of_single rfl i q
/-- The right operand index takes its row from the contraction position … -/
theorem rhs_out_0 (i : S800000x1.Idx) (q : dot_S800000x128_S128x1_S800000x1_1_0_0_1_n_n.contr.Idx) :
    (dot_S800000x128_S128x1_S800000x1_1_0_0_1_n_n.rhsIdx i q 0).val = (q ⟨0, by decide⟩).val :=
  dot_S800000x128_S128x1_S800000x1_1_0_0_1_n_n.rhsIdx_val_of_single rfl i q
/-- … and keeps the result's (one) column. -/
theorem rhs_out_1 (i : S800000x1.Idx) (q : dot_S800000x128_S128x1_S800000x1_1_0_0_1_n_n.contr.Idx) :
    (dot_S800000x128_S128x1_S800000x1_1_0_0_1_n_n.rhsIdx i q 1).val = (i 1).val := by
  unfold DotDims.rhsIdx
  rw [dif_neg (show ¬(1 : Fin S128x1.rank) ∈ dot_S800000x128_S128x1_S800000x1_1_0_0_1_n_n.rhsBatch by decide),
    dif_pos (show (1 : Fin S128x1.rank) ∈ dot_S800000x128_S128x1_S800000x1_1_0_0_1_n_n.rhsNonContracting by decide)]
  rfl

/-- The second layer's product at (e, 0): the hidden row e against the weights' one column. -/
theorem out_apply (h : FA S800000x128) (W2 : FA S128x1) (e : Fin 800000) :
    Host.dotGeneral dot_S800000x128_S128x1_S800000x1_1_0_0_1_n_n none h W2 (ix2 e (0 : Fin 1))
      = ∑ j : Fin 128, h (ix2 e j) * W2 (ix2 j (0 : Fin 1)) := by
  simp only [Host.dotGeneral]
  rw [Ideal.dotGeneral_apply,
    ← Equiv.sum_comp (contrEquiv1 dot_S800000x128_S128x1_S800000x1_1_0_0_1_n_n 128 rfl rfl).symm]
  refine Finset.sum_congr rfl fun k _ => ?_
  have hk := contrEquiv1_symm_val dot_S800000x128_S128x1_S800000x1_1_0_0_1_n_n 128 rfl rfl k
  have el : dot_S800000x128_S128x1_S800000x1_1_0_0_1_n_n.lhsIdx (ix2 e (0 : Fin 1))
      ((contrEquiv1 dot_S800000x128_S128x1_S800000x1_1_0_0_1_n_n 128 rfl rfl).symm k) = ix2 e k :=
    funext fun a => Fin.ext (by
      match a with
      | ⟨0, _⟩ => exact lhs_out_0 _ _
      | ⟨1, _⟩ => exact (lhs_out_1 _ _).trans hk)
  have er : dot_S800000x128_S128x1_S800000x1_1_0_0_1_n_n.rhsIdx (ix2 e (0 : Fin 1))
      ((contrEquiv1 dot_S800000x128_S128x1_S800000x1_1_0_0_1_n_n 128 rfl rfl).symm k) = ix2 k (0 : Fin 1) :=
    funext fun a => Fin.ext (by
      match a with
      | ⟨0, _⟩ => exact (rhs_out_0 _ _).trans hk
      | ⟨1, _⟩ => exact rhs_out_1 _ _)
  rw [el, er]

/-! ## The perceptron, the logistic function, the edge score -/

/-- The reference's two-layer perceptron at edge e is the row formula of feature row e. -/
theorem mlp_apply (ft : FA S800000x128) (W1 : FA S128x128) (b1 : FA S128) (W2 : FA S128x1) (b2 : FA S1) (e : Fin 800000) :
    Cert.Stage.mlp ft W1 b1 W2 b2 (ix1 e)
      = Cert.EdgeSpec.mlpRow (fun k => ft (ix2 e k)) (fun k j => W1 (ix2 k j)) (fun j => b1 (ix1 j))
          (fun j => W2 (ix2 j (0 : Fin 1))) (b2 (ix1 (0 : Fin 1))) := by
  unfold Cert.Stage.mlp Cert.EdgeSpec.mlpRow
  rw [column_apply, addf_apply, out_apply, bias1_apply]
  refine congrArg (· + b2 (ix1 (0 : Fin 1))) (Finset.sum_congr rfl fun j _ => ?_)
  rw [lrelu_apply, addf_apply, hidden_apply, bias128_apply]

/-- The logistic function written out, at an index. -/
theorem logistic_apply (x : FA S800000) (i : S800000.Idx) :
    Cert.Stage.logistic x i = Ideal.div Cert.EdgeSpec.one (Cert.EdgeSpec.one + Ideal.exp (-(x i))) := rfl

/-- The reference's edge scores at edge e. -/
theorem edge_apply (ft df : FA S800000x128) (rW1 : FA S128x128) (rb1 : FA S128) (rW2 : FA S128x1) (rb2 : FA S1)
    (tW1 : FA S128x128) (tb1 : FA S128) (tW2 : FA S128x1) (tb2 : FA S1) (e : Fin 800000) :
    edge ft df rW1 rb1 rW2 rb2 tW1 tb1 tW2 tb2 (ix1 e)
      = Cert.EdgeSpec.scoreRow (fun k => ft (ix2 e k)) (fun k => df (ix2 e k))
          (fun k j => rW1 (ix2 k j)) (fun j => rb1 (ix1 j)) (fun j => rW2 (ix2 j (0 : Fin 1))) (rb2 (ix1 (0 : Fin 1)))
          (fun k j => tW1 (ix2 k j)) (fun j => tb1 (ix1 j)) (fun j => tW2 (ix2 j (0 : Fin 1))) (tb2 (ix1 (0 : Fin 1))) := by
  unfold Cert.Stage.edge Cert.EdgeSpec.scoreRow
  rw [logistic_apply, hostDivf_apply, subf_apply, dist_apply, mlp_apply, mlp_apply]

end Cert.EdgeRef

end
-- ==== Proof.RegEdge.lean ====
/-
  Region 8, the edge decoder, from blocks to the array. Each of the 196 grid points reads rows 4096·t … 4096·t + 4095
  of the padded feature and difference arrays and the whole parameter arrays and writes 4096 scores; the blocks tile
  the 802816 padded rows. Row e < 800000 of a padded array is row e of the array before padding, so the first 800000
  scores are the reference's edge scores of the unpadded arrays.
-/
import proofs.«418594_j34866544509319_1_alg».proof.Proof.Gen.KernelIdeal.Frame
import proofs.«418594_j34866544509319_1_alg».proof.Proof.Stage
import proofs.«418594_j34866544509319_1_alg».proof.Proof.HostEdge
import proofs.«418594_j34866544509319_1_alg».proof.Proof.EdgePayload
import proofs.«418594_j34866544509319_1_alg».proof.Proof.EdgeRef
import Idealize.ShloMosaic.Lib.Pipeline.Value
import Idealize.ShloMosaic.Lib.ValueIdx
import Idealize.ShloMosaic.Lib.KernelVsHost
set_option maxRecDepth 16384

noncomputable section

namespace Cert.KernelIdeal.Region

open Idealize.ShloMosaic Idealize.ShloMosaic.TcCoe Idealize.SL.Sem
open Cert.KernelIdeal Cert.KernelIdeal.Gen Cert.KernelIdeal.Facts₀
open Idealize.ShloMosaic.ValueIdx
open Idealize.ShloMosaic.Pipeline (Dat)

-- the TensorCore's buffer contents when the region is entered (any contents: the region's result is a function of them)
variable (V : (c : Dev nD) → (b : Ref sig .tc) → Buf (Elt Ideal) ((c : Thread nD τ).loc b))

namespace Edge8

/-! ## The score of one padded row, and the array of all of them -/

/-- The score of row r of the two padded arrays under the parameters as the kernel holds them (biases as rows). -/
def paddedScore (a0 a1 : S802816x128.Idx → EReal) (p2 : S128x128.Idx → EReal) (p3 : S1x128.Idx → EReal)
    (p4 : S128x1.Idx → EReal) (p5 : S1x1.Idx → EReal) (p6 : S128x128.Idx → EReal) (p7 : S1x128.Idx → EReal)
    (p8 : S128x1.Idx → EReal) (p9 : S1x1.Idx → EReal) (r : Fin 802816) : EReal :=
  Cert.EdgeSpec.scoreRow (fun k => a0 (ix2 r k)) (fun k => a1 (ix2 r k))
    (fun k j => p2 (ix2 k j)) (fun j => p3 (ix2 (0 : Fin 1) j)) (fun j => p4 (ix2 j (0 : Fin 1))) (p5 (ix2 (0 : Fin 1) (0 : Fin 1)))
    (fun k j => p6 (ix2 k j)) (fun j => p7 (ix2 (0 : Fin 1) j)) (fun j => p8 (ix2 j (0 : Fin 1))) (p9 (ix2 (0 : Fin 1) (0 : Fin 1)))

/-- All 802816 scores as one array. -/
def paddedScores (a0 a1 : S802816x128.Idx → EReal) (p2 : S128x128.Idx → EReal) (p3 : S1x128.Idx → EReal)
    (p4 : S128x1.Idx → EReal) (p5 : S1x1.Idx → EReal) (p6 : S128x128.Idx → EReal) (p7 : S1x128.Idx → EReal)
    (p8 : S128x1.Idx → EReal) (p9 : S1x1.Idx → EReal) : S802816.Idx → EReal :=
  fun i => paddedScore a0 a1 p2 p3 p4 p5 p6 p7 p8 p9 (i 0)

/-! ## The index maps over the grid -/

/-- Point t takes block t of the two row arrays and of the output, -/
theorem index8_rows : ∀ t : Fin cfg8.N,
    win8_0.index t (0 : Fin 2) = t.val ∧ win8_0.index t (1 : Fin 2) = 0
    ∧ win8_1.index t (0 : Fin 2) = t.val ∧ win8_1.index t (1 : Fin 2) = 0
    ∧ win8_10.index t (0 : Fin 1) = t.val :=
  (by decide +kernel : ∀ t : Fin grid8.N, _)

/-- and block (0, 0), the whole array, of every parameter array. -/
theorem index8_params : ∀ t : Fin cfg8.N,
    win8_2.index t (0 : Fin 2) = 0 ∧ win8_2.index t (1 : Fin 2) = 0
    ∧ win8_3.index t (0 : Fin 2) = 0 ∧ win8_3.index t (1 : Fin 2) = 0
    ∧ win8_4.index t (0 : Fin 2) = 0 ∧ win8_4.index t (1 : Fin 2) = 0
    ∧ win8_5.index t (0 : Fin 2) = 0 ∧ win8_5.index t (1 : Fin 2) = 0
    ∧ win8_6.index t (0 : Fin 2) = 0 ∧ win8_6.index t (1 : Fin 2) = 0
    ∧ win8_7.index t (0 : Fin 2) = 0 ∧ win8_7.index t (1 : Fin 2) = 0
    ∧ win8_8.index t (0 : Fin 2) = 0 ∧ win8_8.index t (1 : Fin 2) = 0
    ∧ win8_9.index t (0 : Fin 2) = 0 ∧ win8_9.index t (1 : Fin 2) = 0 :=
  (by decide +kernel : ∀ t : Fin grid8.N, _)

/-! ## The input blocks of point t, read at coordinates -/

/-- Row q of point t's block of the padded feature rows is row 4096·t + q of the array. -/
theorem rows0_apply (c : Dev nD) (t : Fin cfg8.N) (q : Fin 4096) (k : Fin 128) (r : Fin 802816) (hr : r.val = 4096 * t.val + q.val) :
    (iblk8 V c 0 t : S4096x128.Idx → EReal) (ix2 q k) = (V c main_v72 : S802816x128.Idx → EReal) (ix2 r k) := by
  obtain ⟨e0, e1, -⟩ := index8_rows t
  show (V c main_v72 : S802816x128.Idx → EReal) (((cfg8.win 0).blk t).view.emb (ix2 q k)) = _
  refine congrArg _ (funext fun a => Fin.ext ?_)
  match a with
  | ⟨0, _⟩ => show win8_0.index t (0 : Fin 2) * 4096 + 1 * q.val = r.val; omega
  | ⟨1, _⟩ => show win8_0.index t (1 : Fin 2) * 128 + 1 * k.val = k.val; omega

/-- The same for the padded difference rows. -/
theorem rows1_apply (c : Dev nD) (t : Fin cfg8.N) (q : Fin 4096) (k : Fin 128) (r : Fin 802816) (hr : r.val = 4096 * t.val + q.val) :
    (iblk8 V c 1 t : S4096x128.Idx → EReal) (ix2 q k) = (V c main_v73 : S802816x128.Idx → EReal) (ix2 r k) := by
  obtain ⟨-, -, e0, e1, -⟩ := index8_rows t
  show (V c main_v73 : S802816x128.Idx → EReal) (((cfg8.win 1).blk t).view.emb (ix2 q k)) = _
  refine congrArg _ (funext fun a => Fin.ext ?_)
  match a with
  | ⟨0, _⟩ => show win8_1.index t (0 : Fin 2) * 4096 + 1 * q.val = r.val; omega
  | ⟨1, _⟩ => show win8_1.index t (1 : Fin 2) * 128 + 1 * k.val = k.val; omega

/-- Each parameter window's block at any point is its whole array: the block index is (0, 0) and the block has the array's extents. -/
theorem whole2 (c : Dev nD) (t : Fin cfg8.N) : (iblk8 V c 2 t : S128x128.Idx → EReal) = (V c main_arg10 : S128x128.Idx → EReal) := by
  obtain ⟨e0, e1, -⟩ := index8_params t
  funext y
  show (V c main_arg10 : S128x128.Idx → EReal) (((cfg8.win 2).blk t).view.emb y) = _
  refine congrArg _ (funext fun a => Fin.ext ?_)
  match a with
  | ⟨0, _⟩ => show win8_2.index t (0 : Fin 2) * 128 + 1 * (y 0).val = (y 0).val; omega
  | ⟨1, _⟩ => show win8_2.index t (1 : Fin 2) * 128 + 1 * (y 1).val = (y 1).val; omega
theorem whole3 (c : Dev nD) (t : Fin cfg8.N) : (iblk8 V c 3 t : S1x128.Idx → EReal) = (V c main_v74 : S1x128.Idx → EReal) := by
  obtain ⟨-, -, e0, e1, -⟩ := index8_params t
  funext y
  show (V c main_v74 : S1x128.Idx → EReal) (((cfg8.win 3).blk t).view.emb y) = _
  refine congrArg _ (funext fun a => Fin.ext ?_)
  match a with
  | ⟨0, _⟩ => show win8_3.index t (0 : Fin 2) * 1 + 1 * (y 0).val = (y 0).val; omega
  | ⟨1, _⟩ => show win8_3.index t (1 : Fin 2) * 128 + 1 * (y 1).val = (y 1).val; omega
theorem whole4 (c : Dev nD) (t : Fin cfg8.N) : (iblk8 V c 4 t : S128x1.Idx → EReal) = (V c main_arg12 : S128x1.Idx → EReal) := by
  obtain ⟨-, -, -, -, e0, e1, -⟩ := index8_params t
  funext y
  show (V c main_arg12 : S128x1.Idx → EReal) (((cfg8.win 4).blk t).view.emb y) = _
  refine congrArg _ (funext fun a => Fin.ext ?_)
  match a with
  | ⟨0, _⟩ => show win8_4.index t (0 : Fin 2) * 128 + 1 * (y 0).val = (y 0).val; omega
  | ⟨1, _⟩ => show win8_4.index t (1 : Fin 2) * 1 + 1 * (y 1).val = (y 1).val; omega
theorem whole5 (c : Dev nD) (t : Fin cfg8.N) : (iblk8 V c 5 t : S1x1.Idx → EReal) = (V c main_v75 : S1x1.Idx → EReal) := by
  obtain ⟨-, -, -, -, -, -, e0, e1, -⟩ := index8_params t
  funext y
  show (V c main_v75 : S1x1.Idx → EReal) (((cfg8.win 5).blk t).view.emb y) = _
  refine congrArg _ (funext fun a => Fin.ext ?_)
  match a with
  | ⟨0, _⟩ => show win8_5.index t (0 : Fin 2) * 1 + 1 * (y 0).val = (y 0).val; omega
  | ⟨1, _⟩ => show win8_5.index t (1 : Fin 2) * 1 + 1 * (y 1).val = (y 1).val; omega
theorem whole6 (c : Dev nD) (t : Fin cfg8.N) : (iblk8 V c 6 t : S128x128.Idx → EReal) = (V c main_arg14 : S128x128.Idx → EReal) := by
  obtain ⟨-, -, -, -, -, -, -, -, e0, e1, -⟩ := index8_params t
  funext y
  show (V c main_arg14 : S128x128.Idx → EReal) (((cfg8.win 6).blk t).view.emb y) = _
  refine congrArg _ (funext fun a => Fin.ext ?_)
  match a with
  | ⟨0, _⟩ => show win8_6.index t (0 : Fin 2) * 128 + 1 * (y 0).val = (y 0).val; omega
  | ⟨1, _⟩ => show win8_6.index t (1 : Fin 2) * 128 + 1 * (y 1).val = (y 1).val; omega
theorem whole7 (c : Dev nD) (t : Fin cfg8.N) : (iblk8 V c 7 t : S1x128.Idx → EReal) = (V c main_v76 : S1x128.Idx → EReal) := by
  obtain ⟨-, -, -, -, -, -, -, -, -, -, e0, e1, -⟩ := index8_params t
  funext y
  show (V c main_v76 : S1x128.Idx → EReal) (((cfg8.win 7).blk t).view.emb y) = _
  refine congrArg _ (funext fun a => Fin.ext ?_)
  match a with
  | ⟨0, _⟩ => show win8_7.index t (0 : Fin 2) * 1 + 1 * (y 0).val = (y 0).val; omega
  | ⟨1, _⟩ => show win8_7.index t (1 : Fin 2) * 128 + 1 * (y 1).val = (y 1).val; omega
theorem whole8 (c : Dev nD) (t : Fin cfg8.N) : (iblk8 V c 8 t : S128x1.Idx → EReal) = (V c main_arg16 : S128x1.Idx → EReal) := by
  obtain ⟨-, -, -, -, -, -, -, -, -, -, -, -, e0, e1, -⟩ := index8_params t
  funext y
  show (V c main_arg16 : S128x1.Idx → EReal) (((cfg8.win 8).blk t).view.emb y) = _
  refine congrArg _ (funext fun a => Fin.ext ?_)
  match a with
  | ⟨0, _⟩ => show win8_8.index t (0 : Fin 2) * 128 + 1 * (y 0).val = (y 0).val; omega
  | ⟨1, _⟩ => show win8_8.index t (1 : Fin 2) * 1 + 1 * (y 1).val = (y 1).val; omega
theorem whole9 (c : Dev nD) (t : Fin cfg8.N) : (iblk8 V c 9 t : S1x1.Idx → EReal) = (V c main_v77 : S1x1.Idx → EReal) := by
  obtain ⟨-, -, -, -, -, -, -, -, -, -, -, -, -, -, e0, e1⟩ := index8_params t
  funext y
  show (V c main_v77 : S1x1.Idx → EReal) (((cfg8.win 9).blk t).view.emb y) = _
  refine congrArg _ (funext fun a => Fin.ext ?_)
  match a with
  | ⟨0, _⟩ => show win8_9.index t (0 : Fin 2) * 1 + 1 * (y 0).val = (y 0).val; omega
  | ⟨1, _⟩ => show win8_9.index t (1 : Fin 2) * 1 + 1 * (y 1).val = (y 1).val; omega

/-! ## What a point writes back -/

/-- Point t writes back block t of the array of all padded scores. -/
theorem flushed8 (c : Dev nD) (t : Fin cfg8.N) :
    (dat8 (F := Ideal) V c).flushed 10 t = ((cfg8.win 10).blk t).view.read (Elt Ideal)
      (paddedScores (V c main_v72) (V c main_v73) (V c main_arg10) (V c main_v74) (V c main_arg12) (V c main_v75)
        (V c main_arg14) (V c main_v76) (V c main_arg16) (V c main_v77)) := by
  show (cfg8.win 10).cut (grid8.coords t) ((dat8 V c).after 10 t) = _
  rw [after8_10]
  obtain ⟨-, -, -, -, e10⟩ := index8_rows t
  have ht : t.val < 196 := lt_of_lt_of_eq t.isLt N_8
  funext j
  obtain ⟨q, rfl⟩ : ∃ q : Fin 4096, j = ix1 q := ⟨j 0, eq_ix1 j⟩
  have hq : q.val < 4096 := q.isLt
  have hlt : 4096 * t.val + q.val < 802816 := by omega
  have hr : ((((cfg8.win 10).blk t).view.emb (ix1 q) : S802816.Idx) 0 : Fin 802816) = (⟨4096 * t.val + q.val, hlt⟩ : Fin 802816) :=
    Fin.ext (show win8_10.index t (0 : Fin 1) * 4096 + 1 * q.val = 4096 * t.val + q.val by omega)
  show out8_10 (F := Ideal) (iblk8 V c 0 t) (iblk8 V c 1 t) (iblk8 V c 2 t) (iblk8 V c 3 t) (iblk8 V c 4 t) (iblk8 V c 5 t) (iblk8 V c 6 t) (iblk8 V c 7 t) (iblk8 V c 8 t) (iblk8 V c 9 t) (ix1 q)
    = paddedScore (V c main_v72) (V c main_v73) (V c main_arg10) (V c main_v74) (V c main_arg12) (V c main_v75)
        (V c main_arg14) (V c main_v76) (V c main_arg16) (V c main_v77) ((((cfg8.win 10).blk t).view.emb (ix1 q) : S802816.Idx) 0)
  rw [hr, out8_apply, whole2, whole3, whole4, whole5, whole6, whole7, whole8, whole9]
  unfold paddedScore
  congr 1 <;> funext k
  · exact rows0_apply V c t q k _ rfl
  · exact rows1_apply V c t q k _ rfl

/-! ## The blocks tile the 802816 rows -/

/-- An index is in point t's output block iff it lies in rows 4096·t … 4096·t + 4095. -/
theorem mem_block10 (t : Fin cfg8.N) (i : S802816.Idx) :
    i ∈ ((cfg8.win 10).blk t).view.set ↔ ∀ a : Fin 1, win8_10.index t a * S4096.size a ≤ (i a).val ∧ (i a).val < win8_10.index t a * S4096.size a + S4096.size a := by
  show i ∈ ((View.whole main_v78).slice (win8_10.rect t)).set ↔ _
  rw [View.set_slice_whole, Rect.mem_set_unit]
  exact Iff.rfl

/-- Row r lies in the block of point r / 4096, and every point writes back. -/
theorem cover10 (i : S802816.Idx) : ∃ t : Fin cfg8.N, (cfg8.win 10).flush t = true ∧ i ∈ ((cfg8.win 10).blk t).view.set := by
  have hi : (i 0).val < 802816 := (i 0).isLt
  have hN : cfg8.N = 196 := N_8
  let t : Fin cfg8.N := ⟨(i 0).val / 4096, by rw [hN]; omega⟩
  have htv : t.val = (i 0).val / 4096 := rfl
  obtain ⟨-, -, -, -, e10⟩ := index8_rows t
  refine ⟨t, flush8_10 t, ?_⟩
  rw [mem_block10]
  intro a
  match a with
  | ⟨0, _⟩ => show win8_10.index t (0 : Fin 1) * 4096 ≤ (i 0).val ∧ (i 0).val < win8_10.index t (0 : Fin 1) * 4096 + 4096; omega

/-- After the region the output array holds all the padded scores. -/
theorem scores8 (c : Dev nD) : (dat8 (F := Ideal) V c).arrAt 10 cfg8.N
    = paddedScores (V c main_v72) (V c main_v73) (V c main_arg10) (V c main_v74) (V c main_arg12) (V c main_v75)
        (V c main_arg14) (V c main_v76) (V c main_arg16) (V c main_v77) :=
  (dat8 (F := Ideal) V c).arrAt_eq_of_cover 10 _ (fun t _ => flushed8 V c t) cover10

/-! ## Rows below the padding, and the biases as rows -/

/-- Row e < 800000 of an array padded with zero rows at the end is row e of the array. -/
theorem padRows_apply (x : Cert.Stage.FA S800000x128) (e : Fin 800000) (k : Fin 128) (r : Fin 802816) (hr : r.val = e.val) :
    Cert.KernelIdeal.Host.padRows x (ix2 r k) = x (ix2 e k) := by
  refine pad_apply_of_inside _ _ _ x _ _ _ (ix2 r k) (ix2 e k) (fun a => ?_)
  match a with
  | ⟨0, _⟩ => show r.val = 0 + e.val * (0 + 1); omega
  | ⟨1, _⟩ => show k.val = 0 + k.val * (0 + 1); omega

/-- A 128-vector reshaped to one row, read at (0, j), is the vector at j. -/
theorem rowCast_apply (b : Cert.Stage.FA S128) (j : Fin 128) :
    shapeCast S1x128 b Facts₀.shapeCasts_S128_S1x128 (ix2 (0 : Fin 1) j) = b (ix1 j) := by
  refine shapeCast_apply b _ (ix2 (0 : Fin 1) j) (ix1 j) ?_
  rw [Shape.rowMajor_val_two, Shape.rowMajor_val_one]
  show j.val = 0 * 128 + j.val
  omega

/-- A 1-vector reshaped to a 1×1 array, read at (0, 0), is the vector's entry. -/
theorem unitCast_apply (b : Cert.Stage.FA S1) :
    shapeCast S1x1 b Facts₀.shapeCasts_S1_S1x1 (ix2 (0 : Fin 1) (0 : Fin 1)) = b (ix1 (0 : Fin 1)) := by
  refine shapeCast_apply b _ (ix2 (0 : Fin 1) (0 : Fin 1)) (ix1 (0 : Fin 1)) ?_
  rw [Shape.rowMajor_val_two, Shape.rowMajor_val_one]
  rfl

end Edge8

open Edge8

/-! ## The region's result -/

/-- After region 8 the first 800000 entries of its output array are the edge scores, when its inputs are the padded
    feature and difference rows and the reshaped biases. -/
theorem out8 (c : Dev nD) (ft df : Cert.Stage.FA S800000x128) (rb1 tb1 : Cert.Stage.FA S128) (rb2 tb2 : Cert.Stage.FA S1)
    (h72 : V c main_v72 = Cert.KernelIdeal.Host.padRows ft) (h73 : V c main_v73 = Cert.KernelIdeal.Host.padRows df)
    (h74 : V c main_v74 = shapeCast S1x128 rb1 Facts₀.shapeCasts_S128_S1x128) (h75 : V c main_v75 = shapeCast S1x1 rb2 Facts₀.shapeCasts_S1_S1x1)
    (h76 : V c main_v76 = shapeCast S1x128 tb1 Facts₀.shapeCasts_S128_S1x128) (h77 : V c main_v77 = shapeCast S1x1 tb2 Facts₀.shapeCasts_S1_S1x1) :
    extractStridedSlice S800000 ![0] ((dat8 (F := Ideal) V c).arrAt 10 cfg8.N) Facts₀.slices_S802816_S800000_0
      = Cert.Stage.edge ft df (V c main_arg10) rb1 (V c main_arg12) rb2 (V c main_arg14) tb1 (V c main_arg16) tb2 := by
  funext j
  obtain ⟨e, rfl⟩ : ∃ e : Fin 800000, j = ix1 e := ⟨j 0, eq_ix1 j⟩
  have he : e.val < 802816 := lt_trans e.isLt (by decide)
  refine (extractStridedSlice_apply _ _ _ (ix1 e) (ix1 (⟨e.val, he⟩ : Fin 802816)) (fun a => ?_)).trans ?_
  · match a with
    | ⟨0, _⟩ => show e.val = 0 + e.val; omega
  rw [scores8, Cert.EdgeRef.edge_apply, h72, h73, h74, h75, h76, h77]
  show paddedScore _ _ _ _ _ _ _ _ _ _ (⟨e.val, he⟩ : Fin 802816) = _
  unfold paddedScore
  simp only [padRows_apply _ e _ (⟨e.val, he⟩ : Fin 802816) rfl, rowCast_apply, unitCast_apply]

end Cert.KernelIdeal.Region

end
-- ==== Proof.KernelValue.lean ====
/-
  The idealized kernel program's result as the network's function of its arguments.

  The run's buffer contents are a fold through @main: a host stretch applies its operations, a region leaves its
  output array at what its grid points wrote back. Walking that fold: the first stretch computes the edge list's rows
  s and d, the difference rows and the indegree; each layer is a dense-map region (z·W, or relu(h)·W), a stretch that
  gathers the mapped rows at s and sums them into d — the gather never meets an index outside the table because every
  source index is in range —, and a region that divides by the clamped indegree and adds the bias: together the
  layer function of the previous layer's table. After four layers the last stretch builds the padded feature and
  difference rows, the edge region scores every padded row, and the final slice keeps the 800000 true edges' scores.
-/
import proofs.«418594_j34866544509319_1_alg».proof.Proof.Gen.KernelIdeal.Frame
import proofs.«418594_j34866544509319_1_alg».proof.Proof.Stage
import proofs.«418594_j34866544509319_1_alg».proof.Proof.Keep
import proofs.«418594_j34866544509319_1_alg».proof.Proof.HostPre
import proofs.«418594_j34866544509319_1_alg».proof.Proof.HostL1
import proofs.«418594_j34866544509319_1_alg».proof.Proof.HostL2
import proofs.«418594_j34866544509319_1_alg».proof.Proof.HostL3
import proofs.«418594_j34866544509319_1_alg».proof.Proof.HostL4
import proofs.«418594_j34866544509319_1_alg».proof.Proof.HostEdge
import proofs.«418594_j34866544509319_1_alg».proof.Proof.RegMM0
import proofs.«418594_j34866544509319_1_alg».proof.Proof.RegMM2
import proofs.«418594_j34866544509319_1_alg».proof.Proof.RegMM4
import proofs.«418594_j34866544509319_1_alg».proof.Proof.RegMM6
import proofs.«418594_j34866544509319_1_alg».proof.Proof.RegNorm1
import proofs.«418594_j34866544509319_1_alg».proof.Proof.RegNorm3
import proofs.«418594_j34866544509319_1_alg».proof.Proof.RegNorm5
import proofs.«418594_j34866544509319_1_alg».proof.Proof.RegNorm7
import proofs.«418594_j34866544509319_1_alg».proof.Proof.RegEdge

set_option maxRecDepth 16384

noncomputable section

namespace Cert.KernelIdeal.Value

open Idealize.ShloMosaic Idealize.ShloMosaic.TcCoe Idealize.SL.Sem Idealize.ShloMosaic.StableHlo
open Cert.KernelIdeal Cert.KernelIdeal.Gen Cert.KernelIdeal.Facts₀
open Cert.Stage (src dst diff degRaw atLeastOne relu mm128 mm64 agg128 agg64 norm128 norm64 layer128 layer64 feat edge full InRange)

variable (m : (ℓ : Loc nD τ sig) → Buf (Elt Ideal) ℓ) (ρ : Dev nD → PrngReg) (c : Dev nD)

/-- The edges' sources, read off the launch memory. -/
abbrev s : Cert.Stage.IA S800000 := src (m ((c : Thread nD τ).loc main_arg1))
/-- The edges' destinations. -/
abbrev d : Cert.Stage.IA S800000 := dst (m ((c : Thread nD τ).loc main_arg1))

/-! ## The first stretch -/

theorem w1_src : W1 (F := Ideal) m ρ c (Proc.devRef .tc main_v1) = s m c := Cert.KernelIdeal.Host.pre_src (W0 m ρ c)
theorem w1_dst : W1 (F := Ideal) m ρ c (Proc.devRef .tc main_v3) = d m c := Cert.KernelIdeal.Host.pre_dst (W0 m ρ c)
theorem w1_diff : W1 (F := Ideal) m ρ c (Proc.devRef .tc main_v20) = diff (m ((c : Thread nD τ).loc main_arg0)) (s m c) (d m c) :=
  Cert.KernelIdeal.Host.pre_diff (W0 m ρ c)
theorem w1_deg : W1 (F := Ideal) m ρ c (Proc.devRef .tc main_v24) = degRaw (d m c) := Cert.KernelIdeal.Host.pre_deg (W0 m ρ c)

/-! ## Layer 1 -/

/-- The first dense map: z·W_in. -/
theorem w2_mapped : W2 (F := Ideal) m ρ c (Proc.devRef .tc main_v25)
    = mm128 (m ((c : Thread nD τ).loc main_arg0)) (m ((c : Thread nD τ).loc main_arg2)) := by
  refine (W2_arr m ρ c 2).trans ((Cert.KernelIdeal.Region.out0 (V1 m ρ) c).trans ?_)
  rw [show V1 m ρ c main_arg0 = m ((c : Thread nD τ).loc main_arg0) from Cert.KernelIdeal.Keep.w1_arg0 m ρ c,
      show V1 m ρ c main_arg2 = m ((c : Thread nD τ).loc main_arg2) from Cert.KernelIdeal.Keep.w1_arg2 m ρ c]

/-- The first layer's table. -/
abbrev h1 : Cert.Stage.FA S50000x128 :=
  layer128 (m ((c : Thread nD τ).loc main_arg0)) (m ((c : Thread nD τ).loc main_arg2)) (m ((c : Thread nD τ).loc main_arg3)) (s m c) (d m c)

theorem w5_layer (hs : InRange (s m c)) : W5 (F := Ideal) m ρ c (Proc.devRef .tc main_v32) = h1 m c := by
  have hs2 : InRange (W2 (F := Ideal) m ρ c (Proc.devRef .tc main_v1)) := by
    rw [Cert.KernelIdeal.Keep.w2_v1 m ρ c, w1_src m ρ c]; exact hs
  have ha : V4 (F := Ideal) m ρ c main_v29 = agg128 (mm128 (m ((c : Thread nD τ).loc main_arg0)) (m ((c : Thread nD τ).loc main_arg2))) (s m c) (d m c) := by
    refine (Cert.KernelIdeal.Host.l1_agg (W2 m ρ c) hs2).trans ?_
    rw [w2_mapped m ρ c, Cert.KernelIdeal.Keep.w2_v1 m ρ c, w1_src m ρ c, Cert.KernelIdeal.Keep.w2_v3 m ρ c, w1_dst m ρ c]
  have hg : V4 (F := Ideal) m ρ c main_v30 = shapeCast S50000x1 (degRaw (d m c)) Facts₀.shapeCasts_S50000_S50000x1 := by
    refine (Cert.KernelIdeal.Host.l1_deg (W2 m ρ c)).trans ?_
    rw [Cert.KernelIdeal.Keep.w2_v24 m ρ c, w1_deg m ρ c]
  have hb : V4 (F := Ideal) m ρ c main_v31 = shapeCast S1x128 (m ((c : Thread nD τ).loc main_arg3)) Facts₀.shapeCasts_S128_S1x128 := by
    refine (Cert.KernelIdeal.Host.l1_bias (W2 m ρ c)).trans ?_
    rw [Cert.KernelIdeal.Keep.w2_arg3 m ρ c]
  refine (W5_arr m ρ c 3).trans ((Cert.KernelIdeal.Region.out1 (V4 m ρ) c _ _ hg hb).trans ?_)
  rw [ha]
  rfl

/-! ## Layer 2 -/

/-- Layer 2's dense map: relu of the previous table, times the weight. -/
theorem w6_mapped (hs : InRange (s m c)) : W6 (F := Ideal) m ρ c (Proc.devRef .tc main_v33)
    = mm128 (relu (h1 m c)) (m ((c : Thread nD τ).loc main_arg4)) := by
  refine (W6_arr m ρ c 2).trans ((Cert.KernelIdeal.Region.out2 (V5 m ρ) c).trans ?_)
  rw [show V5 (F := Ideal) m ρ c main_v32 = h1 m c from w5_layer m ρ c hs,
      show V5 (F := Ideal) m ρ c main_arg4 = (m ((c : Thread nD τ).loc main_arg4)) from Cert.KernelIdeal.Keep.w5_arg4 m ρ c]

/-- Layer 2's table. -/
abbrev h2 : Cert.Stage.FA S50000x128 :=
  layer128 (relu (h1 m c)) (m ((c : Thread nD τ).loc main_arg4)) (m ((c : Thread nD τ).loc main_arg5)) (s m c) (d m c)

theorem w9_layer (hs : InRange (s m c)) : W9 (F := Ideal) m ρ c (Proc.devRef .tc main_v40) = h2 m c := by
  have hs2 : InRange (W6 (F := Ideal) m ρ c (Proc.devRef .tc main_v1)) := by
    rw [Cert.KernelIdeal.Keep.w6_v1 m ρ c, w1_src m ρ c]; exact hs
  have ha : V8 (F := Ideal) m ρ c main_v37 = agg128 (mm128 (relu (h1 m c)) (m ((c : Thread nD τ).loc main_arg4))) (s m c) (d m c) := by
    refine (Cert.KernelIdeal.Host.l2_agg (W6 m ρ c) hs2).trans ?_
    rw [w6_mapped m ρ c hs, Cert.KernelIdeal.Keep.w6_v1 m ρ c, w1_src m ρ c, Cert.KernelIdeal.Keep.w6_v3 m ρ c, w1_dst m ρ c]
  have hg : V8 (F := Ideal) m ρ c main_v38 = shapeCast S50000x1 (degRaw (d m c)) Facts₀.shapeCasts_S50000_S50000x1 := by
    refine (Cert.KernelIdeal.Host.l2_deg (W6 m ρ c)).trans ?_
    rw [Cert.KernelIdeal.Keep.w6_v24 m ρ c, w1_deg m ρ c]
  have hb : V8 (F := Ideal) m ρ c main_v39 = shapeCast S1x128 (m ((c : Thread nD τ).loc main_arg5)) Facts₀.shapeCasts_S128_S1x128 := by
    refine (Cert.KernelIdeal.Host.l2_bias (W6 m ρ c)).trans ?_
    rw [Cert.KernelIdeal.Keep.w6_arg5 m ρ c]
  refine (W9_arr m ρ c 3).trans ((Cert.KernelIdeal.Region.out3 (V8 m ρ) c _ _ hg hb).trans ?_)
  rw [ha]
  rfl

/-! ## Layer 3 -/

/-- Layer 3's dense map: relu of the previous table, times the weight. -/
theorem w10_mapped (hs : InRange (s m c)) : W10 (F := Ideal) m ρ c (Proc.devRef .tc main_v41)
    = mm128 (relu (h2 m c)) (m ((c : Thread nD τ).loc main_arg6)) := by
  refine (W10_arr m ρ c 2).trans ((Cert.KernelIdeal.Region.out4 (V9 m ρ) c).trans ?_)
  rw [show V9 (F := Ideal) m ρ c main_v40 = h2 m c from w9_layer m ρ c hs,
      show V9 (F := Ideal) m ρ c main_arg6 = (m ((c : Thread nD τ).loc main_arg6)) from Cert.KernelIdeal.Keep.w9_arg6 m ρ c]

/-- Layer 3's table. -/
abbrev h3 : Cert.Stage.FA S50000x128 :=
  layer128 (relu (h2 m c)) (m ((c : Thread nD τ).loc main_arg6)) (m ((c : Thread nD τ).loc main_arg7)) (s m c) (d m c)

theorem w13_layer (hs : InRange (s m c)) : W13 (F := Ideal) m ρ c (Proc.devRef .tc main_v48) = h3 m c := by
  have hs2 : InRange (W10 (F := Ideal) m ρ c (Proc.devRef .tc main_v1)) := by
    rw [Cert.KernelIdeal.Keep.w10_v1 m ρ c, w1_src m ρ c]; exact hs
  have ha : V12 (F := Ideal) m ρ c main_v45 = agg128 (mm128 (relu (h2 m c)) (m ((c : Thread nD τ).loc main_arg6))) (s m c) (d m c) := by
    refine (Cert.KernelIdeal.Host.l3_agg (W10 m ρ c) hs2).trans ?_
    rw [w10_mapped m ρ c hs, Cert.KernelIdeal.Keep.w10_v1 m ρ c, w1_src m ρ c, Cert.KernelIdeal.Keep.w10_v3 m ρ c, w1_dst m ρ c]
  have hg : V12 (F := Ideal) m ρ c main_v46 = shapeCast S50000x1 (degRaw (d m c)) Facts₀.shapeCasts_S50000_S50000x1 := by
    refine (Cert.KernelIdeal.Host.l3_deg (W10 m ρ c)).trans ?_
    rw [Cert.KernelIdeal.Keep.w10_v24 m ρ c, w1_deg m ρ c]
  have hb : V12 (F := Ideal) m ρ c main_v47 = shapeCast S1x128 (m ((c : Thread nD τ).loc main_arg7)) Facts₀.shapeCasts_S128_S1x128 := by
    refine (Cert.KernelIdeal.Host.l3_bias (W10 m ρ c)).trans ?_
    rw [Cert.KernelIdeal.Keep.w10_arg7 m ρ c]
  refine (W13_arr m ρ c 3).trans ((Cert.KernelIdeal.Region.out5 (V12 m ρ) c _ _ hg hb).trans ?_)
  rw [ha]
  rfl

/-! ## Layer 4 -/

/-- Layer 4's dense map: relu of the previous table, times the weight. -/
theorem w14_mapped (hs : InRange (s m c)) : W14 (F := Ideal) m ρ c (Proc.devRef .tc main_v49)
    = mm64 (relu (h3 m c)) (m ((c : Thread nD τ).loc main_arg8)) := by
  refine (W14_arr m ρ c 2).trans ((Cert.KernelIdeal.Region.out6 (V13 m ρ) c).trans ?_)
  rw [show V13 (F := Ideal) m ρ c main_v48 = h3 m c from w13_layer m ρ c hs,
      show V13 (F := Ideal) m ρ c main_arg8 = (m ((c : Thread nD τ).loc main_arg8)) from Cert.KernelIdeal.Keep.w13_arg8 m ρ c]

/-- Layer 4's table. -/
abbrev hg : Cert.Stage.FA S50000x64 :=
  layer64 (relu (h3 m c)) (m ((c : Thread nD τ).loc main_arg8)) (m ((c : Thread nD τ).loc main_arg9)) (s m c) (d m c)

theorem w17_layer (hs : InRange (s m c)) : W17 (F := Ideal) m ρ c (Proc.devRef .tc main_v56) = hg m c := by
  have hs2 : InRange (W14 (F := Ideal) m ρ c (Proc.devRef .tc main_v1)) := by
    rw [Cert.KernelIdeal.Keep.w14_v1 m ρ c, w1_src m ρ c]; exact hs
  have ha : V16 (F := Ideal) m ρ c main_v53 = agg64 (mm64 (relu (h3 m c)) (m ((c : Thread nD τ).loc main_arg8))) (s m c) (d m c) := by
    refine (Cert.KernelIdeal.Host.l4_agg (W14 m ρ c) hs2).trans ?_
    rw [w14_mapped m ρ c hs, Cert.KernelIdeal.Keep.w14_v1 m ρ c, w1_src m ρ c, Cert.KernelIdeal.Keep.w14_v3 m ρ c, w1_dst m ρ c]
  have hg : V16 (F := Ideal) m ρ c main_v54 = shapeCast S50000x1 (degRaw (d m c)) Facts₀.shapeCasts_S50000_S50000x1 := by
    refine (Cert.KernelIdeal.Host.l4_deg (W14 m ρ c)).trans ?_
    rw [Cert.KernelIdeal.Keep.w14_v24 m ρ c, w1_deg m ρ c]
  have hb : V16 (F := Ideal) m ρ c main_v55 = shapeCast S1x64 (m ((c : Thread nD τ).loc main_arg9)) Facts₀.shapeCasts_S64_S1x64 := by
    refine (Cert.KernelIdeal.Host.l4_bias (W14 m ρ c)).trans ?_
    rw [Cert.KernelIdeal.Keep.w14_arg9 m ρ c]
  refine (W17_arr m ρ c 3).trans ((Cert.KernelIdeal.Region.out7 (V16 m ρ) c _ _ hg hb).trans ?_)
  rw [ha]
  rfl

/-! ## The edge decoder and the result -/

/-- The result buffer is the network's function of the argument arrays, when every source index is in range. -/
theorem final (hs : InRange (s m c)) : W24 (F := Ideal) m ρ c (Proc.devRef .tc main_v79)
    = full (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) := by
  have h72 : V22 (F := Ideal) m ρ c main_v72 = Cert.KernelIdeal.Host.padRows (feat (hg m c) (s m c) (d m c)) := by
    refine (Cert.KernelIdeal.Host.e_feat (W17 m ρ c)).trans ?_
    rw [w17_layer m ρ c hs, Cert.KernelIdeal.Keep.w17_v1 m ρ c, w1_src m ρ c, Cert.KernelIdeal.Keep.w17_v3 m ρ c, w1_dst m ρ c]
  have h73 : V22 (F := Ideal) m ρ c main_v73 = Cert.KernelIdeal.Host.padRows (diff (m ((c : Thread nD τ).loc main_arg0)) (s m c) (d m c)) := by
    refine (Cert.KernelIdeal.Host.e_diff (W17 m ρ c)).trans ?_
    rw [Cert.KernelIdeal.Keep.w17_v20 m ρ c, w1_diff m ρ c]
  have h74 : V22 (F := Ideal) m ρ c main_v74 = shapeCast S1x128 (m ((c : Thread nD τ).loc main_arg11)) Facts₀.shapeCasts_S128_S1x128 := by
    refine (Cert.KernelIdeal.Host.e_rb1 (W17 m ρ c)).trans ?_
    rw [Cert.KernelIdeal.Keep.w17_arg11 m ρ c]
  have h75 : V22 (F := Ideal) m ρ c main_v75 = shapeCast S1x1 (m ((c : Thread nD τ).loc main_arg13)) Facts₀.shapeCasts_S1_S1x1 := by
    refine (Cert.KernelIdeal.Host.e_rb2 (W17 m ρ c)).trans ?_
    rw [Cert.KernelIdeal.Keep.w17_arg13 m ρ c]
  have h76 : V22 (F := Ideal) m ρ c main_v76 = shapeCast S1x128 (m ((c : Thread nD τ).loc main_arg15)) Facts₀.shapeCasts_S128_S1x128 := by
    refine (Cert.KernelIdeal.Host.e_tb1 (W17 m ρ c)).trans ?_
    rw [Cert.KernelIdeal.Keep.w17_arg15 m ρ c]
  have h77 : V22 (F := Ideal) m ρ c main_v77 = shapeCast S1x1 (m ((c : Thread nD τ).loc main_arg17)) Facts₀.shapeCasts_S1_S1x1 := by
    refine (Cert.KernelIdeal.Host.e_tb2 (W17 m ρ c)).trans ?_
    rw [Cert.KernelIdeal.Keep.w17_arg17 m ρ c]
  have k10 : V22 (F := Ideal) m ρ c main_arg10 = (m ((c : Thread nD τ).loc main_arg10)) :=
    (Cert.KernelIdeal.Host.e_keep (W17 m ρ c) main_arg10 (Or.inl rfl)).trans (Cert.KernelIdeal.Keep.w17_arg10 m ρ c)
  have k12 : V22 (F := Ideal) m ρ c main_arg12 = (m ((c : Thread nD τ).loc main_arg12)) :=
    (Cert.KernelIdeal.Host.e_keep (W17 m ρ c) main_arg12 (Or.inr (Or.inl rfl))).trans (Cert.KernelIdeal.Keep.w17_arg12 m ρ c)
  have k14 : V22 (F := Ideal) m ρ c main_arg14 = (m ((c : Thread nD τ).loc main_arg14)) :=
    (Cert.KernelIdeal.Host.e_keep (W17 m ρ c) main_arg14 (Or.inr (Or.inr (Or.inl rfl)))).trans (Cert.KernelIdeal.Keep.w17_arg14 m ρ c)
  have k16 : V22 (F := Ideal) m ρ c main_arg16 = (m ((c : Thread nD τ).loc main_arg16)) :=
    (Cert.KernelIdeal.Host.e_keep (W17 m ρ c) main_arg16 (Or.inr (Or.inr (Or.inr rfl)))).trans (Cert.KernelIdeal.Keep.w17_arg16 m ρ c)
  refine (Cert.KernelIdeal.Host.e_out (W23 m ρ c)).trans ?_
  rw [show W23 (F := Ideal) m ρ c (Proc.devRef .tc main_v78) = (dat8 (F := Ideal) (V22 m ρ) c).arrAt 10 cfg8.N from W23_arr m ρ c 10]
  refine (Cert.KernelIdeal.Region.out8 (V22 m ρ) c _ _ _ _ _ _ h72 h73 h74 h75 h76 h77).trans ?_
  rw [k10, k12, k14, k16]
  rfl

end Cert.KernelIdeal.Value

end
-- ==== Proof.PreDecode.lean ====
/-
  The precondition read back: its last conjunct says every entry of row 0 of the edge list lies in -50000 … 49999, so
  every source index addresses a row of a 50000-row table (from the front, or as a negative index from the back).
-/
import proofs.«418594_j34866544509319_1_alg».proof.Defs
import proofs.«418594_j34866544509319_1_alg».proof.Proof.Gen.Pre_finite_inputs
import proofs.«418594_j34866544509319_1_alg».proof.Proof.Gen.KernelIdeal
import proofs.«418594_j34866544509319_1_alg».proof.Proof.Stage
import Idealize.ShloMosaic.Lib.ReduceAll
import Idealize.ShloMosaic.Lib.StableHlo.Predicate

noncomputable section

namespace Cert.PreDecode

open Idealize.ShloMosaic Idealize.SL.Sem

/-- A scalar has exactly one index. -/
instance : Subsingleton Cert.Pre_finite_inputs.S_.Idx := ⟨fun a b => funext fun d => d.elim0⟩

/-- The word the predicate compares against from below is -50000 read signed. -/
theorem lo_toInt : (4294917296#32 : BitVec 32).toInt = -50000 := by decide

/-- The word the predicate compares against from above is 50000 read signed. -/
theorem hi_toInt : (50000#32 : BitVec 32).toInt = 50000 := by decide

/-- Under the precondition every source index is in range, on every device. -/
theorem src_inRange (m : (ℓ : Loc Cert.KernelIdeal.nD Cert.KernelIdeal.τ Cert.KernelIdeal.sig) → Buf (Elt Ideal) ℓ)
    (h : Cert.Pre_KernelIdeal m) (c : Dev Cert.KernelIdeal.nD) :
    Cert.Stage.InRange (Cert.Stage.src (m ((c.tc : Thread Cert.KernelIdeal.nD Cert.KernelIdeal.τ).loc Cert.KernelIdeal.main_arg1))) := by
  intro e
  -- the predicate is a scalar: read it at its one index, and open it into its conjunction of eighteen tests
  have e0 := congrFun (h c) (fun a => a.elim0)
  dsimp only [Cert.Pre_finite_inputs.fn, Cert.Pre_finite_inputs.fn_part1, Cert.Pre_finite_inputs.fn_part2,
    Cert.Pre_finite_inputs.fn_part3, Cert.Pre_finite_inputs.fn_part4, Cert.Pre_finite_inputs.fn_part5] at e0
  -- the last conjunct is the "for all edges" of the range test on row 0 of the edge list
  have hall := (IntOp.andi_eq_one.1 e0).2
  -- a conjunction over all edges that holds, holds at edge e
  have he := Host.reduce_andi_all _ _ _ _ _ hall e
  -- the test at edge e is (src e ≥ -50000) and (src e < 50000), both signed
  obtain ⟨hge, hlt⟩ := IntOp.andi_eq_one.1 he
  -- a scalar broadcast reads the scalar at every edge, so each compare is against the constant word
  have hge' : (4294917296#32 : BitVec 32).toInt
      ≤ (Cert.Stage.src (m ((c.tc : Thread Cert.KernelIdeal.nD Cert.KernelIdeal.τ).loc Cert.KernelIdeal.main_arg1)) e).toInt :=
    IntOp.cmpi_sge.1 hge
  have hlt' : (Cert.Stage.src (m ((c.tc : Thread Cert.KernelIdeal.nD Cert.KernelIdeal.τ).loc Cert.KernelIdeal.main_arg1)) e).toInt
      < (50000#32 : BitVec 32).toInt :=
    IntOp.cmpi_slt.1 hlt
  rw [lo_toInt] at hge'
  rw [hi_toInt] at hlt'
  exact ⟨hge', hlt'⟩

end Cert.PreDecode

end
-- ==== Proof.RefOps.lean ====
import proofs.«418594_j34866544509319_1_alg».proof.Proof.Gen.ReferenceIdeal
import Idealize.ShloMosaic.Lib.StableHlo.Run

noncomputable section

namespace Cert.ReferenceIdeal.Ops

open Cert.ReferenceIdeal Cert.ReferenceIdeal.Gen Idealize.ShloMosaic Idealize.ShloMosaic.TcCoe Idealize.SL.Sem Idealize.ShloMosaic.StableHlo

variable {F : FTy → Type} [FloatOps F]

/-- The edge list's two rows, the difference rows z(src) - z(dst) + ε and their negated norms. (31 operations) -/
abbrev opsPre : List (HloOp τ sig (Elt F)) :=
  [ StableHlo.unary main_arg1 main_v0 ((extractStridedSlice S1x800000 ![0, 0] · slices_S2x800000_S1x800000_0_0) : (⟨S2x800000, .i32⟩ : BufTy).Contents (Elt F) → (⟨S1x800000, .i32⟩ : BufTy).Contents (Elt F)),
    StableHlo.reshape main_v0 main_v1 rfl shapeCasts_S1x800000_S800000,
    StableHlo.unary main_arg1 main_v2 ((extractStridedSlice S1x800000 ![1, 0] · slices_S2x800000_S1x800000_1_0) : (⟨S2x800000, .i32⟩ : BufTy).Contents (Elt F) → (⟨S1x800000, .i32⟩ : BufTy).Contents (Elt F)),
    StableHlo.reshape main_v2 main_v3 rfl shapeCasts_S1x800000_S800000,
    StableHlo.nullary main_c (constantI S_ 32 0#32),
    StableHlo.unary main_c main_v4 (broadcastInDim S800000 ![] bcast_S_S800000 : (⟨S_, .i32⟩ : BufTy).Contents (Elt F) → (⟨S800000, .i32⟩ : BufTy).Contents (Elt F)),
    StableHlo.binary main_v1 main_v4 main_v5 (cmpi .slt : (⟨S800000, .i32⟩ : BufTy).Contents (Elt F) → (⟨S800000, .i32⟩ : BufTy).Contents (Elt F) → (⟨S800000, .i1⟩ : BufTy).Contents (Elt F)),
    StableHlo.nullary main_c_0 (constantI S_ 32 50000#32),
    StableHlo.unary main_c_0 main_v6 (broadcastInDim S800000 ![] bcast_S_S800000 : (⟨S_, .i32⟩ : BufTy).Contents (Elt F) → (⟨S800000, .i32⟩ : BufTy).Contents (Elt F)),
    StableHlo.binary main_v1 main_v6 main_v7 (addi : (⟨S800000, .i32⟩ : BufTy).Contents (Elt F) → (⟨S800000, .i32⟩ : BufTy).Contents (Elt F) → (⟨S800000, .i32⟩ : BufTy).Contents (Elt F)),
    StableHlo.ternary main_v5 main_v7 main_v1 main_v8 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v8 main_v9 (broadcastInDim S800000x1 ![0] bcast_S800000_S800000x1_0 : (⟨S800000, .i32⟩ : BufTy).Contents (Elt F) → (⟨S800000x1, .i32⟩ : BufTy).Contents (Elt F)),
    StableHlo.binary main_arg0 main_v9 main_v10 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    StableHlo.nullary main_c_1 (constantI S_ 32 0#32),
    StableHlo.unary main_c_1 main_v11 (broadcastInDim S800000 ![] bcast_S_S800000 : (⟨S_, .i32⟩ : BufTy).Contents (Elt F) → (⟨S800000, .i32⟩ : BufTy).Contents (Elt F)),
    StableHlo.binary main_v3 main_v11 main_v12 (cmpi .slt : (⟨S800000, .i32⟩ : BufTy).Contents (Elt F) → (⟨S800000, .i32⟩ : BufTy).Contents (Elt F) → (⟨S800000, .i1⟩ : BufTy).Contents (Elt F)),
    StableHlo.nullary main_c_2 (constantI S_ 32 50000#32),
    StableHlo.unary main_c_2 main_v13 (broadcastInDim S800000 ![] bcast_S_S800000 : (⟨S_, .i32⟩ : BufTy).Contents (Elt F) → (⟨S800000, .i32⟩ : BufTy).Contents (Elt F)),
    StableHlo.binary main_v3 main_v13 main_v14 (addi : (⟨S800000, .i32⟩ : BufTy).Contents (Elt F) → (⟨S800000, .i32⟩ : BufTy).Contents (Elt F) → (⟨S800000, .i32⟩ : BufTy).Contents (Elt F)),
    StableHlo.ternary main_v12 main_v14 main_v3 main_v15 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v15 main_v16 (broadcastInDim S800000x1 ![0] bcast_S800000_S800000x1_0 : (⟨S800000, .i32⟩ : BufTy).Contents (Elt F) → (⟨S800000x1, .i32⟩ : BufTy).Contents (Elt F)),
    StableHlo.binary main_arg0 main_v16 main_v17 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    StableHlo.binary main_v10 main_v17 main_v18 (subf : (⟨S800000x128, .f32⟩ : BufTy).Contents (Elt F) → (⟨S800000x128, .f32⟩ : BufTy).Contents (Elt F) → (⟨S800000x128, .f32⟩ : BufTy).Contents (Elt F)),
    StableHlo.nullary main_cst (constant S_ .f32 0x358637BD#32),
    StableHlo.unary main_cst main_v19 (broadcastInDim S800000x128 ![] bcast_S_S800000x128 : (⟨S_, .f32⟩ : BufTy).Contents (Elt F) → (⟨S800000x128, .f32⟩ : BufTy).Contents (Elt F)),
    StableHlo.binary main_v18 main_v19 main_v20 (addf : (⟨S800000x128, .f32⟩ : BufTy).Contents (Elt F) → (⟨S800000x128, .f32⟩ : BufTy).Contents (Elt F) → (⟨S800000x128, .f32⟩ : BufTy).Contents (Elt F)),
    StableHlo.binary main_v20 main_v20 main_v21 (mulf : (⟨S800000x128, .f32⟩ : BufTy).Contents (Elt F) → (⟨S800000x128, .f32⟩ : BufTy).Contents (Elt F) → (⟨S800000x128, .f32⟩ : BufTy).Contents (Elt F)),
    StableHlo.nullary main_cst_3 (constant S_ .f32 0x00000000#32),
    StableHlo.binary main_v21 main_cst_3 main_v22 ((fun x v => Host.reduceAdd x v reducesTo_S800000x128_S800000_d1 h_S_) : (⟨S800000x128, .f32⟩ : BufTy).Contents (Elt F) → (⟨S_, .f32⟩ : BufTy).Contents (Elt F) → (⟨S800000, .f32⟩ : BufTy).Contents (Elt F)),
    StableHlo.unary main_v22 main_v23 (Host.sqrt : (⟨S800000, .f32⟩ : BufTy).Contents (Elt F) → (⟨S800000, .f32⟩ : BufTy).Contents (Elt F)),
    StableHlo.unary main_v23 main_v24 (Host.negf : (⟨S800000, .f32⟩ : BufTy).Contents (Elt F) → (⟨S800000, .f32⟩ : BufTy).Contents (Elt F)) ]

/-- Layer 1: the dense map of z, gather, scatter-add, the indegree, divide, bias. (29 operations) -/
abbrev opsL1 : List (HloOp τ sig (Elt F)) :=
  [ StableHlo.binary main_arg0 main_arg2 main_v25 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.nullary main_c_4 (constantI S_ 32 0#32),
    StableHlo.unary main_c_4 main_v26 (broadcastInDim S800000 ![] bcast_S_S800000 : (⟨S_, .i32⟩ : BufTy).Contents (Elt F) → (⟨S800000, .i32⟩ : BufTy).Contents (Elt F)),
    StableHlo.binary main_v1 main_v26 main_v27 (cmpi .slt : (⟨S800000, .i32⟩ : BufTy).Contents (Elt F) → (⟨S800000, .i32⟩ : BufTy).Contents (Elt F) → (⟨S800000, .i1⟩ : BufTy).Contents (Elt F)),
    StableHlo.nullary main_c_5 (constantI S_ 32 50000#32),
    StableHlo.unary main_c_5 main_v28 (broadcastInDim S800000 ![] bcast_S_S800000 : (⟨S_, .i32⟩ : BufTy).Contents (Elt F) → (⟨S800000, .i32⟩ : BufTy).Contents (Elt F)),
    StableHlo.binary main_v1 main_v28 main_v29 (addi : (⟨S800000, .i32⟩ : BufTy).Contents (Elt F) → (⟨S800000, .i32⟩ : BufTy).Contents (Elt F) → (⟨S800000, .i32⟩ : BufTy).Contents (Elt F)),
    StableHlo.ternary main_v27 main_v29 main_v1 main_v30 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v30 main_v31 (broadcastInDim S800000x1 ![0] bcast_S800000_S800000x1_0 : (⟨S800000, .i32⟩ : BufTy).Contents (Elt F) → (⟨S800000x1, .i32⟩ : BufTy).Contents (Elt F)),
    StableHlo.binary main_v25 main_v31 main_v32 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    StableHlo.nullary main_cst_6 (constant S_ .f32 0x00000000#32),
    StableHlo.unary main_cst_6 main_v33 (broadcastInDim S50000x128 ![] bcast_S_S50000x128 : (⟨S_, .f32⟩ : BufTy).Contents (Elt F) → (⟨S50000x128, .f32⟩ : BufTy).Contents (Elt F)),
    StableHlo.unary main_v3 main_v34 (broadcastInDim S800000x1 ![0] bcast_S800000_S800000x1_0 : (⟨S800000, .i32⟩ : BufTy).Contents (Elt F) → (⟨S800000x1, .i32⟩ : BufTy).Contents (Elt F)),
    StableHlo.ternary main_v33 main_v34 main_v32 main_v35 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    StableHlo.nullary main_cst_7 (constant S_ .f32 0x3F800000#32),
    StableHlo.unary main_cst_7 main_v36 (broadcastInDim S800000 ![] bcast_S_S800000 : (⟨S_, .f32⟩ : BufTy).Contents (Elt F) → (⟨S800000, .f32⟩ : BufTy).Contents (Elt F)),
    StableHlo.nullary main_cst_8 (constant S_ .f32 0x00000000#32),
    StableHlo.unary main_cst_8 main_v37 (broadcastInDim S50000 ![] bcast_S_S50000 : (⟨S_, .f32⟩ : BufTy).Contents (Elt F) → (⟨S50000, .f32⟩ : BufTy).Contents (Elt F)),
    StableHlo.unary main_v3 main_v38 (broadcastInDim S800000x1 ![0] bcast_S800000_S800000x1_0 : (⟨S800000, .i32⟩ : BufTy).Contents (Elt F) → (⟨S800000x1, .i32⟩ : BufTy).Contents (Elt F)),
    StableHlo.ternary main_v37 main_v38 main_v36 main_v39 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    StableHlo.nullary main_cst_9 (constant S_ .f32 0x3F800000#32),
    StableHlo.unary main_cst_9 main_v40 (broadcastInDim S50000 ![] bcast_S_S50000 : (⟨S_, .f32⟩ : BufTy).Contents (Elt F) → (⟨S50000, .f32⟩ : BufTy).Contents (Elt F)),
    StableHlo.binary main_v39 main_v40 main_v41 (maximumf : (⟨S50000, .f32⟩ : BufTy).Contents (Elt F) → (⟨S50000, .f32⟩ : BufTy).Contents (Elt F) → (⟨S50000, .f32⟩ : BufTy).Contents (Elt F)),
    StableHlo.unary main_v41 main_v42 (broadcastInDim S50000x1 ![0] bcast_S50000_S50000x1_0 : (⟨S50000, .f32⟩ : BufTy).Contents (Elt F) → (⟨S50000x1, .f32⟩ : BufTy).Contents (Elt F)),
    StableHlo.unary main_v42 main_v43 (broadcastInDim S50000x128 ![0, 1] bcast_S50000x1_S50000x128_0_1 : (⟨S50000x1, .f32⟩ : BufTy).Contents (Elt F) → (⟨S50000x128, .f32⟩ : BufTy).Contents (Elt F)),
    StableHlo.binary main_v35 main_v43 main_v44 (Host.divf : (⟨S50000x128, .f32⟩ : BufTy).Contents (Elt F) → (⟨S50000x128, .f32⟩ : BufTy).Contents (Elt F) → (⟨S50000x128, .f32⟩ : BufTy).Contents (Elt F)),
    StableHlo.unary main_arg3 main_v45 (broadcastInDim S1x128 ![1] bcast_S128_S1x128_1 : (⟨S128, .f32⟩ : BufTy).Contents (Elt F) → (⟨S1x128, .f32⟩ : BufTy).Contents (Elt F)),
    StableHlo.unary main_v45 main_v46 (broadcastInDim S50000x128 ![0, 1] bcast_S1x128_S50000x128_0_1 : (⟨S1x128, .f32⟩ : BufTy).Contents (Elt F) → (⟨S50000x128, .f32⟩ : BufTy).Contents (Elt F)),
    StableHlo.binary main_v44 main_v46 main_v47 (addf : (⟨S50000x128, .f32⟩ : BufTy).Contents (Elt F) → (⟨S50000x128, .f32⟩ : BufTy).Contents (Elt F) → (⟨S50000x128, .f32⟩ : BufTy).Contents (Elt F)) ]

/-- Layer 2: ReLU, then the same. (32 operations) -/
abbrev opsL2 : List (HloOp τ sig (Elt F)) :=
  [ StableHlo.TRef.nullary main_call0.cst (constant S_ .f32 0x00000000#32),
    StableHlo.TRef.unary main_call0.cst main_call0.v0 (broadcastInDim S50000x128 ![] bcast_S_S50000x128),
    StableHlo.TRef.binary (.of main_v47 : StableHlo.TRef sig ⟨S50000x128, .f32⟩) main_call0.v0 main_call0.v1 maximumf,
    StableHlo.binary main_v48 main_arg4 main_v49 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.nullary main_c_10 (constantI S_ 32 0#32),
    StableHlo.unary main_c_10 main_v50 (broadcastInDim S800000 ![] bcast_S_S800000 : (⟨S_, .i32⟩ : BufTy).Contents (Elt F) → (⟨S800000, .i32⟩ : BufTy).Contents (Elt F)),
    StableHlo.binary main_v1 main_v50 main_v51 (cmpi .slt : (⟨S800000, .i32⟩ : BufTy).Contents (Elt F) → (⟨S800000, .i32⟩ : BufTy).Contents (Elt F) → (⟨S800000, .i1⟩ : BufTy).Contents (Elt F)),
    StableHlo.nullary main_c_11 (constantI S_ 32 50000#32),
    StableHlo.unary main_c_11 main_v52 (broadcastInDim S800000 ![] bcast_S_S800000 : (⟨S_, .i32⟩ : BufTy).Contents (Elt F) → (⟨S800000, .i32⟩ : BufTy).Contents (Elt F)),
    StableHlo.binary main_v1 main_v52 main_v53 (addi : (⟨S800000, .i32⟩ : BufTy).Contents (Elt F) → (⟨S800000, .i32⟩ : BufTy).Contents (Elt F) → (⟨S800000, .i32⟩ : BufTy).Contents (Elt F)),
    StableHlo.ternary main_v51 main_v53 main_v1 main_v54 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v54 main_v55 (broadcastInDim S800000x1 ![0] bcast_S800000_S800000x1_0 : (⟨S800000, .i32⟩ : BufTy).Contents (Elt F) → (⟨S800000x1, .i32⟩ : BufTy).Contents (Elt F)),
    StableHlo.binary main_v49 main_v55 main_v56 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    StableHlo.nullary main_cst_12 (constant S_ .f32 0x00000000#32),
    StableHlo.unary main_cst_12 main_v57 (broadcastInDim S50000x128 ![] bcast_S_S50000x128 : (⟨S_, .f32⟩ : BufTy).Contents (Elt F) → (⟨S50000x128, .f32⟩ : BufTy).Contents (Elt F)),
    StableHlo.unary main_v3 main_v58 (broadcastInDim S800000x1 ![0] bcast_S800000_S800000x1_0 : (⟨S800000, .i32⟩ : BufTy).Contents (Elt F) → (⟨S800000x1, .i32⟩ : BufTy).Contents (Elt F)),
    StableHlo.ternary main_v57 main_v58 main_v56 main_v59 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    StableHlo.nullary main_cst_13 (constant S_ .f32 0x3F800000#32),
    StableHlo.unary main_cst_13 main_v60 (broadcastInDim S800000 ![] bcast_S_S800000 : (⟨S_, .f32⟩ : BufTy).Contents (Elt F) → (⟨S800000, .f32⟩ : BufTy).Contents (Elt F)),
    StableHlo.nullary main_cst_14 (constant S_ .f32 0x00000000#32),
    StableHlo.unary main_cst_14 main_v61 (broadcastInDim S50000 ![] bcast_S_S50000 : (⟨S_, .f32⟩ : BufTy).Contents (Elt F) → (⟨S50000, .f32⟩ : BufTy).Contents (Elt F)),
    StableHlo.unary main_v3 main_v62 (broadcastInDim S800000x1 ![0] bcast_S800000_S800000x1_0 : (⟨S800000, .i32⟩ : BufTy).Contents (Elt F) → (⟨S800000x1, .i32⟩ : BufTy).Contents (Elt F)),
    StableHlo.ternary main_v61 main_v62 main_v60 main_v63 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    StableHlo.nullary main_cst_15 (constant S_ .f32 0x3F800000#32),
    StableHlo.unary main_cst_15 main_v64 (broadcastInDim S50000 ![] bcast_S_S50000 : (⟨S_, .f32⟩ : BufTy).Contents (Elt F) → (⟨S50000, .f32⟩ : BufTy).Contents (Elt F)),
    StableHlo.binary main_v63 main_v64 main_v65 (maximumf : (⟨S50000, .f32⟩ : BufTy).Contents (Elt F) → (⟨S50000, .f32⟩ : BufTy).Contents (Elt F) → (⟨S50000, .f32⟩ : BufTy).Contents (Elt F)),
    StableHlo.unary main_v65 main_v66 (broadcastInDim S50000x1 ![0] bcast_S50000_S50000x1_0 : (⟨S50000, .f32⟩ : BufTy).Contents (Elt F) → (⟨S50000x1, .f32⟩ : BufTy).Contents (Elt F)),
    StableHlo.unary main_v66 main_v67 (broadcastInDim S50000x128 ![0, 1] bcast_S50000x1_S50000x128_0_1 : (⟨S50000x1, .f32⟩ : BufTy).Contents (Elt F) → (⟨S50000x128, .f32⟩ : BufTy).Contents (Elt F)),
    StableHlo.binary main_v59 main_v67 main_v68 (Host.divf : (⟨S50000x128, .f32⟩ : BufTy).Contents (Elt F) → (⟨S50000x128, .f32⟩ : BufTy).Contents (Elt F) → (⟨S50000x128, .f32⟩ : BufTy).Contents (Elt F)),
    StableHlo.unary main_arg5 main_v69 (broadcastInDim S1x128 ![1] bcast_S128_S1x128_1 : (⟨S128, .f32⟩ : BufTy).Contents (Elt F) → (⟨S1x128, .f32⟩ : BufTy).Contents (Elt F)),
    StableHlo.unary main_v69 main_v70 (broadcastInDim S50000x128 ![0, 1] bcast_S1x128_S50000x128_0_1 : (⟨S1x128, .f32⟩ : BufTy).Contents (Elt F) → (⟨S50000x128, .f32⟩ : BufTy).Contents (Elt F)),
    StableHlo.binary main_v68 main_v70 main_v71 (addf : (⟨S50000x128, .f32⟩ : BufTy).Contents (Elt F) → (⟨S50000x128, .f32⟩ : BufTy).Contents (Elt F) → (⟨S50000x128, .f32⟩ : BufTy).Contents (Elt F)) ]

/-- Layer 3: ReLU, then the same. (32 operations) -/
abbrev opsL3 : List (HloOp τ sig (Elt F)) :=
  [ StableHlo.TRef.nullary main_call1.cst (constant S_ .f32 0x00000000#32),
    StableHlo.TRef.unary main_call1.cst main_call1.v0 (broadcastInDim S50000x128 ![] bcast_S_S50000x128),
    StableHlo.TRef.binary (.of main_v71 : StableHlo.TRef sig ⟨S50000x128, .f32⟩) main_call1.v0 main_call1.v1 maximumf,
    StableHlo.binary main_v72 main_arg6 main_v73 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.nullary main_c_16 (constantI S_ 32 0#32),
    StableHlo.unary main_c_16 main_v74 (broadcastInDim S800000 ![] bcast_S_S800000 : (⟨S_, .i32⟩ : BufTy).Contents (Elt F) → (⟨S800000, .i32⟩ : BufTy).Contents (Elt F)),
    StableHlo.binary main_v1 main_v74 main_v75 (cmpi .slt : (⟨S800000, .i32⟩ : BufTy).Contents (Elt F) → (⟨S800000, .i32⟩ : BufTy).Contents (Elt F) → (⟨S800000, .i1⟩ : BufTy).Contents (Elt F)),
    StableHlo.nullary main_c_17 (constantI S_ 32 50000#32),
    StableHlo.unary main_c_17 main_v76 (broadcastInDim S800000 ![] bcast_S_S800000 : (⟨S_, .i32⟩ : BufTy).Contents (Elt F) → (⟨S800000, .i32⟩ : BufTy).Contents (Elt F)),
    StableHlo.binary main_v1 main_v76 main_v77 (addi : (⟨S800000, .i32⟩ : BufTy).Contents (Elt F) → (⟨S800000, .i32⟩ : BufTy).Contents (Elt F) → (⟨S800000, .i32⟩ : BufTy).Contents (Elt F)),
    StableHlo.ternary main_v75 main_v77 main_v1 main_v78 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v78 main_v79 (broadcastInDim S800000x1 ![0] bcast_S800000_S800000x1_0 : (⟨S800000, .i32⟩ : BufTy).Contents (Elt F) → (⟨S800000x1, .i32⟩ : BufTy).Contents (Elt F)),
    StableHlo.binary main_v73 main_v79 main_v80 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    StableHlo.nullary main_cst_18 (constant S_ .f32 0x00000000#32),
    StableHlo.unary main_cst_18 main_v81 (broadcastInDim S50000x128 ![] bcast_S_S50000x128 : (⟨S_, .f32⟩ : BufTy).Contents (Elt F) → (⟨S50000x128, .f32⟩ : BufTy).Contents (Elt F)),
    StableHlo.unary main_v3 main_v82 (broadcastInDim S800000x1 ![0] bcast_S800000_S800000x1_0 : (⟨S800000, .i32⟩ : BufTy).Contents (Elt F) → (⟨S800000x1, .i32⟩ : BufTy).Contents (Elt F)),
    StableHlo.ternary main_v81 main_v82 main_v80 main_v83 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    StableHlo.nullary main_cst_19 (constant S_ .f32 0x3F800000#32),
    StableHlo.unary main_cst_19 main_v84 (broadcastInDim S800000 ![] bcast_S_S800000 : (⟨S_, .f32⟩ : BufTy).Contents (Elt F) → (⟨S800000, .f32⟩ : BufTy).Contents (Elt F)),
    StableHlo.nullary main_cst_20 (constant S_ .f32 0x00000000#32),
    StableHlo.unary main_cst_20 main_v85 (broadcastInDim S50000 ![] bcast_S_S50000 : (⟨S_, .f32⟩ : BufTy).Contents (Elt F) → (⟨S50000, .f32⟩ : BufTy).Contents (Elt F)),
    StableHlo.unary main_v3 main_v86 (broadcastInDim S800000x1 ![0] bcast_S800000_S800000x1_0 : (⟨S800000, .i32⟩ : BufTy).Contents (Elt F) → (⟨S800000x1, .i32⟩ : BufTy).Contents (Elt F)),
    StableHlo.ternary main_v85 main_v86 main_v84 main_v87 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    StableHlo.nullary main_cst_21 (constant S_ .f32 0x3F800000#32),
    StableHlo.unary main_cst_21 main_v88 (broadcastInDim S50000 ![] bcast_S_S50000 : (⟨S_, .f32⟩ : BufTy).Contents (Elt F) → (⟨S50000, .f32⟩ : BufTy).Contents (Elt F)),
    StableHlo.binary main_v87 main_v88 main_v89 (maximumf : (⟨S50000, .f32⟩ : BufTy).Contents (Elt F) → (⟨S50000, .f32⟩ : BufTy).Contents (Elt F) → (⟨S50000, .f32⟩ : BufTy).Contents (Elt F)),
    StableHlo.unary main_v89 main_v90 (broadcastInDim S50000x1 ![0] bcast_S50000_S50000x1_0 : (⟨S50000, .f32⟩ : BufTy).Contents (Elt F) → (⟨S50000x1, .f32⟩ : BufTy).Contents (Elt F)),
    StableHlo.unary main_v90 main_v91 (broadcastInDim S50000x128 ![0, 1] bcast_S50000x1_S50000x128_0_1 : (⟨S50000x1, .f32⟩ : BufTy).Contents (Elt F) → (⟨S50000x128, .f32⟩ : BufTy).Contents (Elt F)),
    StableHlo.binary main_v83 main_v91 main_v92 (Host.divf : (⟨S50000x128, .f32⟩ : BufTy).Contents (Elt F) → (⟨S50000x128, .f32⟩ : BufTy).Contents (Elt F) → (⟨S50000x128, .f32⟩ : BufTy).Contents (Elt F)),
    StableHlo.unary main_arg7 main_v93 (broadcastInDim S1x128 ![1] bcast_S128_S1x128_1 : (⟨S128, .f32⟩ : BufTy).Contents (Elt F) → (⟨S1x128, .f32⟩ : BufTy).Contents (Elt F)),
    StableHlo.unary main_v93 main_v94 (broadcastInDim S50000x128 ![0, 1] bcast_S1x128_S50000x128_0_1 : (⟨S1x128, .f32⟩ : BufTy).Contents (Elt F) → (⟨S50000x128, .f32⟩ : BufTy).Contents (Elt F)),
    StableHlo.binary main_v92 main_v94 main_v95 (addf : (⟨S50000x128, .f32⟩ : BufTy).Contents (Elt F) → (⟨S50000x128, .f32⟩ : BufTy).Contents (Elt F) → (⟨S50000x128, .f32⟩ : BufTy).Contents (Elt F)) ]

/-- Layer 4: ReLU, then the same to width 64. (32 operations) -/
abbrev opsL4 : List (HloOp τ sig (Elt F)) :=
  [ StableHlo.TRef.nullary main_call2.cst (constant S_ .f32 0x00000000#32),
    StableHlo.TRef.unary main_call2.cst main_call2.v0 (broadcastInDim S50000x128 ![] bcast_S_S50000x128),
    StableHlo.TRef.binary (.of main_v95 : StableHlo.TRef sig ⟨S50000x128, .f32⟩) main_call2.v0 main_call2.v1 maximumf,
    StableHlo.binary main_v96 main_arg8 main_v97 ((fun l r => Host.dotGeneral dot_S50000x128_S128x64_S50000x64_1_0_0_1_n_n none l r) : (⟨S50000x128, .f32⟩ : BufTy).Contents (Elt F) → (⟨S128x64, .f32⟩ : BufTy).Contents (Elt F) → (⟨S50000x64, .f32⟩ : BufTy).Contents (Elt F)),
    StableHlo.nullary main_c_22 (constantI S_ 32 0#32),
    StableHlo.unary main_c_22 main_v98 (broadcastInDim S800000 ![] bcast_S_S800000 : (⟨S_, .i32⟩ : BufTy).Contents (Elt F) → (⟨S800000, .i32⟩ : BufTy).Contents (Elt F)),
    StableHlo.binary main_v1 main_v98 main_v99 (cmpi .slt : (⟨S800000, .i32⟩ : BufTy).Contents (Elt F) → (⟨S800000, .i32⟩ : BufTy).Contents (Elt F) → (⟨S800000, .i1⟩ : BufTy).Contents (Elt F)),
    StableHlo.nullary main_c_23 (constantI S_ 32 50000#32),
    StableHlo.unary main_c_23 main_v100 (broadcastInDim S800000 ![] bcast_S_S800000 : (⟨S_, .i32⟩ : BufTy).Contents (Elt F) → (⟨S800000, .i32⟩ : BufTy).Contents (Elt F)),
    StableHlo.binary main_v1 main_v100 main_v101 (addi : (⟨S800000, .i32⟩ : BufTy).Contents (Elt F) → (⟨S800000, .i32⟩ : BufTy).Contents (Elt F) → (⟨S800000, .i32⟩ : BufTy).Contents (Elt F)),
    StableHlo.ternary main_v99 main_v101 main_v1 main_v102 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v102 main_v103 (broadcastInDim S800000x1 ![0] bcast_S800000_S800000x1_0 : (⟨S800000, .i32⟩ : BufTy).Contents (Elt F) → (⟨S800000x1, .i32⟩ : BufTy).Contents (Elt F)),
    StableHlo.binary main_v97 main_v103 main_v104 ((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)),
    StableHlo.nullary main_cst_24 (constant S_ .f32 0x00000000#32),
    StableHlo.unary main_cst_24 main_v105 (broadcastInDim S50000x64 ![] bcast_S_S50000x64 : (⟨S_, .f32⟩ : BufTy).Contents (Elt F) → (⟨S50000x64, .f32⟩ : BufTy).Contents (Elt F)),
    StableHlo.unary main_v3 main_v106 (broadcastInDim S800000x1 ![0] bcast_S800000_S800000x1_0 : (⟨S800000, .i32⟩ : BufTy).Contents (Elt F) → (⟨S800000x1, .i32⟩ : BufTy).Contents (Elt F)),
    StableHlo.ternary main_v105 main_v106 main_v104 main_v107 ((fun x i u => Host.scatterAdd scatter_S50000x64_S800000x1_S800000x64_1_0_0_1 x i u) : (⟨S50000x64, .f32⟩ : BufTy).Contents (Elt F) → (⟨S800000x1, .i32⟩ : BufTy).Contents (Elt F) → (⟨S800000x64, .f32⟩ : BufTy).Contents (Elt F) → (⟨S50000x64, .f32⟩ : BufTy).Contents (Elt F)),
    StableHlo.nullary main_cst_25 (constant S_ .f32 0x3F800000#32),
    StableHlo.unary main_cst_25 main_v108 (broadcastInDim S800000 ![] bcast_S_S800000 : (⟨S_, .f32⟩ : BufTy).Contents (Elt F) → (⟨S800000, .f32⟩ : BufTy).Contents (Elt F)),
    StableHlo.nullary main_cst_26 (constant S_ .f32 0x00000000#32),
    StableHlo.unary main_cst_26 main_v109 (broadcastInDim S50000 ![] bcast_S_S50000 : (⟨S_, .f32⟩ : BufTy).Contents (Elt F) → (⟨S50000, .f32⟩ : BufTy).Contents (Elt F)),
    StableHlo.unary main_v3 main_v110 (broadcastInDim S800000x1 ![0] bcast_S800000_S800000x1_0 : (⟨S800000, .i32⟩ : BufTy).Contents (Elt F) → (⟨S800000x1, .i32⟩ : BufTy).Contents (Elt F)),
    StableHlo.ternary main_v109 main_v110 main_v108 main_v111 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    StableHlo.nullary main_cst_27 (constant S_ .f32 0x3F800000#32),
    StableHlo.unary main_cst_27 main_v112 (broadcastInDim S50000 ![] bcast_S_S50000 : (⟨S_, .f32⟩ : BufTy).Contents (Elt F) → (⟨S50000, .f32⟩ : BufTy).Contents (Elt F)),
    StableHlo.binary main_v111 main_v112 main_v113 (maximumf : (⟨S50000, .f32⟩ : BufTy).Contents (Elt F) → (⟨S50000, .f32⟩ : BufTy).Contents (Elt F) → (⟨S50000, .f32⟩ : BufTy).Contents (Elt F)),
    StableHlo.unary main_v113 main_v114 (broadcastInDim S50000x1 ![0] bcast_S50000_S50000x1_0 : (⟨S50000, .f32⟩ : BufTy).Contents (Elt F) → (⟨S50000x1, .f32⟩ : BufTy).Contents (Elt F)),
    StableHlo.unary main_v114 main_v115 (broadcastInDim S50000x64 ![0, 1] bcast_S50000x1_S50000x64_0_1 : (⟨S50000x1, .f32⟩ : BufTy).Contents (Elt F) → (⟨S50000x64, .f32⟩ : BufTy).Contents (Elt F)),
    StableHlo.binary main_v107 main_v115 main_v116 (Host.divf : (⟨S50000x64, .f32⟩ : BufTy).Contents (Elt F) → (⟨S50000x64, .f32⟩ : BufTy).Contents (Elt F) → (⟨S50000x64, .f32⟩ : BufTy).Contents (Elt F)),
    StableHlo.unary main_arg9 main_v117 (broadcastInDim S1x64 ![1] bcast_S64_S1x64_1 : (⟨S64, .f32⟩ : BufTy).Contents (Elt F) → (⟨S1x64, .f32⟩ : BufTy).Contents (Elt F)),
    StableHlo.unary main_v117 main_v118 (broadcastInDim S50000x64 ![0, 1] bcast_S1x64_S50000x64_0_1 : (⟨S1x64, .f32⟩ : BufTy).Contents (Elt F) → (⟨S50000x64, .f32⟩ : BufTy).Contents (Elt F)),
    StableHlo.binary main_v116 main_v118 main_v119 (addf : (⟨S50000x64, .f32⟩ : BufTy).Contents (Elt F) → (⟨S50000x64, .f32⟩ : BufTy).Contents (Elt F) → (⟨S50000x64, .f32⟩ : BufTy).Contents (Elt F)) ]

/-- The edge decoder: feature rows, the two perceptrons, the logistic function of the scaled distance. (63 operations) -/
abbrev opsEdge : List (HloOp τ sig (Elt F)) :=
  [ StableHlo.nullary main_c_28 (constantI S_ 32 0#32),
    StableHlo.unary main_c_28 main_v120 (broadcastInDim S800000 ![] bcast_S_S800000 : (⟨S_, .i32⟩ : BufTy).Contents (Elt F) → (⟨S800000, .i32⟩ : BufTy).Contents (Elt F)),
    StableHlo.binary main_v1 main_v120 main_v121 (cmpi .slt : (⟨S800000, .i32⟩ : BufTy).Contents (Elt F) → (⟨S800000, .i32⟩ : BufTy).Contents (Elt F) → (⟨S800000, .i1⟩ : BufTy).Contents (Elt F)),
    StableHlo.nullary main_c_29 (constantI S_ 32 50000#32),
    StableHlo.unary main_c_29 main_v122 (broadcastInDim S800000 ![] bcast_S_S800000 : (⟨S_, .i32⟩ : BufTy).Contents (Elt F) → (⟨S800000, .i32⟩ : BufTy).Contents (Elt F)),
    StableHlo.binary main_v1 main_v122 main_v123 (addi : (⟨S800000, .i32⟩ : BufTy).Contents (Elt F) → (⟨S800000, .i32⟩ : BufTy).Contents (Elt F) → (⟨S800000, .i32⟩ : BufTy).Contents (Elt F)),
    StableHlo.ternary main_v121 main_v123 main_v1 main_v124 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v124 main_v125 (broadcastInDim S800000x1 ![0] bcast_S800000_S800000x1_0 : (⟨S800000, .i32⟩ : BufTy).Contents (Elt F) → (⟨S800000x1, .i32⟩ : BufTy).Contents (Elt F)),
    StableHlo.binary main_v119 main_v125 main_v126 ((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)),
    StableHlo.nullary main_c_30 (constantI S_ 32 0#32),
    StableHlo.unary main_c_30 main_v127 (broadcastInDim S800000 ![] bcast_S_S800000 : (⟨S_, .i32⟩ : BufTy).Contents (Elt F) → (⟨S800000, .i32⟩ : BufTy).Contents (Elt F)),
    StableHlo.binary main_v3 main_v127 main_v128 (cmpi .slt : (⟨S800000, .i32⟩ : BufTy).Contents (Elt F) → (⟨S800000, .i32⟩ : BufTy).Contents (Elt F) → (⟨S800000, .i1⟩ : BufTy).Contents (Elt F)),
    StableHlo.nullary main_c_31 (constantI S_ 32 50000#32),
    StableHlo.unary main_c_31 main_v129 (broadcastInDim S800000 ![] bcast_S_S800000 : (⟨S_, .i32⟩ : BufTy).Contents (Elt F) → (⟨S800000, .i32⟩ : BufTy).Contents (Elt F)),
    StableHlo.binary main_v3 main_v129 main_v130 (addi : (⟨S800000, .i32⟩ : BufTy).Contents (Elt F) → (⟨S800000, .i32⟩ : BufTy).Contents (Elt F) → (⟨S800000, .i32⟩ : BufTy).Contents (Elt F)),
    StableHlo.ternary main_v128 main_v130 main_v3 main_v131 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v131 main_v132 (broadcastInDim S800000x1 ![0] bcast_S800000_S800000x1_0 : (⟨S800000, .i32⟩ : BufTy).Contents (Elt F) → (⟨S800000x1, .i32⟩ : BufTy).Contents (Elt F)),
    StableHlo.binary main_v119 main_v132 main_v133 ((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)),
    StableHlo.binary main_v126 main_v133 main_v134 ((fun a b => concatenate S800000x128 1 [⟨S800000x64, a⟩, ⟨S800000x64, b⟩] concatenates_S800000x64_S800000x64_S800000x128_d1) : (⟨S800000x64, .f32⟩ : BufTy).Contents (Elt F) → (⟨S800000x64, .f32⟩ : BufTy).Contents (Elt F) → (⟨S800000x128, .f32⟩ : BufTy).Contents (Elt F)),
    StableHlo.binary main_v134 main_arg10 main_v135 ((fun l r => Host.dotGeneral dot_S800000x128_S128x128_S800000x128_1_0_0_1_n_n none l r) : (⟨S800000x128, .f32⟩ : BufTy).Contents (Elt F) → (⟨S128x128, .f32⟩ : BufTy).Contents (Elt F) → (⟨S800000x128, .f32⟩ : BufTy).Contents (Elt F)),
    StableHlo.unary main_arg11 main_v136 (broadcastInDim S1x128 ![1] bcast_S128_S1x128_1 : (⟨S128, .f32⟩ : BufTy).Contents (Elt F) → (⟨S1x128, .f32⟩ : BufTy).Contents (Elt F)),
    StableHlo.unary main_v136 main_v137 (broadcastInDim S800000x128 ![0, 1] bcast_S1x128_S800000x128_0_1 : (⟨S1x128, .f32⟩ : BufTy).Contents (Elt F) → (⟨S800000x128, .f32⟩ : BufTy).Contents (Elt F)),
    StableHlo.binary main_v135 main_v137 main_v138 (addf : (⟨S800000x128, .f32⟩ : BufTy).Contents (Elt F) → (⟨S800000x128, .f32⟩ : BufTy).Contents (Elt F) → (⟨S800000x128, .f32⟩ : BufTy).Contents (Elt F)),
    StableHlo.nullary main_cst_32 (constant S_ .f32 0x3E4CCCCD#32),
    StableHlo.TRef.nullary main_call3.cst (constant S_ .f32 0x00000000#32),
    StableHlo.TRef.unary main_call3.cst main_call3.v0 (broadcastInDim S800000x128 ![] bcast_S_S800000x128),
    StableHlo.TRef.binary (.of main_v138 : StableHlo.TRef sig ⟨S800000x128, .f32⟩) main_call3.v0 main_call3.v1 (cmpf .oge),
    StableHlo.TRef.unary (.of main_cst_32 : StableHlo.TRef sig ⟨S_, .f32⟩) main_call3.v2 id,
    StableHlo.TRef.unary main_call3.v2 main_call3.v3 (broadcastInDim S800000x128 ![] bcast_S_S800000x128),
    StableHlo.TRef.binary main_call3.v3 (.of main_v138 : StableHlo.TRef sig ⟨S800000x128, .f32⟩) main_call3.v4 mulf,
    StableHlo.TRef.ternary main_call3.v1 (.of main_v138 : StableHlo.TRef sig ⟨S800000x128, .f32⟩) main_call3.v4 main_call3.call0.v0 select,
    StableHlo.binary main_v139 main_arg12 main_v140 ((fun l r => Host.dotGeneral dot_S800000x128_S128x1_S800000x1_1_0_0_1_n_n none l r) : (⟨S800000x128, .f32⟩ : BufTy).Contents (Elt F) → (⟨S128x1, .f32⟩ : BufTy).Contents (Elt F) → (⟨S800000x1, .f32⟩ : BufTy).Contents (Elt F)),
    StableHlo.unary main_arg13 main_v141 (broadcastInDim S1x1 ![1] bcast_S1_S1x1_1 : (⟨S1, .f32⟩ : BufTy).Contents (Elt F) → (⟨S1x1, .f32⟩ : BufTy).Contents (Elt F)),
    StableHlo.unary main_v141 main_v142 (broadcastInDim S800000x1 ![0, 1] bcast_S1x1_S800000x1_0_1 : (⟨S1x1, .f32⟩ : BufTy).Contents (Elt F) → (⟨S800000x1, .f32⟩ : BufTy).Contents (Elt F)),
    StableHlo.binary main_v140 main_v142 main_v143 (addf : (⟨S800000x1, .f32⟩ : BufTy).Contents (Elt F) → (⟨S800000x1, .f32⟩ : BufTy).Contents (Elt F) → (⟨S800000x1, .f32⟩ : BufTy).Contents (Elt F)),
    StableHlo.reshape main_v143 main_v144 rfl shapeCasts_S800000x1_S800000,
    StableHlo.binary main_v134 main_arg14 main_v145 ((fun l r => Host.dotGeneral dot_S800000x128_S128x128_S800000x128_1_0_0_1_n_n none l r) : (⟨S800000x128, .f32⟩ : BufTy).Contents (Elt F) → (⟨S128x128, .f32⟩ : BufTy).Contents (Elt F) → (⟨S800000x128, .f32⟩ : BufTy).Contents (Elt F)),
    StableHlo.unary main_arg15 main_v146 (broadcastInDim S1x128 ![1] bcast_S128_S1x128_1 : (⟨S128, .f32⟩ : BufTy).Contents (Elt F) → (⟨S1x128, .f32⟩ : BufTy).Contents (Elt F)),
    StableHlo.unary main_v146 main_v147 (broadcastInDim S800000x128 ![0, 1] bcast_S1x128_S800000x128_0_1 : (⟨S1x128, .f32⟩ : BufTy).Contents (Elt F) → (⟨S800000x128, .f32⟩ : BufTy).Contents (Elt F)),
    StableHlo.binary main_v145 main_v147 main_v148 (addf : (⟨S800000x128, .f32⟩ : BufTy).Contents (Elt F) → (⟨S800000x128, .f32⟩ : BufTy).Contents (Elt F) → (⟨S800000x128, .f32⟩ : BufTy).Contents (Elt F)),
    StableHlo.nullary main_cst_33 (constant S_ .f32 0x3E4CCCCD#32),
    StableHlo.TRef.nullary main_call4.cst (constant S_ .f32 0x00000000#32),
    StableHlo.TRef.unary main_call4.cst main_call4.v0 (broadcastInDim S800000x128 ![] bcast_S_S800000x128),
    StableHlo.TRef.binary (.of main_v148 : StableHlo.TRef sig ⟨S800000x128, .f32⟩) main_call4.v0 main_call4.v1 (cmpf .oge),
    StableHlo.TRef.unary (.of main_cst_33 : StableHlo.TRef sig ⟨S_, .f32⟩) main_call4.v2 id,
    StableHlo.TRef.unary main_call4.v2 main_call4.v3 (broadcastInDim S800000x128 ![] bcast_S_S800000x128),
    StableHlo.TRef.binary main_call4.v3 (.of main_v148 : StableHlo.TRef sig ⟨S800000x128, .f32⟩) main_call4.v4 mulf,
    StableHlo.TRef.ternary main_call4.v1 (.of main_v148 : StableHlo.TRef sig ⟨S800000x128, .f32⟩) main_call4.v4 main_call4.call0.v0 select,
    StableHlo.binary main_v149 main_arg16 main_v150 ((fun l r => Host.dotGeneral dot_S800000x128_S128x1_S800000x1_1_0_0_1_n_n none l r) : (⟨S800000x128, .f32⟩ : BufTy).Contents (Elt F) → (⟨S128x1, .f32⟩ : BufTy).Contents (Elt F) → (⟨S800000x1, .f32⟩ : BufTy).Contents (Elt F)),
    StableHlo.unary main_arg17 main_v151 (broadcastInDim S1x1 ![1] bcast_S1_S1x1_1 : (⟨S1, .f32⟩ : BufTy).Contents (Elt F) → (⟨S1x1, .f32⟩ : BufTy).Contents (Elt F)),
    StableHlo.unary main_v151 main_v152 (broadcastInDim S800000x1 ![0, 1] bcast_S1x1_S800000x1_0_1 : (⟨S1x1, .f32⟩ : BufTy).Contents (Elt F) → (⟨S800000x1, .f32⟩ : BufTy).Contents (Elt F)),
    StableHlo.binary main_v150 main_v152 main_v153 (addf : (⟨S800000x1, .f32⟩ : BufTy).Contents (Elt F) → (⟨S800000x1, .f32⟩ : BufTy).Contents (Elt F) → (⟨S800000x1, .f32⟩ : BufTy).Contents (Elt F)),
    StableHlo.reshape main_v153 main_v154 rfl shapeCasts_S800000x1_S800000,
    StableHlo.binary main_v24 main_v144 main_v155 (subf : (⟨S800000, .f32⟩ : BufTy).Contents (Elt F) → (⟨S800000, .f32⟩ : BufTy).Contents (Elt F) → (⟨S800000, .f32⟩ : BufTy).Contents (Elt F)),
    StableHlo.binary main_v155 main_v154 main_v156 (Host.divf : (⟨S800000, .f32⟩ : BufTy).Contents (Elt F) → (⟨S800000, .f32⟩ : BufTy).Contents (Elt F) → (⟨S800000, .f32⟩ : BufTy).Contents (Elt F)),
    StableHlo.unary main_v156 main_v157 (Host.negf : (⟨S800000, .f32⟩ : BufTy).Contents (Elt F) → (⟨S800000, .f32⟩ : BufTy).Contents (Elt F)),
    StableHlo.unary main_v157 main_v158 (Host.exp : (⟨S800000, .f32⟩ : BufTy).Contents (Elt F) → (⟨S800000, .f32⟩ : BufTy).Contents (Elt F)),
    StableHlo.nullary main_cst_34 (constant S_ .f32 0x3F800000#32),
    StableHlo.unary main_cst_34 main_v159 (broadcastInDim S800000 ![] bcast_S_S800000 : (⟨S_, .f32⟩ : BufTy).Contents (Elt F) → (⟨S800000, .f32⟩ : BufTy).Contents (Elt F)),
    StableHlo.binary main_v159 main_v158 main_v160 (addf : (⟨S800000, .f32⟩ : BufTy).Contents (Elt F) → (⟨S800000, .f32⟩ : BufTy).Contents (Elt F) → (⟨S800000, .f32⟩ : BufTy).Contents (Elt F)),
    StableHlo.nullary main_cst_35 (constant S_ .f32 0x3F800000#32),
    StableHlo.unary main_cst_35 main_v161 (broadcastInDim S800000 ![] bcast_S_S800000 : (⟨S_, .f32⟩ : BufTy).Contents (Elt F) → (⟨S800000, .f32⟩ : BufTy).Contents (Elt F)),
    StableHlo.binary main_v161 main_v160 main_v162 (Host.divf : (⟨S800000, .f32⟩ : BufTy).Contents (Elt F) → (⟨S800000, .f32⟩ : BufTy).Contents (Elt F) → (⟨S800000, .f32⟩ : BufTy).Contents (Elt F)) ]

/-- The reference program's operations, in order (219). -/
abbrev ops : List (HloOp τ sig (Elt F)) := opsPre ++ (opsL1 ++ (opsL2 ++ (opsL3 ++ (opsL4 ++ opsEdge))))

end Cert.ReferenceIdeal.Ops

end
-- ==== Proof.RefRun.lean ====
/-
  The reference program's run: its @main is the sequence of its 219 host operations (an outlined function's operations
  at its call site), so every weakly fair execution terminates with every buffer at the operations' results folded over
  the launch contents.
-/
import proofs.«418594_j34866544509319_1_alg».proof.Proof.RefOps

noncomputable section

namespace Cert.ReferenceIdeal.HandRun

open Cert.ReferenceIdeal Cert.ReferenceIdeal.Gen Cert.ReferenceIdeal.Ops Idealize.ShloMosaic Idealize.ShloMosaic.TcCoe Idealize.SL.Sem Idealize.ShloMosaic.StableHlo

variable {F : FTy → Type} [FloatOps F]

/-! ## @main against the list

The printed @main runs four windows in order; a window is a chain of `hlo` steps, a call of an outlined function that
function's own chain over the call's buffer record. The list's stretches end where the first two windows end (60 and
124 operations); the third window ends inside the last stretch, so the last two windows are taken together. -/

/-- Statements 1 … 60 are the first two stretches: both sides unfold to one chain of the same 60 steps, the window's
    last step in tail position where the list's side follows it by the return (`k >>= pure` computes to `k`). -/
theorem part0_eq (c : Dev nD) : main_part0 (F := F) c = seq (opsPre (F := F) ++ opsL1) := rfl

/-- Statements 61 … 120 are the next two stretches, each opening with a call of @relu: the callee's three steps
    over the call's record, re-associated by computing the bind. -/
theorem part1_eq (c : Dev nD) : main_part1 (F := F) c = seq (opsL2 (F := F) ++ opsL3) := rfl

/-- Statements 121 … 202 are the last two stretches: a call of @relu, two of @leaky_relu (six steps and the one of the
    @_where it calls), the closing return the list's own. -/
theorem part23_eq (c : Dev nD) :
    (main_part2 (F := F) c >>= fun _ => main_part3 (F := F) c) = seq (opsL4 (F := F) ++ opsEdge) := rfl

/-- @main is its operations run in order. -/
theorem main_eq (c : Dev nD) : main (F := F) c = seq (ops (F := F)) := by
  show (main_part0 (F := F) c >>= fun _ => main_part1 (F := F) c >>= fun _ =>
    main_part2 (F := F) c >>= fun _ => main_part3 (F := F) c) = _
  rw [part23_eq, part1_eq, part0_eq, ← seq_append, ← seq_append]
  simp only [ops, List.append_assoc]

/-! ## What the run asks of the signature and of the operations -/

/-- The reference declares no scoped TensorCore buffer … -/
theorem scopedRefs_eq : (Finset.univ.filter fun b : Ref sig .tc => b.isScoped) = ∅ := by decide
/-- … and no scoped semaphore. -/
theorem scopedSems_eq : (Finset.univ.filter fun sm : SemLoc sig => sm.isScoped .tc) = ∅ := by decide

/-! Every operation touches TensorCore references only: stretch by stretch, the conjunction over the literal list, each
    conjunct its builder's own fact (a typed-reference builder unfolds to the untyped one). -/
theorem opsPre_sub : (opsPre (F := F)).Forall fun op => op.bufs ⊆ tcRefs τ sig := by
  simp only [List.forall_cons, List.Forall, nullary_bufs_sub, unary_bufs_sub, binary_bufs_sub, ternary_bufs_sub,
    reshape_bufs_sub, and_self]
theorem opsL1_sub : (opsL1 (F := F)).Forall fun op => op.bufs ⊆ tcRefs τ sig := by
  simp only [List.forall_cons, List.Forall, nullary_bufs_sub, unary_bufs_sub, binary_bufs_sub, ternary_bufs_sub,
    reshape_bufs_sub, and_self]
theorem opsL2_sub : (opsL2 (F := F)).Forall fun op => op.bufs ⊆ tcRefs τ sig := by
  simp only [List.forall_cons, List.Forall, nullary_bufs_sub, unary_bufs_sub, binary_bufs_sub, ternary_bufs_sub,
    reshape_bufs_sub, and_self]
theorem opsL3_sub : (opsL3 (F := F)).Forall fun op => op.bufs ⊆ tcRefs τ sig := by
  simp only [List.forall_cons, List.Forall, nullary_bufs_sub, unary_bufs_sub, binary_bufs_sub, ternary_bufs_sub,
    reshape_bufs_sub, and_self]
theorem opsL4_sub : (opsL4 (F := F)).Forall fun op => op.bufs ⊆ tcRefs τ sig := by
  simp only [List.forall_cons, List.Forall, nullary_bufs_sub, unary_bufs_sub, binary_bufs_sub, ternary_bufs_sub,
    reshape_bufs_sub, and_self]
theorem opsEdge_sub : (opsEdge (F := F)).Forall fun op => op.bufs ⊆ tcRefs τ sig := by
  simp only [List.forall_cons, List.Forall, nullary_bufs_sub, unary_bufs_sub, binary_bufs_sub, ternary_bufs_sub,
    reshape_bufs_sub, and_self]

/-- The same of the whole list: a conjunction over an appended list is the conjunction of its parts'. -/
theorem ops_sub : (ops (F := F)).Forall fun op => op.bufs ⊆ tcRefs τ sig :=
  List.forall_append.mpr ⟨opsPre_sub, List.forall_append.mpr ⟨opsL1_sub, List.forall_append.mpr ⟨opsL2_sub,
    List.forall_append.mpr ⟨opsL3_sub, List.forall_append.mpr ⟨opsL4_sub, opsEdge_sub⟩⟩⟩⟩⟩

/-! Every operation determines all it writes (none allocates a buffer): each builder's set of undetermined results is
    empty by definition. -/
theorem opsPre_fresh : (opsPre (F := F)).Forall fun op => op.fresh = ∅ := by
  simp only [List.Forall]; repeat' constructor
theorem opsL1_fresh : (opsL1 (F := F)).Forall fun op => op.fresh = ∅ := by
  simp only [List.Forall]; repeat' constructor
theorem opsL2_fresh : (opsL2 (F := F)).Forall fun op => op.fresh = ∅ := by
  simp only [List.Forall]; repeat' constructor
theorem opsL3_fresh : (opsL3 (F := F)).Forall fun op => op.fresh = ∅ := by
  simp only [List.Forall]; repeat' constructor
theorem opsL4_fresh : (opsL4 (F := F)).Forall fun op => op.fresh = ∅ := by
  simp only [List.Forall]; repeat' constructor
theorem opsEdge_fresh : (opsEdge (F := F)).Forall fun op => op.fresh = ∅ := by
  simp only [List.Forall]; repeat' constructor

theorem ops_fresh : (ops (F := F)).Forall fun op => op.fresh = ∅ :=
  List.forall_append.mpr ⟨opsPre_fresh, List.forall_append.mpr ⟨opsL1_fresh, List.forall_append.mpr ⟨opsL2_fresh,
    List.forall_append.mpr ⟨opsL3_fresh, List.forall_append.mpr ⟨opsL4_fresh, opsEdge_fresh⟩⟩⟩⟩⟩

/-! ## The run -/

/-- Every weakly fair execution of the reference terminates, nothing faulting, each buffer at the fold of the operations'
    results over its launch contents. -/
theorem run (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc), r.2.mem ((d.tc : Thread nD τ).loc b) = after (ops (F := F)) (launchContents m d) (Proc.devRef .tc b) :=
  run_seq scopedRefs_eq scopedSems_eq defs main (fun _ => ops) main_eq (fun _ => ops_sub) m ρ
    (fun _ => List.forall_iff_forall_mem.mp ops_fresh)

end Cert.ReferenceIdeal.HandRun

end
-- ==== Proof.RefValue.lean ====
/-
  The reference program's operations read back: stretch by stretch (the prelude, the four layers, the edge decoder) the
  operations' results are the shared stage functions of what the stretch reads, so the result buffer holds the whole
  network's function of the argument arrays; and no operation writes an argument.
-/
import proofs.«418594_j34866544509319_1_alg».proof.Proof.RefOps
import proofs.«418594_j34866544509319_1_alg».proof.Proof.Stage

noncomputable section

namespace Cert.ReferenceIdeal.HandValue

open Cert.ReferenceIdeal Cert.ReferenceIdeal.Gen Cert.ReferenceIdeal.Ops Idealize.ShloMosaic Idealize.ShloMosaic.TcCoe Idealize.SL.Sem Idealize.ShloMosaic.StableHlo

/-! ## Two stretches in a row, and what a stretch leaves alone -/

/-- Running a list of operations that ends in a second list is running the first, then the second. -/
theorem after_app : ∀ (a b : List (HloOp τ sig (Elt Ideal))) (V : Valuation τ sig (Elt Ideal)),
    after (a ++ b) V = after b (after a V)
  | [], _, _ => rfl
  | op :: a, b, V => by rw [List.cons_append, after_cons, after_cons, after_app a b]

/-- Every operation of a literal list writes one buffer, and that buffer is in the given list of references. -/
local macro "writes_sub" : tactic =>
  `(tactic| (simp only [List.Forall, nullary_writes, unary_writes, binary_writes, ternary_writes, reshape_writes,
               Finset.singleton_subset_iff, List.mem_toFinset]
             repeat' apply And.intro
             all_goals exact List.mem_map_of_mem (by decide)))

/-- The buffers the prelude writes, in order. -/
abbrev wPre : List (Ref sig .tc) :=
  [main_v0, main_v1, main_v2, main_v3, main_c, main_v4, main_v5, main_c_0, main_v6, main_v7, main_v8, main_v9,
   main_v10, main_c_1, main_v11, main_v12, main_c_2, main_v13, main_v14, main_v15, main_v16, main_v17, main_v18,
   main_cst, main_v19, main_v20, main_v21, main_cst_3, main_v22, main_v23, main_v24]
theorem opsPre_writes : (opsPre (F := Ideal)).Forall fun op => op.writes ⊆ (wPre.map (Proc.devRef (τ := τ) .tc)).toFinset := by
  writes_sub

/-- The buffers layer 1 writes, in order. -/
abbrev wL1 : List (Ref sig .tc) :=
  [main_v25, main_c_4, main_v26, main_v27, main_c_5, main_v28, main_v29, main_v30, main_v31, main_v32, main_cst_6,
   main_v33, main_v34, main_v35, main_cst_7, main_v36, main_cst_8, main_v37, main_v38, main_v39, main_cst_9,
   main_v40, main_v41, main_v42, main_v43, main_v44, main_v45, main_v46, main_v47]
theorem opsL1_writes : (opsL1 (F := Ideal)).Forall fun op => op.writes ⊆ (wL1.map (Proc.devRef (τ := τ) .tc)).toFinset := by
  writes_sub

/-- The buffers layer 2 writes, in order. -/
abbrev wL2 : List (Ref sig .tc) :=
  [main_call0_cst, main_call0_v0, main_v48, main_v49, main_c_10, main_v50, main_v51, main_c_11, main_v52, main_v53,
   main_v54, main_v55, main_v56, main_cst_12, main_v57, main_v58, main_v59, main_cst_13, main_v60, main_cst_14,
   main_v61, main_v62, main_v63, main_cst_15, main_v64, main_v65, main_v66, main_v67, main_v68, main_v69, main_v70,
   main_v71]
theorem opsL2_writes : (opsL2 (F := Ideal)).Forall fun op => op.writes ⊆ (wL2.map (Proc.devRef (τ := τ) .tc)).toFinset := by
  writes_sub

/-- The buffers layer 3 writes, in order. -/
abbrev wL3 : List (Ref sig .tc) :=
  [main_call1_cst, main_call1_v0, main_v72, main_v73, main_c_16, main_v74, main_v75, main_c_17, main_v76, main_v77,
   main_v78, main_v79, main_v80, main_cst_18, main_v81, main_v82, main_v83, main_cst_19, main_v84, main_cst_20,
   main_v85, main_v86, main_v87, main_cst_21, main_v88, main_v89, main_v90, main_v91, main_v92, main_v93, main_v94,
   main_v95]
theorem opsL3_writes : (opsL3 (F := Ideal)).Forall fun op => op.writes ⊆ (wL3.map (Proc.devRef (τ := τ) .tc)).toFinset := by
  writes_sub

/-- The buffers layer 4 writes, in order. -/
abbrev wL4 : List (Ref sig .tc) :=
  [main_call2_cst, main_call2_v0, main_v96, main_v97, main_c_22, main_v98, main_v99, main_c_23, main_v100, main_v101,
   main_v102, main_v103, main_v104, main_cst_24, main_v105, main_v106, main_v107, main_cst_25, main_v108,
   main_cst_26, main_v109, main_v110, main_v111, main_cst_27, main_v112, main_v113, main_v114, main_v115, main_v116,
   main_v117, main_v118, main_v119]
theorem opsL4_writes : (opsL4 (F := Ideal)).Forall fun op => op.writes ⊆ (wL4.map (Proc.devRef (τ := τ) .tc)).toFinset := by
  writes_sub

/-- The buffers the edge decoder writes, in order. -/
abbrev wEdge : List (Ref sig .tc) :=
  [main_c_28, main_v120, main_v121, main_c_29, main_v122, main_v123, main_v124, main_v125, main_v126, main_c_30,
   main_v127, main_v128, main_c_31, main_v129, main_v130, main_v131, main_v132, main_v133, main_v134, main_v135,
   main_v136, main_v137, main_v138, main_cst_32, main_call3_cst, main_call3_v0, main_call3_v1, main_call3_v2,
   main_call3_v3, main_call3_v4, main_v139, main_v140, main_v141, main_v142, main_v143, main_v144, main_v145,
   main_v146, main_v147, main_v148, main_cst_33, main_call4_cst, main_call4_v0, main_call4_v1, main_call4_v2,
   main_call4_v3, main_call4_v4, main_v149, main_v150, main_v151, main_v152, main_v153, main_v154, main_v155,
   main_v156, main_v157, main_v158, main_cst_34, main_v159, main_v160, main_cst_35, main_v161, main_v162]
theorem opsEdge_writes : (opsEdge (F := Ideal)).Forall fun op => op.writes ⊆ (wEdge.map (Proc.devRef (τ := τ) .tc)).toFinset := by
  writes_sub

variable (V : Valuation τ sig (Elt Ideal))

/-- A buffer outside a stretch's written list holds after the stretch what it held before. -/
theorem keepPre {r : Ref sig .tc} (h : r ∉ wPre) : after (opsPre (F := Ideal)) V (Proc.devRef .tc r) = V (Proc.devRef .tc r) :=
  after_of_writes_sub _ V opsPre_writes h
theorem keepL1 {r : Ref sig .tc} (h : r ∉ wL1) : after (opsL1 (F := Ideal)) V (Proc.devRef .tc r) = V (Proc.devRef .tc r) :=
  after_of_writes_sub _ V opsL1_writes h
theorem keepL2 {r : Ref sig .tc} (h : r ∉ wL2) : after (opsL2 (F := Ideal)) V (Proc.devRef .tc r) = V (Proc.devRef .tc r) :=
  after_of_writes_sub _ V opsL2_writes h
theorem keepL3 {r : Ref sig .tc} (h : r ∉ wL3) : after (opsL3 (F := Ideal)) V (Proc.devRef .tc r) = V (Proc.devRef .tc r) :=
  after_of_writes_sub _ V opsL3_writes h
theorem keepL4 {r : Ref sig .tc} (h : r ∉ wL4) : after (opsL4 (F := Ideal)) V (Proc.devRef .tc r) = V (Proc.devRef .tc r) :=
  after_of_writes_sub _ V opsL4_writes h
theorem keepEdge {r : Ref sig .tc} (h : r ∉ wEdge) : after (opsEdge (F := Ideal)) V (Proc.devRef .tc r) = V (Proc.devRef .tc r) :=
  after_of_writes_sub _ V opsEdge_writes h

/-! ## Each stretch's result, over any contents -/

/-- The prelude leaves the edges' source nodes in %1. -/
theorem pre_v1 : after (opsPre (F := Ideal)) V (Proc.devRef .tc main_v1) = Cert.Stage.src (V (Proc.devRef .tc main_arg1)) := by
  after_results_simp; rfl
/-- … and their destination nodes in %3. -/
theorem pre_v3 : after (opsPre (F := Ideal)) V (Proc.devRef .tc main_v3) = Cert.Stage.dst (V (Proc.devRef .tc main_arg1)) := by
  after_results_simp; rfl
/-- … and the negated norms of the difference rows in %24. -/
theorem pre_v24 : after (opsPre (F := Ideal)) V (Proc.devRef .tc main_v24)
    = Cert.Stage.dist (Cert.Stage.diff (V (Proc.devRef .tc main_arg0)) (Cert.Stage.src (V (Proc.devRef .tc main_arg1))) (Cert.Stage.dst (V (Proc.devRef .tc main_arg1)))) := by
  after_results_simp; rfl

/-- Layer 1 on the node table z, from the source and destination lists the prelude left. -/
theorem l1_v47 : after (opsL1 (F := Ideal)) V (Proc.devRef .tc main_v47)
    = Cert.Stage.layer128 (V (Proc.devRef .tc main_arg0)) (V (Proc.devRef .tc main_arg2)) (V (Proc.devRef .tc main_arg3)) (V (Proc.devRef .tc main_v1)) (V (Proc.devRef .tc main_v3)) := by
  after_results_simp; rfl
/-- Layer 2 on the ReLU of layer 1's table. -/
theorem l2_v71 : after (opsL2 (F := Ideal)) V (Proc.devRef .tc main_v71)
    = Cert.Stage.layer128 (Cert.Stage.relu (V (Proc.devRef .tc main_v47))) (V (Proc.devRef .tc main_arg4)) (V (Proc.devRef .tc main_arg5)) (V (Proc.devRef .tc main_v1)) (V (Proc.devRef .tc main_v3)) := by
  after_results_simp; rfl
/-- Layer 3 on the ReLU of layer 2's table. -/
theorem l3_v95 : after (opsL3 (F := Ideal)) V (Proc.devRef .tc main_v95)
    = Cert.Stage.layer128 (Cert.Stage.relu (V (Proc.devRef .tc main_v71))) (V (Proc.devRef .tc main_arg6)) (V (Proc.devRef .tc main_arg7)) (V (Proc.devRef .tc main_v1)) (V (Proc.devRef .tc main_v3)) := by
  after_results_simp; rfl
/-- Layer 4, to width 64, on the ReLU of layer 3's table. -/
theorem l4_v119 : after (opsL4 (F := Ideal)) V (Proc.devRef .tc main_v119)
    = Cert.Stage.layer64 (Cert.Stage.relu (V (Proc.devRef .tc main_v95))) (V (Proc.devRef .tc main_arg8)) (V (Proc.devRef .tc main_arg9)) (V (Proc.devRef .tc main_v1)) (V (Proc.devRef .tc main_v3)) := by
  after_results_simp; rfl

/-- The edge score from negated norms nd already at hand: the logistic function of (nd - r) / t, r and t the two
    perceptrons of the feature rows. -/
def edgeFrom (nd : Cert.Stage.FA S800000) (ft : Cert.Stage.FA S800000x128)
    (rW1 : Cert.Stage.FA S128x128) (rb1 : Cert.Stage.FA S128) (rW2 : Cert.Stage.FA S128x1) (rb2 : Cert.Stage.FA S1)
    (tW1 : Cert.Stage.FA S128x128) (tb1 : Cert.Stage.FA S128) (tW2 : Cert.Stage.FA S128x1) (tb2 : Cert.Stage.FA S1) : Cert.Stage.FA S800000 :=
  Cert.Stage.logistic (Host.divf (subf nd (Cert.Stage.mlp ft rW1 rb1 rW2 rb2)) (Cert.Stage.mlp ft tW1 tb1 tW2 tb2))

/-- The edge stage is that function of the difference rows' negated norms. -/
theorem edge_eq (ft df : Cert.Stage.FA S800000x128)
    (rW1 : Cert.Stage.FA S128x128) (rb1 : Cert.Stage.FA S128) (rW2 : Cert.Stage.FA S128x1) (rb2 : Cert.Stage.FA S1)
    (tW1 : Cert.Stage.FA S128x128) (tb1 : Cert.Stage.FA S128) (tW2 : Cert.Stage.FA S128x1) (tb2 : Cert.Stage.FA S1) :
    Cert.Stage.edge ft df rW1 rb1 rW2 rb2 tW1 tb1 tW2 tb2 = edgeFrom (Cert.Stage.dist df) ft rW1 rb1 rW2 rb2 tW1 tb1 tW2 tb2 := rfl

/-- The edge decoder reads the last node table (%119), the two index lists and the negated norms the prelude left in %24. -/
theorem edge_v162 : after (opsEdge (F := Ideal)) V (Proc.devRef .tc main_v162)
    = edgeFrom (V (Proc.devRef .tc main_v24)) (Cert.Stage.feat (V (Proc.devRef .tc main_v119)) (V (Proc.devRef .tc main_v1)) (V (Proc.devRef .tc main_v3)))
        (V (Proc.devRef .tc main_arg10)) (V (Proc.devRef .tc main_arg11)) (V (Proc.devRef .tc main_arg12)) (V (Proc.devRef .tc main_arg13))
        (V (Proc.devRef .tc main_arg14)) (V (Proc.devRef .tc main_arg15)) (V (Proc.devRef .tc main_arg16)) (V (Proc.devRef .tc main_arg17)) := by
  after_results_simp; rfl

/-! ## The contents between the stretches, from any starting contents W -/

-- the buffer contents the operations start from (any contents)
variable (W : Valuation τ sig (Elt Ideal))

/-- The contents after the prelude. -/
def c1 : Valuation τ sig (Elt Ideal) := after (opsPre (F := Ideal)) W
/-- … after layer 1. -/
def c2 : Valuation τ sig (Elt Ideal) := after (opsL1 (F := Ideal)) (c1 W)
/-- … after layer 2. -/
def c3 : Valuation τ sig (Elt Ideal) := after (opsL2 (F := Ideal)) (c2 W)
/-- … after layer 3. -/
def c4 : Valuation τ sig (Elt Ideal) := after (opsL3 (F := Ideal)) (c3 W)
/-- … after layer 4. -/
def c5 : Valuation τ sig (Elt Ideal) := after (opsL4 (F := Ideal)) (c4 W)

/-- A buffer none of the stretches so far writes still holds what W held. -/
theorem c1_keep {r : Ref sig .tc} (h : r ∉ wPre) : c1 W (Proc.devRef .tc r) = W (Proc.devRef .tc r) := keepPre W h
theorem c2_keep {r : Ref sig .tc} (h : r ∉ wPre ++ wL1) : c2 W (Proc.devRef .tc r) = W (Proc.devRef .tc r) :=
  (keepL1 (c1 W) fun m => h (List.mem_append_right _ m)).trans (c1_keep W fun m => h (List.mem_append_left _ m))
theorem c3_keep {r : Ref sig .tc} (h : r ∉ wPre ++ wL1 ++ wL2) : c3 W (Proc.devRef .tc r) = W (Proc.devRef .tc r) :=
  (keepL2 (c2 W) fun m => h (List.mem_append_right _ m)).trans (c2_keep W fun m => h (List.mem_append_left _ m))
theorem c4_keep {r : Ref sig .tc} (h : r ∉ wPre ++ wL1 ++ wL2 ++ wL3) : c4 W (Proc.devRef .tc r) = W (Proc.devRef .tc r) :=
  (keepL3 (c3 W) fun m => h (List.mem_append_right _ m)).trans (c3_keep W fun m => h (List.mem_append_left _ m))
theorem c5_keep {r : Ref sig .tc} (h : r ∉ wPre ++ wL1 ++ wL2 ++ wL3 ++ wL4) : c5 W (Proc.devRef .tc r) = W (Proc.devRef .tc r) :=
  (keepL4 (c4 W) fun m => h (List.mem_append_right _ m)).trans (c4_keep W fun m => h (List.mem_append_left _ m))

/-- The negated norms of the difference rows, as a function of the arguments. -/
def nd : Cert.Stage.FA S800000 := Cert.Stage.dist (Cert.Stage.diff (W (Proc.devRef .tc main_arg0)) (Cert.Stage.src (W (Proc.devRef .tc main_arg1))) (Cert.Stage.dst (W (Proc.devRef .tc main_arg1))))

/-- The prelude's three results that later stretches read (%1, %3, %24): no layer writes them, so they stand at every
    later point as the prelude left them. -/
theorem idx1 : c1 W (Proc.devRef .tc main_v1) = Cert.Stage.src (W (Proc.devRef .tc main_arg1)) ∧ c1 W (Proc.devRef .tc main_v3) = Cert.Stage.dst (W (Proc.devRef .tc main_arg1))
    ∧ c1 W (Proc.devRef .tc main_v24) = nd W :=
  ⟨pre_v1 W, pre_v3 W, pre_v24 W⟩
theorem idx2 : c2 W (Proc.devRef .tc main_v1) = Cert.Stage.src (W (Proc.devRef .tc main_arg1)) ∧ c2 W (Proc.devRef .tc main_v3) = Cert.Stage.dst (W (Proc.devRef .tc main_arg1))
    ∧ c2 W (Proc.devRef .tc main_v24) = nd W :=
  ⟨(keepL1 (c1 W) (by decide)).trans (idx1 W).1, (keepL1 (c1 W) (by decide)).trans (idx1 W).2.1, (keepL1 (c1 W) (by decide)).trans (idx1 W).2.2⟩
theorem idx3 : c3 W (Proc.devRef .tc main_v1) = Cert.Stage.src (W (Proc.devRef .tc main_arg1)) ∧ c3 W (Proc.devRef .tc main_v3) = Cert.Stage.dst (W (Proc.devRef .tc main_arg1))
    ∧ c3 W (Proc.devRef .tc main_v24) = nd W :=
  ⟨(keepL2 (c2 W) (by decide)).trans (idx2 W).1, (keepL2 (c2 W) (by decide)).trans (idx2 W).2.1, (keepL2 (c2 W) (by decide)).trans (idx2 W).2.2⟩
theorem idx4 : c4 W (Proc.devRef .tc main_v1) = Cert.Stage.src (W (Proc.devRef .tc main_arg1)) ∧ c4 W (Proc.devRef .tc main_v3) = Cert.Stage.dst (W (Proc.devRef .tc main_arg1))
    ∧ c4 W (Proc.devRef .tc main_v24) = nd W :=
  ⟨(keepL3 (c3 W) (by decide)).trans (idx3 W).1, (keepL3 (c3 W) (by decide)).trans (idx3 W).2.1, (keepL3 (c3 W) (by decide)).trans (idx3 W).2.2⟩
theorem idx5 : c5 W (Proc.devRef .tc main_v1) = Cert.Stage.src (W (Proc.devRef .tc main_arg1)) ∧ c5 W (Proc.devRef .tc main_v3) = Cert.Stage.dst (W (Proc.devRef .tc main_arg1))
    ∧ c5 W (Proc.devRef .tc main_v24) = nd W :=
  ⟨(keepL4 (c4 W) (by decide)).trans (idx4 W).1, (keepL4 (c4 W) (by decide)).trans (idx4 W).2.1, (keepL4 (c4 W) (by decide)).trans (idx4 W).2.2⟩

/-- The node tables after layers 1 … 4, as functions of the arguments. -/
def t1 : Cert.Stage.FA S50000x128 := Cert.Stage.layer128 (W (Proc.devRef .tc main_arg0)) (W (Proc.devRef .tc main_arg2)) (W (Proc.devRef .tc main_arg3)) (Cert.Stage.src (W (Proc.devRef .tc main_arg1))) (Cert.Stage.dst (W (Proc.devRef .tc main_arg1)))
def t2 : Cert.Stage.FA S50000x128 := Cert.Stage.layer128 (Cert.Stage.relu (t1 W)) (W (Proc.devRef .tc main_arg4)) (W (Proc.devRef .tc main_arg5)) (Cert.Stage.src (W (Proc.devRef .tc main_arg1))) (Cert.Stage.dst (W (Proc.devRef .tc main_arg1)))
def t3 : Cert.Stage.FA S50000x128 := Cert.Stage.layer128 (Cert.Stage.relu (t2 W)) (W (Proc.devRef .tc main_arg6)) (W (Proc.devRef .tc main_arg7)) (Cert.Stage.src (W (Proc.devRef .tc main_arg1))) (Cert.Stage.dst (W (Proc.devRef .tc main_arg1)))
def t4 : Cert.Stage.FA S50000x64 := Cert.Stage.layer64 (Cert.Stage.relu (t3 W)) (W (Proc.devRef .tc main_arg8)) (W (Proc.devRef .tc main_arg9)) (Cert.Stage.src (W (Proc.devRef .tc main_arg1))) (Cert.Stage.dst (W (Proc.devRef .tc main_arg1)))

/-- Each layer's result buffer holds its table: the stretch's lemma at the contents before it, whose reads are the
    previous table, two arguments no stretch writes, and the prelude's index lists. -/
theorem c2_v47 : c2 W (Proc.devRef .tc main_v47) = t1 W := by
  show after (opsL1 (F := Ideal)) (c1 W) _ = _
  rw [l1_v47, c1_keep W (r := main_arg0) (by decide), c1_keep W (r := main_arg2) (by decide), c1_keep W (r := main_arg3) (by decide),
    (idx1 W).1, (idx1 W).2.1]; rfl
theorem c3_v71 : c3 W (Proc.devRef .tc main_v71) = t2 W := by
  show after (opsL2 (F := Ideal)) (c2 W) _ = _
  rw [l2_v71, c2_v47, c2_keep W (r := main_arg4) (by decide), c2_keep W (r := main_arg5) (by decide), (idx2 W).1, (idx2 W).2.1]; rfl
theorem c4_v95 : c4 W (Proc.devRef .tc main_v95) = t3 W := by
  show after (opsL3 (F := Ideal)) (c3 W) _ = _
  rw [l3_v95, c3_v71, c3_keep W (r := main_arg6) (by decide), c3_keep W (r := main_arg7) (by decide), (idx3 W).1, (idx3 W).2.1]; rfl
theorem c5_v119 : c5 W (Proc.devRef .tc main_v119) = t4 W := by
  show after (opsL4 (F := Ideal)) (c4 W) _ = _
  rw [l4_v119, c4_v95, c4_keep W (r := main_arg8) (by decide), c4_keep W (r := main_arg9) (by decide), (idx4 W).1, (idx4 W).2.1]; rfl

/-- The network's function, spelt with the tables and the negated norms above. -/
theorem full_eq : Cert.Stage.full (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) (W (Proc.devRef .tc main_arg10)) (W (Proc.devRef .tc main_arg11)) (W (Proc.devRef .tc main_arg12)) (W (Proc.devRef .tc main_arg13)) (W (Proc.devRef .tc main_arg14)) (W (Proc.devRef .tc main_arg15)) (W (Proc.devRef .tc main_arg16)) (W (Proc.devRef .tc main_arg17))
    = edgeFrom (nd W) (Cert.Stage.feat (t4 W) (Cert.Stage.src (W (Proc.devRef .tc main_arg1))) (Cert.Stage.dst (W (Proc.devRef .tc main_arg1))))
        (W (Proc.devRef .tc main_arg10)) (W (Proc.devRef .tc main_arg11)) (W (Proc.devRef .tc main_arg12)) (W (Proc.devRef .tc main_arg13)) (W (Proc.devRef .tc main_arg14)) (W (Proc.devRef .tc main_arg15)) (W (Proc.devRef .tc main_arg16)) (W (Proc.devRef .tc main_arg17)) := rfl

/-! ## The whole list -/

/-- The result buffer after the operations is the network's function of the argument arrays. -/
theorem value : after (ops (F := Ideal)) W (Proc.devRef .tc main_v162) = Cert.Stage.full (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) (W (Proc.devRef .tc main_arg10)) (W (Proc.devRef .tc main_arg11)) (W (Proc.devRef .tc main_arg12)) (W (Proc.devRef .tc main_arg13)) (W (Proc.devRef .tc main_arg14)) (W (Proc.devRef .tc main_arg15)) (W (Proc.devRef .tc main_arg16)) (W (Proc.devRef .tc main_arg17)) := by
  rw [full_eq]
  show after (opsPre ++ (opsL1 ++ (opsL2 ++ (opsL3 ++ (opsL4 ++ opsEdge))))) W _ = _
  rw [after_app, after_app, after_app, after_app, after_app]
  show after (opsEdge (F := Ideal)) (c5 W) _ = _
  rw [edge_v162, c5_v119, (idx5 W).1, (idx5 W).2.1, (idx5 W).2.2,
    c5_keep W (r := main_arg10) (by decide), c5_keep W (r := main_arg11) (by decide), c5_keep W (r := main_arg12) (by decide),
    c5_keep W (r := main_arg13) (by decide), c5_keep W (r := main_arg14) (by decide), c5_keep W (r := main_arg15) (by decide),
    c5_keep W (r := main_arg16) (by decide), c5_keep W (r := main_arg17) (by decide)]

/-- A buffer no stretch writes holds after the whole list what it held before. -/
theorem keep_ops {r : Ref sig .tc} (h : r ∉ wPre ++ wL1 ++ wL2 ++ wL3 ++ wL4 ++ wEdge) :
    after (ops (F := Ideal)) W (Proc.devRef .tc r) = W (Proc.devRef .tc r) := by
  show after (opsPre ++ (opsL1 ++ (opsL2 ++ (opsL3 ++ (opsL4 ++ opsEdge))))) W _ = _
  rw [after_app, after_app, after_app, after_app, after_app]
  exact (keepEdge (c5 W) fun m => h (List.mem_append_right _ m)).trans (c5_keep W fun m => h (List.mem_append_left _ m))

theorem kept_arg0 : after (ops (F := Ideal)) W (Proc.devRef .tc main_arg0) = W (Proc.devRef .tc main_arg0) :=
  keep_ops W (by decide)
theorem kept_arg1 : after (ops (F := Ideal)) W (Proc.devRef .tc main_arg1) = W (Proc.devRef .tc main_arg1) :=
  keep_ops W (by decide)
theorem kept_arg2 : after (ops (F := Ideal)) W (Proc.devRef .tc main_arg2) = W (Proc.devRef .tc main_arg2) :=
  keep_ops W (by decide)
theorem kept_arg3 : after (ops (F := Ideal)) W (Proc.devRef .tc main_arg3) = W (Proc.devRef .tc main_arg3) :=
  keep_ops W (by decide)
theorem kept_arg4 : after (ops (F := Ideal)) W (Proc.devRef .tc main_arg4) = W (Proc.devRef .tc main_arg4) :=
  keep_ops W (by decide)
theorem kept_arg5 : after (ops (F := Ideal)) W (Proc.devRef .tc main_arg5) = W (Proc.devRef .tc main_arg5) :=
  keep_ops W (by decide)
theorem kept_arg6 : after (ops (F := Ideal)) W (Proc.devRef .tc main_arg6) = W (Proc.devRef .tc main_arg6) :=
  keep_ops W (by decide)
theorem kept_arg7 : after (ops (F := Ideal)) W (Proc.devRef .tc main_arg7) = W (Proc.devRef .tc main_arg7) :=
  keep_ops W (by decide)
theorem kept_arg8 : after (ops (F := Ideal)) W (Proc.devRef .tc main_arg8) = W (Proc.devRef .tc main_arg8) :=
  keep_ops W (by decide)
theorem kept_arg9 : after (ops (F := Ideal)) W (Proc.devRef .tc main_arg9) = W (Proc.devRef .tc main_arg9) :=
  keep_ops W (by decide)
theorem kept_arg10 : after (ops (F := Ideal)) W (Proc.devRef .tc main_arg10) = W (Proc.devRef .tc main_arg10) :=
  keep_ops W (by decide)
theorem kept_arg11 : after (ops (F := Ideal)) W (Proc.devRef .tc main_arg11) = W (Proc.devRef .tc main_arg11) :=
  keep_ops W (by decide)
theorem kept_arg12 : after (ops (F := Ideal)) W (Proc.devRef .tc main_arg12) = W (Proc.devRef .tc main_arg12) :=
  keep_ops W (by decide)
theorem kept_arg13 : after (ops (F := Ideal)) W (Proc.devRef .tc main_arg13) = W (Proc.devRef .tc main_arg13) :=
  keep_ops W (by decide)
theorem kept_arg14 : after (ops (F := Ideal)) W (Proc.devRef .tc main_arg14) = W (Proc.devRef .tc main_arg14) :=
  keep_ops W (by decide)
theorem kept_arg15 : after (ops (F := Ideal)) W (Proc.devRef .tc main_arg15) = W (Proc.devRef .tc main_arg15) :=
  keep_ops W (by decide)
theorem kept_arg16 : after (ops (F := Ideal)) W (Proc.devRef .tc main_arg16) = W (Proc.devRef .tc main_arg16) :=
  keep_ops W (by decide)
theorem kept_arg17 : after (ops (F := Ideal)) W (Proc.devRef .tc main_arg17) = W (Proc.devRef .tc main_arg17) :=
  keep_ops W (by decide)

end Cert.ReferenceIdeal.HandValue

end
-- ==== Proof.lean ====
/-
  The certificate of a graph-network edge scorer against its jnp reference, as extended reals.

  Both programs compute, for 800000 edges (src → dst) over 50000 nodes, four message-passing layers — a dense map, a
  gather of the mapped rows at the sources, a sum into the destinations, a division by the clamped indegree, a bias —
  and then score every edge with the logistic function of (-‖z(src) - z(dst) + ε‖ - r) / t, r and t two small
  perceptrons of the concatenated endpoint features. The kernel program runs the dense maps, the normalizations and
  the edge decoder as nine pipelined regions (the decoder on rows padded to a multiple of its block, the padding
  sliced off afterwards); the reference runs everything as host operations.

  The two differ in one place only: the kernel gathers the mapped rows with a bounds check that replaces an
  out-of-range row by a fill value, the reference's gather clamps the index. Under the precondition every source
  index lies in -50000 … 49999, so no row is replaced and the two gathers agree. Everything else is the same
  operation on both sides or an identity on extended reals (the bf16 roundings, a matmul into a zero accumulator
  against a dot_general, a block tiling against the whole array, "> 0" against "≥ 0" in the leaky ReLU, where both
  branches vanish at 0).

  The frames of the two kernel programs are the generated ones; the reference's frame and value come from its run as a
  list of host operations; the kernel's value from the fold of buffer contents through its segments.
-/
import proofs.«418594_j34866544509319_1_alg».proof.Defs
import proofs.«418594_j34866544509319_1_alg».proof.Proof.Gen.Kernel
import proofs.«418594_j34866544509319_1_alg».proof.Proof.Gen.Kernel.Frame
import proofs.«418594_j34866544509319_1_alg».proof.Proof.Gen.KernelIdeal
import proofs.«418594_j34866544509319_1_alg».proof.Proof.Gen.KernelIdeal.Frame
import proofs.«418594_j34866544509319_1_alg».proof.Proof.Gen.ReferenceIdeal
import proofs.«418594_j34866544509319_1_alg».proof.Proof.Gen.Pre_finite_inputs
import proofs.«418594_j34866544509319_1_alg».proof.Proof.KernelRun
import proofs.«418594_j34866544509319_1_alg».proof.Proof.KernelValue
import proofs.«418594_j34866544509319_1_alg».proof.Proof.PreDecode
import proofs.«418594_j34866544509319_1_alg».proof.Proof.RefRun
import proofs.«418594_j34866544509319_1_alg».proof.Proof.RefValue
import Idealize.ShloMosaic.Adequacy
import Idealize.ShloMosaic.Init

set_option maxRecDepth 16384

noncomputable section

namespace Cert.Proof

open Idealize.ShloMosaic Idealize.SL.Sem Idealize.ShloMosaic.StableHlo

theorem frame_k : Cert.frame_Kernel := fun m ρ _ => Cert.Kernel.Gen.frame m ρ
theorem frame_ki : Cert.frame_KernelIdeal := fun m ρ _ => Cert.KernelIdeal.Gen.frame m ρ

/-- The reference runs and writes no argument: its run as a list of host operations, each argument read back. -/
theorem frame_ri : Cert.frame_ReferenceIdeal := fun m ρ _ =>
  (θ_run Cert.ReferenceIdeal.defs _ _).mono (fun r h c =>
    ⟨(h c Cert.ReferenceIdeal.main_arg0).trans (Cert.ReferenceIdeal.HandValue.kept_arg0 (launchContents m c)),
     (h c Cert.ReferenceIdeal.main_arg1).trans (Cert.ReferenceIdeal.HandValue.kept_arg1 (launchContents m c)),
     (h c Cert.ReferenceIdeal.main_arg2).trans (Cert.ReferenceIdeal.HandValue.kept_arg2 (launchContents m c)),
     (h c Cert.ReferenceIdeal.main_arg3).trans (Cert.ReferenceIdeal.HandValue.kept_arg3 (launchContents m c)),
     (h c Cert.ReferenceIdeal.main_arg4).trans (Cert.ReferenceIdeal.HandValue.kept_arg4 (launchContents m c)),
     (h c Cert.ReferenceIdeal.main_arg5).trans (Cert.ReferenceIdeal.HandValue.kept_arg5 (launchContents m c)),
     (h c Cert.ReferenceIdeal.main_arg6).trans (Cert.ReferenceIdeal.HandValue.kept_arg6 (launchContents m c)),
     (h c Cert.ReferenceIdeal.main_arg7).trans (Cert.ReferenceIdeal.HandValue.kept_arg7 (launchContents m c)),
     (h c Cert.ReferenceIdeal.main_arg8).trans (Cert.ReferenceIdeal.HandValue.kept_arg8 (launchContents m c)),
     (h c Cert.ReferenceIdeal.main_arg9).trans (Cert.ReferenceIdeal.HandValue.kept_arg9 (launchContents m c)),
     (h c Cert.ReferenceIdeal.main_arg10).trans (Cert.ReferenceIdeal.HandValue.kept_arg10 (launchContents m c)),
     (h c Cert.ReferenceIdeal.main_arg11).trans (Cert.ReferenceIdeal.HandValue.kept_arg11 (launchContents m c)),
     (h c Cert.ReferenceIdeal.main_arg12).trans (Cert.ReferenceIdeal.HandValue.kept_arg12 (launchContents m c)),
     (h c Cert.ReferenceIdeal.main_arg13).trans (Cert.ReferenceIdeal.HandValue.kept_arg13 (launchContents m c)),
     (h c Cert.ReferenceIdeal.main_arg14).trans (Cert.ReferenceIdeal.HandValue.kept_arg14 (launchContents m c)),
     (h c Cert.ReferenceIdeal.main_arg15).trans (Cert.ReferenceIdeal.HandValue.kept_arg15 (launchContents m c)),
     (h c Cert.ReferenceIdeal.main_arg16).trans (Cert.ReferenceIdeal.HandValue.kept_arg16 (launchContents m c)),
     (h c Cert.ReferenceIdeal.main_arg17).trans (Cert.ReferenceIdeal.HandValue.kept_arg17 (launchContents m c))⟩)
    (Cert.ReferenceIdeal.HandRun.run (F := Ideal) m ρ)

/-- From memories agreeing on the arguments both programs end with the network's function of the arguments in their
    result buffers: the kernel's by the fold through its segments (every source index in range by the precondition),
    the reference's by its operations read back. -/
theorem algebraic : Cert.algebraic_KernelIdeal_ReferenceIdeal := by
  intro m ρ m' ρ' hpre hagree
  refine ⟨fun c => Cert.Stage.full (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)), ?_, ?_⟩
  · exact (θ_run Cert.KernelIdeal.defs _ _).mono
      (fun r h c => ⟨(h c).1.trans (Cert.KernelIdeal.Value.final m ρ c (Cert.PreDecode.src_inRange m hpre c)), (h c).2⟩)
      (Cert.KernelIdeal.ValueRun.run (F := Ideal) m ρ)
  · refine (θ_run Cert.ReferenceIdeal.defs _ _).mono (fun r h c => ⟨?_,
     (h c Cert.ReferenceIdeal.main_arg0).trans (Cert.ReferenceIdeal.HandValue.kept_arg0 (launchContents m' c)),
     (h c Cert.ReferenceIdeal.main_arg1).trans (Cert.ReferenceIdeal.HandValue.kept_arg1 (launchContents m' c)),
     (h c Cert.ReferenceIdeal.main_arg2).trans (Cert.ReferenceIdeal.HandValue.kept_arg2 (launchContents m' c)),
     (h c Cert.ReferenceIdeal.main_arg3).trans (Cert.ReferenceIdeal.HandValue.kept_arg3 (launchContents m' c)),
     (h c Cert.ReferenceIdeal.main_arg4).trans (Cert.ReferenceIdeal.HandValue.kept_arg4 (launchContents m' c)),
     (h c Cert.ReferenceIdeal.main_arg5).trans (Cert.ReferenceIdeal.HandValue.kept_arg5 (launchContents m' c)),
     (h c Cert.ReferenceIdeal.main_arg6).trans (Cert.ReferenceIdeal.HandValue.kept_arg6 (launchContents m' c)),
     (h c Cert.ReferenceIdeal.main_arg7).trans (Cert.ReferenceIdeal.HandValue.kept_arg7 (launchContents m' c)),
     (h c Cert.ReferenceIdeal.main_arg8).trans (Cert.ReferenceIdeal.HandValue.kept_arg8 (launchContents m' c)),
     (h c Cert.ReferenceIdeal.main_arg9).trans (Cert.ReferenceIdeal.HandValue.kept_arg9 (launchContents m' c)),
     (h c Cert.ReferenceIdeal.main_arg10).trans (Cert.ReferenceIdeal.HandValue.kept_arg10 (launchContents m' c)),
     (h c Cert.ReferenceIdeal.main_arg11).trans (Cert.ReferenceIdeal.HandValue.kept_arg11 (launchContents m' c)),
     (h c Cert.ReferenceIdeal.main_arg12).trans (Cert.ReferenceIdeal.HandValue.kept_arg12 (launchContents m' c)),
     (h c Cert.ReferenceIdeal.main_arg13).trans (Cert.ReferenceIdeal.HandValue.kept_arg13 (launchContents m' c)),
     (h c Cert.ReferenceIdeal.main_arg14).trans (Cert.ReferenceIdeal.HandValue.kept_arg14 (launchContents m' c)),
     (h c Cert.ReferenceIdeal.main_arg15).trans (Cert.ReferenceIdeal.HandValue.kept_arg15 (launchContents m' c)),
     (h c Cert.ReferenceIdeal.main_arg16).trans (Cert.ReferenceIdeal.HandValue.kept_arg16 (launchContents m' c)),
     (h c Cert.ReferenceIdeal.main_arg17).trans (Cert.ReferenceIdeal.HandValue.kept_arg17 (launchContents m' c))⟩)
      (Cert.ReferenceIdeal.HandRun.run (F := Ideal) m' ρ')
    refine (h c Cert.ReferenceIdeal.main_v162).trans ((Cert.ReferenceIdeal.HandValue.value (launchContents m' c)).trans ?_)
    obtain ⟨e0, e1, e2, e3, e4, e5, e6, e7, e8, e9, e10, e11, e12, e13, e14, e15, e16, e17⟩ := hagree c
    show Cert.Stage.full (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)) (m' ((c.tc : Thread Cert.ReferenceIdeal.nD Cert.ReferenceIdeal.τ).loc Cert.ReferenceIdeal.main_arg14)) (m' ((c.tc : Thread Cert.ReferenceIdeal.nD Cert.ReferenceIdeal.τ).loc Cert.ReferenceIdeal.main_arg15)) (m' ((c.tc : Thread Cert.ReferenceIdeal.nD Cert.ReferenceIdeal.τ).loc Cert.ReferenceIdeal.main_arg16)) (m' ((c.tc : Thread Cert.ReferenceIdeal.nD Cert.ReferenceIdeal.τ).loc Cert.ReferenceIdeal.main_arg17)) = _
    rw [e0, e1, e2, e3, e4, e5, e6, e7, e8, e9, e10, e11, e12, e13, e14, e15, e16, e17]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
